-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v173)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v173) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S2097152x1 : Shape := ⟨2, ![2097152, 1]⟩
abbrev S2048383x3 : Shape := ⟨2, ![2048383, 3]⟩
abbrev S2097152 : Shape := ⟨1, ![2097152]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S32768 : Shape := ⟨1, ![32768]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S2097152x1 : S_.BroadcastsInDim S2097152x1 (![] : Fin 0 → Fin S2097152x1.rank)
  reducesTo_S2097152x1_S_d0_1 : S2097152x1.ReducesTo [0, 1] S_
  bcast_S_S2048383x3 : S_.BroadcastsInDim S2048383x3 (![] : Fin 0 → Fin S2048383x3.rank)
  reducesTo_S2048383x3_S_d0_1 : S2048383x3.ReducesTo [0, 1] S_
  bcast_S_S2097152 : S_.BroadcastsInDim S2097152 (![] : Fin 0 → Fin S2097152.rank)
  reducesTo_S2097152_S_d0 : S2097152.ReducesTo [0] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S32768 : S_.BroadcastsInDim S32768 (![] : Fin 0 → Fin S32768.rank)
  reducesTo_S32768_S_d0 : S32768.ReducesTo [0] S_

variable [Facts]

def fn_part3 {F : FTy → Type} [FloatOps F] (main_arg11 : FVec F S1 .f32) (main_arg12 : IVec S32768 32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S32768 32 := broadcastInDim S32768 ![] bcast_S_S32768 main_c_22
  let main_v60 : IVec S32768 1 := cmpi .sge main_arg12 main_v59
  let main_c_23 : IVec S_ 1 := constantI S_ 1 1#1
  let main_v61 : IVec S_ 1 := (fun x v => Host.reduce IntOp.andi x v reducesTo_S32768_S_d0 h_S_) main_v60 main_c_23
  let main_v62 : IVec S_ 1 := andi main_v58 main_v61
  let main_c_24 : IVec S_ 32 := constantI S_ 32 2097152#32
  let main_v63 : IVec S32768 32 := broadcastInDim S32768 ![] bcast_S_S32768 main_c_24
  let main_v64 : IVec S32768 1 := cmpi .slt main_arg12 main_v63
  let main_c_25 : IVec S_ 1 := constantI S_ 1 1#1
  let main_v65 : IVec S_ 1 := (fun x v => Host.reduce IntOp.andi x v reducesTo_S32768_S_d0 h_S_) main_v64 main_c_25
  let main_v66 : IVec S_ 1 := andi main_v62 main_v65
  main_v66

def fn_part2 {F : FTy → Type} [FloatOps F] (main_arg7 : FVec F S128 .f32) (main_arg8 : FVec F S128x128 .f32) (main_arg9 : FVec F S128 .f32) (main_arg10 : FVec F S128x1 .f32) (main_arg11 : FVec F S1 .f32) (main_arg12 : IVec S32768 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_arg12 main_v48 main_v49 main_v50

def fn_part1 {F : FTy → Type} [FloatOps F] (main_arg4 : FVec F S3x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_arg12 : IVec S32768 32) (main_v13 : IVec S_ 1) (main_v16 : IVec S2097152 1) : IVec S_ 1 :=
  let main_c_5 : IVec S_ 1 := constantI S_ 1 1#1
  let main_v17 : IVec S_ 1 := (fun x v => Host.reduce IntOp.andi x v reducesTo_S2097152_S_d0 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2097152x3 .f32) (main_arg1 : FVec F S2097152x1 .f32) (main_arg2 : FVec F S2048383x3 .f32) (main_arg3 : FVec F S2097152 .f32) (main_arg4 : FVec F S3x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_arg12 : IVec S32768 32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S2097152x1 .f32 := Host.absf main_arg1
  let main_cst_0 : FVec F S_ .f32 := constant S_ .f32 0x7F800000#32
  let main_v5 : FVec F S2097152x1 .f32 := broadcastInDim S2097152x1 ![] bcast_S_S2097152x1 main_cst_0
  let main_v6 : IVec S2097152x1 1 := cmpf .olt main_v4 main_v5
  let main_c_1 : IVec S_ 1 := constantI S_ 1 1#1
  let main_v7 : IVec S_ 1 := (fun x v => Host.reduce IntOp.andi x v reducesTo_S2097152x1_S_d0_1 h_S_) main_v6 main_c_1
  let main_v8 : IVec S_ 1 := andi main_v3 main_v7
  let main_v9 : FVec F S2048383x3 .f32 := Host.absf main_arg2
  let main_cst_2 : FVec F S_ .f32 := constant S_ .f32 0x7F800000#32
  let main_v10 : FVec F S2048383x3 .f32 := broadcastInDim S2048383x3 ![] bcast_S_S2048383x3 main_cst_2
  let main_v11 : IVec S2048383x3 1 := cmpf .olt main_v9 main_v10
  let main_c_3 : IVec S_ 1 := constantI S_ 1 1#1
  let main_v12 : IVec S_ 1 := (fun x v => Host.reduce IntOp.andi x v reducesTo_S2048383x3_S_d0_1 h_S_) main_v11 main_c_3
  let main_v13 : IVec S_ 1 := andi main_v8 main_v12
  let main_v14 : FVec F S2097152 .f32 := Host.absf main_arg3
  let main_cst_4 : FVec F S_ .f32 := constant S_ .f32 0x7F800000#32
  let main_v15 : FVec F S2097152 .f32 := broadcastInDim S2097152 ![] bcast_S_S2097152 main_cst_4
  let main_v16 : IVec S2097152 1 := cmpf .olt main_v14 main_v15
  fn_part1 (F := F) main_arg4 main_arg5 main_arg6 main_arg7 main_arg8 main_arg9 main_arg10 main_arg11 main_arg12 main_v13 main_v16
-- ==== Kernel.lean ====
abbrev S2097152x3 : Shape := ⟨2, ![2097152, 3]⟩
abbrev S2097152x1 : Shape := ⟨2, ![2097152, 1]⟩
abbrev S2048383x3 : Shape := ⟨2, ![2048383, 3]⟩
abbrev S2097152 : Shape := ⟨1, ![2097152]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S32768 : Shape := ⟨1, ![32768]⟩
abbrev S8x3 : Shape := ⟨2, ![8, 3]⟩
abbrev S_ : Shape := ⟨0, ![]⟩
abbrev S32768x1 : Shape := ⟨2, ![32768, 1]⟩
abbrev S32768x3 : Shape := ⟨2, ![32768, 3]⟩
abbrev S32768x1x3 : Shape := ⟨3, ![32768, 1, 3]⟩
abbrev S1x8x3 : Shape := ⟨3, ![1, 8, 3]⟩
abbrev S32768x8x3 : Shape := ⟨3, ![32768, 8, 3]⟩
abbrev S32768x8x1 : Shape := ⟨3, ![32768, 8, 1]⟩
abbrev S32768x8 : Shape := ⟨2, ![32768, 8]⟩
abbrev S4145535x3 : Shape := ⟨2, ![4145535, 3]⟩
abbrev S262144 : Shape := ⟨1, ![262144]⟩
abbrev S557056 : Shape := ⟨1, ![557056]⟩
abbrev S557056x1 : Shape := ⟨2, ![557056, 1]⟩
abbrev S557056x3 : Shape := ⟨2, ![557056, 3]⟩
abbrev S3x557056 : Shape := ⟨2, ![3, 557056]⟩
abbrev S128x3 : Shape := ⟨2, ![128, 3]⟩
abbrev S1x128 : Shape := ⟨2, ![1, 128]⟩
abbrev S1x1 : Shape := ⟨2, ![1, 1]⟩
abbrev S1x557056 : Shape := ⟨2, ![1, 557056]⟩
abbrev S3x17408 : Shape := ⟨2, ![3, 17408]⟩
abbrev S1x17408 : Shape := ⟨2, ![1, 17408]⟩
abbrev S128x17408 : Shape := ⟨2, ![128, 17408]⟩

abbrev nBuf : Space → Nat
  | .hbm => 304
  | .vmem => 12
  | .smem => 0
  | _ => 0

abbrev hbmTy0_0 (i : Nat) : BufTy := match i % 128 with
  | 0 => ⟨S2097152x3, .f32⟩
  | 1 => ⟨S2097152x1, .f32⟩
  | 2 => ⟨S2048383x3, .f32⟩
  | 3 => ⟨S2097152, .f32⟩
  | 4 => ⟨S3x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S32768, .i32⟩
  | 13 => ⟨S8x3, .i32⟩
  | 14 => ⟨S8x3, .i32⟩
  | 15 => ⟨S_, .i32⟩
  | 16 => ⟨S_, .i32⟩
  | 17 => ⟨S32768, .i32⟩
  | 18 => ⟨S32768, .i32⟩
  | 19 => ⟨S32768, .i32⟩
  | 20 => ⟨S_, .i32⟩
  | 21 => ⟨S32768, .i32⟩
  | 22 => ⟨S32768, .i1⟩
  | 23 => ⟨S32768, .i32⟩
  | 24 => ⟨S32768, .i32⟩
  | 25 => ⟨S_, .i32⟩
  | 26 => ⟨S32768, .i32⟩
  | 27 => ⟨S32768, .i1⟩
  | 28 => ⟨S32768, .i1⟩
  | 29 => ⟨S_, .i32⟩
  | 30 => ⟨S32768, .i32⟩
  | 31 => ⟨S32768, .i32⟩
  | 32 => ⟨S32768, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S32768, .i32⟩
  | 40 => ⟨S32768, .i32⟩
  | 41 => ⟨S_, .i32⟩
  | 42 => ⟨S32768, .i32⟩
  | 43 => ⟨S32768, .i1⟩
  | 44 => ⟨S_, .i32⟩
  | 45 => ⟨S32768, .i32⟩
  | 46 => ⟨S32768, .i1⟩
  | 47 => ⟨S_, .i32⟩
  | 48 => ⟨S_, .i1⟩
  | 49 => ⟨S32768, .i1⟩
  | 50 => ⟨S32768, .i1⟩
  | 51 => ⟨S32768, .i1⟩
  | 52 => ⟨S32768, .i32⟩
  | 53 => ⟨S32768, .i32⟩
  | 54 => ⟨S32768, .i32⟩
  | 55 => ⟨S_, .i32⟩
  | 56 => ⟨S_, .i32⟩
  | 57 => ⟨S32768, .i32⟩
  | 58 => ⟨S32768, .i32⟩
  | 59 => ⟨S32768, .i32⟩
  | 60 => ⟨S_, .i32⟩
  | 61 => ⟨S32768, .i32⟩
  | 62 => ⟨S32768, .i1⟩
  | 63 => ⟨S32768, .i32⟩
  | 64 => ⟨S32768, .i32⟩
  | 65 => ⟨S_, .i32⟩
  | 66 => ⟨S32768, .i32⟩
  | 67 => ⟨S32768, .i1⟩
  | 68 => ⟨S32768, .i1⟩
  | 69 => ⟨S_, .i32⟩
  | 70 => ⟨S32768, .i32⟩
  | 71 => ⟨S32768, .i32⟩
  | 72 => ⟨S32768, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S32768, .i32⟩
  | 80 => ⟨S32768, .i32⟩
  | 81 => ⟨S_, .i32⟩
  | 82 => ⟨S32768, .i32⟩
  | 83 => ⟨S32768, .i1⟩
  | 84 => ⟨S_, .i32⟩
  | 85 => ⟨S32768, .i32⟩
  | 86 => ⟨S32768, .i1⟩
  | 87 => ⟨S_, .i32⟩
  | 88 => ⟨S_, .i1⟩
  | 89 => ⟨S32768, .i1⟩
  | 90 => ⟨S32768, .i1⟩
  | 91 => ⟨S32768, .i1⟩
  | 92 => ⟨S32768, .i32⟩
  | 93 => ⟨S32768, .i32⟩
  | 94 => ⟨S32768, .i32⟩
  | 95 => ⟨S_, .i32⟩
  | 96 => ⟨S32768, .i32⟩
  | 97 => ⟨S32768, .i1⟩
  | 98 => ⟨S_, .i32⟩
  | 99 => ⟨S32768, .i32⟩
  | 100 => ⟨S32768, .i1⟩
  | 101 => ⟨S32768, .i1⟩
  | 102 => ⟨S_, .i32⟩
  | 103 => ⟨S32768, .i32⟩
  | 104 => ⟨S32768, .i1⟩
  | 105 => ⟨S32768, .i1⟩
  | 106 => ⟨S_, .i32⟩
  | 107 => ⟨S32768, .i32⟩
  | 108 => ⟨S32768, .i1⟩
  | 109 => ⟨S32768, .i1⟩
  | 110 => ⟨S_, .i32⟩
  | 111 => ⟨S32768, .i32⟩
  | 112 => ⟨S32768, .i1⟩
  | 113 => ⟨S32768, .i1⟩
  | 114 => ⟨S_, .i32⟩
  | 115 => ⟨S32768, .i32⟩
  | 116 => ⟨S32768, .i1⟩
  | 117 => ⟨S32768, .i1⟩
  | 118 => ⟨S32768, .f32⟩
  | 119 => ⟨S32768x1, .i32⟩
  | 120 => ⟨S32768x1, .i32⟩
  | 121 => ⟨S32768x1, .i32⟩
  | 122 => ⟨S32768x3, .i32⟩
  | 123 => ⟨S32768x1x3, .i32⟩
  | 124 => ⟨S1x8x3, .i32⟩
  | 125 => ⟨S32768x8x3, .i32⟩
  | 126 => ⟨S32768x8x3, .i32⟩
  | 127 => ⟨S32768x8x3, .i32⟩
  | _ => ⟨S2097152x3, .f32⟩

abbrev hbmTy0_1 (i : Nat) : BufTy := match i % 128 with
  | 0 => ⟨S32768x1x3, .i32⟩
  | 1 => ⟨S1x8x3, .i32⟩
  | 2 => ⟨S32768x8x3, .i32⟩
  | 3 => ⟨S32768x8x3, .i32⟩
  | 4 => ⟨S32768x8x3, .i32⟩
  | 5 => ⟨S32768x8x1, .i32⟩
  | 6 => ⟨S32768x8, .i32⟩
  | 7 => ⟨S_, .i32⟩
  | 8 => ⟨S32768x8, .i32⟩
  | 9 => ⟨S32768x8, .i32⟩
  | 10 => ⟨S32768x8x1, .i32⟩
  | 11 => ⟨S32768x8, .i32⟩
  | 12 => ⟨S_, .i32⟩
  | 13 => ⟨S32768x8, .i32⟩
  | 14 => ⟨S32768x8, .i32⟩
  | 15 => ⟨S32768x8, .i32⟩
  | 16 => ⟨S32768x8x1, .i32⟩
  | 17 => ⟨S32768x8, .i32⟩
  | 18 => ⟨S32768x8, .i32⟩
  | 19 => ⟨S_, .i32⟩
  | 20 => ⟨S_, .i32⟩
  | 21 => ⟨S_, .i32⟩
  | 22 => ⟨S32768x8, .i32⟩
  | 23 => ⟨S32768x8, .i32⟩
  | 24 => ⟨S_, .i32⟩
  | 25 => ⟨S32768x8, .i32⟩
  | 26 => ⟨S32768x8, .i32⟩
  | 27 => ⟨S32768x8x1, .i32⟩
  | 28 => ⟨S32768x8, .i32⟩
  | 29 => ⟨S_, .i32⟩
  | 30 => ⟨S32768x8, .i32⟩
  | 31 => ⟨S32768x8, .i32⟩
  | 32 => ⟨S32768x8x1, .i32⟩
  | 33 => ⟨S32768x8, .i32⟩
  | 34 => ⟨S_, .i32⟩
  | 35 => ⟨S32768x8, .i32⟩
  | 36 => ⟨S32768x8, .i32⟩
  | 37 => ⟨S32768x8, .i32⟩
  | 38 => ⟨S32768x8x1, .i32⟩
  | 39 => ⟨S32768x8, .i32⟩
  | 40 => ⟨S32768x8, .i32⟩
  | 41 => ⟨S_, .i32⟩
  | 42 => ⟨S_, .i32⟩
  | 43 => ⟨S_, .i32⟩
  | 44 => ⟨S32768x8, .i32⟩
  | 45 => ⟨S32768x8, .i32⟩
  | 46 => ⟨S_, .i32⟩
  | 47 => ⟨S32768x8, .i32⟩
  | 48 => ⟨S32768x8, .i32⟩
  | 49 => ⟨S4145535x3, .f32⟩
  | 50 => ⟨S262144, .i32⟩
  | 51 => ⟨S_, .i32⟩
  | 52 => ⟨S262144, .i32⟩
  | 53 => ⟨S262144, .i32⟩
  | 54 => ⟨S262144, .i32⟩
  | 55 => ⟨S557056, .i32⟩
  | 56 => ⟨S_, .i32⟩
  | 57 => ⟨S557056, .i32⟩
  | 58 => ⟨S557056, .i1⟩
  | 59 => ⟨S_, .i32⟩
  | 60 => ⟨S557056, .i32⟩
  | 61 => ⟨S557056, .i32⟩
  | 62 => ⟨S557056, .i32⟩
  | 63 => ⟨S557056x1, .i32⟩
  | 64 => ⟨S557056x3, .f32⟩
  | 65 => ⟨S3x557056, .f32⟩
  | 66 => ⟨S128x3, .f32⟩
  | 67 => ⟨S128x128, .f32⟩
  | 68 => ⟨S128x128, .f32⟩
  | 69 => ⟨S1x128, .f32⟩
  | 70 => ⟨S128x1, .f32⟩
  | 71 => ⟨S128x1, .f32⟩
  | 72 => ⟨S128x1, .f32⟩
  | 73 => ⟨S1x1, .f32⟩
  | 74 => ⟨S1x557056, .f32⟩
  | 75 => ⟨S557056, .f32⟩
  | 76 => ⟨S32768, .f32⟩
  | 77 => ⟨S262144, .f32⟩
  | 78 => ⟨S32768x8, .f32⟩
  | 79 => ⟨S262144, .f32⟩
  | 80 => ⟨S32768x8, .f32⟩
  | 81 => ⟨S_, .i32⟩
  | 82 => ⟨S32768, .i32⟩
  | 83 => ⟨S32768, .i1⟩
  | 84 => ⟨S_, .i32⟩
  | 85 => ⟨S32768, .i32⟩
  | 86 => ⟨S32768, .i32⟩
  | 87 => ⟨S32768, .i32⟩
  | 88 => ⟨S32768x1, .i32⟩
  | 89 => ⟨S32768x1, .f32⟩
  | 90 => ⟨S32768, .f32⟩
  | 91 => ⟨S32768, .f32⟩
  | 92 => ⟨S32768, .f32⟩
  | 93 => ⟨S_, .f32⟩
  | 94 => ⟨S_, .f32⟩
  | 95 => ⟨S_, .f32⟩
  | 96 => ⟨S_, .f32⟩
  | 97 => ⟨S32768x1, .f32⟩
  | 98 => ⟨S32768, .f32⟩
  | 99 => ⟨S32768x1, .f32⟩
  | 100 => ⟨S32768, .f32⟩
  | 101 => ⟨S32768x1, .f32⟩
  | 102 => ⟨S32768, .f32⟩
  | 103 => ⟨S32768x1, .f32⟩
  | 104 => ⟨S32768, .f32⟩
  | 105 => ⟨S32768, .f32⟩
  | 106 => ⟨S32768, .f32⟩
  | 107 => ⟨S32768, .f32⟩
  | 108 => ⟨S32768, .f32⟩
  | 109 => ⟨S32768, .f32⟩
  | 110 => ⟨S32768, .f32⟩
  | 111 => ⟨S32768, .f32⟩
  | 112 => ⟨S_, .f32⟩
  | 113 => ⟨S32768, .f32⟩
  | 114 => ⟨S32768, .f32⟩
  | 115 => ⟨S32768, .f32⟩
  | 116 => ⟨S32768x1, .f32⟩
  | 117 => ⟨S32768, .f32⟩
  | 118 => ⟨S32768x1, .f32⟩
  | 119 => ⟨S32768, .f32⟩
  | 120 => ⟨S32768x1, .f32⟩
  | 121 => ⟨S32768, .f32⟩
  | 122 => ⟨S32768x1, .f32⟩
  | 123 => ⟨S32768, .f32⟩
  | 124 => ⟨S32768, .f32⟩
  | 125 => ⟨S32768, .f32⟩
  | 126 => ⟨S32768, .f32⟩
  | 127 => ⟨S32768, .f32⟩
  | _ => ⟨S2097152x3, .f32⟩

abbrev hbmTy0_2 (i : Nat) : BufTy := match i % 128 with
  | 0 => ⟨S32768, .f32⟩
  | 1 => ⟨S32768, .f32⟩
  | 2 => ⟨S32768, .f32⟩
  | 3 => ⟨S_, .f32⟩
  | 4 => ⟨S32768, .f32⟩
  | 5 => ⟨S32768, .f32⟩
  | 6 => ⟨S32768, .f32⟩
  | 7 => ⟨S32768, .f32⟩
  | 8 => ⟨S32768x1, .f32⟩
  | 9 => ⟨S32768, .f32⟩
  | 10 => ⟨S32768x1, .f32⟩
  | 11 => ⟨S32768, .f32⟩
  | 12 => ⟨S32768x1, .f32⟩
  | 13 => ⟨S32768, .f32⟩
  | 14 => ⟨S32768x1, .f32⟩
  | 15 => ⟨S32768, .f32⟩
  | 16 => ⟨S32768, .f32⟩
  | 17 => ⟨S32768, .f32⟩
  | 18 => ⟨S32768, .f32⟩
  | 19 => ⟨S32768, .f32⟩
  | 20 => ⟨S32768, .f32⟩
  | 21 => ⟨S32768, .f32⟩
  | 22 => ⟨S32768, .f32⟩
  | 23 => ⟨S_, .f32⟩
  | 24 => ⟨S32768, .f32⟩
  | 25 => ⟨S32768, .f32⟩
  | 26 => ⟨S32768, .f32⟩
  | 27 => ⟨S32768, .f32⟩
  | 28 => ⟨S_, .i32⟩
  | 29 => ⟨S32768, .i32⟩
  | 30 => ⟨S32768, .i1⟩
  | 31 => ⟨S_, .i32⟩
  | 32 => ⟨S32768, .i32⟩
  | 33 => ⟨S32768, .i32⟩
  | 34 => ⟨S32768, .i32⟩
  | 35 => ⟨S32768x1, .i32⟩
  | 36 => ⟨S32768, .f32⟩
  | 37 => ⟨S32768, .f32⟩
  | 38 => ⟨S32768, .f32⟩
  | 39 => ⟨S32768, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | _ => ⟨S2097152x3, .f32⟩

abbrev hbmTy (i : Nat) : BufTy := match i / 128 with
  | 0 => hbmTy0_0 i
  | 1 => hbmTy0_1 i
  | 2 => hbmTy0_2 i
  | _ => ⟨S2097152x3, .f32⟩

abbrev bufTy : (tb : Table) → Fin (tcTables nBuf tb) → BufTy
  | .hbm, ⟨i, _⟩ => hbmTy i
  | .local _ .vmem, ⟨0, _⟩ => ⟨S3x17408, .f32⟩
  | .local _ .vmem, ⟨1, _⟩ => ⟨S3x17408, .f32⟩
  | .local _ .vmem, ⟨2, _⟩ => ⟨S128x3, .f32⟩
  | .local _ .vmem, ⟨3, _⟩ => ⟨S128x1, .f32⟩
  | .local _ .vmem, ⟨4, _⟩ => ⟨S128x128, .f32⟩
  | .local _ .vmem, ⟨5, _⟩ => ⟨S128x1, .f32⟩
  | .local _ .vmem, ⟨6, _⟩ => ⟨S128x128, .f32⟩
  | .local _ .vmem, ⟨7, _⟩ => ⟨S128x1, .f32⟩
  | .local _ .vmem, ⟨8, _⟩ => ⟨S1x128, .f32⟩
  | .local _ .vmem, ⟨9, _⟩ => ⟨S1x1, .f32⟩
  | .local _ .vmem, ⟨10, _⟩ => ⟨S1x17408, .f32⟩
  | .local _ .vmem, ⟨11, _⟩ => ⟨S1x17408, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v0 : Ref sig .tc := ⟨.hbm, 32, rfl⟩
abbrev main_c_2 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v1 : Ref sig .tc := ⟨.hbm, 54, rfl⟩
abbrev main_c_3 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v2 : Ref sig .tc := ⟨.hbm, 72, rfl⟩
abbrev main_c_4 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v3 : Ref sig .tc := ⟨.hbm, 94, rfl⟩
abbrev main_c_5 : Ref sig .tc := ⟨.hbm, 95, rfl⟩
abbrev main_v4 : Ref sig .tc := ⟨.hbm, 96, rfl⟩
abbrev main_v5 : Ref sig .tc := ⟨.hbm, 97, rfl⟩
abbrev main_c_6 : Ref sig .tc := ⟨.hbm, 98, rfl⟩
abbrev main_v6 : Ref sig .tc := ⟨.hbm, 99, rfl⟩
abbrev main_v7 : Ref sig .tc := ⟨.hbm, 100, rfl⟩
abbrev main_v8 : Ref sig .tc := ⟨.hbm, 101, rfl⟩
abbrev main_c_7 : Ref sig .tc := ⟨.hbm, 102, rfl⟩
abbrev main_v9 : Ref sig .tc := ⟨.hbm, 103, rfl⟩
abbrev main_v10 : Ref sig .tc := ⟨.hbm, 104, rfl⟩
abbrev main_v11 : Ref sig .tc := ⟨.hbm, 105, rfl⟩
abbrev main_c_8 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_c_9 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_c_10 : Ref sig .tc := ⟨.hbm, 114, rfl⟩
abbrev main_v18 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_c_11 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_c_12 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_c_13 : Ref sig .tc := ⟨.hbm, 147, rfl⟩
abbrev main_c_14 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v48 : Ref sig .tc := ⟨.hbm, 154, rfl⟩
abbrev main_v49 : Ref sig .tc := ⟨.hbm, 155, rfl⟩
abbrev main_v50 : Ref sig .tc := ⟨.hbm, 156, rfl⟩
abbrev main_c_15 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_v54 : Ref sig .tc := ⟨.hbm, 161, rfl⟩
abbrev main_c_16 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_c_17 : Ref sig .tc := ⟨.hbm, 169, rfl⟩
abbrev main_c_18 : Ref sig .tc := ⟨.hbm, 170, rfl⟩
abbrev main_call5_v0 : Ref sig .tc := ⟨.hbm, 171, rfl⟩
abbrev main_call5_v1 : Ref sig .tc := ⟨.hbm, 172, rfl⟩
abbrev main_call5_v2 : Ref sig .tc := ⟨.hbm, 173, rfl⟩
abbrev main_call5_v3 : Ref sig .tc := ⟨.hbm, 174, rfl⟩
abbrev main_call5_v4 : Ref sig .tc := ⟨.hbm, 175, rfl⟩
abbrev main_v61 : Ref sig .tc := ⟨.hbm, 176, rfl⟩
abbrev main_v62 : Ref sig .tc := ⟨.hbm, 177, rfl⟩
abbrev main_v63 : Ref sig .tc := ⟨.hbm, 178, rfl⟩
abbrev main_c_19 : Ref sig .tc := ⟨.hbm, 179, rfl⟩
abbrev main_v64 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_c_20 : Ref sig .tc := ⟨.hbm, 184, rfl⟩
abbrev main_v68 : Ref sig .tc := ⟨.hbm, 185, rfl⟩
abbrev main_v69 : Ref sig .tc := ⟨.hbm, 186, rfl⟩
abbrev main_c_21 : Ref sig .tc := ⟨.hbm, 187, rfl⟩
abbrev main_v70 : Ref sig .tc := ⟨.hbm, 188, rfl⟩
abbrev main_v71 : Ref sig .tc := ⟨.hbm, 189, rfl⟩
abbrev main_v72 : Ref sig .tc := ⟨.hbm, 190, rfl⟩
abbrev main_v73 : Ref sig .tc := ⟨.hbm, 191, rfl⟩
abbrev main_v74 : Ref sig .tc := ⟨.hbm, 192, rfl⟩
abbrev main_v75 : Ref sig .tc := ⟨.hbm, 193, rfl⟩
abbrev main_v76 : Ref sig .tc := ⟨.hbm, 194, rfl⟩
abbrev main_v77 : Ref sig .tc := ⟨.hbm, 195, rfl⟩
abbrev main_v78 : Ref sig .tc := ⟨.hbm, 196, rfl⟩
abbrev main_v79 : Ref sig .tc := ⟨.hbm, 197, rfl⟩
abbrev main_v80 : Ref sig .tc := ⟨.hbm, 198, rfl⟩
abbrev main_v81 : Ref sig .tc := ⟨.hbm, 199, rfl⟩
abbrev main_v82 : Ref sig .tc := ⟨.hbm, 200, rfl⟩
abbrev main_v83 : Ref sig .tc := ⟨.hbm, 201, rfl⟩
abbrev main_v84 : Ref sig .tc := ⟨.hbm, 202, rfl⟩
abbrev main_v85 : Ref sig .tc := ⟨.hbm, 203, rfl⟩
abbrev main_v86 : Ref sig .tc := ⟨.hbm, 204, rfl⟩
abbrev main_v87 : Ref sig .tc := ⟨.hbm, 205, rfl⟩
abbrev main_v88 : Ref sig .tc := ⟨.hbm, 206, rfl⟩
abbrev main_v89 : Ref sig .tc := ⟨.hbm, 207, rfl⟩
abbrev main_v90 : Ref sig .tc := ⟨.hbm, 208, rfl⟩
abbrev main_c_22 : Ref sig .tc := ⟨.hbm, 209, rfl⟩
abbrev main_v91 : Ref sig .tc := ⟨.hbm, 210, rfl⟩
abbrev main_v92 : Ref sig .tc := ⟨.hbm, 211, rfl⟩
abbrev main_c_23 : Ref sig .tc := ⟨.hbm, 212, rfl⟩
abbrev main_v93 : Ref sig .tc := ⟨.hbm, 213, rfl⟩
abbrev main_v94 : Ref sig .tc := ⟨.hbm, 214, rfl⟩
abbrev main_v95 : Ref sig .tc := ⟨.hbm, 215, rfl⟩
abbrev main_v96 : Ref sig .tc := ⟨.hbm, 216, rfl⟩
abbrev main_v97 : Ref sig .tc := ⟨.hbm, 217, rfl⟩
abbrev main_v98 : Ref sig .tc := ⟨.hbm, 218, rfl⟩
abbrev main_v99 : Ref sig .tc := ⟨.hbm, 219, rfl⟩
abbrev main_v100 : Ref sig .tc := ⟨.hbm, 220, rfl⟩
abbrev main_cst : Ref sig .tc := ⟨.hbm, 221, rfl⟩
abbrev main_v101 : Ref sig .tc := ⟨.hbm, 222, rfl⟩
abbrev main_cst_24 : Ref sig .tc := ⟨.hbm, 223, rfl⟩
abbrev main_v102 : Ref sig .tc := ⟨.hbm, 224, rfl⟩
abbrev main_v103 : Ref sig .tc := ⟨.hbm, 225, rfl⟩
abbrev main_v104 : Ref sig .tc := ⟨.hbm, 226, rfl⟩
abbrev main_v105 : Ref sig .tc := ⟨.hbm, 227, rfl⟩
abbrev main_v106 : Ref sig .tc := ⟨.hbm, 228, rfl⟩
abbrev main_v107 : Ref sig .tc := ⟨.hbm, 229, rfl⟩
abbrev main_v108 : Ref sig .tc := ⟨.hbm, 230, rfl⟩
abbrev main_v109 : Ref sig .tc := ⟨.hbm, 231, rfl⟩
abbrev main_v110 : Ref sig .tc := ⟨.hbm, 232, rfl⟩
abbrev main_v111 : Ref sig .tc := ⟨.hbm, 233, rfl⟩
abbrev main_v112 : Ref sig .tc := ⟨.hbm, 234, rfl⟩
abbrev main_v113 : Ref sig .tc := ⟨.hbm, 235, rfl⟩
abbrev main_v114 : Ref sig .tc := ⟨.hbm, 236, rfl⟩
abbrev main_v115 : Ref sig .tc := ⟨.hbm, 237, rfl⟩
abbrev main_v116 : Ref sig .tc := ⟨.hbm, 238, rfl⟩
abbrev main_v117 : Ref sig .tc := ⟨.hbm, 239, rfl⟩
abbrev main_cst_25 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_v125 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_v129 : Ref sig .tc := ⟨.hbm, 252, rfl⟩
abbrev main_v130 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_cst_26 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_v151 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_cst_27 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_c_28 : Ref sig .tc := ⟨.hbm, 284, rfl⟩
abbrev main_v159 : Ref sig .tc := ⟨.hbm, 285, rfl⟩
abbrev main_v160 : Ref sig .tc := ⟨.hbm, 286, rfl⟩
abbrev main_c_29 : Ref sig .tc := ⟨.hbm, 287, rfl⟩
abbrev main_v161 : Ref sig .tc := ⟨.hbm, 288, rfl⟩
abbrev main_v162 : Ref sig .tc := ⟨.hbm, 289, rfl⟩
abbrev main_v163 : Ref sig .tc := ⟨.hbm, 290, rfl⟩
abbrev main_v164 : Ref sig .tc := ⟨.hbm, 291, rfl⟩
abbrev main_v165 : Ref sig .tc := ⟨.hbm, 292, rfl⟩
abbrev main_v166 : Ref sig .tc := ⟨.hbm, 293, rfl⟩
abbrev main_v167 : Ref sig .tc := ⟨.hbm, 294, rfl⟩
abbrev main_v168 : Ref sig .tc := ⟨.hbm, 295, rfl⟩
abbrev main_cst_30 : Ref sig .tc := ⟨.hbm, 296, rfl⟩
abbrev main_v169 : Ref sig .tc := ⟨.hbm, 297, rfl⟩
abbrev main_cst_31 : Ref sig .tc := ⟨.hbm, 298, rfl⟩
abbrev main_v170 : Ref sig .tc := ⟨.hbm, 299, rfl⟩
abbrev main_cst_32 : Ref sig .tc := ⟨.hbm, 300, rfl⟩
abbrev main_v171 : Ref sig .tc := ⟨.hbm, 301, rfl⟩
abbrev main_v172 : Ref sig .tc := ⟨.hbm, 302, rfl⟩
abbrev main_v173 : Ref sig .tc := ⟨.hbm, 303, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x17408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x17408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  concatenates_S32768x1_S32768x1_S32768x1_S32768x3_d1 : Shape.Concatenates [S32768x1, S32768x1, S32768x1] S32768x3 1
  bcast_S32768x3_S32768x1x3_0_2 : S32768x3.BroadcastsInDim S32768x1x3 (![0, 2] : Fin 2 → Fin S32768x1x3.rank)
  bcast_S8x3_S1x8x3_1_2 : S8x3.BroadcastsInDim S1x8x3 (![1, 2] : Fin 2 → Fin S1x8x3.rank)
  bcast_S32768x1x3_S32768x8x3_0_1_2 : S32768x1x3.BroadcastsInDim S32768x8x3 (![0, 1, 2] : Fin 3 → Fin S32768x8x3.rank)
  bcast_S1x8x3_S32768x8x3_0_1_2 : S1x8x3.BroadcastsInDim S32768x8x3 (![0, 1, 2] : Fin 3 → Fin S32768x8x3.rank)
  slices_S32768x8x3_S32768x8x1_0_0_0 : S32768x8x3.Slices ![0, 0, 0] S32768x8x1
  shapeCasts_S32768x8x1_S32768x8 : S32768x8x1.ShapeCasts S32768x8
  bcast_S_S32768x8 : S_.BroadcastsInDim S32768x8 (![] : Fin 0 → Fin S32768x8.rank)
  slices_S32768x8x3_S32768x8x1_0_0_1 : S32768x8x3.Slices ![0, 0, 1] S32768x8x1
  slices_S32768x8x3_S32768x8x1_0_0_2 : S32768x8x3.Slices ![0, 0, 2] S32768x8x1
  concatenates_S2097152x3_S2048383x3_S4145535x3_d0 : Shape.Concatenates [S2097152x3, S2048383x3] S4145535x3 0
  shapeCasts_S32768x8_S262144 : S32768x8.ShapeCasts S262144
  bcast_S_S262144 : S_.BroadcastsInDim S262144 (![] : Fin 0 → Fin S262144.rank)
  concatenates_S32768_S262144_S262144_S557056_d0 : Shape.Concatenates [S32768, S262144, S262144] S557056 0
  bcast_S_S557056 : S_.BroadcastsInDim S557056 (![] : Fin 0 → Fin S557056.rank)
  bcast_S557056_S557056x1_0 : S557056.BroadcastsInDim S557056x1 (![0] : Fin 1 → Fin S557056x1.rank)
  transposes_S557056x3_S3x557056_1_0 : S557056x3.Transposes [1, 0] S3x557056
  transposes_S3x128_S128x3_1_0 : S3x128.Transposes [1, 0] S128x3
  transposes_S128x128_S128x128_1_0 : S128x128.Transposes [1, 0] S128x128
  transposes_S128x1_S1x128_1_0 : S128x1.Transposes [1, 0] S1x128
  shapeCasts_S128_S128x1 : S128.ShapeCasts S128x1
  shapeCasts_S1_S1x1 : S1.ShapeCasts S1x1
  inb_S3x17408_S3x17408_0_0 : ∀ a, (![0, 0] : Fin 2 → Nat) a + S3x17408.size a ≤ S3x17408.size a
  h_S3x17408 : 0 < S3x17408.numel
  shapeCasts_S3x17408_S3x17408 : S3x17408.ShapeCasts S3x17408
  bitsLt_bf16_f32 : FTy.bits .bf16 < FTy.bits .f32
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x17408 : S128x1.Broadcasts S128x17408
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x17408 : S1x1.Broadcasts S1x17408
  inb_S1x17408_S1x17408_0_0 : ∀ a, (![0, 0] : Fin 2 → Nat) a + S1x17408.size a ≤ S1x17408.size a
  h_S1x17408 : 0 < S1x17408.numel
  shapeCasts_S1x557056_S557056 : S1x557056.ShapeCasts S557056
  slices_S557056_S32768_0 : S557056.Slices ![0] S32768
  slices_S557056_S262144_32768 : S557056.Slices ![32768] S262144
  shapeCasts_S262144_S32768x8 : S262144.ShapeCasts S32768x8
  slices_S557056_S262144_294912 : S557056.Slices ![294912] S262144
  shapeCasts_S32768x1_S32768 : S32768x1.ShapeCasts S32768
  reducesTo_S32768_S_d0 : S32768.ReducesTo [0] S_
  h_S_ : 0 < S_.numel
  slices_S32768x8_S32768x1_0_7 : S32768x8.Slices ![0, 7] S32768x1
  slices_S32768x8_S32768x1_0_0 : S32768x8.Slices ![0, 0] S32768x1
  slices_S32768x8_S32768x1_0_3 : S32768x8.Slices ![0, 3] S32768x1
  slices_S32768x8_S32768x1_0_4 : S32768x8.Slices ![0, 4] S32768x1
  slices_S32768x8_S32768x1_0_5 : S32768x8.Slices ![0, 5] S32768x1
  slices_S32768x8_S32768x1_0_2 : S32768x8.Slices ![0, 2] S32768x1
  gather_S4145535x3_S557056x1_S557056x3_1_0_n_n_0_1_13_wf : GatherDims.WF S4145535x3 S557056x1 S557056x3 [1] [0] [] [0] [] 1 ![1, 3]
  dot_S128x3_S3x17408_S128x17408_1_0_0_1_n_n_wf : DotDims.WF S128x3 S3x17408 S128x17408 [1] [0] [0] [1] [] []
  dot_S128x128_S128x17408_S128x17408_1_0_0_1_n_n_wf : DotDims.WF S128x128 S128x17408 S128x17408 [1] [0] [0] [1] [] []
  dot_S1x128_S128x17408_S1x17408_1_0_0_1_n_n_wf : DotDims.WF S1x128 S128x17408 S1x17408 [1] [0] [0] [1] [] []
  gather_S2097152x1_S32768x1_S32768x1_1_0_n_n_0_1_11_wf : GatherDims.WF S2097152x1 S32768x1 S32768x1 [1] [0] [] [0] [] 1 ![1, 1]
  gather_S2097152_S32768x1_S32768_n_0_n_n_0_1_1_wf : GatherDims.WF S2097152 S32768x1 S32768 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x17408.size a ≤ S3x557056.size a
  hwx0_0 : ∀ i : grid0.Coords, EltTy.bits .f32 = 32 ∨ (Rect.block (s := S3x557056) S3x17408.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .f32 = 32 ∨ (Rect.block (s := S128x3) S128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x17408.size a ≤ S1x557056.size a
  hwx0_9 : ∀ i : grid0.Coords, EltTy.bits .f32 = 32 ∨ (Rect.block (s := S1x557056) S1x17408.size (cc0_transform_9 i) (hinb0_9 i)).WholeWords (EltTy.packing .f32)

variable [Facts₀]

def gather_S4145535x3_S557056x1_S557056x3_1_0_n_n_0_1_13 : GatherDims S4145535x3 S557056x1 S557056x3 where
  offsetDims := [1]
  collapsedSliceDims := [0]
  operandBatchingDims := []
  startIndicesBatchingDims := []
  startIndexMap := [0]
  indexVectorDim := 1
  sliceSizes := ![1, 3]
  wf := gather_S4145535x3_S557056x1_S557056x3_1_0_n_n_0_1_13_wf
def dot_S128x3_S3x17408_S128x17408_1_0_0_1_n_n : DotDims S128x3 S3x17408 S128x17408 where
  lhsContracting := [1]
  rhsContracting := [0]
  lhsNonContracting := [0]
  rhsNonContracting := [1]
  lhsBatch := []
  rhsBatch := []
  wf := dot_S128x3_S3x17408_S128x17408_1_0_0_1_n_n_wf
def dot_S128x128_S128x17408_S128x17408_1_0_0_1_n_n : DotDims S128x128 S128x17408 S128x17408 where
  lhsContracting := [1]
  rhsContracting := [0]
  lhsNonContracting := [0]
  rhsNonContracting := [1]
  lhsBatch := []
  rhsBatch := []
  wf := dot_S128x128_S128x17408_S128x17408_1_0_0_1_n_n_wf
def dot_S1x128_S128x17408_S1x17408_1_0_0_1_n_n : DotDims S1x128 S128x17408 S1x17408 where
  lhsContracting := [1]
  rhsContracting := [0]
  lhsNonContracting := [0]
  rhsNonContracting := [1]
  lhsBatch := []
  rhsBatch := []
  wf := dot_S1x128_S128x17408_S1x17408_1_0_0_1_n_n_wf
def gather_S2097152x1_S32768x1_S32768x1_1_0_n_n_0_1_11 : GatherDims S2097152x1 S32768x1 S32768x1 where
  offsetDims := [1]
  collapsedSliceDims := [0]
  operandBatchingDims := []
  startIndicesBatchingDims := []
  startIndexMap := [0]
  indexVectorDim := 1
  sliceSizes := ![1, 1]
  wf := gather_S2097152x1_S32768x1_S32768x1_1_0_n_n_0_1_11_wf
def gather_S2097152_S32768x1_S32768_n_0_n_n_0_1_1 : GatherDims S2097152 S32768x1 S32768 where
  offsetDims := []
  collapsedSliceDims := [0]
  operandBatchingDims := []
  startIndicesBatchingDims := []
  startIndexMap := [0]
  indexVectorDim := 1
  sliceSizes := ![1]
  wf := gather_S2097152_S32768x1_S32768_n_0_n_n_0_1_1_wf

abbrev win0_0 : Pipeline.Window sig grid0 :=
  Pipeline.Window.ofSpec (Memref.whole main_v75) S3x17408.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v76) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v80) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v77) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v81) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v78) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v82) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v79) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v83) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v84) S1x17408.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S2097152x1 : Shape := ⟨2, ![2097152, 1]⟩
abbrev S2048383x3 : Shape := ⟨2, ![2048383, 3]⟩
abbrev S2097152 : Shape := ⟨1, ![2097152]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S32768 : Shape := ⟨1, ![32768]⟩
abbrev S8x3 : Shape := ⟨2, ![8, 3]⟩
abbrev S_ : Shape := ⟨0, ![]⟩
abbrev S32768x1 : Shape := ⟨2, ![32768, 1]⟩
abbrev S32768x3 : Shape := ⟨2, ![32768, 3]⟩
abbrev S32768x128 : Shape := ⟨2, ![32768, 128]⟩
abbrev S1x128 : Shape := ⟨2, ![1, 128]⟩
abbrev S1x1 : Shape := ⟨2, ![1, 1]⟩
abbrev S32768x1x3 : Shape := ⟨3, ![32768, 1, 3]⟩
abbrev S1x8x3 : Shape := ⟨3, ![1, 8, 3]⟩
abbrev S32768x8x3 : Shape := ⟨3, ![32768, 8, 3]⟩
abbrev S32768x8x1 : Shape := ⟨3, ![32768, 8, 1]⟩
abbrev S32768x8 : Shape := ⟨2, ![32768, 8]⟩
abbrev S262144x3 : Shape := ⟨2, ![262144, 3]⟩
abbrev S262144x128 : Shape := ⟨2, ![262144, 128]⟩
abbrev S262144x1 : Shape := ⟨2, ![262144, 1]⟩

abbrev nBuf : Space → Nat
  | .hbm => 361
  | .vmem => 0
  | .smem => 0
  | _ => 0

abbrev hbmTy0_0 (i : Nat) : BufTy := match i % 128 with
  | 0 => ⟨S2097152x3, .f32⟩
  | 1 => ⟨S2097152x1, .f32⟩
  | 2 => ⟨S2048383x3, .f32⟩
  | 3 => ⟨S2097152, .f32⟩
  | 4 => ⟨S3x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S32768, .i32⟩
  | 13 => ⟨S8x3, .i32⟩
  | 14 => ⟨S8x3, .i32⟩
  | 15 => ⟨S_, .i32⟩
  | 16 => ⟨S_, .i32⟩
  | 17 => ⟨S32768, .i32⟩
  | 18 => ⟨S32768, .i32⟩
  | 19 => ⟨S32768, .i32⟩
  | 20 => ⟨S_, .i32⟩
  | 21 => ⟨S32768, .i32⟩
  | 22 => ⟨S32768, .i1⟩
  | 23 => ⟨S32768, .i32⟩
  | 24 => ⟨S32768, .i32⟩
  | 25 => ⟨S_, .i32⟩
  | 26 => ⟨S32768, .i32⟩
  | 27 => ⟨S32768, .i1⟩
  | 28 => ⟨S32768, .i1⟩
  | 29 => ⟨S_, .i32⟩
  | 30 => ⟨S32768, .i32⟩
  | 31 => ⟨S32768, .i32⟩
  | 32 => ⟨S32768, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S32768, .i32⟩
  | 40 => ⟨S32768, .i32⟩
  | 41 => ⟨S_, .i32⟩
  | 42 => ⟨S32768, .i32⟩
  | 43 => ⟨S32768, .i1⟩
  | 44 => ⟨S_, .i32⟩
  | 45 => ⟨S32768, .i32⟩
  | 46 => ⟨S32768, .i1⟩
  | 47 => ⟨S_, .i32⟩
  | 48 => ⟨S_, .i1⟩
  | 49 => ⟨S32768, .i1⟩
  | 50 => ⟨S32768, .i1⟩
  | 51 => ⟨S32768, .i1⟩
  | 52 => ⟨S32768, .i32⟩
  | 53 => ⟨S32768, .i32⟩
  | 54 => ⟨S32768, .i32⟩
  | 55 => ⟨S_, .i32⟩
  | 56 => ⟨S_, .i32⟩
  | 57 => ⟨S32768, .i32⟩
  | 58 => ⟨S32768, .i32⟩
  | 59 => ⟨S32768, .i32⟩
  | 60 => ⟨S_, .i32⟩
  | 61 => ⟨S32768, .i32⟩
  | 62 => ⟨S32768, .i1⟩
  | 63 => ⟨S32768, .i32⟩
  | 64 => ⟨S32768, .i32⟩
  | 65 => ⟨S_, .i32⟩
  | 66 => ⟨S32768, .i32⟩
  | 67 => ⟨S32768, .i1⟩
  | 68 => ⟨S32768, .i1⟩
  | 69 => ⟨S_, .i32⟩
  | 70 => ⟨S32768, .i32⟩
  | 71 => ⟨S32768, .i32⟩
  | 72 => ⟨S32768, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S32768, .i32⟩
  | 80 => ⟨S32768, .i32⟩
  | 81 => ⟨S_, .i32⟩
  | 82 => ⟨S32768, .i32⟩
  | 83 => ⟨S32768, .i1⟩
  | 84 => ⟨S_, .i32⟩
  | 85 => ⟨S32768, .i32⟩
  | 86 => ⟨S32768, .i1⟩
  | 87 => ⟨S_, .i32⟩
  | 88 => ⟨S_, .i1⟩
  | 89 => ⟨S32768, .i1⟩
  | 90 => ⟨S32768, .i1⟩
  | 91 => ⟨S32768, .i1⟩
  | 92 => ⟨S32768, .i32⟩
  | 93 => ⟨S32768, .i32⟩
  | 94 => ⟨S32768, .i32⟩
  | 95 => ⟨S_, .i32⟩
  | 96 => ⟨S32768, .i32⟩
  | 97 => ⟨S32768, .i1⟩
  | 98 => ⟨S_, .i32⟩
  | 99 => ⟨S32768, .i32⟩
  | 100 => ⟨S32768, .i1⟩
  | 101 => ⟨S32768, .i1⟩
  | 102 => ⟨S_, .i32⟩
  | 103 => ⟨S32768, .i32⟩
  | 104 => ⟨S32768, .i1⟩
  | 105 => ⟨S32768, .i1⟩
  | 106 => ⟨S_, .i32⟩
  | 107 => ⟨S32768, .i32⟩
  | 108 => ⟨S32768, .i1⟩
  | 109 => ⟨S32768, .i1⟩
  | 110 => ⟨S_, .i32⟩
  | 111 => ⟨S32768, .i32⟩
  | 112 => ⟨S32768, .i1⟩
  | 113 => ⟨S32768, .i1⟩
  | 114 => ⟨S_, .i32⟩
  | 115 => ⟨S32768, .i32⟩
  | 116 => ⟨S32768, .i1⟩
  | 117 => ⟨S32768, .i1⟩
  | 118 => ⟨S32768, .f32⟩
  | 119 => ⟨S_, .i32⟩
  | 120 => ⟨S32768, .i32⟩
  | 121 => ⟨S32768, .i1⟩
  | 122 => ⟨S_, .i32⟩
  | 123 => ⟨S32768, .i32⟩
  | 124 => ⟨S32768, .i32⟩
  | 125 => ⟨S32768, .i32⟩
  | 126 => ⟨S32768x1, .i32⟩
  | 127 => ⟨S32768x3, .f32⟩
  | _ => ⟨S2097152x3, .f32⟩

abbrev hbmTy0_1 (i : Nat) : BufTy := match i % 128 with
  | 0 => ⟨S32768x128, .f32⟩
  | 1 => ⟨S1x128, .f32⟩
  | 2 => ⟨S32768x128, .f32⟩
  | 3 => ⟨S32768x128, .f32⟩
  | 4 => ⟨S32768x128, .f32⟩
  | 5 => ⟨S32768x128, .f32⟩
  | 6 => ⟨S1x128, .f32⟩
  | 7 => ⟨S32768x128, .f32⟩
  | 8 => ⟨S32768x128, .f32⟩
  | 9 => ⟨S32768x128, .f32⟩
  | 10 => ⟨S32768x128, .f32⟩
  | 11 => ⟨S1x128, .f32⟩
  | 12 => ⟨S32768x128, .f32⟩
  | 13 => ⟨S32768x128, .f32⟩
  | 14 => ⟨S32768x128, .f32⟩
  | 15 => ⟨S32768x1, .f32⟩
  | 16 => ⟨S1x1, .f32⟩
  | 17 => ⟨S32768x1, .f32⟩
  | 18 => ⟨S32768x1, .f32⟩
  | 19 => ⟨S32768, .f32⟩
  | 20 => ⟨S_, .i32⟩
  | 21 => ⟨S32768, .i32⟩
  | 22 => ⟨S32768, .i1⟩
  | 23 => ⟨S_, .i32⟩
  | 24 => ⟨S32768, .i32⟩
  | 25 => ⟨S32768, .i32⟩
  | 26 => ⟨S32768, .i32⟩
  | 27 => ⟨S32768x1, .i32⟩
  | 28 => ⟨S32768x1, .f32⟩
  | 29 => ⟨S32768, .f32⟩
  | 30 => ⟨S32768, .f32⟩
  | 31 => ⟨S32768, .f32⟩
  | 32 => ⟨S_, .f32⟩
  | 33 => ⟨S_, .f32⟩
  | 34 => ⟨S_, .f32⟩
  | 35 => ⟨S_, .f32⟩
  | 36 => ⟨S32768x1, .i32⟩
  | 37 => ⟨S32768x1, .i32⟩
  | 38 => ⟨S32768x1, .i32⟩
  | 39 => ⟨S32768x3, .i32⟩
  | 40 => ⟨S32768x1x3, .i32⟩
  | 41 => ⟨S1x8x3, .i32⟩
  | 42 => ⟨S32768x8x3, .i32⟩
  | 43 => ⟨S32768x8x3, .i32⟩
  | 44 => ⟨S32768x8x3, .i32⟩
  | 45 => ⟨S32768x1x3, .i32⟩
  | 46 => ⟨S1x8x3, .i32⟩
  | 47 => ⟨S32768x8x3, .i32⟩
  | 48 => ⟨S32768x8x3, .i32⟩
  | 49 => ⟨S32768x8x3, .i32⟩
  | 50 => ⟨S32768x8x1, .i32⟩
  | 51 => ⟨S32768x8, .i32⟩
  | 52 => ⟨S_, .i32⟩
  | 53 => ⟨S32768x8, .i32⟩
  | 54 => ⟨S32768x8, .i32⟩
  | 55 => ⟨S32768x8x1, .i32⟩
  | 56 => ⟨S32768x8, .i32⟩
  | 57 => ⟨S_, .i32⟩
  | 58 => ⟨S32768x8, .i32⟩
  | 59 => ⟨S32768x8, .i32⟩
  | 60 => ⟨S32768x8, .i32⟩
  | 61 => ⟨S32768x8x1, .i32⟩
  | 62 => ⟨S32768x8, .i32⟩
  | 63 => ⟨S32768x8, .i32⟩
  | 64 => ⟨S_, .i32⟩
  | 65 => ⟨S_, .i32⟩
  | 66 => ⟨S_, .i32⟩
  | 67 => ⟨S32768x8, .i32⟩
  | 68 => ⟨S32768x8, .i32⟩
  | 69 => ⟨S_, .i32⟩
  | 70 => ⟨S32768x8, .i32⟩
  | 71 => ⟨S32768x8, .i32⟩
  | 72 => ⟨S32768x8x1, .i32⟩
  | 73 => ⟨S32768x8, .i32⟩
  | 74 => ⟨S_, .i32⟩
  | 75 => ⟨S32768x8, .i32⟩
  | 76 => ⟨S32768x8, .i32⟩
  | 77 => ⟨S32768x8x1, .i32⟩
  | 78 => ⟨S32768x8, .i32⟩
  | 79 => ⟨S_, .i32⟩
  | 80 => ⟨S32768x8, .i32⟩
  | 81 => ⟨S32768x8, .i32⟩
  | 82 => ⟨S32768x8, .i32⟩
  | 83 => ⟨S32768x8x1, .i32⟩
  | 84 => ⟨S32768x8, .i32⟩
  | 85 => ⟨S32768x8, .i32⟩
  | 86 => ⟨S_, .i32⟩
  | 87 => ⟨S_, .i32⟩
  | 88 => ⟨S_, .i32⟩
  | 89 => ⟨S32768x8, .i32⟩
  | 90 => ⟨S32768x8, .i32⟩
  | 91 => ⟨S_, .i32⟩
  | 92 => ⟨S32768x8, .i32⟩
  | 93 => ⟨S32768x8, .i32⟩
  | 94 => ⟨S_, .i32⟩
  | 95 => ⟨S32768x8, .i32⟩
  | 96 => ⟨S32768x8, .i1⟩
  | 97 => ⟨S_, .i32⟩
  | 98 => ⟨S32768x8, .i32⟩
  | 99 => ⟨S32768x8, .i32⟩
  | 100 => ⟨S32768x8, .i32⟩
  | 101 => ⟨S32768x8x1, .i32⟩
  | 102 => ⟨S32768x8x3, .f32⟩
  | 103 => ⟨S262144x3, .f32⟩
  | 104 => ⟨S262144x128, .f32⟩
  | 105 => ⟨S1x128, .f32⟩
  | 106 => ⟨S262144x128, .f32⟩
  | 107 => ⟨S262144x128, .f32⟩
  | 108 => ⟨S262144x128, .f32⟩
  | 109 => ⟨S262144x128, .f32⟩
  | 110 => ⟨S1x128, .f32⟩
  | 111 => ⟨S262144x128, .f32⟩
  | 112 => ⟨S262144x128, .f32⟩
  | 113 => ⟨S262144x128, .f32⟩
  | 114 => ⟨S262144x128, .f32⟩
  | 115 => ⟨S1x128, .f32⟩
  | 116 => ⟨S262144x128, .f32⟩
  | 117 => ⟨S262144x128, .f32⟩
  | 118 => ⟨S262144x128, .f32⟩
  | 119 => ⟨S262144x1, .f32⟩
  | 120 => ⟨S1x1, .f32⟩
  | 121 => ⟨S262144x1, .f32⟩
  | 122 => ⟨S262144x1, .f32⟩
  | 123 => ⟨S32768x8, .f32⟩
  | 124 => ⟨S_, .i32⟩
  | 125 => ⟨S32768x8, .i32⟩
  | 126 => ⟨S32768x8, .i1⟩
  | 127 => ⟨S_, .i32⟩
  | _ => ⟨S2097152x3, .f32⟩

abbrev hbmTy0_2 (i : Nat) : BufTy := match i % 128 with
  | 0 => ⟨S32768x8, .i32⟩
  | 1 => ⟨S32768x8, .i32⟩
  | 2 => ⟨S32768x8, .i32⟩
  | 3 => ⟨S32768x8x1, .i32⟩
  | 4 => ⟨S32768x8x3, .f32⟩
  | 5 => ⟨S262144x3, .f32⟩
  | 6 => ⟨S262144x128, .f32⟩
  | 7 => ⟨S1x128, .f32⟩
  | 8 => ⟨S262144x128, .f32⟩
  | 9 => ⟨S262144x128, .f32⟩
  | 10 => ⟨S262144x128, .f32⟩
  | 11 => ⟨S262144x128, .f32⟩
  | 12 => ⟨S1x128, .f32⟩
  | 13 => ⟨S262144x128, .f32⟩
  | 14 => ⟨S262144x128, .f32⟩
  | 15 => ⟨S262144x128, .f32⟩
  | 16 => ⟨S262144x128, .f32⟩
  | 17 => ⟨S1x128, .f32⟩
  | 18 => ⟨S262144x128, .f32⟩
  | 19 => ⟨S262144x128, .f32⟩
  | 20 => ⟨S262144x128, .f32⟩
  | 21 => ⟨S262144x1, .f32⟩
  | 22 => ⟨S1x1, .f32⟩
  | 23 => ⟨S262144x1, .f32⟩
  | 24 => ⟨S262144x1, .f32⟩
  | 25 => ⟨S32768x8, .f32⟩
  | 26 => ⟨S32768x1, .f32⟩
  | 27 => ⟨S32768, .f32⟩
  | 28 => ⟨S32768x1, .f32⟩
  | 29 => ⟨S32768, .f32⟩
  | 30 => ⟨S32768x1, .f32⟩
  | 31 => ⟨S32768, .f32⟩
  | 32 => ⟨S32768x1, .f32⟩
  | 33 => ⟨S32768, .f32⟩
  | 34 => ⟨S32768, .f32⟩
  | 35 => ⟨S32768, .f32⟩
  | 36 => ⟨S32768, .f32⟩
  | 37 => ⟨S32768, .f32⟩
  | 38 => ⟨S32768, .f32⟩
  | 39 => ⟨S32768, .f32⟩
  | 40 => ⟨S32768, .f32⟩
  | 41 => ⟨S_, .f32⟩
  | 42 => ⟨S32768, .f32⟩
  | 43 => ⟨S32768, .f32⟩
  | 44 => ⟨S32768, .f32⟩
  | 45 => ⟨S32768x1, .f32⟩
  | 46 => ⟨S32768, .f32⟩
  | 47 => ⟨S32768x1, .f32⟩
  | 48 => ⟨S32768, .f32⟩
  | 49 => ⟨S32768x1, .f32⟩
  | 50 => ⟨S32768, .f32⟩
  | 51 => ⟨S32768x1, .f32⟩
  | 52 => ⟨S32768, .f32⟩
  | 53 => ⟨S32768, .f32⟩
  | 54 => ⟨S32768, .f32⟩
  | 55 => ⟨S32768, .f32⟩
  | 56 => ⟨S32768, .f32⟩
  | 57 => ⟨S32768, .f32⟩
  | 58 => ⟨S32768, .f32⟩
  | 59 => ⟨S32768, .f32⟩
  | 60 => ⟨S_, .f32⟩
  | 61 => ⟨S32768, .f32⟩
  | 62 => ⟨S32768, .f32⟩
  | 63 => ⟨S32768, .f32⟩
  | 64 => ⟨S32768, .f32⟩
  | 65 => ⟨S32768x1, .f32⟩
  | 66 => ⟨S32768, .f32⟩
  | 67 => ⟨S32768x1, .f32⟩
  | 68 => ⟨S32768, .f32⟩
  | 69 => ⟨S32768x1, .f32⟩
  | 70 => ⟨S32768, .f32⟩
  | 71 => ⟨S32768x1, .f32⟩
  | 72 => ⟨S32768, .f32⟩
  | 73 => ⟨S32768, .f32⟩
  | 74 => ⟨S32768, .f32⟩
  | 75 => ⟨S32768, .f32⟩
  | 76 => ⟨S32768, .f32⟩
  | 77 => ⟨S32768, .f32⟩
  | 78 => ⟨S32768, .f32⟩
  | 79 => ⟨S32768, .f32⟩
  | 80 => ⟨S_, .f32⟩
  | 81 => ⟨S32768, .f32⟩
  | 82 => ⟨S32768, .f32⟩
  | 83 => ⟨S32768, .f32⟩
  | 84 => ⟨S32768, .f32⟩
  | 85 => ⟨S_, .i32⟩
  | 86 => ⟨S32768, .i32⟩
  | 87 => ⟨S32768, .i1⟩
  | 88 => ⟨S_, .i32⟩
  | 89 => ⟨S32768, .i32⟩
  | 90 => ⟨S32768, .i32⟩
  | 91 => ⟨S32768, .i32⟩
  | 92 => ⟨S32768x1, .i32⟩
  | 93 => ⟨S32768, .f32⟩
  | 94 => ⟨S32768, .f32⟩
  | 95 => ⟨S32768, .f32⟩
  | 96 => ⟨S32768, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | _ => ⟨S2097152x3, .f32⟩

abbrev hbmTy (i : Nat) : BufTy := match i / 128 with
  | 0 => hbmTy0_0 i
  | 1 => hbmTy0_1 i
  | 2 => hbmTy0_2 i
  | _ => ⟨S2097152x3, .f32⟩

abbrev bufTy : (tb : Table) → Fin (tcTables nBuf tb) → BufTy
  | .hbm, ⟨i, _⟩ => hbmTy i
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v0 : Ref sig .tc := ⟨.hbm, 32, rfl⟩
abbrev main_c_2 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v1 : Ref sig .tc := ⟨.hbm, 54, rfl⟩
abbrev main_c_3 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v2 : Ref sig .tc := ⟨.hbm, 72, rfl⟩
abbrev main_c_4 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v3 : Ref sig .tc := ⟨.hbm, 94, rfl⟩
abbrev main_c_5 : Ref sig .tc := ⟨.hbm, 95, rfl⟩
abbrev main_v4 : Ref sig .tc := ⟨.hbm, 96, rfl⟩
abbrev main_v5 : Ref sig .tc := ⟨.hbm, 97, rfl⟩
abbrev main_c_6 : Ref sig .tc := ⟨.hbm, 98, rfl⟩
abbrev main_v6 : Ref sig .tc := ⟨.hbm, 99, rfl⟩
abbrev main_v7 : Ref sig .tc := ⟨.hbm, 100, rfl⟩
abbrev main_v8 : Ref sig .tc := ⟨.hbm, 101, rfl⟩
abbrev main_c_7 : Ref sig .tc := ⟨.hbm, 102, rfl⟩
abbrev main_v9 : Ref sig .tc := ⟨.hbm, 103, rfl⟩
abbrev main_v10 : Ref sig .tc := ⟨.hbm, 104, rfl⟩
abbrev main_v11 : Ref sig .tc := ⟨.hbm, 105, rfl⟩
abbrev main_c_8 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_c_9 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_c_10 : Ref sig .tc := ⟨.hbm, 114, rfl⟩
abbrev main_v18 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_c_11 : Ref sig .tc := ⟨.hbm, 119, rfl⟩
abbrev main_v22 : Ref sig .tc := ⟨.hbm, 120, rfl⟩
abbrev main_v23 : Ref sig .tc := ⟨.hbm, 121, rfl⟩
abbrev main_c_12 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_v36 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_c_13 : Ref sig .tc := ⟨.hbm, 148, rfl⟩
abbrev main_v49 : Ref sig .tc := ⟨.hbm, 149, rfl⟩
abbrev main_v50 : Ref sig .tc := ⟨.hbm, 150, rfl⟩
abbrev main_c_14 : Ref sig .tc := ⟨.hbm, 151, rfl⟩
abbrev main_v51 : Ref sig .tc := ⟨.hbm, 152, rfl⟩
abbrev main_v52 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_v58 : Ref sig .tc := ⟨.hbm, 159, rfl⟩
abbrev main_cst : Ref sig .tc := ⟨.hbm, 160, rfl⟩
abbrev main_v59 : Ref sig .tc := ⟨.hbm, 161, rfl⟩
abbrev main_cst_15 : Ref sig .tc := ⟨.hbm, 162, rfl⟩
abbrev main_v60 : Ref sig .tc := ⟨.hbm, 163, rfl⟩
abbrev main_v61 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_c_16 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_c_17 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_c_18 : Ref sig .tc := ⟨.hbm, 192, rfl⟩
abbrev main_c_19 : Ref sig .tc := ⟨.hbm, 193, rfl⟩
abbrev main_call4_v0 : Ref sig .tc := ⟨.hbm, 194, rfl⟩
abbrev main_call4_v1 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_v87 : Ref sig .tc := ⟨.hbm, 199, rfl⟩
abbrev main_v88 : Ref sig .tc := ⟨.hbm, 200, rfl⟩
abbrev main_v89 : Ref sig .tc := ⟨.hbm, 201, rfl⟩
abbrev main_c_20 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_c_21 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_c_22 : Ref sig .tc := ⟨.hbm, 214, rfl⟩
abbrev main_c_23 : Ref sig .tc := ⟨.hbm, 215, rfl⟩
abbrev main_call5_v0 : Ref sig .tc := ⟨.hbm, 216, rfl⟩
abbrev main_call5_v1 : Ref sig .tc := ⟨.hbm, 217, rfl⟩
abbrev main_call5_v2 : Ref sig .tc := ⟨.hbm, 218, rfl⟩
abbrev main_call5_v3 : Ref sig .tc := ⟨.hbm, 219, rfl⟩
abbrev main_call5_v4 : Ref sig .tc := ⟨.hbm, 220, rfl⟩
abbrev main_v100 : Ref sig .tc := ⟨.hbm, 221, rfl⟩
abbrev main_c_24 : Ref sig .tc := ⟨.hbm, 222, rfl⟩
abbrev main_v101 : Ref sig .tc := ⟨.hbm, 223, rfl⟩
abbrev main_v102 : Ref sig .tc := ⟨.hbm, 224, rfl⟩
abbrev main_c_25 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_v106 : Ref sig .tc := ⟨.hbm, 229, rfl⟩
abbrev main_v107 : Ref sig .tc := ⟨.hbm, 230, rfl⟩
abbrev main_v108 : Ref sig .tc := ⟨.hbm, 231, rfl⟩
abbrev main_v109 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_v125 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_c_26 : Ref sig .tc := ⟨.hbm, 252, rfl⟩
abbrev main_v129 : Ref sig .tc := ⟨.hbm, 253, rfl⟩
abbrev main_v130 : Ref sig .tc := ⟨.hbm, 254, rfl⟩
abbrev main_c_27 : Ref sig .tc := ⟨.hbm, 255, rfl⟩
abbrev main_v131 : Ref sig .tc := ⟨.hbm, 256, rfl⟩
abbrev main_v132 : Ref sig .tc := ⟨.hbm, 257, rfl⟩
abbrev main_v133 : Ref sig .tc := ⟨.hbm, 258, rfl⟩
abbrev main_v134 : Ref sig .tc := ⟨.hbm, 259, rfl⟩
abbrev main_v135 : Ref sig .tc := ⟨.hbm, 260, rfl⟩
abbrev main_v136 : Ref sig .tc := ⟨.hbm, 261, rfl⟩
abbrev main_v137 : Ref sig .tc := ⟨.hbm, 262, rfl⟩
abbrev main_v138 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_v153 : Ref sig .tc := ⟨.hbm, 278, rfl⟩
abbrev main_v154 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_v171 : Ref sig .tc := ⟨.hbm, 296, rfl⟩
abbrev main_cst_28 : Ref sig .tc := ⟨.hbm, 297, rfl⟩
abbrev main_v172 : Ref sig .tc := ⟨.hbm, 298, rfl⟩
abbrev main_v173 : Ref sig .tc := ⟨.hbm, 299, rfl⟩
abbrev main_v174 : Ref sig .tc := ⟨.hbm, 300, rfl⟩
abbrev main_v175 : Ref sig .tc := ⟨.hbm, 301, rfl⟩
abbrev main_v176 : Ref sig .tc := ⟨.hbm, 302, rfl⟩
abbrev main_v177 : Ref sig .tc := ⟨.hbm, 303, rfl⟩
abbrev main_v178 : Ref sig .tc := ⟨.hbm, 304, rfl⟩
abbrev main_v179 : Ref sig .tc := ⟨.hbm, 305, rfl⟩
abbrev main_v180 : Ref sig .tc := ⟨.hbm, 306, rfl⟩
abbrev main_v181 : Ref sig .tc := ⟨.hbm, 307, rfl⟩
abbrev main_v182 : Ref sig .tc := ⟨.hbm, 308, rfl⟩
abbrev main_v183 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_cst_29 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_v201 : Ref sig .tc := ⟨.hbm, 328, rfl⟩
abbrev main_v202 : Ref sig .tc := ⟨.hbm, 329, rfl⟩
abbrev main_v203 : Ref sig .tc := ⟨.hbm, 330, rfl⟩
abbrev main_v204 : Ref sig .tc := ⟨.hbm, 331, rfl⟩
abbrev main_v205 : Ref sig .tc := ⟨.hbm, 332, rfl⟩
abbrev main_v206 : Ref sig .tc := ⟨.hbm, 333, rfl⟩
abbrev main_v207 : Ref sig .tc := ⟨.hbm, 334, rfl⟩
abbrev main_v208 : Ref sig .tc := ⟨.hbm, 335, rfl⟩
abbrev main_cst_30 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩
abbrev main_v212 : Ref sig .tc := ⟨.hbm, 340, rfl⟩
abbrev main_c_31 : Ref sig .tc := ⟨.hbm, 341, rfl⟩
abbrev main_v213 : Ref sig .tc := ⟨.hbm, 342, rfl⟩
abbrev main_v214 : Ref sig .tc := ⟨.hbm, 343, rfl⟩
abbrev main_c_32 : Ref sig .tc := ⟨.hbm, 344, rfl⟩
abbrev main_v215 : Ref sig .tc := ⟨.hbm, 345, rfl⟩
abbrev main_v216 : Ref sig .tc := ⟨.hbm, 346, rfl⟩
abbrev main_v217 : Ref sig .tc := ⟨.hbm, 347, rfl⟩
abbrev main_v218 : Ref sig .tc := ⟨.hbm, 348, rfl⟩
abbrev main_v219 : Ref sig .tc := ⟨.hbm, 349, rfl⟩
abbrev main_v220 : Ref sig .tc := ⟨.hbm, 350, rfl⟩
abbrev main_v221 : Ref sig .tc := ⟨.hbm, 351, rfl⟩
abbrev main_v222 : Ref sig .tc := ⟨.hbm, 352, rfl⟩
abbrev main_cst_33 : Ref sig .tc := ⟨.hbm, 353, rfl⟩
abbrev main_v223 : Ref sig .tc := ⟨.hbm, 354, rfl⟩
abbrev main_cst_34 : Ref sig .tc := ⟨.hbm, 355, rfl⟩
abbrev main_v224 : Ref sig .tc := ⟨.hbm, 356, rfl⟩
abbrev main_cst_35 : Ref sig .tc := ⟨.hbm, 357, rfl⟩
abbrev main_v225 : Ref sig .tc := ⟨.hbm, 358, rfl⟩
abbrev main_v226 : Ref sig .tc := ⟨.hbm, 359, rfl⟩
abbrev main_v227 : Ref sig .tc := ⟨.hbm, 360, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S32768 : S32768x1.ShapeCasts S32768
  reducesTo_S32768_S_d0 : S32768.ReducesTo [0] S_
  h_S_ : 0 < S_.numel
  concatenates_S32768x1_S32768x1_S32768x1_S32768x3_d1 : Shape.Concatenates [S32768x1, S32768x1, S32768x1] S32768x3 1
  bcast_S32768x3_S32768x1x3_0_2 : S32768x3.BroadcastsInDim S32768x1x3 (![0, 2] : Fin 2 → Fin S32768x1x3.rank)
  bcast_S8x3_S1x8x3_1_2 : S8x3.BroadcastsInDim S1x8x3 (![1, 2] : Fin 2 → Fin S1x8x3.rank)
  bcast_S32768x1x3_S32768x8x3_0_1_2 : S32768x1x3.BroadcastsInDim S32768x8x3 (![0, 1, 2] : Fin 3 → Fin S32768x8x3.rank)
  bcast_S1x8x3_S32768x8x3_0_1_2 : S1x8x3.BroadcastsInDim S32768x8x3 (![0, 1, 2] : Fin 3 → Fin S32768x8x3.rank)
  slices_S32768x8x3_S32768x8x1_0_0_0 : S32768x8x3.Slices ![0, 0, 0] S32768x8x1
  shapeCasts_S32768x8x1_S32768x8 : S32768x8x1.ShapeCasts S32768x8
  bcast_S_S32768x8 : S_.BroadcastsInDim S32768x8 (![] : Fin 0 → Fin S32768x8.rank)
  slices_S32768x8x3_S32768x8x1_0_0_1 : S32768x8x3.Slices ![0, 0, 1] S32768x8x1
  slices_S32768x8x3_S32768x8x1_0_0_2 : S32768x8x3.Slices ![0, 0, 2] S32768x8x1
  bcast_S32768x8_S32768x8x1_0_1 : S32768x8.BroadcastsInDim S32768x8x1 (![0, 1] : Fin 2 → Fin S32768x8x1.rank)
  shapeCasts_S32768x8x3_S262144x3 : S32768x8x3.ShapeCasts S262144x3
  bcast_S1x128_S262144x128_0_1 : S1x128.BroadcastsInDim S262144x128 (![0, 1] : Fin 2 → Fin S262144x128.rank)
  bcast_S1x1_S262144x1_0_1 : S1x1.BroadcastsInDim S262144x1 (![0, 1] : Fin 2 → Fin S262144x1.rank)
  shapeCasts_S262144x1_S32768x8 : S262144x1.ShapeCasts S32768x8
  slices_S32768x8_S32768x1_0_7 : S32768x8.Slices ![0, 7] S32768x1
  slices_S32768x8_S32768x1_0_0 : S32768x8.Slices ![0, 0] S32768x1
  slices_S32768x8_S32768x1_0_3 : S32768x8.Slices ![0, 3] S32768x1
  slices_S32768x8_S32768x1_0_4 : S32768x8.Slices ![0, 4] S32768x1
  slices_S32768x8_S32768x1_0_5 : S32768x8.Slices ![0, 5] S32768x1
  slices_S32768x8_S32768x1_0_2 : S32768x8.Slices ![0, 2] S32768x1
  gather_S2097152x3_S32768x1_S32768x3_1_0_n_n_0_1_13_wf : GatherDims.WF S2097152x3 S32768x1 S32768x3 [1] [0] [] [0] [] 1 ![1, 3]
  dot_S32768x3_S3x128_S32768x128_1_0_0_1_n_n_wf : DotDims.WF S32768x3 S3x128 S32768x128 [1] [0] [0] [1] [] []
  dot_S32768x128_S128x128_S32768x128_1_0_0_1_n_n_wf : DotDims.WF S32768x128 S128x128 S32768x128 [1] [0] [0] [1] [] []
  dot_S32768x128_S128x1_S32768x1_1_0_0_1_n_n_wf : DotDims.WF S32768x128 S128x1 S32768x1 [1] [0] [0] [1] [] []
  gather_S2097152x1_S32768x1_S32768x1_1_0_n_n_0_1_11_wf : GatherDims.WF S2097152x1 S32768x1 S32768x1 [1] [0] [] [0] [] 1 ![1, 1]
  gather_S2048383x3_S32768x8x1_S32768x8x3_2_0_n_n_0_2_13_wf : GatherDims.WF S2048383x3 S32768x8x1 S32768x8x3 [2] [0] [] [0] [] 2 ![1, 3]
  dot_S262144x3_S3x128_S262144x128_1_0_0_1_n_n_wf : DotDims.WF S262144x3 S3x128 S262144x128 [1] [0] [0] [1] [] []
  dot_S262144x128_S128x128_S262144x128_1_0_0_1_n_n_wf : DotDims.WF S262144x128 S128x128 S262144x128 [1] [0] [0] [1] [] []
  dot_S262144x128_S128x1_S262144x1_1_0_0_1_n_n_wf : DotDims.WF S262144x128 S128x1 S262144x1 [1] [0] [0] [1] [] []
  gather_S2097152x3_S32768x8x1_S32768x8x3_2_0_n_n_0_2_13_wf : GatherDims.WF S2097152x3 S32768x8x1 S32768x8x3 [2] [0] [] [0] [] 2 ![1, 3]
  gather_S2097152_S32768x1_S32768_n_0_n_n_0_1_1_wf : GatherDims.WF S2097152 S32768x1 S32768 [] [0] [] [0] [] 1 ![1]

variable [Facts₀]

def gather_S2097152x3_S32768x1_S32768x3_1_0_n_n_0_1_13 : GatherDims S2097152x3 S32768x1 S32768x3 where
  offsetDims := [1]
  collapsedSliceDims := [0]
  operandBatchingDims := []
  startIndicesBatchingDims := []
  startIndexMap := [0]
  indexVectorDim := 1
  sliceSizes := ![1, 3]
  wf := gather_S2097152x3_S32768x1_S32768x3_1_0_n_n_0_1_13_wf
def dot_S32768x3_S3x128_S32768x128_1_0_0_1_n_n : DotDims S32768x3 S3x128 S32768x128 where
  lhsContracting := [1]
  rhsContracting := [0]
  lhsNonContracting := [0]
  rhsNonContracting := [1]
  lhsBatch := []
  rhsBatch := []
  wf := dot_S32768x3_S3x128_S32768x128_1_0_0_1_n_n_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S32768x128_S128x1_S32768x1_1_0_0_1_n_n : DotDims S32768x128 S128x1 S32768x1 where
  lhsContracting := [1]
  rhsContracting := [0]
  lhsNonContracting := [0]
  rhsNonContracting := [1]
  lhsBatch := []
  rhsBatch := []
  wf := dot_S32768x128_S128x1_S32768x1_1_0_0_1_n_n_wf
def gather_S2097152x1_S32768x1_S32768x1_1_0_n_n_0_1_11 : GatherDims S2097152x1 S32768x1 S32768x1 where
  offsetDims := [1]
  collapsedSliceDims := [0]
  operandBatchingDims := []
  startIndicesBatchingDims := []
  startIndexMap := [0]
  indexVectorDim := 1
  sliceSizes := ![1, 1]
  wf := gather_S2097152x1_S32768x1_S32768x1_1_0_n_n_0_1_11_wf
def gather_S2048383x3_S32768x8x1_S32768x8x3_2_0_n_n_0_2_13 : GatherDims S2048383x3 S32768x8x1 S32768x8x3 where
  offsetDims := [2]
  collapsedSliceDims := [0]
  operandBatchingDims := []
  startIndicesBatchingDims := []
  startIndexMap := [0]
  indexVectorDim := 2
  sliceSizes := ![1, 3]
  wf := gather_S2048383x3_S32768x8x1_S32768x8x3_2_0_n_n_0_2_13_wf
def dot_S262144x3_S3x128_S262144x128_1_0_0_1_n_n : DotDims S262144x3 S3x128 S262144x128 where
  lhsContracting := [1]
  rhsContracting := [0]
  lhsNonContracting := [0]
  rhsNonContracting := [1]
  lhsBatch := []
  rhsBatch := []
  wf := dot_S262144x3_S3x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf
def gather_S2097152x3_S32768x8x1_S32768x8x3_2_0_n_n_0_2_13 : GatherDims S2097152x3 S32768x8x1 S32768x8x3 where
  offsetDims := [2]
  collapsedSliceDims := [0]
  operandBatchingDims := []
  startIndicesBatchingDims := []
  startIndexMap := [0]
  indexVectorDim := 2
  sliceSizes := ![1, 3]
  wf := gather_S2097152x3_S32768x8x1_S32768x8x3_2_0_n_n_0_2_13_wf
def gather_S2097152_S32768x1_S32768_n_0_n_n_0_1_1 : GatherDims S2097152 S32768x1 S32768 where
  offsetDims := []
  collapsedSliceDims := [0]
  operandBatchingDims := []
  startIndicesBatchingDims := []
  startIndexMap := [0]
  indexVectorDim := 1
  sliceSizes := ![1]
  wf := gather_S2097152_S32768x1_S32768_n_0_n_n_0_1_1_wf

class Facts : Prop extends Facts₀ where

variable [Facts]
-- ==== Proof.FrameKitB.lean ====
/-
  The program's @main around its one region. Before the region thirteen stretches of host operations compute, from the
  argument arrays, the index vectors, the gathered coordinate rows and the weight layouts the region's windows stage;
  after it one stretch computes the loss from the region's output. No host operation writes an argument array, and no
  window stages one, so each argument ends as launched: that is the frame. The contents a buffer holds when the region
  is entered are the fold of the earlier operations over the launch contents, and after the run a buffer that bypasses the
  region holds the fold of the later operations over the region's exit contents.
-/
import proofs.«167318_j62079457296719_2_alg».proof.Proof.Gen.Kernel.Launch
import proofs.«167318_j62079457296719_2_alg».proof.Proof.Gen.Kernel.Skeleton
import proofs.«167318_j62079457296719_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12]

/-- Core `c`'s buffer contents when the region is entered: the earlier operations' fold over the launch contents. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem preOps_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩

set_option maxHeartbeats 4000000 in
/-- None of them allocates. -/
theorem preOps_fresh : (preOps (F := F)).Forall fun ops => ops.Forall fun op => op.fresh = ∅ := by
  simp only [preOps, hostOps0, hostOps0_1, hostOps0_2, hostOps0_3, hostOps0_4, hostOps0_5, hostOps0_6, hostOps0_7, hostOps0_8, hostOps0_9, hostOps0_10, hostOps0_11, hostOps0_12, List.Forall]; repeat' constructor

set_option maxHeartbeats 4000000 in
theorem hostOps1_fresh : (hostOps1 : List (HloOp τ sig (Elt F))).Forall fun op => op.fresh = ∅ := by
  simp only [hostOps1, List.Forall]; repeat' constructor

/-- @main is the earlier stretches, the region, the later stretch: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh fun c => (main_chain c).trans rfl

/-- The later lines touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
set_option maxHeartbeats 16000000 in
/-- And write no array of the pipeline: each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  revert op
  refine List.forall_iff_forall_mem.mp ?_
  fin_cases w <;>
  · simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-! ## The argument arrays are written by no host operation -/

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg0 : ∀ op ∈ (hostOps1 : List (HloOp τ sig (Elt F))), Proc.devRef .tc main_arg0 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg1 : ∀ op ∈ (hostOps1 : List (HloOp τ sig (Elt F))), Proc.devRef .tc main_arg1 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg2 : ∀ op ∈ (hostOps1 : List (HloOp τ sig (Elt F))), Proc.devRef .tc main_arg2 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg3 : ∀ op ∈ (hostOps1 : List (HloOp τ sig (Elt F))), Proc.devRef .tc main_arg3 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg4 : ∀ op ∈ (hostOps1 : List (HloOp τ sig (Elt F))), Proc.devRef .tc main_arg4 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg5 : ∀ op ∈ (hostOps1 : List (HloOp τ sig (Elt F))), Proc.devRef .tc main_arg5 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg6 : ∀ op ∈ (hostOps1 : List (HloOp τ sig (Elt F))), Proc.devRef .tc main_arg6 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg7 : ∀ op ∈ (hostOps1 : List (HloOp τ sig (Elt F))), Proc.devRef .tc main_arg7 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg8 : ∀ op ∈ (hostOps1 : List (HloOp τ sig (Elt F))), Proc.devRef .tc main_arg8 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg9 : ∀ op ∈ (hostOps1 : List (HloOp τ sig (Elt F))), Proc.devRef .tc main_arg9 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg10 : ∀ op ∈ (hostOps1 : List (HloOp τ sig (Elt F))), Proc.devRef .tc main_arg10 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg11 : ∀ op ∈ (hostOps1 : List (HloOp τ sig (Elt F))), Proc.devRef .tc main_arg11 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg12 : ∀ op ∈ (hostOps1 : List (HloOp τ sig (Elt F))), Proc.devRef .tc main_arg12 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- A buffer that no later line writes and that is no window's array holds, after the later lines, what the region
    found in it. -/
theorem tail_kept (dats : (p : Fin 1) → (c : Dev nD) → Dat τ (Elt F) Unit ℕ (UR sig nD τ) ℕ (cfgs p) c) (c : Dev nD) (b : Ref sig .tc)
    (hw : ∀ op ∈ (hostOps1 : List (HloOp τ sig (Elt F))), Proc.devRef .tc b ∉ op.writes) (hb : ∀ w, Pipeline.arrRef spec0 w ≠ b) :
    Pipeline.afterTail₀ cfgs dats 0 (V0 m) [hostOps1] c b = V m c b := by
  unfold Pipeline.afterTail₀
  rw [StableHlo.after_of_forall_not_mem _ _ (by simpa only [List.flatten_cons, List.flatten_nil, List.append_nil] using hw)]
  exact Pipeline.withArrays_of_ne _ c (V0 m c) _ b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof data
    whose array is the region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof data
    whose array is the region-entry contents and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run whose arrays are the region-entry contents: every argument array ends as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans ((tail_kept m dats c main_arg0 sfx_main_arg0 (by decide)).trans (V_main_arg0 m c)),
      ((h c).2 main_arg1 (Pipeline.mem_restRefs_of main_arg1 (by decide) (by decide))).trans ((tail_kept m dats c main_arg1 sfx_main_arg1 (by decide)).trans (V_main_arg1 m c)),
      ((h c).2 main_arg2 (Pipeline.mem_restRefs_of main_arg2 (by decide) (by decide))).trans ((tail_kept m dats c main_arg2 sfx_main_arg2 (by decide)).trans (V_main_arg2 m c)),
      ((h c).2 main_arg3 (Pipeline.mem_restRefs_of main_arg3 (by decide) (by decide))).trans ((tail_kept m dats c main_arg3 sfx_main_arg3 (by decide)).trans (V_main_arg3 m c)),
      ((h c).2 main_arg4 (Pipeline.mem_restRefs_of main_arg4 (by decide) (by decide))).trans ((tail_kept m dats c main_arg4 sfx_main_arg4 (by decide)).trans (V_main_arg4 m c)),
      ((h c).2 main_arg5 (Pipeline.mem_restRefs_of main_arg5 (by decide) (by decide))).trans ((tail_kept m dats c main_arg5 sfx_main_arg5 (by decide)).trans (V_main_arg5 m c)),
      ((h c).2 main_arg6 (Pipeline.mem_restRefs_of main_arg6 (by decide) (by decide))).trans ((tail_kept m dats c main_arg6 sfx_main_arg6 (by decide)).trans (V_main_arg6 m c)),
      ((h c).2 main_arg7 (Pipeline.mem_restRefs_of main_arg7 (by decide) (by decide))).trans ((tail_kept m dats c main_arg7 sfx_main_arg7 (by decide)).trans (V_main_arg7 m c)),
      ((h c).2 main_arg8 (Pipeline.mem_restRefs_of main_arg8 (by decide) (by decide))).trans ((tail_kept m dats c main_arg8 sfx_main_arg8 (by decide)).trans (V_main_arg8 m c)),
      ((h c).2 main_arg9 (Pipeline.mem_restRefs_of main_arg9 (by decide) (by decide))).trans ((tail_kept m dats c main_arg9 sfx_main_arg9 (by decide)).trans (V_main_arg9 m c)),
      ((h c).2 main_arg10 (Pipeline.mem_restRefs_of main_arg10 (by decide) (by decide))).trans ((tail_kept m dats c main_arg10 sfx_main_arg10 (by decide)).trans (V_main_arg10 m c)),
      ((h c).2 main_arg11 (Pipeline.mem_restRefs_of main_arg11 (by decide) (by decide))).trans ((tail_kept m dats c main_arg11 sfx_main_arg11 (by decide)).trans (V_main_arg11 m c)),
      ((h c).2 main_arg12 (Pipeline.mem_restRefs_of main_arg12 (by decide) (by decide))).trans ((tail_kept m dats c main_arg12 sfx_main_arg12 (by decide)).trans (V_main_arg12 m c))⟩) h

end Cert.Kernel.Frm

end
-- ==== Proof.FrameBodyB.lean ====
/-
  The kernel body and the run. At every grid point the body loads its nine input blocks whole (the block of 17408 feature-
  major input columns, the four transposed weight matrices and the four bias columns), computes the perceptron's output
  for those columns, and stores it as the point's whole output block; the load of the output block just before that
  store is not used. So after the body each input's staging buffer still holds its block and the output's holds the
  perceptron's value of the input blocks; the pipeline writes that block back at every point. With the host lines around
  the region this gives the run of @main, with the output array named, and the frame.
-/
import proofs.«167318_j62079457296719_2_alg».proof.Proof.FrameKitB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the store take a whole block -/

abbrev r_S3x17408 : Rect S3x17408 := Rect.unit (s := S3x17408) ![0, 0] S3x17408.size inb_S3x17408_S3x17408_0_0
abbrev r_S128x3 : Rect S128x3 := Rect.unit (s := S128x3) ![0, 0] S128x3.size inb_S128x3_S128x3_0_0
abbrev r_S128x1 : Rect S128x1 := Rect.unit (s := S128x1) ![0, 0] S128x1.size inb_S128x1_S128x1_0_0
abbrev r_S128x128 : Rect S128x128 := Rect.unit (s := S128x128) ![0, 0] S128x128.size inb_S128x128_S128x128_0_0
abbrev r_S1x128 : Rect S1x128 := Rect.unit (s := S1x128) ![0, 0] S1x128.size inb_S1x128_S1x128_0_0
abbrev r_S1x1 : Rect S1x1 := Rect.unit (s := S1x1) ![0, 0] S1x1.size inb_S1x1_S1x1_0_0
abbrev r_S1x17408 : Rect S1x17408 := Rect.unit (s := S1x17408) ![0, 0] S1x17408.size inb_S1x17408_S1x17408_0_0

/-! ## What the body leaves in the output window's buffer -/

/-- The output block after the body, from the nine input blocks: the one store of the perceptron's value. -/
def out0_9 (x0 : Vec F S3x17408 .f32) (x1 : Vec F S128x3 .f32) (x2 : Vec F S128x1 .f32) (x3 : Vec F S128x128 .f32) (x4 : Vec F S128x1 .f32) (x5 : Vec F S128x128 .f32) (x6 : Vec F S128x1 .f32) (x7 : Vec F S1x128 .f32) (x8 : Vec F S1x1 .f32) : Vec F S1x17408 .f32 :=
  View.canon [⟨r_S1x17408, k0_pay1 (k0_pay2 (View.ld x0 r_S3x17408) (View.ld x1 r_S128x3) (View.ld x2 r_S128x1) (View.ld x3 r_S128x128) (View.ld x4 r_S128x1) (View.ld x5 r_S128x128) (View.ld x6 r_S128x1) (View.ld x7 r_S1x128)) (View.ld x8 r_S1x1)⟩]

/-- The store covers the block. -/
theorem cover0_9 (p0 : Vec F S1x17408 .f32) (y : S1x17408.Idx) :
    ∃ pc ∈ ([⟨r_S1x17408, p0⟩] : List (View.Piece (Elt F) S1x17408 .f32)), y ∈ pc.1.set :=
  View.cover_of_tiled [⟨r_S1x17408, p0⟩] S1x17408.size (by rfl) y

/-! ## The body's triple -/

set_option maxHeartbeats 4000000 in
/-- The kernel body on whole staging memrefs, the inputs' at contents `xW` and the output's at anything, runs to the
    continuation holding the inputs' as they were and the output's at `out0_9` of the inputs'. -/
theorem sound_kernel (c : Dev nD) (E : Set ℕ) (i : grid0.Coords) (arg1 : Memref sig .tc .vmem S3x17408 .f32) (harg1 : arg1.IsWhole) (arg2 : Memref sig .tc .vmem S128x3 .f32) (harg2 : arg2.IsWhole) (arg3 : Memref sig .tc .vmem S128x1 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x1 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S1x17408 .f32) (harg10 : arg10.IsWhole)
    (x0 : Vec F S3x17408 .f32) (x1 : Vec F S128x3 .f32) (x2 : Vec F S128x1 .f32) (x3 : Vec F S128x128 .f32) (x4 : Vec F S128x1 .f32) (x5 : Vec F S128x128 .f32) (x6 : Vec F S128x1 .f32) (x7 : Vec F S1x128 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of the pipeline on core `c`: the arrays as the region finds them; after the body at point `t` each
    input's buffer at its block and the output's at `out0_9` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; in the final state the output array holds what the write-backs of
    every point leave, and every buffer that bypasses the region what the later host lines compute from that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (run_main m ρ)

end Cert.Kernel.Frm

end
-- ==== Proof.FrameKitI.lean ====
/-
  The program's @main around its one region. Before the region thirteen stretches of host operations compute, from the
  argument arrays, the index vectors, the gathered coordinate rows and the weight layouts the region's windows stage;
  after it one stretch computes the loss from the region's output. No host operation writes an argument array, and no
  window stages one, so each argument ends as launched: that is the frame. The contents a buffer holds when the region
  is entered are the fold of the earlier operations over the launch contents, and after the run a buffer that bypasses the
  region holds the fold of the later operations over the region's exit contents.
-/
import proofs.«167318_j62079457296719_2_alg».proof.Proof.Gen.KernelIdeal.Launch
import proofs.«167318_j62079457296719_2_alg».proof.Proof.Gen.KernelIdeal.Skeleton
import proofs.«167318_j62079457296719_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12]

/-- Core `c`'s buffer contents when the region is entered: the earlier operations' fold over the launch contents. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem preOps_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩

set_option maxHeartbeats 4000000 in
/-- None of them allocates. -/
theorem preOps_fresh : (preOps (F := F)).Forall fun ops => ops.Forall fun op => op.fresh = ∅ := by
  simp only [preOps, hostOps0, hostOps0_1, hostOps0_2, hostOps0_3, hostOps0_4, hostOps0_5, hostOps0_6, hostOps0_7, hostOps0_8, hostOps0_9, hostOps0_10, hostOps0_11, hostOps0_12, List.Forall]; repeat' constructor

set_option maxHeartbeats 4000000 in
theorem hostOps1_fresh : (hostOps1 : List (HloOp τ sig (Elt F))).Forall fun op => op.fresh = ∅ := by
  simp only [hostOps1, List.Forall]; repeat' constructor

/-- @main is the earlier stretches, the region, the later stretch: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh fun c => (main_chain c).trans rfl

/-- The later lines touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
set_option maxHeartbeats 16000000 in
/-- And write no array of the pipeline: each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  revert op
  refine List.forall_iff_forall_mem.mp ?_
  fin_cases w <;>
  · simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-! ## The argument arrays are written by no host operation -/

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg0 : ∀ op ∈ (hostOps1 : List (HloOp τ sig (Elt F))), Proc.devRef .tc main_arg0 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg1 : ∀ op ∈ (hostOps1 : List (HloOp τ sig (Elt F))), Proc.devRef .tc main_arg1 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg2 : ∀ op ∈ (hostOps1 : List (HloOp τ sig (Elt F))), Proc.devRef .tc main_arg2 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg3 : ∀ op ∈ (hostOps1 : List (HloOp τ sig (Elt F))), Proc.devRef .tc main_arg3 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg4 : ∀ op ∈ (hostOps1 : List (HloOp τ sig (Elt F))), Proc.devRef .tc main_arg4 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg5 : ∀ op ∈ (hostOps1 : List (HloOp τ sig (Elt F))), Proc.devRef .tc main_arg5 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg6 : ∀ op ∈ (hostOps1 : List (HloOp τ sig (Elt F))), Proc.devRef .tc main_arg6 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg7 : ∀ op ∈ (hostOps1 : List (HloOp τ sig (Elt F))), Proc.devRef .tc main_arg7 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg8 : ∀ op ∈ (hostOps1 : List (HloOp τ sig (Elt F))), Proc.devRef .tc main_arg8 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg9 : ∀ op ∈ (hostOps1 : List (HloOp τ sig (Elt F))), Proc.devRef .tc main_arg9 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg10 : ∀ op ∈ (hostOps1 : List (HloOp τ sig (Elt F))), Proc.devRef .tc main_arg10 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg11 : ∀ op ∈ (hostOps1 : List (HloOp τ sig (Elt F))), Proc.devRef .tc main_arg11 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
set_option maxHeartbeats 4000000 in
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor does a host operation after the region. -/
theorem sfx_main_arg12 : ∀ op ∈ (hostOps1 : List (HloOp τ sig (Elt F))), Proc.devRef .tc main_arg12 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- A buffer that no later line writes and that is no window's array holds, after the later lines, what the region
    found in it. -/
theorem tail_kept (dats : (p : Fin 1) → (c : Dev nD) → Dat τ (Elt F) Unit ℕ (UR sig nD τ) ℕ (cfgs p) c) (c : Dev nD) (b : Ref sig .tc)
    (hw : ∀ op ∈ (hostOps1 : List (HloOp τ sig (Elt F))), Proc.devRef .tc b ∉ op.writes) (hb : ∀ w, Pipeline.arrRef spec0 w ≠ b) :
    Pipeline.afterTail₀ cfgs dats 0 (V0 m) [hostOps1] c b = V m c b := by
  unfold Pipeline.afterTail₀
  rw [StableHlo.after_of_forall_not_mem _ _ (by simpa only [List.flatten_cons, List.flatten_nil, List.append_nil] using hw)]
  exact Pipeline.withArrays_of_ne _ c (V0 m c) _ b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof data
    whose array is the region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof data
    whose array is the region-entry contents and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run whose arrays are the region-entry contents: every argument array ends as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans ((tail_kept m dats c main_arg0 sfx_main_arg0 (by decide)).trans (V_main_arg0 m c)),
      ((h c).2 main_arg1 (Pipeline.mem_restRefs_of main_arg1 (by decide) (by decide))).trans ((tail_kept m dats c main_arg1 sfx_main_arg1 (by decide)).trans (V_main_arg1 m c)),
      ((h c).2 main_arg2 (Pipeline.mem_restRefs_of main_arg2 (by decide) (by decide))).trans ((tail_kept m dats c main_arg2 sfx_main_arg2 (by decide)).trans (V_main_arg2 m c)),
      ((h c).2 main_arg3 (Pipeline.mem_restRefs_of main_arg3 (by decide) (by decide))).trans ((tail_kept m dats c main_arg3 sfx_main_arg3 (by decide)).trans (V_main_arg3 m c)),
      ((h c).2 main_arg4 (Pipeline.mem_restRefs_of main_arg4 (by decide) (by decide))).trans ((tail_kept m dats c main_arg4 sfx_main_arg4 (by decide)).trans (V_main_arg4 m c)),
      ((h c).2 main_arg5 (Pipeline.mem_restRefs_of main_arg5 (by decide) (by decide))).trans ((tail_kept m dats c main_arg5 sfx_main_arg5 (by decide)).trans (V_main_arg5 m c)),
      ((h c).2 main_arg6 (Pipeline.mem_restRefs_of main_arg6 (by decide) (by decide))).trans ((tail_kept m dats c main_arg6 sfx_main_arg6 (by decide)).trans (V_main_arg6 m c)),
      ((h c).2 main_arg7 (Pipeline.mem_restRefs_of main_arg7 (by decide) (by decide))).trans ((tail_kept m dats c main_arg7 sfx_main_arg7 (by decide)).trans (V_main_arg7 m c)),
      ((h c).2 main_arg8 (Pipeline.mem_restRefs_of main_arg8 (by decide) (by decide))).trans ((tail_kept m dats c main_arg8 sfx_main_arg8 (by decide)).trans (V_main_arg8 m c)),
      ((h c).2 main_arg9 (Pipeline.mem_restRefs_of main_arg9 (by decide) (by decide))).trans ((tail_kept m dats c main_arg9 sfx_main_arg9 (by decide)).trans (V_main_arg9 m c)),
      ((h c).2 main_arg10 (Pipeline.mem_restRefs_of main_arg10 (by decide) (by decide))).trans ((tail_kept m dats c main_arg10 sfx_main_arg10 (by decide)).trans (V_main_arg10 m c)),
      ((h c).2 main_arg11 (Pipeline.mem_restRefs_of main_arg11 (by decide) (by decide))).trans ((tail_kept m dats c main_arg11 sfx_main_arg11 (by decide)).trans (V_main_arg11 m c)),
      ((h c).2 main_arg12 (Pipeline.mem_restRefs_of main_arg12 (by decide) (by decide))).trans ((tail_kept m dats c main_arg12 sfx_main_arg12 (by decide)).trans (V_main_arg12 m c))⟩) h

end Cert.KernelIdeal.Frm

end
-- ==== Proof.FrameBodyI.lean ====
/-
  The kernel body and the run. At every grid point the body loads its nine input blocks whole (the block of 17408 feature-
  major input columns, the four transposed weight matrices and the four bias columns), computes the perceptron's output
  for those columns, and stores it as the point's whole output block; the load of the output block just before that
  store is not used. So after the body each input's staging buffer still holds its block and the output's holds the
  perceptron's value of the input blocks; the pipeline writes that block back at every point. With the host lines around
  the region this gives the run of @main, with the output array named, and the frame.
-/
import proofs.«167318_j62079457296719_2_alg».proof.Proof.FrameKitI

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the store take a whole block -/

abbrev r_S3x17408 : Rect S3x17408 := Rect.unit (s := S3x17408) ![0, 0] S3x17408.size inb_S3x17408_S3x17408_0_0
abbrev r_S128x3 : Rect S128x3 := Rect.unit (s := S128x3) ![0, 0] S128x3.size inb_S128x3_S128x3_0_0
abbrev r_S128x1 : Rect S128x1 := Rect.unit (s := S128x1) ![0, 0] S128x1.size inb_S128x1_S128x1_0_0
abbrev r_S128x128 : Rect S128x128 := Rect.unit (s := S128x128) ![0, 0] S128x128.size inb_S128x128_S128x128_0_0
abbrev r_S1x128 : Rect S1x128 := Rect.unit (s := S1x128) ![0, 0] S1x128.size inb_S1x128_S1x128_0_0
abbrev r_S1x1 : Rect S1x1 := Rect.unit (s := S1x1) ![0, 0] S1x1.size inb_S1x1_S1x1_0_0
abbrev r_S1x17408 : Rect S1x17408 := Rect.unit (s := S1x17408) ![0, 0] S1x17408.size inb_S1x17408_S1x17408_0_0

/-! ## What the body leaves in the output window's buffer -/

/-- The output block after the body, from the nine input blocks: the one store of the perceptron's value. -/
def out0_9 (x0 : Vec F S3x17408 .f32) (x1 : Vec F S128x3 .f32) (x2 : Vec F S128x1 .f32) (x3 : Vec F S128x128 .f32) (x4 : Vec F S128x1 .f32) (x5 : Vec F S128x128 .f32) (x6 : Vec F S128x1 .f32) (x7 : Vec F S1x128 .f32) (x8 : Vec F S1x1 .f32) : Vec F S1x17408 .f32 :=
  View.canon [⟨r_S1x17408, k0_pay1 (k0_pay2 (View.ld x0 r_S3x17408) (View.ld x1 r_S128x3) (View.ld x2 r_S128x1) (View.ld x3 r_S128x128) (View.ld x4 r_S128x1) (View.ld x5 r_S128x128) (View.ld x6 r_S128x1) (View.ld x7 r_S1x128)) (View.ld x8 r_S1x1)⟩]

/-- The store covers the block. -/
theorem cover0_9 (p0 : Vec F S1x17408 .f32) (y : S1x17408.Idx) :
    ∃ pc ∈ ([⟨r_S1x17408, p0⟩] : List (View.Piece (Elt F) S1x17408 .f32)), y ∈ pc.1.set :=
  View.cover_of_tiled [⟨r_S1x17408, p0⟩] S1x17408.size (by rfl) y

/-! ## The body's triple -/

set_option maxHeartbeats 4000000 in
/-- The kernel body on whole staging memrefs, the inputs' at contents `xW` and the output's at anything, runs to the
    continuation holding the inputs' as they were and the output's at `out0_9` of the inputs'. -/
theorem sound_kernel (c : Dev nD) (E : Set ℕ) (i : grid0.Coords) (arg1 : Memref sig .tc .vmem S3x17408 .f32) (harg1 : arg1.IsWhole) (arg2 : Memref sig .tc .vmem S128x3 .f32) (harg2 : arg2.IsWhole) (arg3 : Memref sig .tc .vmem S128x1 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x1 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S1x17408 .f32) (harg10 : arg10.IsWhole)
    (x0 : Vec F S3x17408 .f32) (x1 : Vec F S128x3 .f32) (x2 : Vec F S128x1 .f32) (x3 : Vec F S128x128 .f32) (x4 : Vec F S128x1 .f32) (x5 : Vec F S128x128 .f32) (x6 : Vec F S128x1 .f32) (x7 : Vec F S1x128 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of the pipeline on core `c`: the arrays as the region finds them; after the body at point `t` each
    input's buffer at its block and the output's at `out0_9` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; in the final state the output array holds what the write-backs of
    every point leave, and every buffer that bypasses the region what the later host lines compute from that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (run_main m ρ)

end Cert.KernelIdeal.Frm

end
-- ==== Proof.RefOps.lean ====
import proofs.«167318_j62079457296719_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 20 of the reference's 348, in program order, every call's body in place: the stretch ending with the operation that writes `main_v0`. -/
abbrev opsA0 : List (HloOp τ sig (Elt F)) :=
  [ StableHlo.nullary main_c (fun i => lit0 (S8x3.rowMajor i)),
    StableHlo.nullary main_c_0 (fun i => lit1 (S8x3.rowMajor i)),
    StableHlo.nullary main_c_1 (constantI S_ 32 16384#32),
    StableHlo.TRef.unary (.of main_c_1 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S32768, .i32⟩) (broadcastInDim S32768 ![] bcast_S_S32768),
    StableHlo.TRef.binary (.of main_arg12 : StableHlo.TRef sig ⟨S32768, .i32⟩) (.of main_call0_v1 : StableHlo.TRef sig ⟨S32768, .i32⟩) (.of main_call0_v2 : StableHlo.TRef sig ⟨S32768, .i32⟩) Host.divsi,
    StableHlo.TRef.unary (.of main_arg12 : StableHlo.TRef sig ⟨S32768, .i32⟩) (.of main_call0_v3 : StableHlo.TRef sig ⟨S32768, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S32768, .i32⟩) (broadcastInDim S32768 ![] bcast_S_S32768),
    StableHlo.TRef.binary (.of main_call0_v3 : StableHlo.TRef sig ⟨S32768, .i32⟩) (.of main_call0_v5 : StableHlo.TRef sig ⟨S32768, .i32⟩) (.of main_call0_v6 : StableHlo.TRef sig ⟨S32768, .i1⟩) (cmpi .ne),
    StableHlo.TRef.unary (.of main_call0_v0 : StableHlo.TRef sig ⟨S_, .i32⟩) (.of main_call0_v7 : StableHlo.TRef sig ⟨S32768, .i32⟩) (broadcastInDim S32768 ![] bcast_S_S32768),
    StableHlo.TRef.binary (.of main_arg12 : StableHlo.TRef sig ⟨S32768, .i32⟩) (.of main_call0_v7 : StableHlo.TRef sig ⟨S32768, .i32⟩) (.of main_call0_v8 : StableHlo.TRef sig ⟨S32768, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S32768, .i32⟩) (broadcastInDim S32768 ![] bcast_S_S32768),
    StableHlo.TRef.binary (.of main_call0_v8 : StableHlo.TRef sig ⟨S32768, .i32⟩) (.of main_call0_v9 : StableHlo.TRef sig ⟨S32768, .i32⟩) (.of main_call0_v10 : StableHlo.TRef sig ⟨S32768, .i1⟩) (cmpi .ne),
    StableHlo.TRef.binary (.of main_call0_v6 : StableHlo.TRef sig ⟨S32768, .i1⟩) (.of main_call0_v10 : StableHlo.TRef sig ⟨S32768, .i1⟩) (.of main_call0_v11 : StableHlo.TRef sig ⟨S32768, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S32768, .i32⟩) (broadcastInDim S32768 ![] bcast_S_S32768),
    StableHlo.TRef.binary (.of main_call0_v2 : StableHlo.TRef sig ⟨S32768, .i32⟩) (.of main_call0_v12 : StableHlo.TRef sig ⟨S32768, .i32⟩) (.of main_call0_v13 : StableHlo.TRef sig ⟨S32768, .i32⟩) subi,
    StableHlo.TRef.ternary (.of main_call0_v11 : StableHlo.TRef sig ⟨S32768, .i1⟩) (.of main_call0_v13 : StableHlo.TRef sig ⟨S32768, .i32⟩) (.of main_call0_v2 : StableHlo.TRef sig ⟨S32768, .i32⟩) (.of main_v0 : StableHlo.TRef sig ⟨S32768, .i32⟩) select ]
/-- The buffer each of those operations writes, in order. -/
abbrev opsA0_W : List (Ref sig .tc) := [main_c, main_c_0, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v0]
/-- Each of them touches TensorCore references only. -/
theorem opsA0_sub : (opsA0 : List (HloOp τ sig (Elt F))).Forall fun op => op.bufs ⊆ tcRefs τ sig :=
  ⟨nullary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

/-- Operations 21 … 42 of the reference's 348, in program order, every call's body in place: the stretch ending with the operation that writes `main_v1`. -/
abbrev opsA1 : List (HloOp τ sig (Elt F)) :=
  [ StableHlo.nullary main_c_2 (constantI S_ 32 16384#32),
    StableHlo.TRef.unary (.of main_c_2 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary (.of main_call1_v2 : StableHlo.TRef sig ⟨S_, .i32⟩) (.of main_call1_v3 : StableHlo.TRef sig ⟨S32768, .i32⟩) (broadcastInDim S32768 ![] bcast_S_S32768),
    StableHlo.TRef.binary (.of main_arg12 : StableHlo.TRef sig ⟨S32768, .i32⟩) (.of main_call1_v3 : StableHlo.TRef sig ⟨S32768, .i32⟩) (.of main_call1_v4 : StableHlo.TRef sig ⟨S32768, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S32768, .i32⟩) (broadcastInDim S32768 ![] bcast_S_S32768),
    StableHlo.TRef.binary (.of main_call1_v4 : StableHlo.TRef sig ⟨S32768, .i32⟩) (.of main_call1_v5 : StableHlo.TRef sig ⟨S32768, .i32⟩) (.of main_call1_v6 : StableHlo.TRef sig ⟨S32768, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S32768, .i32⟩) (broadcastInDim S32768 ![] bcast_S_S32768),
    StableHlo.TRef.binary (.of main_call1_v4 : StableHlo.TRef sig ⟨S32768, .i32⟩) (.of main_call1_v7 : StableHlo.TRef sig ⟨S32768, .i32⟩) (.of main_call1_v8 : StableHlo.TRef sig ⟨S32768, .i1⟩) (cmpi .slt),
    StableHlo.TRef.nullary (.of main_call1_c_3 : StableHlo.TRef sig ⟨S_, .i32⟩) (constantI S_ 32 0#32),
    StableHlo.TRef.binary (.of main_call1_v2 : StableHlo.TRef sig ⟨S_, .i32⟩) (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S32768, .i1⟩) (broadcastInDim S32768 ![] bcast_S_S32768),
    StableHlo.TRef.binary (.of main_call1_v8 : StableHlo.TRef sig ⟨S32768, .i1⟩) (.of main_call1_v10 : StableHlo.TRef sig ⟨S32768, .i1⟩) (.of main_call1_v11 : StableHlo.TRef sig ⟨S32768, .i1⟩) (cmpi .ne),
    StableHlo.TRef.binary (.of main_call1_v11 : StableHlo.TRef sig ⟨S32768, .i1⟩) (.of main_call1_v6 : StableHlo.TRef sig ⟨S32768, .i1⟩) (.of main_call1_v12 : StableHlo.TRef sig ⟨S32768, .i1⟩) andi,
    StableHlo.TRef.unary (.of main_call1_v2 : StableHlo.TRef sig ⟨S_, .i32⟩) (.of main_call1_v13 : StableHlo.TRef sig ⟨S32768, .i32⟩) (broadcastInDim S32768 ![] bcast_S_S32768),
    StableHlo.TRef.binary (.of main_call1_v4 : StableHlo.TRef sig ⟨S32768, .i32⟩) (.of main_call1_v13 : StableHlo.TRef sig ⟨S32768, .i32⟩) (.of main_call1_v14 : StableHlo.TRef sig ⟨S32768, .i32⟩) addi,
    StableHlo.TRef.ternary (.of main_call1_v12 : StableHlo.TRef sig ⟨S32768, .i1⟩) (.of main_call1_v14 : StableHlo.TRef sig ⟨S32768, .i32⟩) (.of main_call1_v4 : StableHlo.TRef sig ⟨S32768, .i32⟩) (.of main_v1 : StableHlo.TRef sig ⟨S32768, .i32⟩) select ]
/-- The buffer each of those operations writes, in order. -/
abbrev opsA1_W : List (Ref sig .tc) := [main_c_2, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v1]
/-- Each of them touches TensorCore references only. -/
theorem opsA1_sub : (opsA1 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- Operations 43 … 60 of the reference's 348, in program order, every call's body in place: the stretch ending with the operation that writes `main_v2`. -/
abbrev opsA2 : List (HloOp τ sig (Elt F)) :=
  [ StableHlo.nullary main_c_3 (constantI S_ 32 128#32),
    StableHlo.TRef.unary (.of main_c_3 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S32768, .i32⟩) (broadcastInDim S32768 ![] bcast_S_S32768),
    StableHlo.TRef.binary (.of main_v1 : StableHlo.TRef sig ⟨S32768, .i32⟩) (.of main_call2_v1 : StableHlo.TRef sig ⟨S32768, .i32⟩) (.of main_call2_v2 : StableHlo.TRef sig ⟨S32768, .i32⟩) Host.divsi,
    StableHlo.TRef.unary (.of main_v1 : StableHlo.TRef sig ⟨S32768, .i32⟩) (.of main_call2_v3 : StableHlo.TRef sig ⟨S32768, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S32768, .i32⟩) (broadcastInDim S32768 ![] bcast_S_S32768),
    StableHlo.TRef.binary (.of main_call2_v3 : StableHlo.TRef sig ⟨S32768, .i32⟩) (.of main_call2_v5 : StableHlo.TRef sig ⟨S32768, .i32⟩) (.of main_call2_v6 : StableHlo.TRef sig ⟨S32768, .i1⟩) (cmpi .ne),
    StableHlo.TRef.unary (.of main_call2_v0 : StableHlo.TRef sig ⟨S_, .i32⟩) (.of main_call2_v7 : StableHlo.TRef sig ⟨S32768, .i32⟩) (broadcastInDim S32768 ![] bcast_S_S32768),
    StableHlo.TRef.binary (.of main_v1 : StableHlo.TRef sig ⟨S32768, .i32⟩) (.of main_call2_v7 : StableHlo.TRef sig ⟨S32768, .i32⟩) (.of main_call2_v8 : StableHlo.TRef sig ⟨S32768, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S32768, .i32⟩) (broadcastInDim S32768 ![] bcast_S_S32768),
    StableHlo.TRef.binary (.of main_call2_v8 : StableHlo.TRef sig ⟨S32768, .i32⟩) (.of main_call2_v9 : StableHlo.TRef sig ⟨S32768, .i32⟩) (.of main_call2_v10 : StableHlo.TRef sig ⟨S32768, .i1⟩) (cmpi .ne),
    StableHlo.TRef.binary (.of main_call2_v6 : StableHlo.TRef sig ⟨S32768, .i1⟩) (.of main_call2_v10 : StableHlo.TRef sig ⟨S32768, .i1⟩) (.of main_call2_v11 : StableHlo.TRef sig ⟨S32768, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S32768, .i32⟩) (broadcastInDim S32768 ![] bcast_S_S32768),
    StableHlo.TRef.binary (.of main_call2_v2 : StableHlo.TRef sig ⟨S32768, .i32⟩) (.of main_call2_v12 : StableHlo.TRef sig ⟨S32768, .i32⟩) (.of main_call2_v13 : StableHlo.TRef sig ⟨S32768, .i32⟩) subi,
    StableHlo.TRef.ternary (.of main_call2_v11 : StableHlo.TRef sig ⟨S32768, .i1⟩) (.of main_call2_v13 : StableHlo.TRef sig ⟨S32768, .i32⟩) (.of main_call2_v2 : StableHlo.TRef sig ⟨S32768, .i32⟩) (.of main_v2 : StableHlo.TRef sig ⟨S32768, .i32⟩) select ]
/-- The buffer each of those operations writes, in order. -/
abbrev opsA2_W : List (Ref sig .tc) := [main_c_3, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v2]
/-- Each of them touches TensorCore references only. -/
theorem opsA2_sub : (opsA2 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

/-- Operations 61 … 82 of the reference's 348, in program order, every call's body in place: the stretch ending with the operation that writes `main_v3`. -/
abbrev opsA3 : List (HloOp τ sig (Elt F)) :=
  [ StableHlo.nullary main_c_4 (constantI S_ 32 128#32),
    StableHlo.TRef.unary (.of main_c_4 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary (.of main_call3_v2 : StableHlo.TRef sig ⟨S_, .i32⟩) (.of main_call3_v3 : StableHlo.TRef sig ⟨S32768, .i32⟩) (broadcastInDim S32768 ![] bcast_S_S32768),
    StableHlo.TRef.binary (.of main_arg12 : StableHlo.TRef sig ⟨S32768, .i32⟩) (.of main_call3_v3 : StableHlo.TRef sig ⟨S32768, .i32⟩) (.of main_call3_v4 : StableHlo.TRef sig ⟨S32768, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S32768, .i32⟩) (broadcastInDim S32768 ![] bcast_S_S32768),
    StableHlo.TRef.binary (.of main_call3_v4 : StableHlo.TRef sig ⟨S32768, .i32⟩) (.of main_call3_v5 : StableHlo.TRef sig ⟨S32768, .i32⟩) (.of main_call3_v6 : StableHlo.TRef sig ⟨S32768, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S32768, .i32⟩) (broadcastInDim S32768 ![] bcast_S_S32768),
    StableHlo.TRef.binary (.of main_call3_v4 : StableHlo.TRef sig ⟨S32768, .i32⟩) (.of main_call3_v7 : StableHlo.TRef sig ⟨S32768, .i32⟩) (.of main_call3_v8 : StableHlo.TRef sig ⟨S32768, .i1⟩) (cmpi .slt),
    StableHlo.TRef.nullary (.of main_call3_c_3 : StableHlo.TRef sig ⟨S_, .i32⟩) (constantI S_ 32 0#32),
    StableHlo.TRef.binary (.of main_call3_v2 : StableHlo.TRef sig ⟨S_, .i32⟩) (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S32768, .i1⟩) (broadcastInDim S32768 ![] bcast_S_S32768),
    StableHlo.TRef.binary (.of main_call3_v8 : StableHlo.TRef sig ⟨S32768, .i1⟩) (.of main_call3_v10 : StableHlo.TRef sig ⟨S32768, .i1⟩) (.of main_call3_v11 : StableHlo.TRef sig ⟨S32768, .i1⟩) (cmpi .ne),
    StableHlo.TRef.binary (.of main_call3_v11 : StableHlo.TRef sig ⟨S32768, .i1⟩) (.of main_call3_v6 : StableHlo.TRef sig ⟨S32768, .i1⟩) (.of main_call3_v12 : StableHlo.TRef sig ⟨S32768, .i1⟩) andi,
    StableHlo.TRef.unary (.of main_call3_v2 : StableHlo.TRef sig ⟨S_, .i32⟩) (.of main_call3_v13 : StableHlo.TRef sig ⟨S32768, .i32⟩) (broadcastInDim S32768 ![] bcast_S_S32768),
    StableHlo.TRef.binary (.of main_call3_v4 : StableHlo.TRef sig ⟨S32768, .i32⟩) (.of main_call3_v13 : StableHlo.TRef sig ⟨S32768, .i32⟩) (.of main_call3_v14 : StableHlo.TRef sig ⟨S32768, .i32⟩) addi,
    StableHlo.TRef.ternary (.of main_call3_v12 : StableHlo.TRef sig ⟨S32768, .i1⟩) (.of main_call3_v14 : StableHlo.TRef sig ⟨S32768, .i32⟩) (.of main_call3_v4 : StableHlo.TRef sig ⟨S32768, .i32⟩) (.of main_v3 : StableHlo.TRef sig ⟨S32768, .i32⟩) select ]
/-- The buffer each of those operations writes, in order. -/
abbrev opsA3_W : List (Ref sig .tc) := [main_c_4, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v3]
/-- Each of them touches TensorCore references only. -/
theorem opsA3_sub : (opsA3 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- Operations 83 … 106 of the reference's 348, in program order, every call's body in place: the stretch ending with the operation that writes `main_v21`. -/
abbrev opsA4 : List (HloOp τ sig (Elt F)) :=
  [ StableHlo.nullary main_c_5 (constantI S_ 32 1#32),
    StableHlo.unary main_c_5 main_v4 (broadcastInDim S32768 ![] bcast_S_S32768 : (⟨S_, .i32⟩ : BufTy).Contents (Elt F) → (⟨S32768, .i32⟩ : BufTy).Contents (Elt F)),
    StableHlo.binary main_v0 main_v4 main_v5 (cmpi .sge : (⟨S32768, .i32⟩ : BufTy).Contents (Elt F) → (⟨S32768, .i32⟩ : BufTy).Contents (Elt F) → (⟨S32768, .i1⟩ : BufTy).Contents (Elt F)),
    StableHlo.nullary main_c_6 (constantI S_ 32 127#32),
    StableHlo.unary main_c_6 main_v6 (broadcastInDim S32768 ![] bcast_S_S32768 : (⟨S_, .i32⟩ : BufTy).Contents (Elt F) → (⟨S32768, .i32⟩ : BufTy).Contents (Elt F)),
    StableHlo.binary main_v0 main_v6 main_v7 (cmpi .slt : (⟨S32768, .i32⟩ : BufTy).Contents (Elt F) → (⟨S32768, .i32⟩ : BufTy).Contents (Elt F) → (⟨S32768, .i1⟩ : BufTy).Contents (Elt F)),
    StableHlo.binary main_v5 main_v7 main_v8 (andi : (⟨S32768, .i1⟩ : BufTy).Contents (Elt F) → (⟨S32768, .i1⟩ : BufTy).Contents (Elt F) → (⟨S32768, .i1⟩ : BufTy).Contents (Elt F)),
    StableHlo.nullary main_c_7 (constantI S_ 32 1#32),
    StableHlo.unary main_c_7 main_v9 (broadcastInDim S32768 ![] bcast_S_S32768 : (⟨S_, .i32⟩ : BufTy).Contents (Elt F) → (⟨S32768, .i32⟩ : BufTy).Contents (Elt F)),
    StableHlo.binary main_v2 main_v9 main_v10 (cmpi .sge : (⟨S32768, .i32⟩ : BufTy).Contents (Elt F) → (⟨S32768, .i32⟩ : BufTy).Contents (Elt F) → (⟨S32768, .i1⟩ : BufTy).Contents (Elt F)),
    StableHlo.binary main_v8 main_v10 main_v11 (andi : (⟨S32768, .i1⟩ : BufTy).Contents (Elt F) → (⟨S32768, .i1⟩ : BufTy).Contents (Elt F) → (⟨S32768, .i1⟩ : BufTy).Contents (Elt F)),
    StableHlo.nullary main_c_8 (constantI S_ 32 127#32),
    StableHlo.unary main_c_8 main_v12 (broadcastInDim S32768 ![] bcast_S_S32768 : (⟨S_, .i32⟩ : BufTy).Contents (Elt F) → (⟨S32768, .i32⟩ : BufTy).Contents (Elt F)),
    StableHlo.binary main_v2 main_v12 main_v13 (cmpi .slt : (⟨S32768, .i32⟩ : BufTy).Contents (Elt F) → (⟨S32768, .i32⟩ : BufTy).Contents (Elt F) → (⟨S32768, .i1⟩ : BufTy).Contents (Elt F)),
    StableHlo.binary main_v11 main_v13 main_v14 (andi : (⟨S32768, .i1⟩ : BufTy).Contents (Elt F) → (⟨S32768, .i1⟩ : BufTy).Contents (Elt F) → (⟨S32768, .i1⟩ : BufTy).Contents (Elt F)),
    StableHlo.nullary main_c_9 (constantI S_ 32 1#32),
    StableHlo.unary main_c_9 main_v15 (broadcastInDim S32768 ![] bcast_S_S32768 : (⟨S_, .i32⟩ : BufTy).Contents (Elt F) → (⟨S32768, .i32⟩ : BufTy).Contents (Elt F)),
    StableHlo.binary main_v3 main_v15 main_v16 (cmpi .sge : (⟨S32768, .i32⟩ : BufTy).Contents (Elt F) → (⟨S32768, .i32⟩ : BufTy).Contents (Elt F) → (⟨S32768, .i1⟩ : BufTy).Contents (Elt F)),
    StableHlo.binary main_v14 main_v16 main_v17 (andi : (⟨S32768, .i1⟩ : BufTy).Contents (Elt F) → (⟨S32768, .i1⟩ : BufTy).Contents (Elt F) → (⟨S32768, .i1⟩ : BufTy).Contents (Elt F)),
    StableHlo.nullary main_c_10 (constantI S_ 32 127#32),
    StableHlo.unary main_c_10 main_v18 (broadcastInDim S32768 ![] bcast_S_S32768 : (⟨S_, .i32⟩ : BufTy).Contents (Elt F) → (⟨S32768, .i32⟩ : BufTy).Contents (Elt F)),
    StableHlo.binary main_v3 main_v18 main_v19 (cmpi .slt : (⟨S32768, .i32⟩ : BufTy).Contents (Elt F) → (⟨S32768, .i32⟩ : BufTy).Contents (Elt F) → (⟨S32768, .i1⟩ : BufTy).Contents (Elt F)),
    StableHlo.binary main_v17 main_v19 main_v20 (andi : (⟨S32768, .i1⟩ : BufTy).Contents (Elt F) → (⟨S32768, .i1⟩ : BufTy).Contents (Elt F) → (⟨S32768, .i1⟩ : BufTy).Contents (Elt F)),
    StableHlo.unary main_v20 main_v21 (uitofp .f32 : (⟨S32768, .i1⟩ : BufTy).Contents (Elt F) → (⟨S32768, .f32⟩ : BufTy).Contents (Elt F)) ]
/-- The buffer each of those operations writes, in order. -/
abbrev opsA4_W : List (Ref sig .tc) := [main_c_5, main_v4, main_v5, main_c_6, main_v6, main_v7, main_v8, main_c_7, main_v9, main_v10, main_v11, main_c_8, main_v12, main_v13, main_v14, main_c_9, main_v15, main_v16, main_v17, main_c_10, main_v18, main_v19, main_v20, main_v21]
/-- Each of them touches TensorCore references only. -/
theorem opsA4_sub : (opsA4 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub ..⟩

/-- Operations 107 … 135 of the reference's 348, in program order, every call's body in place: the stretch ending with the operation that writes `main_v48`. -/
abbrev opsA5 : List (HloOp τ sig (Elt F)) :=
  [ StableHlo.nullary main_c_11 (constantI S_ 32 0#32),
    StableHlo.unary main_c_11 main_v22 (broadcastInDim S32768 ![] bcast_S_S32768 : (⟨S_, .i32⟩ : BufTy).Contents (Elt F) → (⟨S32768, .i32⟩ : BufTy).Contents (Elt F)),
    StableHlo.binary main_arg12 main_v22 main_v23 (cmpi .slt : (⟨S32768, .i32⟩ : BufTy).Contents (Elt F) → (⟨S32768, .i32⟩ : BufTy).Contents (Elt F) → (⟨S32768, .i1⟩ : BufTy).Contents (Elt F)),
    StableHlo.nullary main_c_12 (constantI S_ 32 2097152#32),
    StableHlo.unary main_c_12 main_v24 (broadcastInDim S32768 ![] bcast_S_S32768 : (⟨S_, .i32⟩ : BufTy).Contents (Elt F) → (⟨S32768, .i32⟩ : BufTy).Contents (Elt F)),
    StableHlo.binary main_arg12 main_v24 main_v25 (addi : (⟨S32768, .i32⟩ : BufTy).Contents (Elt F) → (⟨S32768, .i32⟩ : BufTy).Contents (Elt F) → (⟨S32768, .i32⟩ : BufTy).Contents (Elt F)),
    StableHlo.ternary main_v23 main_v25 main_arg12 main_v26 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v26 main_v27 (broadcastInDim S32768x1 ![0] bcast_S32768_S32768x1_0 : (⟨S32768, .i32⟩ : BufTy).Contents (Elt F) → (⟨S32768x1, .i32⟩ : BufTy).Contents (Elt F)),
    StableHlo.binary main_arg0 main_v27 main_v28 ((fun x i => Host.gather gather_S2097152x3_S32768x1_S32768x3_1_0_n_n_0_1_13 x i) : (⟨S2097152x3, .f32⟩ : BufTy).Contents (Elt F) → (⟨S32768x1, .i32⟩ : BufTy).Contents (Elt F) → (⟨S32768x3, .f32⟩ : BufTy).Contents (Elt F)),
    StableHlo.binary main_v28 main_arg4 main_v29 ((fun l r => Host.dotGeneral dot_S32768x3_S3x128_S32768x128_1_0_0_1_n_n none l r) : (⟨S32768x3, .f32⟩ : BufTy).Contents (Elt F) → (⟨S3x128, .f32⟩ : BufTy).Contents (Elt F) → (⟨S32768x128, .f32⟩ : BufTy).Contents (Elt F)),
    StableHlo.unary main_arg5 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S32768x128 ![0, 1] bcast_S1x128_S32768x128_0_1 : (⟨S1x128, .f32⟩ : BufTy).Contents (Elt F) → (⟨S32768x128, .f32⟩ : BufTy).Contents (Elt F)),
    StableHlo.binary main_v29 main_v31 main_v32 (addf : (⟨S32768x128, .f32⟩ : BufTy).Contents (Elt F) → (⟨S32768x128, .f32⟩ : BufTy).Contents (Elt F) → (⟨S32768x128, .f32⟩ : BufTy).Contents (Elt F)),
    StableHlo.unary main_v32 main_v33 (Host.tanh : (⟨S32768x128, .f32⟩ : BufTy).Contents (Elt F) → (⟨S32768x128, .f32⟩ : BufTy).Contents (Elt F)),
    StableHlo.binary main_v33 main_arg6 main_v34 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.unary main_arg7 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S32768x128 ![0, 1] bcast_S1x128_S32768x128_0_1 : (⟨S1x128, .f32⟩ : BufTy).Contents (Elt F) → (⟨S32768x128, .f32⟩ : BufTy).Contents (Elt F)),
    StableHlo.binary main_v34 main_v36 main_v37 (addf : (⟨S32768x128, .f32⟩ : BufTy).Contents (Elt F) → (⟨S32768x128, .f32⟩ : BufTy).Contents (Elt F) → (⟨S32768x128, .f32⟩ : BufTy).Contents (Elt F)),
    StableHlo.unary main_v37 main_v38 (Host.tanh : (⟨S32768x128, .f32⟩ : BufTy).Contents (Elt F) → (⟨S32768x128, .f32⟩ : BufTy).Contents (Elt F)),
    StableHlo.binary main_v38 main_arg8 main_v39 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.unary main_arg9 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S32768x128 ![0, 1] bcast_S1x128_S32768x128_0_1 : (⟨S1x128, .f32⟩ : BufTy).Contents (Elt F) → (⟨S32768x128, .f32⟩ : BufTy).Contents (Elt F)),
    StableHlo.binary main_v39 main_v41 main_v42 (addf : (⟨S32768x128, .f32⟩ : BufTy).Contents (Elt F) → (⟨S32768x128, .f32⟩ : BufTy).Contents (Elt F) → (⟨S32768x128, .f32⟩ : BufTy).Contents (Elt F)),
    StableHlo.unary main_v42 main_v43 (Host.tanh : (⟨S32768x128, .f32⟩ : BufTy).Contents (Elt F) → (⟨S32768x128, .f32⟩ : BufTy).Contents (Elt F)),
    StableHlo.binary main_v43 main_arg10 main_v44 ((fun l r => Host.dotGeneral dot_S32768x128_S128x1_S32768x1_1_0_0_1_n_n none l r) : (⟨S32768x128, .f32⟩ : BufTy).Contents (Elt F) → (⟨S128x1, .f32⟩ : BufTy).Contents (Elt F) → (⟨S32768x1, .f32⟩ : BufTy).Contents (Elt F)),
    StableHlo.unary main_arg11 main_v45 (broadcastInDim S1x1 ![1] bcast_S1_S1x1_1 : (⟨S1, .f32⟩ : BufTy).Contents (Elt F) → (⟨S1x1, .f32⟩ : BufTy).Contents (Elt F)),
    StableHlo.unary main_v45 main_v46 (broadcastInDim S32768x1 ![0, 1] bcast_S1x1_S32768x1_0_1 : (⟨S1x1, .f32⟩ : BufTy).Contents (Elt F) → (⟨S32768x1, .f32⟩ : BufTy).Contents (Elt F)),
    StableHlo.binary main_v44 main_v46 main_v47 (addf : (⟨S32768x1, .f32⟩ : BufTy).Contents (Elt F) → (⟨S32768x1, .f32⟩ : BufTy).Contents (Elt F) → (⟨S32768x1, .f32⟩ : BufTy).Contents (Elt F)),
    StableHlo.reshape main_v47 main_v48 rfl shapeCasts_S32768x1_S32768 ]
/-- The buffer each of those operations writes, in order. -/
abbrev opsA5_W : List (Ref sig .tc) := [main_c_11, main_v22, main_v23, main_c_12, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48]
/-- Each of them touches TensorCore references only. -/
theorem opsA5_sub : (opsA5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., reshape_bufs_sub ..⟩

/-- Operations 136 … 151 of the reference's 348, in program order, every call's body in place: the stretch ending with the operation that writes `main_v60`. -/
abbrev opsA6 : List (HloOp τ sig (Elt F)) :=
  [ StableHlo.nullary main_c_13 (constantI S_ 32 0#32),
    StableHlo.unary main_c_13 main_v49 (broadcastInDim S32768 ![] bcast_S_S32768 : (⟨S_, .i32⟩ : BufTy).Contents (Elt F) → (⟨S32768, .i32⟩ : BufTy).Contents (Elt F)),
    StableHlo.binary main_arg12 main_v49 main_v50 (cmpi .slt : (⟨S32768, .i32⟩ : BufTy).Contents (Elt F) → (⟨S32768, .i32⟩ : BufTy).Contents (Elt F) → (⟨S32768, .i1⟩ : BufTy).Contents (Elt F)),
    StableHlo.nullary main_c_14 (constantI S_ 32 2097152#32),
    StableHlo.unary main_c_14 main_v51 (broadcastInDim S32768 ![] bcast_S_S32768 : (⟨S_, .i32⟩ : BufTy).Contents (Elt F) → (⟨S32768, .i32⟩ : BufTy).Contents (Elt F)),
    StableHlo.binary main_arg12 main_v51 main_v52 (addi : (⟨S32768, .i32⟩ : BufTy).Contents (Elt F) → (⟨S32768, .i32⟩ : BufTy).Contents (Elt F) → (⟨S32768, .i32⟩ : BufTy).Contents (Elt F)),
    StableHlo.ternary main_v50 main_v52 main_arg12 main_v53 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v53 main_v54 (broadcastInDim S32768x1 ![0] bcast_S32768_S32768x1_0 : (⟨S32768, .i32⟩ : BufTy).Contents (Elt F) → (⟨S32768x1, .i32⟩ : BufTy).Contents (Elt F)),
    StableHlo.binary main_arg1 main_v54 main_v55 ((fun x i => Host.gather gather_S2097152x1_S32768x1_S32768x1_1_0_n_n_0_1_11 x i) : (⟨S2097152x1, .f32⟩ : BufTy).Contents (Elt F) → (⟨S32768x1, .i32⟩ : BufTy).Contents (Elt F) → (⟨S32768x1, .f32⟩ : BufTy).Contents (Elt F)),
    StableHlo.reshape main_v55 main_v56 rfl shapeCasts_S32768x1_S32768,
    StableHlo.binary main_v48 main_v56 main_v57 (subf : (⟨S32768, .f32⟩ : BufTy).Contents (Elt F) → (⟨S32768, .f32⟩ : BufTy).Contents (Elt F) → (⟨S32768, .f32⟩ : BufTy).Contents (Elt F)),
    StableHlo.unary main_v57 main_v58 (Host.absf : (⟨S32768, .f32⟩ : BufTy).Contents (Elt F) → (⟨S32768, .f32⟩ : BufTy).Contents (Elt F)),
    StableHlo.nullary main_cst (constant S_ .f32 0x00000000#32),
    StableHlo.binary main_v58 main_cst main_v59 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    StableHlo.nullary main_cst_15 (constant S_ .f32 0x47000000#32),
    StableHlo.binary main_v59 main_cst_15 main_v60 (Host.divf : (⟨S_, .f32⟩ : BufTy).Contents (Elt F) → (⟨S_, .f32⟩ : BufTy).Contents (Elt F) → (⟨S_, .f32⟩ : BufTy).Contents (Elt F)) ]
/-- The buffer each of those operations writes, in order. -/
abbrev opsA6_W : List (Ref sig .tc) := [main_c_13, main_v49, main_v50, main_c_14, main_v51, main_v52, main_v53, main_v54, main_v55, main_v56, main_v57, main_v58, main_cst, main_v59, main_cst_15, main_v60]
/-- Each of them touches TensorCore references only. -/
theorem opsA6_sub : (opsA6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., nullary_bufs_sub .., binary_bufs_sub .., nullary_bufs_sub .., binary_bufs_sub ..⟩

/-- Operations 152 … 187 of the reference's 348, in program order, every call's body in place: the stretch ending with the operation that writes `main_v87`. -/
abbrev opsA7 : List (HloOp τ sig (Elt F)) :=
  [ StableHlo.unary main_v0 main_v61 (broadcastInDim S32768x1 ![0] bcast_S32768_S32768x1_0 : (⟨S32768, .i32⟩ : BufTy).Contents (Elt F) → (⟨S32768x1, .i32⟩ : BufTy).Contents (Elt F)),
    StableHlo.unary main_v2 main_v62 (broadcastInDim S32768x1 ![0] bcast_S32768_S32768x1_0 : (⟨S32768, .i32⟩ : BufTy).Contents (Elt F) → (⟨S32768x1, .i32⟩ : BufTy).Contents (Elt F)),
    StableHlo.unary main_v3 main_v63 (broadcastInDim S32768x1 ![0] bcast_S32768_S32768x1_0 : (⟨S32768, .i32⟩ : BufTy).Contents (Elt F) → (⟨S32768x1, .i32⟩ : BufTy).Contents (Elt F)),
    StableHlo.nary ![main_v61, main_v62, main_v63] main_v64 (fun u => concatenate S32768x3 1 [⟨S32768x1, u 0⟩, ⟨S32768x1, u 1⟩, ⟨S32768x1, u 2⟩] concatenates_S32768x1_S32768x1_S32768x1_S32768x3_d1),
    StableHlo.unary main_v64 main_v65 (broadcastInDim S32768x1x3 ![0, 2] bcast_S32768x3_S32768x1x3_0_2 : (⟨S32768x3, .i32⟩ : BufTy).Contents (Elt F) → (⟨S32768x1x3, .i32⟩ : BufTy).Contents (Elt F)),
    StableHlo.unary main_c main_v66 (broadcastInDim S1x8x3 ![1, 2] bcast_S8x3_S1x8x3_1_2 : (⟨S8x3, .i32⟩ : BufTy).Contents (Elt F) → (⟨S1x8x3, .i32⟩ : BufTy).Contents (Elt F)),
    StableHlo.unary main_v65 main_v67 (broadcastInDim S32768x8x3 ![0, 1, 2] bcast_S32768x1x3_S32768x8x3_0_1_2 : (⟨S32768x1x3, .i32⟩ : BufTy).Contents (Elt F) → (⟨S32768x8x3, .i32⟩ : BufTy).Contents (Elt F)),
    StableHlo.unary main_v66 main_v68 (broadcastInDim S32768x8x3 ![0, 1, 2] bcast_S1x8x3_S32768x8x3_0_1_2 : (⟨S1x8x3, .i32⟩ : BufTy).Contents (Elt F) → (⟨S32768x8x3, .i32⟩ : BufTy).Contents (Elt F)),
    StableHlo.binary main_v67 main_v68 main_v69 (addi : (⟨S32768x8x3, .i32⟩ : BufTy).Contents (Elt F) → (⟨S32768x8x3, .i32⟩ : BufTy).Contents (Elt F) → (⟨S32768x8x3, .i32⟩ : BufTy).Contents (Elt F)),
    StableHlo.unary main_v64 main_v70 (broadcastInDim S32768x1x3 ![0, 2] bcast_S32768x3_S32768x1x3_0_2 : (⟨S32768x3, .i32⟩ : BufTy).Contents (Elt F) → (⟨S32768x1x3, .i32⟩ : BufTy).Contents (Elt F)),
    StableHlo.unary main_c_0 main_v71 (broadcastInDim S1x8x3 ![1, 2] bcast_S8x3_S1x8x3_1_2 : (⟨S8x3, .i32⟩ : BufTy).Contents (Elt F) → (⟨S1x8x3, .i32⟩ : BufTy).Contents (Elt F)),
    StableHlo.unary main_v70 main_v72 (broadcastInDim S32768x8x3 ![0, 1, 2] bcast_S32768x1x3_S32768x8x3_0_1_2 : (⟨S32768x1x3, .i32⟩ : BufTy).Contents (Elt F) → (⟨S32768x8x3, .i32⟩ : BufTy).Contents (Elt F)),
    StableHlo.unary main_v71 main_v73 (broadcastInDim S32768x8x3 ![0, 1, 2] bcast_S1x8x3_S32768x8x3_0_1_2 : (⟨S1x8x3, .i32⟩ : BufTy).Contents (Elt F) → (⟨S32768x8x3, .i32⟩ : BufTy).Contents (Elt F)),
    StableHlo.binary main_v72 main_v73 main_v74 (addi : (⟨S32768x8x3, .i32⟩ : BufTy).Contents (Elt F) → (⟨S32768x8x3, .i32⟩ : BufTy).Contents (Elt F) → (⟨S32768x8x3, .i32⟩ : BufTy).Contents (Elt F)),
    StableHlo.unary main_v69 main_v75 ((extractStridedSlice S32768x8x1 ![0, 0, 0] · slices_S32768x8x3_S32768x8x1_0_0_0) : (⟨S32768x8x3, .i32⟩ : BufTy).Contents (Elt F) → (⟨S32768x8x1, .i32⟩ : BufTy).Contents (Elt F)),
    StableHlo.reshape main_v75 main_v76 rfl shapeCasts_S32768x8x1_S32768x8,
    StableHlo.nullary main_c_16 (constantI S_ 32 16129#32),
    StableHlo.unary main_c_16 main_v77 (broadcastInDim S32768x8 ![] bcast_S_S32768x8 : (⟨S_, .i32⟩ : BufTy).Contents (Elt F) → (⟨S32768x8, .i32⟩ : BufTy).Contents (Elt F)),
    StableHlo.binary main_v76 main_v77 main_v78 (muli : (⟨S32768x8, .i32⟩ : BufTy).Contents (Elt F) → (⟨S32768x8, .i32⟩ : BufTy).Contents (Elt F) → (⟨S32768x8, .i32⟩ : BufTy).Contents (Elt F)),
    StableHlo.unary main_v69 main_v79 ((extractStridedSlice S32768x8x1 ![0, 0, 1] · slices_S32768x8x3_S32768x8x1_0_0_1) : (⟨S32768x8x3, .i32⟩ : BufTy).Contents (Elt F) → (⟨S32768x8x1, .i32⟩ : BufTy).Contents (Elt F)),
    StableHlo.reshape main_v79 main_v80 rfl shapeCasts_S32768x8x1_S32768x8,
    StableHlo.nullary main_c_17 (constantI S_ 32 127#32),
    StableHlo.unary main_c_17 main_v81 (broadcastInDim S32768x8 ![] bcast_S_S32768x8 : (⟨S_, .i32⟩ : BufTy).Contents (Elt F) → (⟨S32768x8, .i32⟩ : BufTy).Contents (Elt F)),
    StableHlo.binary main_v80 main_v81 main_v82 (muli : (⟨S32768x8, .i32⟩ : BufTy).Contents (Elt F) → (⟨S32768x8, .i32⟩ : BufTy).Contents (Elt F) → (⟨S32768x8, .i32⟩ : BufTy).Contents (Elt F)),
    StableHlo.binary main_v78 main_v82 main_v83 (addi : (⟨S32768x8, .i32⟩ : BufTy).Contents (Elt F) → (⟨S32768x8, .i32⟩ : BufTy).Contents (Elt F) → (⟨S32768x8, .i32⟩ : BufTy).Contents (Elt F)),
    StableHlo.unary main_v69 main_v84 ((extractStridedSlice S32768x8x1 ![0, 0, 2] · slices_S32768x8x3_S32768x8x1_0_0_2) : (⟨S32768x8x3, .i32⟩ : BufTy).Contents (Elt F) → (⟨S32768x8x1, .i32⟩ : BufTy).Contents (Elt F)),
    StableHlo.reshape main_v84 main_v85 rfl shapeCasts_S32768x8x1_S32768x8,
    StableHlo.binary main_v83 main_v85 main_v86 (addi : (⟨S32768x8, .i32⟩ : BufTy).Contents (Elt F) → (⟨S32768x8, .i32⟩ : BufTy).Contents (Elt F) → (⟨S32768x8, .i32⟩ : BufTy).Contents (Elt F)),
    StableHlo.nullary main_c_18 (constantI S_ 32 0#32),
    StableHlo.nullary main_c_19 (constantI S_ 32 2048382#32),
    StableHlo.TRef.unary (.of main_c_18 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S32768x8, .i32⟩) (broadcastInDim S32768x8 ![] bcast_S_S32768x8),
    StableHlo.TRef.binary (.of main_call4_v1 : StableHlo.TRef sig ⟨S32768x8, .i32⟩) (.of main_v86 : StableHlo.TRef sig ⟨S32768x8, .i32⟩) (.of main_call4_v2 : StableHlo.TRef sig ⟨S32768x8, .i32⟩) maxsi,
    StableHlo.TRef.unary (.of main_c_19 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S32768x8, .i32⟩) (broadcastInDim S32768x8 ![] bcast_S_S32768x8),
    StableHlo.TRef.binary (.of main_call4_v4 : StableHlo.TRef sig ⟨S32768x8, .i32⟩) (.of main_call4_v2 : StableHlo.TRef sig ⟨S32768x8, .i32⟩) (.of main_v87 : StableHlo.TRef sig ⟨S32768x8, .i32⟩) minsi ]
/-- The buffer each of those operations writes, in order. -/
abbrev opsA7_W : List (Ref sig .tc) := [main_v61, main_v62, main_v63, main_v64, main_v65, main_v66, main_v67, main_v68, main_v69, main_v70, main_v71, main_v72, main_v73, main_v74, main_v75, main_v76, main_c_16, main_v77, main_v78, main_v79, main_v80, main_c_17, main_v81, main_v82, main_v83, main_v84, main_v85, main_v86, main_c_18, main_c_19, main_call4_v0, main_call4_v1, main_call4_v2, main_call4_v3, main_call4_v4, main_v87]
/-- Each of them touches TensorCore references only. -/
theorem opsA7_sub : (opsA7 : List (HloOp τ sig (Elt F))).Forall fun op => op.bufs ⊆ tcRefs τ sig :=
  ⟨unary_bufs_sub .., unary_bufs_sub .., unary_bufs_sub .., nary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., binary_bufs_sub .., nullary_bufs_sub .., nullary_bufs_sub .., unary_bufs_sub .., unary_bufs_sub .., binary_bufs_sub .., unary_bufs_sub .., unary_bufs_sub .., binary_bufs_sub ..⟩

/-- Operations 188 … 209 of the reference's 348, in program order, every call's body in place: the stretch ending with the operation that writes `main_v100`. -/
abbrev opsA8 : List (HloOp τ sig (Elt F)) :=
  [ StableHlo.unary main_v74 main_v88 ((extractStridedSlice S32768x8x1 ![0, 0, 0] · slices_S32768x8x3_S32768x8x1_0_0_0) : (⟨S32768x8x3, .i32⟩ : BufTy).Contents (Elt F) → (⟨S32768x8x1, .i32⟩ : BufTy).Contents (Elt F)),
    StableHlo.reshape main_v88 main_v89 rfl shapeCasts_S32768x8x1_S32768x8,
    StableHlo.nullary main_c_20 (constantI S_ 32 16129#32),
    StableHlo.unary main_c_20 main_v90 (broadcastInDim S32768x8 ![] bcast_S_S32768x8 : (⟨S_, .i32⟩ : BufTy).Contents (Elt F) → (⟨S32768x8, .i32⟩ : BufTy).Contents (Elt F)),
    StableHlo.binary main_v89 main_v90 main_v91 (muli : (⟨S32768x8, .i32⟩ : BufTy).Contents (Elt F) → (⟨S32768x8, .i32⟩ : BufTy).Contents (Elt F) → (⟨S32768x8, .i32⟩ : BufTy).Contents (Elt F)),
    StableHlo.unary main_v74 main_v92 ((extractStridedSlice S32768x8x1 ![0, 0, 1] · slices_S32768x8x3_S32768x8x1_0_0_1) : (⟨S32768x8x3, .i32⟩ : BufTy).Contents (Elt F) → (⟨S32768x8x1, .i32⟩ : BufTy).Contents (Elt F)),
    StableHlo.reshape main_v92 main_v93 rfl shapeCasts_S32768x8x1_S32768x8,
    StableHlo.nullary main_c_21 (constantI S_ 32 127#32),
    StableHlo.unary main_c_21 main_v94 (broadcastInDim S32768x8 ![] bcast_S_S32768x8 : (⟨S_, .i32⟩ : BufTy).Contents (Elt F) → (⟨S32768x8, .i32⟩ : BufTy).Contents (Elt F)),
    StableHlo.binary main_v93 main_v94 main_v95 (muli : (⟨S32768x8, .i32⟩ : BufTy).Contents (Elt F) → (⟨S32768x8, .i32⟩ : BufTy).Contents (Elt F) → (⟨S32768x8, .i32⟩ : BufTy).Contents (Elt F)),
    StableHlo.binary main_v91 main_v95 main_v96 (addi : (⟨S32768x8, .i32⟩ : BufTy).Contents (Elt F) → (⟨S32768x8, .i32⟩ : BufTy).Contents (Elt F) → (⟨S32768x8, .i32⟩ : BufTy).Contents (Elt F)),
    StableHlo.unary main_v74 main_v97 ((extractStridedSlice S32768x8x1 ![0, 0, 2] · slices_S32768x8x3_S32768x8x1_0_0_2) : (⟨S32768x8x3, .i32⟩ : BufTy).Contents (Elt F) → (⟨S32768x8x1, .i32⟩ : BufTy).Contents (Elt F)),
    StableHlo.reshape main_v97 main_v98 rfl shapeCasts_S32768x8x1_S32768x8,
    StableHlo.binary main_v96 main_v98 main_v99 (addi : (⟨S32768x8, .i32⟩ : BufTy).Contents (Elt F) → (⟨S32768x8, .i32⟩ : BufTy).Contents (Elt F) → (⟨S32768x8, .i32⟩ : BufTy).Contents (Elt F)),
    StableHlo.nullary main_c_22 (constantI S_ 32 0#32),
    StableHlo.nullary main_c_23 (constantI S_ 32 2097151#32),
    StableHlo.TRef.unary (.of main_c_22 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S32768x8, .i32⟩) (broadcastInDim S32768x8 ![] bcast_S_S32768x8),
    StableHlo.TRef.binary (.of main_call5_v1 : StableHlo.TRef sig ⟨S32768x8, .i32⟩) (.of main_v99 : StableHlo.TRef sig ⟨S32768x8, .i32⟩) (.of main_call5_v2 : StableHlo.TRef sig ⟨S32768x8, .i32⟩) maxsi,
    StableHlo.TRef.unary (.of main_c_23 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S32768x8, .i32⟩) (broadcastInDim S32768x8 ![] bcast_S_S32768x8),
    StableHlo.TRef.binary (.of main_call5_v4 : StableHlo.TRef sig ⟨S32768x8, .i32⟩) (.of main_call5_v2 : StableHlo.TRef sig ⟨S32768x8, .i32⟩) (.of main_v100 : StableHlo.TRef sig ⟨S32768x8, .i32⟩) minsi ]
/-- The buffer each of those operations writes, in order. -/
abbrev opsA8_W : List (Ref sig .tc) := [main_v88, main_v89, main_c_20, main_v90, main_v91, main_v92, main_v93, main_c_21, main_v94, main_v95, main_v96, main_v97, main_v98, main_v99, main_c_22, main_c_23, main_call5_v0, main_call5_v1, main_call5_v2, main_call5_v3, main_call5_v4, main_v100]
/-- Each of them touches TensorCore references only. -/
theorem opsA8_sub : (opsA8 : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., binary_bufs_sub .., nullary_bufs_sub .., nullary_bufs_sub .., unary_bufs_sub .., unary_bufs_sub .., binary_bufs_sub .., unary_bufs_sub .., unary_bufs_sub .., binary_bufs_sub ..⟩

/-- Operations 210 … 239 of the reference's 348, in program order, every call's body in place: the stretch ending with the operation that writes `main_v128`. -/
abbrev opsA9 : List (HloOp τ sig (Elt F)) :=
  [ StableHlo.nullary main_c_24 (constantI S_ 32 0#32),
    StableHlo.unary main_c_24 main_v101 (broadcastInDim S32768x8 ![] bcast_S_S32768x8 : (⟨S_, .i32⟩ : BufTy).Contents (Elt F) → (⟨S32768x8, .i32⟩ : BufTy).Contents (Elt F)),
    StableHlo.binary main_v87 main_v101 main_v102 (cmpi .slt : (⟨S32768x8, .i32⟩ : BufTy).Contents (Elt F) → (⟨S32768x8, .i32⟩ : BufTy).Contents (Elt F) → (⟨S32768x8, .i1⟩ : BufTy).Contents (Elt F)),
    StableHlo.nullary main_c_25 (constantI S_ 32 2048383#32),
    StableHlo.unary main_c_25 main_v103 (broadcastInDim S32768x8 ![] bcast_S_S32768x8 : (⟨S_, .i32⟩ : BufTy).Contents (Elt F) → (⟨S32768x8, .i32⟩ : BufTy).Contents (Elt F)),
    StableHlo.binary main_v87 main_v103 main_v104 (addi : (⟨S32768x8, .i32⟩ : BufTy).Contents (Elt F) → (⟨S32768x8, .i32⟩ : BufTy).Contents (Elt F) → (⟨S32768x8, .i32⟩ : BufTy).Contents (Elt F)),
    StableHlo.ternary main_v102 main_v104 main_v87 main_v105 (select : (⟨S32768x8, .i1⟩ : BufTy).Contents (Elt F) → (⟨S32768x8, .i32⟩ : BufTy).Contents (Elt F) → (⟨S32768x8, .i32⟩ : BufTy).Contents (Elt F) → (⟨S32768x8, .i32⟩ : BufTy).Contents (Elt F)),
    StableHlo.unary main_v105 main_v106 (broadcastInDim S32768x8x1 ![0, 1] bcast_S32768x8_S32768x8x1_0_1 : (⟨S32768x8, .i32⟩ : BufTy).Contents (Elt F) → (⟨S32768x8x1, .i32⟩ : BufTy).Contents (Elt F)),
    StableHlo.binary main_arg2 main_v106 main_v107 ((fun x i => Host.gather gather_S2048383x3_S32768x8x1_S32768x8x3_2_0_n_n_0_2_13 x i) : (⟨S2048383x3, .f32⟩ : BufTy).Contents (Elt F) → (⟨S32768x8x1, .i32⟩ : BufTy).Contents (Elt F) → (⟨S32768x8x3, .f32⟩ : BufTy).Contents (Elt F)),
    StableHlo.reshape main_v107 main_v108 rfl shapeCasts_S32768x8x3_S262144x3,
    StableHlo.binary main_v108 main_arg4 main_v109 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    StableHlo.unary main_arg5 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S262144x128 ![0, 1] bcast_S1x128_S262144x128_0_1 : (⟨S1x128, .f32⟩ : BufTy).Contents (Elt F) → (⟨S262144x128, .f32⟩ : BufTy).Contents (Elt F)),
    StableHlo.binary main_v109 main_v111 main_v112 (addf : (⟨S262144x128, .f32⟩ : BufTy).Contents (Elt F) → (⟨S262144x128, .f32⟩ : BufTy).Contents (Elt F) → (⟨S262144x128, .f32⟩ : BufTy).Contents (Elt F)),
    StableHlo.unary main_v112 main_v113 (Host.tanh : (⟨S262144x128, .f32⟩ : BufTy).Contents (Elt F) → (⟨S262144x128, .f32⟩ : BufTy).Contents (Elt F)),
    StableHlo.binary main_v113 main_arg6 main_v114 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg7 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S262144x128 ![0, 1] bcast_S1x128_S262144x128_0_1 : (⟨S1x128, .f32⟩ : BufTy).Contents (Elt F) → (⟨S262144x128, .f32⟩ : BufTy).Contents (Elt F)),
    StableHlo.binary main_v114 main_v116 main_v117 (addf : (⟨S262144x128, .f32⟩ : BufTy).Contents (Elt F) → (⟨S262144x128, .f32⟩ : BufTy).Contents (Elt F) → (⟨S262144x128, .f32⟩ : BufTy).Contents (Elt F)),
    StableHlo.unary main_v117 main_v118 (Host.tanh : (⟨S262144x128, .f32⟩ : BufTy).Contents (Elt F) → (⟨S262144x128, .f32⟩ : BufTy).Contents (Elt F)),
    StableHlo.binary main_v118 main_arg8 main_v119 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg9 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S262144x128 ![0, 1] bcast_S1x128_S262144x128_0_1 : (⟨S1x128, .f32⟩ : BufTy).Contents (Elt F) → (⟨S262144x128, .f32⟩ : BufTy).Contents (Elt F)),
    StableHlo.binary main_v119 main_v121 main_v122 (addf : (⟨S262144x128, .f32⟩ : BufTy).Contents (Elt F) → (⟨S262144x128, .f32⟩ : BufTy).Contents (Elt F) → (⟨S262144x128, .f32⟩ : BufTy).Contents (Elt F)),
    StableHlo.unary main_v122 main_v123 (Host.tanh : (⟨S262144x128, .f32⟩ : BufTy).Contents (Elt F) → (⟨S262144x128, .f32⟩ : BufTy).Contents (Elt F)),
    StableHlo.binary main_v123 main_arg10 main_v124 ((fun l r => Host.dotGeneral dot_S262144x128_S128x1_S262144x1_1_0_0_1_n_n none l r) : (⟨S262144x128, .f32⟩ : BufTy).Contents (Elt F) → (⟨S128x1, .f32⟩ : BufTy).Contents (Elt F) → (⟨S262144x1, .f32⟩ : BufTy).Contents (Elt F)),
    StableHlo.unary main_arg11 main_v125 (broadcastInDim S1x1 ![1] bcast_S1_S1x1_1 : (⟨S1, .f32⟩ : BufTy).Contents (Elt F) → (⟨S1x1, .f32⟩ : BufTy).Contents (Elt F)),
    StableHlo.unary main_v125 main_v126 (broadcastInDim S262144x1 ![0, 1] bcast_S1x1_S262144x1_0_1 : (⟨S1x1, .f32⟩ : BufTy).Contents (Elt F) → (⟨S262144x1, .f32⟩ : BufTy).Contents (Elt F)),
    StableHlo.binary main_v124 main_v126 main_v127 (addf : (⟨S262144x1, .f32⟩ : BufTy).Contents (Elt F) → (⟨S262144x1, .f32⟩ : BufTy).Contents (Elt F) → (⟨S262144x1, .f32⟩ : BufTy).Contents (Elt F)),
    StableHlo.reshape main_v127 main_v128 rfl shapeCasts_S262144x1_S32768x8 ]
/-- The buffer each of those operations writes, in order. -/
abbrev opsA9_W : List (Ref sig .tc) := [main_c_24, main_v101, main_v102, main_c_25, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128]
/-- Each of them touches TensorCore references only. -/
theorem opsA9_sub : (opsA9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., reshape_bufs_sub ..⟩

/-- Operations 240 … 269 of the reference's 348, in program order, every call's body in place: the stretch ending with the operation that writes `main_v156`. -/
abbrev opsA10 : List (HloOp τ sig (Elt F)) :=
  [ StableHlo.nullary main_c_26 (constantI S_ 32 0#32),
    StableHlo.unary main_c_26 main_v129 (broadcastInDim S32768x8 ![] bcast_S_S32768x8 : (⟨S_, .i32⟩ : BufTy).Contents (Elt F) → (⟨S32768x8, .i32⟩ : BufTy).Contents (Elt F)),
    StableHlo.binary main_v100 main_v129 main_v130 (cmpi .slt : (⟨S32768x8, .i32⟩ : BufTy).Contents (Elt F) → (⟨S32768x8, .i32⟩ : BufTy).Contents (Elt F) → (⟨S32768x8, .i1⟩ : BufTy).Contents (Elt F)),
    StableHlo.nullary main_c_27 (constantI S_ 32 2097152#32),
    StableHlo.unary main_c_27 main_v131 (broadcastInDim S32768x8 ![] bcast_S_S32768x8 : (⟨S_, .i32⟩ : BufTy).Contents (Elt F) → (⟨S32768x8, .i32⟩ : BufTy).Contents (Elt F)),
    StableHlo.binary main_v100 main_v131 main_v132 (addi : (⟨S32768x8, .i32⟩ : BufTy).Contents (Elt F) → (⟨S32768x8, .i32⟩ : BufTy).Contents (Elt F) → (⟨S32768x8, .i32⟩ : BufTy).Contents (Elt F)),
    StableHlo.ternary main_v130 main_v132 main_v100 main_v133 (select : (⟨S32768x8, .i1⟩ : BufTy).Contents (Elt F) → (⟨S32768x8, .i32⟩ : BufTy).Contents (Elt F) → (⟨S32768x8, .i32⟩ : BufTy).Contents (Elt F) → (⟨S32768x8, .i32⟩ : BufTy).Contents (Elt F)),
    StableHlo.unary main_v133 main_v134 (broadcastInDim S32768x8x1 ![0, 1] bcast_S32768x8_S32768x8x1_0_1 : (⟨S32768x8, .i32⟩ : BufTy).Contents (Elt F) → (⟨S32768x8x1, .i32⟩ : BufTy).Contents (Elt F)),
    StableHlo.binary main_arg0 main_v134 main_v135 ((fun x i => Host.gather gather_S2097152x3_S32768x8x1_S32768x8x3_2_0_n_n_0_2_13 x i) : (⟨S2097152x3, .f32⟩ : BufTy).Contents (Elt F) → (⟨S32768x8x1, .i32⟩ : BufTy).Contents (Elt F) → (⟨S32768x8x3, .f32⟩ : BufTy).Contents (Elt F)),
    StableHlo.reshape main_v135 main_v136 rfl shapeCasts_S32768x8x3_S262144x3,
    StableHlo.binary main_v136 main_arg4 main_v137 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    StableHlo.unary main_arg5 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S262144x128 ![0, 1] bcast_S1x128_S262144x128_0_1 : (⟨S1x128, .f32⟩ : BufTy).Contents (Elt F) → (⟨S262144x128, .f32⟩ : BufTy).Contents (Elt F)),
    StableHlo.binary main_v137 main_v139 main_v140 (addf : (⟨S262144x128, .f32⟩ : BufTy).Contents (Elt F) → (⟨S262144x128, .f32⟩ : BufTy).Contents (Elt F) → (⟨S262144x128, .f32⟩ : BufTy).Contents (Elt F)),
    StableHlo.unary main_v140 main_v141 (Host.tanh : (⟨S262144x128, .f32⟩ : BufTy).Contents (Elt F) → (⟨S262144x128, .f32⟩ : BufTy).Contents (Elt F)),
    StableHlo.binary main_v141 main_arg6 main_v142 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg7 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S262144x128 ![0, 1] bcast_S1x128_S262144x128_0_1 : (⟨S1x128, .f32⟩ : BufTy).Contents (Elt F) → (⟨S262144x128, .f32⟩ : BufTy).Contents (Elt F)),
    StableHlo.binary main_v142 main_v144 main_v145 (addf : (⟨S262144x128, .f32⟩ : BufTy).Contents (Elt F) → (⟨S262144x128, .f32⟩ : BufTy).Contents (Elt F) → (⟨S262144x128, .f32⟩ : BufTy).Contents (Elt F)),
    StableHlo.unary main_v145 main_v146 (Host.tanh : (⟨S262144x128, .f32⟩ : BufTy).Contents (Elt F) → (⟨S262144x128, .f32⟩ : BufTy).Contents (Elt F)),
    StableHlo.binary main_v146 main_arg8 main_v147 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg9 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S262144x128 ![0, 1] bcast_S1x128_S262144x128_0_1 : (⟨S1x128, .f32⟩ : BufTy).Contents (Elt F) → (⟨S262144x128, .f32⟩ : BufTy).Contents (Elt F)),
    StableHlo.binary main_v147 main_v149 main_v150 (addf : (⟨S262144x128, .f32⟩ : BufTy).Contents (Elt F) → (⟨S262144x128, .f32⟩ : BufTy).Contents (Elt F) → (⟨S262144x128, .f32⟩ : BufTy).Contents (Elt F)),
    StableHlo.unary main_v150 main_v151 (Host.tanh : (⟨S262144x128, .f32⟩ : BufTy).Contents (Elt F) → (⟨S262144x128, .f32⟩ : BufTy).Contents (Elt F)),
    StableHlo.binary main_v151 main_arg10 main_v152 ((fun l r => Host.dotGeneral dot_S262144x128_S128x1_S262144x1_1_0_0_1_n_n none l r) : (⟨S262144x128, .f32⟩ : BufTy).Contents (Elt F) → (⟨S128x1, .f32⟩ : BufTy).Contents (Elt F) → (⟨S262144x1, .f32⟩ : BufTy).Contents (Elt F)),
    StableHlo.unary main_arg11 main_v153 (broadcastInDim S1x1 ![1] bcast_S1_S1x1_1 : (⟨S1, .f32⟩ : BufTy).Contents (Elt F) → (⟨S1x1, .f32⟩ : BufTy).Contents (Elt F)),
    StableHlo.unary main_v153 main_v154 (broadcastInDim S262144x1 ![0, 1] bcast_S1x1_S262144x1_0_1 : (⟨S1x1, .f32⟩ : BufTy).Contents (Elt F) → (⟨S262144x1, .f32⟩ : BufTy).Contents (Elt F)),
    StableHlo.binary main_v152 main_v154 main_v155 (addf : (⟨S262144x1, .f32⟩ : BufTy).Contents (Elt F) → (⟨S262144x1, .f32⟩ : BufTy).Contents (Elt F) → (⟨S262144x1, .f32⟩ : BufTy).Contents (Elt F)),
    StableHlo.reshape main_v155 main_v156 rfl shapeCasts_S262144x1_S32768x8 ]
/-- The buffer each of those operations writes, in order. -/
abbrev opsA10_W : List (Ref sig .tc) := [main_c_26, main_v129, main_v130, main_c_27, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156]
/-- Each of them touches TensorCore references only. -/
theorem opsA10_sub : (opsA10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., reshape_bufs_sub ..⟩

/-- Operations 270 … 328 of the reference's 348, in program order, every call's body in place: the stretch ending with the operation that writes `main_v212`. -/
abbrev opsA11 : List (HloOp τ sig (Elt F)) :=
  [ StableHlo.unary main_v156 main_v157 ((extractStridedSlice S32768x1 ![0, 7] · slices_S32768x8_S32768x1_0_7) : (⟨S32768x8, .f32⟩ : BufTy).Contents (Elt F) → (⟨S32768x1, .f32⟩ : BufTy).Contents (Elt F)),
    StableHlo.reshape main_v157 main_v158 rfl shapeCasts_S32768x1_S32768,
    StableHlo.unary main_v156 main_v159 ((extractStridedSlice S32768x1 ![0, 0] · slices_S32768x8_S32768x1_0_0) : (⟨S32768x8, .f32⟩ : BufTy).Contents (Elt F) → (⟨S32768x1, .f32⟩ : BufTy).Contents (Elt F)),
    StableHlo.reshape main_v159 main_v160 rfl shapeCasts_S32768x1_S32768,
    StableHlo.unary main_v128 main_v161 ((extractStridedSlice S32768x1 ![0, 7] · slices_S32768x8_S32768x1_0_7) : (⟨S32768x8, .f32⟩ : BufTy).Contents (Elt F) → (⟨S32768x1, .f32⟩ : BufTy).Contents (Elt F)),
    StableHlo.reshape main_v161 main_v162 rfl shapeCasts_S32768x1_S32768,
    StableHlo.unary main_v128 main_v163 ((extractStridedSlice S32768x1 ![0, 0] · slices_S32768x8_S32768x1_0_0) : (⟨S32768x8, .f32⟩ : BufTy).Contents (Elt F) → (⟨S32768x1, .f32⟩ : BufTy).Contents (Elt F)),
    StableHlo.reshape main_v163 main_v164 rfl shapeCasts_S32768x1_S32768,
    StableHlo.binary main_v158 main_v160 main_v165 (addf : (⟨S32768, .f32⟩ : BufTy).Contents (Elt F) → (⟨S32768, .f32⟩ : BufTy).Contents (Elt F) → (⟨S32768, .f32⟩ : BufTy).Contents (Elt F)),
    StableHlo.binary main_v165 main_v162 main_v166 (subf : (⟨S32768, .f32⟩ : BufTy).Contents (Elt F) → (⟨S32768, .f32⟩ : BufTy).Contents (Elt F) → (⟨S32768, .f32⟩ : BufTy).Contents (Elt F)),
    StableHlo.binary main_v166 main_v164 main_v167 (subf : (⟨S32768, .f32⟩ : BufTy).Contents (Elt F) → (⟨S32768, .f32⟩ : BufTy).Contents (Elt F) → (⟨S32768, .f32⟩ : BufTy).Contents (Elt F)),
    StableHlo.unary main_v167 main_v168 (Host.absf : (⟨S32768, .f32⟩ : BufTy).Contents (Elt F) → (⟨S32768, .f32⟩ : BufTy).Contents (Elt F)),
    StableHlo.binary main_v158 main_v160 main_v169 (addf : (⟨S32768, .f32⟩ : BufTy).Contents (Elt F) → (⟨S32768, .f32⟩ : BufTy).Contents (Elt F) → (⟨S32768, .f32⟩ : BufTy).Contents (Elt F)),
    StableHlo.binary main_v169 main_v162 main_v170 (addf : (⟨S32768, .f32⟩ : BufTy).Contents (Elt F) → (⟨S32768, .f32⟩ : BufTy).Contents (Elt F) → (⟨S32768, .f32⟩ : BufTy).Contents (Elt F)),
    StableHlo.binary main_v170 main_v164 main_v171 (addf : (⟨S32768, .f32⟩ : BufTy).Contents (Elt F) → (⟨S32768, .f32⟩ : BufTy).Contents (Elt F) → (⟨S32768, .f32⟩ : BufTy).Contents (Elt F)),
    StableHlo.nullary main_cst_28 (constant S_ .f32 0x3FC00000#32),
    StableHlo.unary main_cst_28 main_v172 (broadcastInDim S32768 ![] bcast_S_S32768 : (⟨S_, .f32⟩ : BufTy).Contents (Elt F) → (⟨S32768, .f32⟩ : BufTy).Contents (Elt F)),
    StableHlo.binary main_v171 main_v172 main_v173 (mulf : (⟨S32768, .f32⟩ : BufTy).Contents (Elt F) → (⟨S32768, .f32⟩ : BufTy).Contents (Elt F) → (⟨S32768, .f32⟩ : BufTy).Contents (Elt F)),
    StableHlo.binary main_v168 main_v173 main_v174 (Host.divf : (⟨S32768, .f32⟩ : BufTy).Contents (Elt F) → (⟨S32768, .f32⟩ : BufTy).Contents (Elt F) → (⟨S32768, .f32⟩ : BufTy).Contents (Elt F)),
    StableHlo.unary main_v156 main_v175 ((extractStridedSlice S32768x1 ![0, 3] · slices_S32768x8_S32768x1_0_3) : (⟨S32768x8, .f32⟩ : BufTy).Contents (Elt F) → (⟨S32768x1, .f32⟩ : BufTy).Contents (Elt F)),
    StableHlo.reshape main_v175 main_v176 rfl shapeCasts_S32768x1_S32768,
    StableHlo.unary main_v156 main_v177 ((extractStridedSlice S32768x1 ![0, 4] · slices_S32768x8_S32768x1_0_4) : (⟨S32768x8, .f32⟩ : BufTy).Contents (Elt F) → (⟨S32768x1, .f32⟩ : BufTy).Contents (Elt F)),
    StableHlo.reshape main_v177 main_v178 rfl shapeCasts_S32768x1_S32768,
    StableHlo.unary main_v128 main_v179 ((extractStridedSlice S32768x1 ![0, 3] · slices_S32768x8_S32768x1_0_3) : (⟨S32768x8, .f32⟩ : BufTy).Contents (Elt F) → (⟨S32768x1, .f32⟩ : BufTy).Contents (Elt F)),
    StableHlo.reshape main_v179 main_v180 rfl shapeCasts_S32768x1_S32768,
    StableHlo.unary main_v128 main_v181 ((extractStridedSlice S32768x1 ![0, 4] · slices_S32768x8_S32768x1_0_4) : (⟨S32768x8, .f32⟩ : BufTy).Contents (Elt F) → (⟨S32768x1, .f32⟩ : BufTy).Contents (Elt F)),
    StableHlo.reshape main_v181 main_v182 rfl shapeCasts_S32768x1_S32768,
    StableHlo.binary main_v176 main_v178 main_v183 (addf : (⟨S32768, .f32⟩ : BufTy).Contents (Elt F) → (⟨S32768, .f32⟩ : BufTy).Contents (Elt F) → (⟨S32768, .f32⟩ : BufTy).Contents (Elt F)),
    StableHlo.binary main_v183 main_v180 main_v184 (subf : (⟨S32768, .f32⟩ : BufTy).Contents (Elt F) → (⟨S32768, .f32⟩ : BufTy).Contents (Elt F) → (⟨S32768, .f32⟩ : BufTy).Contents (Elt F)),
    StableHlo.binary main_v184 main_v182 main_v185 (subf : (⟨S32768, .f32⟩ : BufTy).Contents (Elt F) → (⟨S32768, .f32⟩ : BufTy).Contents (Elt F) → (⟨S32768, .f32⟩ : BufTy).Contents (Elt F)),
    StableHlo.unary main_v185 main_v186 (Host.absf : (⟨S32768, .f32⟩ : BufTy).Contents (Elt F) → (⟨S32768, .f32⟩ : BufTy).Contents (Elt F)),
    StableHlo.binary main_v176 main_v178 main_v187 (addf : (⟨S32768, .f32⟩ : BufTy).Contents (Elt F) → (⟨S32768, .f32⟩ : BufTy).Contents (Elt F) → (⟨S32768, .f32⟩ : BufTy).Contents (Elt F)),
    StableHlo.binary main_v187 main_v180 main_v188 (addf : (⟨S32768, .f32⟩ : BufTy).Contents (Elt F) → (⟨S32768, .f32⟩ : BufTy).Contents (Elt F) → (⟨S32768, .f32⟩ : BufTy).Contents (Elt F)),
    StableHlo.binary main_v188 main_v182 main_v189 (addf : (⟨S32768, .f32⟩ : BufTy).Contents (Elt F) → (⟨S32768, .f32⟩ : BufTy).Contents (Elt F) → (⟨S32768, .f32⟩ : BufTy).Contents (Elt F)),
    StableHlo.nullary main_cst_29 (constant S_ .f32 0x3FC00000#32),
    StableHlo.unary main_cst_29 main_v190 (broadcastInDim S32768 ![] bcast_S_S32768 : (⟨S_, .f32⟩ : BufTy).Contents (Elt F) → (⟨S32768, .f32⟩ : BufTy).Contents (Elt F)),
    StableHlo.binary main_v189 main_v190 main_v191 (mulf : (⟨S32768, .f32⟩ : BufTy).Contents (Elt F) → (⟨S32768, .f32⟩ : BufTy).Contents (Elt F) → (⟨S32768, .f32⟩ : BufTy).Contents (Elt F)),
    StableHlo.binary main_v186 main_v191 main_v192 (Host.divf : (⟨S32768, .f32⟩ : BufTy).Contents (Elt F) → (⟨S32768, .f32⟩ : BufTy).Contents (Elt F) → (⟨S32768, .f32⟩ : BufTy).Contents (Elt F)),
    StableHlo.binary main_v174 main_v192 main_v193 (addf : (⟨S32768, .f32⟩ : BufTy).Contents (Elt F) → (⟨S32768, .f32⟩ : BufTy).Contents (Elt F) → (⟨S32768, .f32⟩ : BufTy).Contents (Elt F)),
    StableHlo.unary main_v156 main_v194 ((extractStridedSlice S32768x1 ![0, 5] · slices_S32768x8_S32768x1_0_5) : (⟨S32768x8, .f32⟩ : BufTy).Contents (Elt F) → (⟨S32768x1, .f32⟩ : BufTy).Contents (Elt F)),
    StableHlo.reshape main_v194 main_v195 rfl shapeCasts_S32768x1_S32768,
    StableHlo.unary main_v156 main_v196 ((extractStridedSlice S32768x1 ![0, 2] · slices_S32768x8_S32768x1_0_2) : (⟨S32768x8, .f32⟩ : BufTy).Contents (Elt F) → (⟨S32768x1, .f32⟩ : BufTy).Contents (Elt F)),
    StableHlo.reshape main_v196 main_v197 rfl shapeCasts_S32768x1_S32768,
    StableHlo.unary main_v128 main_v198 ((extractStridedSlice S32768x1 ![0, 5] · slices_S32768x8_S32768x1_0_5) : (⟨S32768x8, .f32⟩ : BufTy).Contents (Elt F) → (⟨S32768x1, .f32⟩ : BufTy).Contents (Elt F)),
    StableHlo.reshape main_v198 main_v199 rfl shapeCasts_S32768x1_S32768,
    StableHlo.unary main_v128 main_v200 ((extractStridedSlice S32768x1 ![0, 2] · slices_S32768x8_S32768x1_0_2) : (⟨S32768x8, .f32⟩ : BufTy).Contents (Elt F) → (⟨S32768x1, .f32⟩ : BufTy).Contents (Elt F)),
    StableHlo.reshape main_v200 main_v201 rfl shapeCasts_S32768x1_S32768,
    StableHlo.binary main_v195 main_v197 main_v202 (addf : (⟨S32768, .f32⟩ : BufTy).Contents (Elt F) → (⟨S32768, .f32⟩ : BufTy).Contents (Elt F) → (⟨S32768, .f32⟩ : BufTy).Contents (Elt F)),
    StableHlo.binary main_v202 main_v199 main_v203 (subf : (⟨S32768, .f32⟩ : BufTy).Contents (Elt F) → (⟨S32768, .f32⟩ : BufTy).Contents (Elt F) → (⟨S32768, .f32⟩ : BufTy).Contents (Elt F)),
    StableHlo.binary main_v203 main_v201 main_v204 (subf : (⟨S32768, .f32⟩ : BufTy).Contents (Elt F) → (⟨S32768, .f32⟩ : BufTy).Contents (Elt F) → (⟨S32768, .f32⟩ : BufTy).Contents (Elt F)),
    StableHlo.unary main_v204 main_v205 (Host.absf : (⟨S32768, .f32⟩ : BufTy).Contents (Elt F) → (⟨S32768, .f32⟩ : BufTy).Contents (Elt F)),
    StableHlo.binary main_v195 main_v197 main_v206 (addf : (⟨S32768, .f32⟩ : BufTy).Contents (Elt F) → (⟨S32768, .f32⟩ : BufTy).Contents (Elt F) → (⟨S32768, .f32⟩ : BufTy).Contents (Elt F)),
    StableHlo.binary main_v206 main_v199 main_v207 (addf : (⟨S32768, .f32⟩ : BufTy).Contents (Elt F) → (⟨S32768, .f32⟩ : BufTy).Contents (Elt F) → (⟨S32768, .f32⟩ : BufTy).Contents (Elt F)),
    StableHlo.binary main_v207 main_v201 main_v208 (addf : (⟨S32768, .f32⟩ : BufTy).Contents (Elt F) → (⟨S32768, .f32⟩ : BufTy).Contents (Elt F) → (⟨S32768, .f32⟩ : BufTy).Contents (Elt F)),
    StableHlo.nullary main_cst_30 (constant S_ .f32 0x3FC00000#32),
    StableHlo.unary main_cst_30 main_v209 (broadcastInDim S32768 ![] bcast_S_S32768 : (⟨S_, .f32⟩ : BufTy).Contents (Elt F) → (⟨S32768, .f32⟩ : BufTy).Contents (Elt F)),
    StableHlo.binary main_v208 main_v209 main_v210 (mulf : (⟨S32768, .f32⟩ : BufTy).Contents (Elt F) → (⟨S32768, .f32⟩ : BufTy).Contents (Elt F) → (⟨S32768, .f32⟩ : BufTy).Contents (Elt F)),
    StableHlo.binary main_v205 main_v210 main_v211 (Host.divf : (⟨S32768, .f32⟩ : BufTy).Contents (Elt F) → (⟨S32768, .f32⟩ : BufTy).Contents (Elt F) → (⟨S32768, .f32⟩ : BufTy).Contents (Elt F)),
    StableHlo.binary main_v193 main_v211 main_v212 (addf : (⟨S32768, .f32⟩ : BufTy).Contents (Elt F) → (⟨S32768, .f32⟩ : BufTy).Contents (Elt F) → (⟨S32768, .f32⟩ : BufTy).Contents (Elt F)) ]
/-- The buffer each of those operations writes, in order. -/
abbrev opsA11_W : List (Ref sig .tc) := [main_v157, main_v158, main_v159, main_v160, main_v161, main_v162, main_v163, main_v164, main_v165, main_v166, main_v167, main_v168, main_v169, main_v170, main_v171, main_cst_28, main_v172, main_v173, main_v174, main_v175, main_v176, main_v177, main_v178, main_v179, main_v180, main_v181, main_v182, main_v183, main_v184, main_v185, main_v186, main_v187, main_v188, main_v189, main_cst_29, main_v190, main_v191, main_v192, main_v193, main_v194, main_v195, main_v196, main_v197, main_v198, main_v199, main_v200, main_v201, main_v202, main_v203, main_v204, main_v205, main_v206, main_v207, main_v208, main_cst_30, main_v209, main_v210, main_v211, main_v212]
/-- Each of them touches TensorCore references only. -/
theorem opsA11_sub : (opsA11 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., unary_bufs_sub .., binary_bufs_sub .., binary_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., unary_bufs_sub .., binary_bufs_sub .., binary_bufs_sub .., binary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., unary_bufs_sub .., binary_bufs_sub .., binary_bufs_sub .., binary_bufs_sub .., nullary_bufs_sub .., unary_bufs_sub .., binary_bufs_sub .., binary_bufs_sub .., binary_bufs_sub ..⟩

/-- Operations 329 … 348 of the reference's 348, in program order, every call's body in place: the stretch ending with the operation that writes `main_v227`. -/
abbrev opsA12 : List (HloOp τ sig (Elt F)) :=
  [ StableHlo.nullary main_c_31 (constantI S_ 32 0#32),
    StableHlo.unary main_c_31 main_v213 (broadcastInDim S32768 ![] bcast_S_S32768 : (⟨S_, .i32⟩ : BufTy).Contents (Elt F) → (⟨S32768, .i32⟩ : BufTy).Contents (Elt F)),
    StableHlo.binary main_arg12 main_v213 main_v214 (cmpi .slt : (⟨S32768, .i32⟩ : BufTy).Contents (Elt F) → (⟨S32768, .i32⟩ : BufTy).Contents (Elt F) → (⟨S32768, .i1⟩ : BufTy).Contents (Elt F)),
    StableHlo.nullary main_c_32 (constantI S_ 32 2097152#32),
    StableHlo.unary main_c_32 main_v215 (broadcastInDim S32768 ![] bcast_S_S32768 : (⟨S_, .i32⟩ : BufTy).Contents (Elt F) → (⟨S32768, .i32⟩ : BufTy).Contents (Elt F)),
    StableHlo.binary main_arg12 main_v215 main_v216 (addi : (⟨S32768, .i32⟩ : BufTy).Contents (Elt F) → (⟨S32768, .i32⟩ : BufTy).Contents (Elt F) → (⟨S32768, .i32⟩ : BufTy).Contents (Elt F)),
    StableHlo.ternary main_v214 main_v216 main_arg12 main_v217 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v217 main_v218 (broadcastInDim S32768x1 ![0] bcast_S32768_S32768x1_0 : (⟨S32768, .i32⟩ : BufTy).Contents (Elt F) → (⟨S32768x1, .i32⟩ : BufTy).Contents (Elt F)),
    StableHlo.binary main_arg3 main_v218 main_v219 ((fun x i => Host.gather gather_S2097152_S32768x1_S32768_n_0_n_n_0_1_1 x i) : (⟨S2097152, .f32⟩ : BufTy).Contents (Elt F) → (⟨S32768x1, .i32⟩ : BufTy).Contents (Elt F) → (⟨S32768, .f32⟩ : BufTy).Contents (Elt F)),
    StableHlo.binary main_v219 main_v212 main_v220 (subf : (⟨S32768, .f32⟩ : BufTy).Contents (Elt F) → (⟨S32768, .f32⟩ : BufTy).Contents (Elt F) → (⟨S32768, .f32⟩ : BufTy).Contents (Elt F)),
    StableHlo.binary main_v220 main_v220 main_v221 (mulf : (⟨S32768, .f32⟩ : BufTy).Contents (Elt F) → (⟨S32768, .f32⟩ : BufTy).Contents (Elt F) → (⟨S32768, .f32⟩ : BufTy).Contents (Elt F)),
    StableHlo.binary main_v21 main_v221 main_v222 (mulf : (⟨S32768, .f32⟩ : BufTy).Contents (Elt F) → (⟨S32768, .f32⟩ : BufTy).Contents (Elt F) → (⟨S32768, .f32⟩ : BufTy).Contents (Elt F)),
    StableHlo.nullary main_cst_33 (constant S_ .f32 0x00000000#32),
    StableHlo.binary main_v222 main_cst_33 main_v223 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    StableHlo.nullary main_cst_34 (constant S_ .f32 0x00000000#32),
    StableHlo.binary main_v21 main_cst_34 main_v224 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    StableHlo.nullary main_cst_35 (constant S_ .f32 0x3F800000#32),
    StableHlo.binary main_v224 main_cst_35 main_v225 (maximumf : (⟨S_, .f32⟩ : BufTy).Contents (Elt F) → (⟨S_, .f32⟩ : BufTy).Contents (Elt F) → (⟨S_, .f32⟩ : BufTy).Contents (Elt F)),
    StableHlo.binary main_v223 main_v225 main_v226 (Host.divf : (⟨S_, .f32⟩ : BufTy).Contents (Elt F) → (⟨S_, .f32⟩ : BufTy).Contents (Elt F) → (⟨S_, .f32⟩ : BufTy).Contents (Elt F)),
    StableHlo.binary main_v60 main_v226 main_v227 (addf : (⟨S_, .f32⟩ : BufTy).Contents (Elt F) → (⟨S_, .f32⟩ : BufTy).Contents (Elt F) → (⟨S_, .f32⟩ : BufTy).Contents (Elt F)) ]
/-- The buffer each of those operations writes, in order. -/
abbrev opsA12_W : List (Ref sig .tc) := [main_c_31, main_v213, main_v214, main_c_32, main_v215, main_v216, main_v217, main_v218, main_v219, main_v220, main_v221, main_v222, main_cst_33, main_v223, main_cst_34, main_v224, main_cst_35, main_v225, main_v226, main_v227]
/-- Each of them touches TensorCore references only. -/
theorem opsA12_sub : (opsA12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub ..⟩

/-- The reference's 348 operations: the thirteen stretches in program order. The printed program's windows end after operations 132, 197, 262, 322, 348. -/
abbrev ops : List (HloOp τ sig (Elt F)) :=
  opsA0 ++ opsA1 ++ opsA2 ++ opsA3 ++ opsA4 ++ opsA5 ++ opsA6 ++ opsA7 ++ opsA8 ++ opsA9 ++ opsA10 ++ opsA11 ++ opsA12

end Cert.ReferenceIdeal.RefRun

end
-- ==== Proof.RefRun.lean ====
import proofs.«167318_j62079457296719_2_alg».proof.Proof.RefOps
import Idealize.ShloMosaic.Lib.Pipeline.Frame
import Idealize.ShloMosaic.Lib.Pipeline.Regions

/-!
# The reference program's run

The reference is a straight line of 348 array operations (its six calls of outlined functions written out in
place). This module says so (`main_eq`), and draws the consequences: every weakly fair execution terminates with
each buffer at the fold of the operations over what the launch dealt (`run_fold`), no operation writes an argument
(`kept_main_argK`), hence the arguments end as they began (`frame_ri`).
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program is the list

The program is printed in five windows whose ends (after operations 132, 197, 262, 322 and 348) fall inside the
stretches `opsA5`, `opsA8`, `opsA10` and `opsA11`. Each window is therefore the sequence of whole stretches
and of an initial or final segment (`List.take` / `List.drop`) of the stretch its end cuts; a segment and its
complement give the stretch back (`List.take_append_drop`), so the five windows in a row are the whole list. -/

/-- The operations of window 0: stretches 0 to 4 and the first 26 operations of stretch 5. -/
def win0 : List (HloOp τ sig (Elt F)) := opsA0 ++ opsA1 ++ opsA2 ++ opsA3 ++ opsA4 ++ opsA5.take 26
/-- The operations of window 1: the rest of stretch 5, stretches 6 and 7, the first 10 operations of stretch 8. -/
def win1 : List (HloOp τ sig (Elt F)) := opsA5.drop 26 ++ opsA6 ++ opsA7 ++ opsA8.take 10
/-- The operations of window 2: the rest of stretch 8, stretch 9, the first 23 operations of stretch 10. -/
def win2 : List (HloOp τ sig (Elt F)) := opsA8.drop 10 ++ opsA9 ++ opsA10.take 23
/-- The operations of window 3: the rest of stretch 10 and the first 53 operations of stretch 11. -/
def win3 : List (HloOp τ sig (Elt F)) := opsA10.drop 23 ++ opsA11.take 53
/-- The operations of window 4: the rest of stretch 11 and stretch 12. -/
def win4 : List (HloOp τ sig (Elt F)) := opsA11.drop 53 ++ opsA12

/-- Each window is the sequence of its operations: both sides unfold to the same chain of steps, a call on the
    left being its function's definition at the call's arguments and record, which is what the list spells out. -/
theorem main_part0_eq (c : Dev nD) : main_part0 (F := F) c = seq win0 := by chain_rfl
theorem main_part1_eq (c : Dev nD) : main_part1 (F := F) c = seq win1 := by chain_rfl
theorem main_part2_eq (c : Dev nD) : main_part2 (F := F) c = seq win2 := by chain_rfl
theorem main_part3_eq (c : Dev nD) : main_part3 (F := F) c = seq win3 := by chain_rfl
theorem main_part4_eq (c : Dev nD) : main_part4 (F := F) c = seq win4 := by chain_rfl

/-- An initial segment, then the rest followed by more, is the list followed by more. -/
theorem take_drop_append {α : Type} (n : Nat) (l r : List α) : l.take n ++ (l.drop n ++ r) = l ++ r := by
  rw [← List.append_assoc, List.take_append_drop]

/-- The five windows' operations in a row are the thirteen stretches in a row. -/
theorem ops_eq_wins : (ops : List (HloOp τ sig (Elt F))) = win0 ++ (win1 ++ (win2 ++ (win3 ++ win4))) := by
  simp only [ops, win0, win1, win2, win3, win4, List.append_assoc, take_drop_append]

/-- The reference program is the sequence of its 348 operations. -/
theorem main_eq (c : Dev nD) : main (F := F) c = seq ops := by
  rw [ops_eq_wins, seq_append, seq_append, seq_append, seq_append, ← main_part0_eq c, ← main_part1_eq c,
    ← main_part2_eq c, ← main_part3_eq c, ← main_part4_eq c]
  rfl

/-! ## Side conditions of the run -/

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_app {α : Type} {p : α → Prop} {l₁ l₂ : List α} (h₁ : l₁.Forall p) (h₂ : l₂.Forall p) :
    (l₁ ++ l₂).Forall p := List.forall_append.mpr ⟨h₁, h₂⟩

/-- Every operation touches TensorCore references only: stretch by stretch. -/
theorem ops_sub : (ops : List (HloOp τ sig (Elt F))).Forall fun op => op.bufs ⊆ tcRefs τ sig :=
  forall_app (forall_app (forall_app (forall_app (forall_app (forall_app (forall_app (forall_app (forall_app (forall_app
    (forall_app (forall_app opsA0_sub opsA1_sub) opsA2_sub) opsA3_sub) opsA4_sub) opsA5_sub) opsA6_sub) opsA7_sub)
    opsA8_sub) opsA9_sub) opsA10_sub) opsA11_sub) opsA12_sub

/-- Closes "every operation of this literal list determines its result" (none allocates an unwritten buffer). -/
local macro "fresh_table" : tactic => `(tactic| (simp only [List.Forall]; repeat' constructor))

theorem opsA0_fresh : (opsA0 : List (HloOp τ sig (Elt F))).Forall fun op => op.fresh = ∅ := by fresh_table
theorem opsA1_fresh : (opsA1 : List (HloOp τ sig (Elt F))).Forall fun op => op.fresh = ∅ := by fresh_table
theorem opsA2_fresh : (opsA2 : List (HloOp τ sig (Elt F))).Forall fun op => op.fresh = ∅ := by fresh_table
theorem opsA3_fresh : (opsA3 : List (HloOp τ sig (Elt F))).Forall fun op => op.fresh = ∅ := by fresh_table
theorem opsA4_fresh : (opsA4 : List (HloOp τ sig (Elt F))).Forall fun op => op.fresh = ∅ := by fresh_table
theorem opsA5_fresh : (opsA5 : List (HloOp τ sig (Elt F))).Forall fun op => op.fresh = ∅ := by fresh_table
theorem opsA6_fresh : (opsA6 : List (HloOp τ sig (Elt F))).Forall fun op => op.fresh = ∅ := by fresh_table
theorem opsA7_fresh : (opsA7 : List (HloOp τ sig (Elt F))).Forall fun op => op.fresh = ∅ := by fresh_table
theorem opsA8_fresh : (opsA8 : List (HloOp τ sig (Elt F))).Forall fun op => op.fresh = ∅ := by fresh_table
theorem opsA9_fresh : (opsA9 : List (HloOp τ sig (Elt F))).Forall fun op => op.fresh = ∅ := by fresh_table
theorem opsA10_fresh : (opsA10 : List (HloOp τ sig (Elt F))).Forall fun op => op.fresh = ∅ := by fresh_table
theorem opsA11_fresh : (opsA11 : List (HloOp τ sig (Elt F))).Forall fun op => op.fresh = ∅ := by fresh_table
theorem opsA12_fresh : (opsA12 : List (HloOp τ sig (Elt F))).Forall fun op => op.fresh = ∅ := by fresh_table

/-- No operation of the reference leaves its result undetermined. -/
theorem ops_fresh : (ops : List (HloOp τ sig (Elt F))).Forall fun op => op.fresh = ∅ :=
  forall_app (forall_app (forall_app (forall_app (forall_app (forall_app (forall_app (forall_app (forall_app (forall_app
    (forall_app (forall_app opsA0_fresh opsA1_fresh) opsA2_fresh) opsA3_fresh) opsA4_fresh) opsA5_fresh) opsA6_fresh)
    opsA7_fresh) opsA8_fresh) opsA9_fresh) opsA10_fresh) opsA11_fresh) opsA12_fresh

/-! ## The run -/

/-- At the compiled mesh, for any float values, from any memory with zero counters: every weakly fair execution of
    the reference on the TensorCores terminates, and every final state has each TensorCore buffer at the fold of
    the 348 operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## What a stretch leaves alone

Each operation writes exactly one buffer, the one the table `opsAk_W` lists for it; a buffer not in the table
keeps its contents through the stretch. -/

/-- Closes "each operation of this literal list writes only buffers of that table": an operation's written set
    is the singleton of its result buffer, which is in the table by inspection. -/
local macro "writes_table" : tactic =>
  `(tactic| (simp only [List.Forall]
             repeat' apply And.intro
             all_goals (simp only [nullary_writes, unary_writes, binary_writes, ternary_writes, quaternary_writes, reshape_writes, binaryIndexed_writes, unaryIndexed_writes, nary_writes, Finset.singleton_subset_iff, List.mem_toFinset]
                        exact List.mem_map_of_mem (by decide))))

theorem opsA0_writes : (opsA0 : List (HloOp τ sig (Elt F))).Forall fun op =>
    op.writes ⊆ (opsA0_W.map (Proc.devRef (τ := τ) .tc)).toFinset := by writes_table
/-- A buffer stretch 0 does not write keeps its contents through it. -/
theorem opsA0_keep (V : Valuation τ sig (Elt F)) (r : Ref sig .tc) (h : r ∉ opsA0_W) :
    after opsA0 V (Proc.devRef .tc r) = V (Proc.devRef .tc r) := after_of_writes_sub opsA0 V opsA0_writes h
theorem opsA1_writes : (opsA1 : List (HloOp τ sig (Elt F))).Forall fun op =>
    op.writes ⊆ (opsA1_W.map (Proc.devRef (τ := τ) .tc)).toFinset := by writes_table
/-- A buffer stretch 1 does not write keeps its contents through it. -/
theorem opsA1_keep (V : Valuation τ sig (Elt F)) (r : Ref sig .tc) (h : r ∉ opsA1_W) :
    after opsA1 V (Proc.devRef .tc r) = V (Proc.devRef .tc r) := after_of_writes_sub opsA1 V opsA1_writes h
theorem opsA2_writes : (opsA2 : List (HloOp τ sig (Elt F))).Forall fun op =>
    op.writes ⊆ (opsA2_W.map (Proc.devRef (τ := τ) .tc)).toFinset := by writes_table
/-- A buffer stretch 2 does not write keeps its contents through it. -/
theorem opsA2_keep (V : Valuation τ sig (Elt F)) (r : Ref sig .tc) (h : r ∉ opsA2_W) :
    after opsA2 V (Proc.devRef .tc r) = V (Proc.devRef .tc r) := after_of_writes_sub opsA2 V opsA2_writes h
theorem opsA3_writes : (opsA3 : List (HloOp τ sig (Elt F))).Forall fun op =>
    op.writes ⊆ (opsA3_W.map (Proc.devRef (τ := τ) .tc)).toFinset := by writes_table
/-- A buffer stretch 3 does not write keeps its contents through it. -/
theorem opsA3_keep (V : Valuation τ sig (Elt F)) (r : Ref sig .tc) (h : r ∉ opsA3_W) :
    after opsA3 V (Proc.devRef .tc r) = V (Proc.devRef .tc r) := after_of_writes_sub opsA3 V opsA3_writes h
theorem opsA4_writes : (opsA4 : List (HloOp τ sig (Elt F))).Forall fun op =>
    op.writes ⊆ (opsA4_W.map (Proc.devRef (τ := τ) .tc)).toFinset := by writes_table
/-- A buffer stretch 4 does not write keeps its contents through it. -/
theorem opsA4_keep (V : Valuation τ sig (Elt F)) (r : Ref sig .tc) (h : r ∉ opsA4_W) :
    after opsA4 V (Proc.devRef .tc r) = V (Proc.devRef .tc r) := after_of_writes_sub opsA4 V opsA4_writes h
theorem opsA5_writes : (opsA5 : List (HloOp τ sig (Elt F))).Forall fun op =>
    op.writes ⊆ (opsA5_W.map (Proc.devRef (τ := τ) .tc)).toFinset := by writes_table
/-- A buffer stretch 5 does not write keeps its contents through it. -/
theorem opsA5_keep (V : Valuation τ sig (Elt F)) (r : Ref sig .tc) (h : r ∉ opsA5_W) :
    after opsA5 V (Proc.devRef .tc r) = V (Proc.devRef .tc r) := after_of_writes_sub opsA5 V opsA5_writes h
theorem opsA6_writes : (opsA6 : List (HloOp τ sig (Elt F))).Forall fun op =>
    op.writes ⊆ (opsA6_W.map (Proc.devRef (τ := τ) .tc)).toFinset := by writes_table
/-- A buffer stretch 6 does not write keeps its contents through it. -/
theorem opsA6_keep (V : Valuation τ sig (Elt F)) (r : Ref sig .tc) (h : r ∉ opsA6_W) :
    after opsA6 V (Proc.devRef .tc r) = V (Proc.devRef .tc r) := after_of_writes_sub opsA6 V opsA6_writes h
theorem opsA7_writes : (opsA7 : List (HloOp τ sig (Elt F))).Forall fun op =>
    op.writes ⊆ (opsA7_W.map (Proc.devRef (τ := τ) .tc)).toFinset := by writes_table
/-- A buffer stretch 7 does not write keeps its contents through it. -/
theorem opsA7_keep (V : Valuation τ sig (Elt F)) (r : Ref sig .tc) (h : r ∉ opsA7_W) :
    after opsA7 V (Proc.devRef .tc r) = V (Proc.devRef .tc r) := after_of_writes_sub opsA7 V opsA7_writes h
theorem opsA8_writes : (opsA8 : List (HloOp τ sig (Elt F))).Forall fun op =>
    op.writes ⊆ (opsA8_W.map (Proc.devRef (τ := τ) .tc)).toFinset := by writes_table
/-- A buffer stretch 8 does not write keeps its contents through it. -/
theorem opsA8_keep (V : Valuation τ sig (Elt F)) (r : Ref sig .tc) (h : r ∉ opsA8_W) :
    after opsA8 V (Proc.devRef .tc r) = V (Proc.devRef .tc r) := after_of_writes_sub opsA8 V opsA8_writes h
theorem opsA9_writes : (opsA9 : List (HloOp τ sig (Elt F))).Forall fun op =>
    op.writes ⊆ (opsA9_W.map (Proc.devRef (τ := τ) .tc)).toFinset := by writes_table
/-- A buffer stretch 9 does not write keeps its contents through it. -/
theorem opsA9_keep (V : Valuation τ sig (Elt F)) (r : Ref sig .tc) (h : r ∉ opsA9_W) :
    after opsA9 V (Proc.devRef .tc r) = V (Proc.devRef .tc r) := after_of_writes_sub opsA9 V opsA9_writes h
theorem opsA10_writes : (opsA10 : List (HloOp τ sig (Elt F))).Forall fun op =>
    op.writes ⊆ (opsA10_W.map (Proc.devRef (τ := τ) .tc)).toFinset := by writes_table
/-- A buffer stretch 10 does not write keeps its contents through it. -/
theorem opsA10_keep (V : Valuation τ sig (Elt F)) (r : Ref sig .tc) (h : r ∉ opsA10_W) :
    after opsA10 V (Proc.devRef .tc r) = V (Proc.devRef .tc r) := after_of_writes_sub opsA10 V opsA10_writes h
theorem opsA11_writes : (opsA11 : List (HloOp τ sig (Elt F))).Forall fun op =>
    op.writes ⊆ (opsA11_W.map (Proc.devRef (τ := τ) .tc)).toFinset := by writes_table
/-- A buffer stretch 11 does not write keeps its contents through it. -/
theorem opsA11_keep (V : Valuation τ sig (Elt F)) (r : Ref sig .tc) (h : r ∉ opsA11_W) :
    after opsA11 V (Proc.devRef .tc r) = V (Proc.devRef .tc r) := after_of_writes_sub opsA11 V opsA11_writes h
theorem opsA12_writes : (opsA12 : List (HloOp τ sig (Elt F))).Forall fun op =>
    op.writes ⊆ (opsA12_W.map (Proc.devRef (τ := τ) .tc)).toFinset := by writes_table
/-- A buffer stretch 12 does not write keeps its contents through it. -/
theorem opsA12_keep (V : Valuation τ sig (Elt F)) (r : Ref sig .tc) (h : r ∉ opsA12_W) :
    after opsA12 V (Proc.devRef .tc r) = V (Proc.devRef .tc r) := after_of_writes_sub opsA12 V opsA12_writes h

/-- A buffer no stretch writes keeps its contents through the whole program. -/
theorem ops_keep (V : Valuation τ sig (Elt F)) (r : Ref sig .tc)
    (h0 : r ∉ opsA0_W) (h1 : r ∉ opsA1_W) (h2 : r ∉ opsA2_W) (h3 : r ∉ opsA3_W) (h4 : r ∉ opsA4_W) (h5 : r ∉ opsA5_W) (h6 : r ∉ opsA6_W) (h7 : r ∉ opsA7_W) (h8 : r ∉ opsA8_W) (h9 : r ∉ opsA9_W) (h10 : r ∉ opsA10_W) (h11 : r ∉ opsA11_W) (h12 : r ∉ opsA12_W) :
    after ops V (Proc.devRef .tc r) = V (Proc.devRef .tc r) := by
  simp only [ops, StableHlo.after_append]
  rw [opsA12_keep _ r h12, opsA11_keep _ r h11, opsA10_keep _ r h10, opsA9_keep _ r h9, opsA8_keep _ r h8, opsA7_keep _ r h7, opsA6_keep _ r h6, opsA5_keep _ r h5, opsA4_keep _ r h4, opsA3_keep _ r h3, opsA2_keep _ r h2, opsA1_keep _ r h1, opsA0_keep _ r h0]

/-! ## No operation writes an argument -/

theorem kept_main_arg0 (V : Valuation τ sig (Elt F)) :
    after ops V (Proc.devRef .tc main_arg0) = V (Proc.devRef .tc main_arg0) :=
  ops_keep V main_arg0 (by decide) (by decide) (by decide) (by decide) (by decide) (by decide) (by decide) (by decide) (by decide) (by decide) (by decide) (by decide) (by decide)
theorem kept_main_arg1 (V : Valuation τ sig (Elt F)) :
    after ops V (Proc.devRef .tc main_arg1) = V (Proc.devRef .tc main_arg1) :=
  ops_keep V main_arg1 (by decide) (by decide) (by decide) (by decide) (by decide) (by decide) (by decide) (by decide) (by decide) (by decide) (by decide) (by decide) (by decide)
theorem kept_main_arg2 (V : Valuation τ sig (Elt F)) :
    after ops V (Proc.devRef .tc main_arg2) = V (Proc.devRef .tc main_arg2) :=
  ops_keep V main_arg2 (by decide) (by decide) (by decide) (by decide) (by decide) (by decide) (by decide) (by decide) (by decide) (by decide) (by decide) (by decide) (by decide)
theorem kept_main_arg3 (V : Valuation τ sig (Elt F)) :
    after ops V (Proc.devRef .tc main_arg3) = V (Proc.devRef .tc main_arg3) :=
  ops_keep V main_arg3 (by decide) (by decide) (by decide) (by decide) (by decide) (by decide) (by decide) (by decide) (by decide) (by decide) (by decide) (by decide) (by decide)
theorem kept_main_arg4 (V : Valuation τ sig (Elt F)) :
    after ops V (Proc.devRef .tc main_arg4) = V (Proc.devRef .tc main_arg4) :=
  ops_keep V main_arg4 (by decide) (by decide) (by decide) (by decide) (by decide) (by decide) (by decide) (by decide) (by decide) (by decide) (by decide) (by decide) (by decide)
theorem kept_main_arg5 (V : Valuation τ sig (Elt F)) :
    after ops V (Proc.devRef .tc main_arg5) = V (Proc.devRef .tc main_arg5) :=
  ops_keep V main_arg5 (by decide) (by decide) (by decide) (by decide) (by decide) (by decide) (by decide) (by decide) (by decide) (by decide) (by decide) (by decide) (by decide)
theorem kept_main_arg6 (V : Valuation τ sig (Elt F)) :
    after ops V (Proc.devRef .tc main_arg6) = V (Proc.devRef .tc main_arg6) :=
  ops_keep V main_arg6 (by decide) (by decide) (by decide) (by decide) (by decide) (by decide) (by decide) (by decide) (by decide) (by decide) (by decide) (by decide) (by decide)
theorem kept_main_arg7 (V : Valuation τ sig (Elt F)) :
    after ops V (Proc.devRef .tc main_arg7) = V (Proc.devRef .tc main_arg7) :=
  ops_keep V main_arg7 (by decide) (by decide) (by decide) (by decide) (by decide) (by decide) (by decide) (by decide) (by decide) (by decide) (by decide) (by decide) (by decide)
theorem kept_main_arg8 (V : Valuation τ sig (Elt F)) :
    after ops V (Proc.devRef .tc main_arg8) = V (Proc.devRef .tc main_arg8) :=
  ops_keep V main_arg8 (by decide) (by decide) (by decide) (by decide) (by decide) (by decide) (by decide) (by decide) (by decide) (by decide) (by decide) (by decide) (by decide)
theorem kept_main_arg9 (V : Valuation τ sig (Elt F)) :
    after ops V (Proc.devRef .tc main_arg9) = V (Proc.devRef .tc main_arg9) :=
  ops_keep V main_arg9 (by decide) (by decide) (by decide) (by decide) (by decide) (by decide) (by decide) (by decide) (by decide) (by decide) (by decide) (by decide) (by decide)
theorem kept_main_arg10 (V : Valuation τ sig (Elt F)) :
    after ops V (Proc.devRef .tc main_arg10) = V (Proc.devRef .tc main_arg10) :=
  ops_keep V main_arg10 (by decide) (by decide) (by decide) (by decide) (by decide) (by decide) (by decide) (by decide) (by decide) (by decide) (by decide) (by decide) (by decide)
theorem kept_main_arg11 (V : Valuation τ sig (Elt F)) :
    after ops V (Proc.devRef .tc main_arg11) = V (Proc.devRef .tc main_arg11) :=
  ops_keep V main_arg11 (by decide) (by decide) (by decide) (by decide) (by decide) (by decide) (by decide) (by decide) (by decide) (by decide) (by decide) (by decide) (by decide)
theorem kept_main_arg12 (V : Valuation τ sig (Elt F)) :
    after ops V (Proc.devRef .tc main_arg12) = V (Proc.devRef .tc main_arg12) :=
  ops_keep V main_arg12 (by decide) (by decide) (by decide) (by decide) (by decide) (by decide) (by decide) (by decide) (by decide) (by decide) (by decide) (by decide) (by decide)

/-! ## The frame -/

/-- The reference runs (terminates, no fault) and its argument arrays end unchanged: each ends at the fold of the
    operations over the launch contents (`run_fold`), and the fold leaves an argument where it was. -/
theorem frame_ri (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c main_arg0).trans (kept_main_arg0 _),
     (h c main_arg1).trans (kept_main_arg1 _),
     (h c main_arg2).trans (kept_main_arg2 _),
     (h c main_arg3).trans (kept_main_arg3 _),
     (h c main_arg4).trans (kept_main_arg4 _),
     (h c main_arg5).trans (kept_main_arg5 _),
     (h c main_arg6).trans (kept_main_arg6 _),
     (h c main_arg7).trans (kept_main_arg7 _),
     (h c main_arg8).trans (kept_main_arg8 _),
     (h c main_arg9).trans (kept_main_arg9 _),
     (h c main_arg10).trans (kept_main_arg10 _),
     (h c main_arg11).trans (kept_main_arg11 _),
     (h c main_arg12).trans (kept_main_arg12 _)⟩)
    (run_fold m ρ)

end Cert.ReferenceIdeal.RefRun

end
-- ==== Proof.KRun.lean ====
/-
  The kernel program's run with its result named: after the run the result buffer holds what the host lines after the
  region compute from the region's exit contents (the output array as the write-backs leave it, every other buffer as
  the region found it), and every argument array is as launched.
-/
import proofs.«167318_j62079457296719_2_alg».proof.Proof.FrameBodyI

set_option maxRecDepth 16384

noncomputable section

namespace Cert.KernelIdeal.KVal

open Idealize.ShloMosaic Idealize.ShloMosaic.TcCoe
open Idealize.SL Idealize.SL.Sem
open Cert.KernelIdeal Cert.KernelIdeal.Gen Cert.KernelIdeal.Frm

variable {F : FTy → Type} [FloatOps F]

variable (m : (ℓ : Loc nD τ sig) → Buf (Elt F) ℓ) (ρ : Dev nD → PrngReg)

/-- The result buffer's contents after the run on core `c`. -/
abbrev resK (c : Dev nD) : Buf (Elt F) ((c.tc : Thread nD τ).loc main_v173) :=
  Pipeline.afterTail₀ cfgs (dats m) 0 (V0 m) [hostOps1] c main_v173

/-- Every weakly fair execution of @main terminates with the result buffer at `resK` and the arguments unchanged. -/
theorem run_value : θ_run defs (onTc (τ := τ) (main (F := F))) ⟨m, fun _ => 0, ρ⟩ (fun r => ∀ c : Dev nD,
      r.2.mem ((c.tc : Thread nD τ).loc main_v173) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).2 main_v173 (Pipeline.mem_restRefs_of main_v173 (by decide) (by decide)),
      ((h c).2 main_arg0 (Pipeline.mem_restRefs_of main_arg0 (by decide) (by decide))).trans ((tail_kept m (dats m) c main_arg0 sfx_main_arg0 (by decide)).trans (V_main_arg0 m c)),
      ((h c).2 main_arg1 (Pipeline.mem_restRefs_of main_arg1 (by decide) (by decide))).trans ((tail_kept m (dats m) c main_arg1 sfx_main_arg1 (by decide)).trans (V_main_arg1 m c)),
      ((h c).2 main_arg2 (Pipeline.mem_restRefs_of main_arg2 (by decide) (by decide))).trans ((tail_kept m (dats m) c main_arg2 sfx_main_arg2 (by decide)).trans (V_main_arg2 m c)),
      ((h c).2 main_arg3 (Pipeline.mem_restRefs_of main_arg3 (by decide) (by decide))).trans ((tail_kept m (dats m) c main_arg3 sfx_main_arg3 (by decide)).trans (V_main_arg3 m c)),
      ((h c).2 main_arg4 (Pipeline.mem_restRefs_of main_arg4 (by decide) (by decide))).trans ((tail_kept m (dats m) c main_arg4 sfx_main_arg4 (by decide)).trans (V_main_arg4 m c)),
      ((h c).2 main_arg5 (Pipeline.mem_restRefs_of main_arg5 (by decide) (by decide))).trans ((tail_kept m (dats m) c main_arg5 sfx_main_arg5 (by decide)).trans (V_main_arg5 m c)),
      ((h c).2 main_arg6 (Pipeline.mem_restRefs_of main_arg6 (by decide) (by decide))).trans ((tail_kept m (dats m) c main_arg6 sfx_main_arg6 (by decide)).trans (V_main_arg6 m c)),
      ((h c).2 main_arg7 (Pipeline.mem_restRefs_of main_arg7 (by decide) (by decide))).trans ((tail_kept m (dats m) c main_arg7 sfx_main_arg7 (by decide)).trans (V_main_arg7 m c)),
      ((h c).2 main_arg8 (Pipeline.mem_restRefs_of main_arg8 (by decide) (by decide))).trans ((tail_kept m (dats m) c main_arg8 sfx_main_arg8 (by decide)).trans (V_main_arg8 m c)),
      ((h c).2 main_arg9 (Pipeline.mem_restRefs_of main_arg9 (by decide) (by decide))).trans ((tail_kept m (dats m) c main_arg9 sfx_main_arg9 (by decide)).trans (V_main_arg9 m c)),
      ((h c).2 main_arg10 (Pipeline.mem_restRefs_of main_arg10 (by decide) (by decide))).trans ((tail_kept m (dats m) c main_arg10 sfx_main_arg10 (by decide)).trans (V_main_arg10 m c)),
      ((h c).2 main_arg11 (Pipeline.mem_restRefs_of main_arg11 (by decide) (by decide))).trans ((tail_kept m (dats m) c main_arg11 sfx_main_arg11 (by decide)).trans (V_main_arg11 m c)),
      ((h c).2 main_arg12 (Pipeline.mem_restRefs_of main_arg12 (by decide) (by decide))).trans ((tail_kept m (dats m) c main_arg12 sfx_main_arg12 (by decide)).trans (V_main_arg12 m c))⟩) (run_main m ρ)

end Cert.KernelIdeal.KVal

end
-- ==== Proof.MlpSpec.lean ====
/-
  The four-layer perceptron 3 → 128 → 128 → 128 → 1 with tanh between the layers, over the extended reals, at ONE input
  row: a dense layer maps a vector x to the vector whose entry h is the inner product of x with column h of the
  weights plus the bias' entry h. Both programs apply this function to rows gathered from the coordinate tables; they
  differ only in how the rows are batched (one batch laid out feature-major, or three batches row-major).
-/
import Idealize.ShloMosaic.PureOps.Ideal
import Idealize.ShloMosaic.Lib.ValueIdx

noncomputable section

namespace MlpSpec

open Idealize.ShloMosaic Idealize.ShloMosaic.ValueIdx

/-- One dense layer at one input vector: entry `h` is the inner product with column `h` of the weights, plus the bias. -/
def dense {k n : ℕ} (W : Fin k → Fin n → EReal) (b : Fin n → EReal) (x : Fin k → EReal) (h : Fin n) : EReal :=
  (∑ c : Fin k, x c * W c h) + b h

/-- The perceptron at one input row `x`. -/
def row (W1 : Fin 3 → Fin 128 → EReal) (b1 : Fin 128 → EReal) (W2 : Fin 128 → Fin 128 → EReal) (b2 : Fin 128 → EReal)
    (W3 : Fin 128 → Fin 128 → EReal) (b3 : Fin 128 → EReal) (W4 : Fin 128 → Fin 1 → EReal) (b4 : Fin 1 → EReal)
    (x : Fin 3 → EReal) : EReal :=
  dense W4 b4 (fun h3 => Ideal.tanh (dense W3 b3 (fun h2 => Ideal.tanh (dense W2 b2
    (fun h1 => Ideal.tanh (dense W1 b1 x h1)) h2)) h3)) 0

/-- The perceptron with its weights read from the eight weight arrays as the reference takes them: W1 [3,128], b1 [128],
    W2 [128,128], b2 [128], W3 [128,128], b3 [128], W4 [128,1], b4 [1]. -/
def ofArgs (a4 : FVec Ideal (⟨2, ![3, 128]⟩ : Shape) .f32) (a5 : FVec Ideal (⟨1, ![128]⟩ : Shape) .f32)
    (a6 : FVec Ideal (⟨2, ![128, 128]⟩ : Shape) .f32) (a7 : FVec Ideal (⟨1, ![128]⟩ : Shape) .f32)
    (a8 : FVec Ideal (⟨2, ![128, 128]⟩ : Shape) .f32) (a9 : FVec Ideal (⟨1, ![128]⟩ : Shape) .f32)
    (a10 : FVec Ideal (⟨2, ![128, 1]⟩ : Shape) .f32) (a11 : FVec Ideal (⟨1, ![1]⟩ : Shape) .f32)
    (x : Fin 3 → EReal) : EReal :=
  row (fun k h => a4 (ix2 k h)) (fun h => a5 (ix1 h)) (fun k h => a6 (ix2 k h)) (fun h => a7 (ix1 h))
    (fun k h => a8 (ix2 k h)) (fun h => a9 (ix1 h)) (fun k h => a10 (ix2 k h)) (fun h => a11 (ix1 h)) x

end MlpSpec

end
-- ==== Proof.MlpKernel.lean ====
/-
  The kernel's perceptron at one column.

  The vector unit computes each dense layer feature-major: the transposed weights [a, k] times the block of input
  columns [k, n], accumulated into a zero splat, plus the bias kept as a column [a, 1] and broadcast across the lanes;
  the casts to the narrow format between the layers are the identity on the extended reals. Read at row h and column j
  that is the inner product of row h of the transposed weights with column j of the input, plus the bias' entry h: the
  dense layer of the specification at the input vector "column j", the two factors of each product in the other
  order (multiplication of extended reals is commutative; no finiteness is used). Composing the four layers gives the
  specification's perceptron at column j.
-/
import proofs.«167318_j62079457296719_2_alg».proof.Proof.MlpSpec
import proofs.«167318_j62079457296719_2_alg».proof.Proof.Gen.KernelIdeal.Skeleton
import Idealize.ShloMosaic.Lib.StackMember
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace MlpForms

open Idealize.ShloMosaic Idealize.ShloMosaic.ValueIdx

/-- A column [a, 1] broadcast across n lanes reads, at (h, j), the column at h. -/
theorem broadcastTo_column_apply {α : Type} {a n : Nat} (b : (⟨2, ![a, 1]⟩ : Shape).Idx → α)
    (hb : (⟨2, ![a, 1]⟩ : Shape).Broadcasts ⟨2, ![a, n]⟩) (h : Fin a) (j : Fin n) :
    broadcastTo (⟨2, ![a, n]⟩ : Shape) b hb (ix2 h j) = b (ix2 h (0 : Fin 1)) :=
  broadcastTo_apply b hb (ix2 h j) (ix2 h (0 : Fin 1)) (fun ax => by
    match ax with
    | ⟨0, _⟩ =>
      show h.val = if a = 1 then 0 else h.val
      split
      · have := h.isLt; omega
      · rfl
    | ⟨1, _⟩ =>
      show 0 = if (1 : Nat) = 1 then 0 else j.val
      rw [if_pos rfl])

/-- The hyperbolic tangent of a block, entry by entry. -/
theorem tanh_apply {s : Shape} {φ : FTy} (v : FVec Ideal s φ) (i : s.Idx) : tanh v i = Ideal.tanh (v i) := rfl

/-- One feature-major dense layer at (h, j): the product of the transposed weights with the input block, accumulated
    into the zero splat, plus the bias column broadcast across the lanes, is the specification's dense layer at the
    input vector "column j of the block". -/
theorem dense_column {a k n : Nat} {φ₁ φ₂ : FTy}
    (D : DotDims (⟨2, ![a, k]⟩ : Shape) (⟨2, ![k, n]⟩ : Shape) (⟨2, ![a, n]⟩ : Shape)) (hD : D = DotDims.plain a k n)
    (W : FVec Ideal (⟨2, ![a, k]⟩ : Shape) φ₁) (X : FVec Ideal (⟨2, ![k, n]⟩ : Shape) φ₂)
    (b : FVec Ideal (⟨2, ![a, 1]⟩ : Shape) .f32) (hb : (⟨2, ![a, 1]⟩ : Shape).Broadcasts ⟨2, ![a, n]⟩)
    (h : Fin a) (j : Fin n) :
    addf (matmul D none W X (constant (⟨2, ![a, n]⟩ : Shape) .f32 0x00000000#32))
        (broadcastTo (⟨2, ![a, n]⟩ : Shape) b hb) (ix2 h j)
      = MlpSpec.dense (fun c h' => W (ix2 h' c)) (fun h' => b (ix2 h' (0 : Fin 1))) (fun c => X (ix2 c j)) h := by
  subst hD
  rw [addf_apply, broadcastTo_column_apply, matmul_zero_eq_dotGeneral, StackMember.dotGeneral_plain_apply]
  unfold MlpSpec.dense
  exact congrArg (· + b (ix2 h (0 : Fin 1))) (Finset.sum_congr rfl fun c _ => mul_comm _ _)

open Cert.KernelIdeal Cert.KernelIdeal.Facts₀ in
/-- The first layer's product record is the plain [128, 3] × [3, n] contraction. -/
theorem layer_in [Cert.KernelIdeal.Facts] (W : FVec Ideal S128x3 .bf16) (X : FVec Ideal S3x17408 .bf16) (b : FVec Ideal S128x1 .f32)
    (h : Fin 128) (j : Fin 17408) :
    addf (matmul dot_S128x3_S3x17408_S128x17408_1_0_0_1_n_n none W X (constant S128x17408 .f32 0x00000000#32))
        (broadcastTo S128x17408 b broadcasts_S128x1_S128x17408) (ix2 h j)
      = MlpSpec.dense (fun c h' => W (ix2 h' c)) (fun h' => b (ix2 h' (0 : Fin 1))) (fun c => X (ix2 c j)) h :=
  dense_column _ rfl W X b _ h j

open Cert.KernelIdeal Cert.KernelIdeal.Facts₀ in
/-- The two hidden layers' product record is the plain [128, 128] × [128, n] contraction. -/
theorem layer_mid [Cert.KernelIdeal.Facts] (W : FVec Ideal S128x128 .bf16) (X : FVec Ideal S128x17408 .bf16) (b : FVec Ideal S128x1 .f32)
    (h : Fin 128) (j : Fin 17408) :
    addf (matmul dot_S128x128_S128x17408_S128x17408_1_0_0_1_n_n none W X (constant S128x17408 .f32 0x00000000#32))
        (broadcastTo S128x17408 b broadcasts_S128x1_S128x17408) (ix2 h j)
      = MlpSpec.dense (fun c h' => W (ix2 h' c)) (fun h' => b (ix2 h' (0 : Fin 1))) (fun c => X (ix2 c j)) h :=
  dense_column _ rfl W X b _ h j

open Cert.KernelIdeal Cert.KernelIdeal.Facts₀ in
/-- The output layer's product record is the plain [1, 128] × [128, n] contraction; its bias is the one cell [1, 1]. -/
theorem layer_out [Cert.KernelIdeal.Facts] (W : FVec Ideal S1x128 .bf16) (X : FVec Ideal S128x17408 .bf16) (b : FVec Ideal S1x1 .f32)
    (h : Fin 1) (j : Fin 17408) :
    addf (matmul dot_S1x128_S128x17408_S1x17408_1_0_0_1_n_n none W X (constant S1x17408 .f32 0x00000000#32))
        (broadcastTo S1x17408 b broadcasts_S1x1_S1x17408) (ix2 h j)
      = MlpSpec.dense (fun c h' => W (ix2 h' c)) (fun h' => b (ix2 h' (0 : Fin 1))) (fun c => X (ix2 c j)) h :=
  dense_column _ rfl W X b _ h j

open Cert.KernelIdeal in
/-- The kernel's value at column j of its block is the specification's perceptron at the input vector "column j", with
    the weights read from the transposed weight blocks and the biases from the bias columns. The casts of equal shapes
    and the casts to the narrow format drop out; each layer is `dense_column`; the output layer's one row is row 0. -/
theorem kernel_col [Cert.KernelIdeal.Facts]
    (x0 : Vec Ideal S3x17408 .f32) (w1t : Vec Ideal S128x3 .f32) (b1c : Vec Ideal S128x1 .f32)
    (w2t : Vec Ideal S128x128 .f32) (b2c : Vec Ideal S128x1 .f32) (w3t : Vec Ideal S128x128 .f32) (b3c : Vec Ideal S128x1 .f32)
    (w4t : Vec Ideal S1x128 .f32) (b4c : Vec Ideal S1x1 .f32) (j : Fin 17408) :
    Cert.KernelIdeal.Gen.k0_pay1 (F := Ideal) (Cert.KernelIdeal.Gen.k0_pay2 (F := Ideal) x0 w1t b1c w2t b2c w3t b3c w4t) b4c (ix2 (0 : Fin 1) j)
      = MlpSpec.row (fun k h => w1t (ix2 h k)) (fun h => b1c (ix2 h (0 : Fin 1)))
          (fun a h => w2t (ix2 h a)) (fun h => b2c (ix2 h (0 : Fin 1)))
          (fun a h => w3t (ix2 h a)) (fun h => b3c (ix2 h (0 : Fin 1)))
          (fun a _ => w4t (ix2 (0 : Fin 1) a)) (fun _ => b4c (ix2 (0 : Fin 1) (0 : Fin 1)))
          (fun k => x0 (ix2 k j)) := by
  unfold Cert.KernelIdeal.Gen.k0_pay1 Cert.KernelIdeal.Gen.k0_pay2
  simp only [shapeCast_self]
  rw [layer_out]
  simp only [truncf_apply, tanh_apply, layer_mid, layer_in]
  rfl

end MlpForms

end
-- ==== Proof.KOut.lean ====
/-
  The kernel's output array after the run, column by column.

  The region runs the body at 32 grid points. At point t the body reads block t of the staged feature-major table (its
  columns 17408 t … 17408 t + 17407) and the eight weight and bias arrays whole, and leaves in the output window's buffer
  the perceptron's value at each of those 17408 columns; the pipeline writes that block back as columns
  17408 t … 17408 t + 17407 of the output array. So what point t writes back is block t of ONE function of the nine
  staged arrays — the perceptron applied to every column of the table —, and since column n lies in the block of point
  n / 17408, the 32 write-backs cover the output array: after the run it holds that function, and its entry at column
  n is the specification's perceptron at column n of the table.
-/
import proofs.«167318_j62079457296719_2_alg».proof.Proof.FrameBodyI
import proofs.«167318_j62079457296719_2_alg».proof.Proof.MlpKernel
import Idealize.ShloMosaic.Lib.Pipeline.Value
import Idealize.ShloMosaic.Lib.ValueIdx

set_option maxRecDepth 16384

noncomputable section

namespace Cert.KernelIdeal.KVal

open Cert.KernelIdeal Cert.KernelIdeal.Gen Cert.KernelIdeal.Frm Idealize.ShloMosaic Idealize.ShloMosaic.ValueIdx
open Idealize.ShloMosaic.TcCoe Idealize.SL.Sem
open Idealize.ShloMosaic.Pipeline (Dat)

/-- The zero offsets of a whole-block access, however spelt. -/
theorem hz : (![0, 0] : Fin 2 → Nat) = fun _ => 0 := funext fun a => by fin_cases a <;> rfl

/-- The output block the body leaves, at column q, is the perceptron of column q of the input block. -/
theorem out_block_apply (x0 : Vec Ideal S3x17408 .f32) (x1 : Vec Ideal S128x3 .f32) (x2 : Vec Ideal S128x1 .f32)
    (x3 : Vec Ideal S128x128 .f32) (x4 : Vec Ideal S128x1 .f32) (x5 : Vec Ideal S128x128 .f32) (x6 : Vec Ideal S128x1 .f32)
    (x7 : Vec Ideal S1x128 .f32) (x8 : Vec Ideal S1x1 .f32) (q : Fin 17408) :
    out0_9 (F := Ideal) x0 x1 x2 x3 x4 x5 x6 x7 x8 (ix2 (0 : Fin 1) q)
      = MlpSpec.row (fun k h => x1 (ix2 h k)) (fun h => x2 (ix2 h (0 : Fin 1)))
          (fun a h => x3 (ix2 h a)) (fun h => x4 (ix2 h (0 : Fin 1)))
          (fun a h => x5 (ix2 h a)) (fun h => x6 (ix2 h (0 : Fin 1)))
          (fun a _ => x7 (ix2 (0 : Fin 1) a)) (fun _ => x8 (ix2 (0 : Fin 1) (0 : Fin 1)))
          (fun k => x0 (ix2 k q)) := by
  unfold out0_9
  rw [View.canon_unit_zero hz]
  simp only [View.ld_unit_zero (S := S3x17408) hz, View.ld_unit_zero (S := S128x3) hz, View.ld_unit_zero (S := S128x1) hz,
    View.ld_unit_zero (S := S128x128) hz, View.ld_unit_zero (S := S1x128) hz, View.ld_unit_zero (S := S1x1) hz]
  exact MlpForms.kernel_col x0 x1 x2 x3 x4 x5 x6 x7 x8 q

/-- The printed index maps, decided over the grid: the input table's and the output's block at point t is column block
    t; every weight block is the whole array. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = t.val :=
  (by decide +kernel : ∀ t : Fin grid0.N, _)

/-- Window 0's block at point t, read at (k, q), is the staged table at (k, 17408 t + q). -/
theorem blk0_read (A : S3x557056.Idx → Elt Ideal .f32) (t : Fin cfg0.N) (k : Fin 3) (q : Fin 17408) (n : Fin 557056)
    (hn : n.val = 17408 * t.val + q.val) :
    ((cfg0.win 0).blk t).view.read (Elt Ideal) A (ix2 k q) = A (ix2 k n) := by
  obtain ⟨e0, e1, -⟩ := idx_facts t
  show A (((cfg0.win 0).blk t).view.emb (ix2 k q)) = A (ix2 k n)
  refine congrArg A (funext fun a => Fin.ext ?_)
  match a with
  | ⟨0, _⟩ => show win0_0.index t (0 : Fin 2) * 3 + 1 * k.val = k.val; omega
  | ⟨1, _⟩ => show win0_0.index t (1 : Fin 2) * 17408 + 1 * q.val = n.val; omega

/-- Window 1's block at every point is its whole array. -/
theorem blk1_read (A : S128x3.Idx → Elt Ideal .f32) (t : Fin cfg0.N) :
    ((cfg0.win 1).blk t).view.read (Elt Ideal) A = A := by
  obtain ⟨-, -, e0, e1, -⟩ := idx_facts t
  funext j
  show A (((cfg0.win 1).blk t).view.emb j) = A j
  refine congrArg A (funext fun a => Fin.ext ?_)
  match a with
  | ⟨0, _⟩ => show win0_1.index t (0 : Fin 2) * 128 + 1 * (j 0).val = (j 0).val; omega
  | ⟨1, _⟩ => show win0_1.index t (1 : Fin 2) * 3 + 1 * (j 1).val = (j 1).val; omega

/-- Window 2's block at every point is its whole array. -/
theorem blk2_read (A : S128x1.Idx → Elt Ideal .f32) (t : Fin cfg0.N) :
    ((cfg0.win 2).blk t).view.read (Elt Ideal) A = A := by
  obtain ⟨-, -, -, -, e0, e1, -⟩ := idx_facts t
  funext j
  show A (((cfg0.win 2).blk t).view.emb j) = A j
  refine congrArg A (funext fun a => Fin.ext ?_)
  match a with
  | ⟨0, _⟩ => show win0_2.index t (0 : Fin 2) * 128 + 1 * (j 0).val = (j 0).val; omega
  | ⟨1, _⟩ => show win0_2.index t (1 : Fin 2) * 1 + 1 * (j 1).val = (j 1).val; omega

/-- Window 3's block at every point is its whole array. -/
theorem blk3_read (A : S128x128.Idx → Elt Ideal .f32) (t : Fin cfg0.N) :
    ((cfg0.win 3).blk t).view.read (Elt Ideal) A = A := by
  obtain ⟨-, -, -, -, -, -, e0, e1, -⟩ := idx_facts t
  funext j
  show A (((cfg0.win 3).blk t).view.emb j) = A j
  refine congrArg A (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- Window 4's block at every point is its whole array. -/
theorem blk4_read (A : S128x1.Idx → Elt Ideal .f32) (t : Fin cfg0.N) :
    ((cfg0.win 4).blk t).view.read (Elt Ideal) A = A := by
  obtain ⟨-, -, -, -, -, -, -, -, e0, e1, -⟩ := idx_facts t
  funext j
  show A (((cfg0.win 4).blk t).view.emb j) = A j
  refine congrArg A (funext fun a => Fin.ext ?_)
  match a with
  | ⟨0, _⟩ => show win0_4.index t (0 : Fin 2) * 128 + 1 * (j 0).val = (j 0).val; omega
  | ⟨1, _⟩ => show win0_4.index t (1 : Fin 2) * 1 + 1 * (j 1).val = (j 1).val; omega

/-- Window 5's block at every point is its whole array. -/
theorem blk5_read (A : S128x128.Idx → Elt Ideal .f32) (t : Fin cfg0.N) :
    ((cfg0.win 5).blk t).view.read (Elt Ideal) A = A := by
  obtain ⟨-, -, -, -, -, -, -, -, -, -, e0, e1, -⟩ := idx_facts t
  funext j
  show A (((cfg0.win 5).blk t).view.emb j) = A j
  refine congrArg A (funext fun a => Fin.ext ?_)
  match a with
  | ⟨0, _⟩ => show win0_5.index t (0 : Fin 2) * 128 + 1 * (j 0).val = (j 0).val; omega
  | ⟨1, _⟩ => show win0_5.index t (1 : Fin 2) * 128 + 1 * (j 1).val = (j 1).val; omega

/-- Window 6's block at every point is its whole array. -/
theorem blk6_read (A : S128x1.Idx → Elt Ideal .f32) (t : Fin cfg0.N) :
    ((cfg0.win 6).blk t).view.read (Elt Ideal) A = A := by
  obtain ⟨-, -, -, -, -, -, -, -, -, -, -, -, e0, e1, -⟩ := idx_facts t
  funext j
  show A (((cfg0.win 6).blk t).view.emb j) = A j
  refine congrArg A (funext fun a => Fin.ext ?_)
  match a with
  | ⟨0, _⟩ => show win0_6.index t (0 : Fin 2) * 128 + 1 * (j 0).val = (j 0).val; omega
  | ⟨1, _⟩ => show win0_6.index t (1 : Fin 2) * 1 + 1 * (j 1).val = (j 1).val; omega

/-- Window 7's block at every point is its whole array. -/
theorem blk7_read (A : S1x128.Idx → Elt Ideal .f32) (t : Fin cfg0.N) :
    ((cfg0.win 7).blk t).view.read (Elt Ideal) A = A := by
  obtain ⟨-, -, -, -, -, -, -, -, -, -, -, -, -, -, e0, e1, -⟩ := idx_facts t
  funext j
  show A (((cfg0.win 7).blk t).view.emb j) = A j
  refine congrArg A (funext fun a => Fin.ext ?_)
  match a with
  | ⟨0, _⟩ => show win0_7.index t (0 : Fin 2) * 1 + 1 * (j 0).val = (j 0).val; omega
  | ⟨1, _⟩ => show win0_7.index t (1 : Fin 2) * 128 + 1 * (j 1).val = (j 1).val; omega

/-- Window 8's block at every point is its whole array. -/
theorem blk8_read (A : S1x1.Idx → Elt Ideal .f32) (t : Fin cfg0.N) :
    ((cfg0.win 8).blk t).view.read (Elt Ideal) A = A := by
  obtain ⟨-, -, -, -, -, -, -, -, -, -, -, -, -, -, -, -, e0, e1, -⟩ := idx_facts t
  funext j
  show A (((cfg0.win 8).blk t).view.emb j) = A j
  refine congrArg A (funext fun a => Fin.ext ?_)
  match a with
  | ⟨0, _⟩ => show win0_8.index t (0 : Fin 2) * 1 + 1 * (j 0).val = (j 0).val; omega
  | ⟨1, _⟩ => show win0_8.index t (1 : Fin 2) * 1 + 1 * (j 1).val = (j 1).val; omega

/-- The output window's block at point t, read at (0, q), is the output array at (0, 17408 t + q). -/
theorem blk9_read (A : S1x557056.Idx → Elt Ideal .f32) (t : Fin cfg0.N) (q : Fin 17408) (n : Fin 557056)
    (hn : n.val = 17408 * t.val + q.val) :
    ((cfg0.win 9).blk t).view.read (Elt Ideal) A (ix2 (0 : Fin 1) q) = A (ix2 (0 : Fin 1) n) := by
  obtain ⟨-, -, -, -, -, -, -, -, -, -, -, -, -, -, -, -, -, -, e0, e1⟩ := idx_facts t
  show A (((cfg0.win 9).blk t).view.emb (ix2 (0 : Fin 1) q)) = A (ix2 (0 : Fin 1) n)
  refine congrArg A (funext fun a => Fin.ext ?_)
  match a with
  | ⟨0, _⟩ => show win0_9.index t (0 : Fin 2) * 1 + 1 * 0 = 0; omega
  | ⟨1, _⟩ => show win0_9.index t (1 : Fin 2) * 17408 + 1 * q.val = n.val; omega

/-- The perceptron applied to every column of the staged table: the whole output array as one function of the nine
    staged arrays. -/
def G (X : S3x557056.Idx → Elt Ideal .f32) (w1 : S128x3.Idx → Elt Ideal .f32) (b1 : S128x1.Idx → Elt Ideal .f32)
    (w2 : S128x128.Idx → Elt Ideal .f32) (b2 : S128x1.Idx → Elt Ideal .f32) (w3 : S128x128.Idx → Elt Ideal .f32)
    (b3 : S128x1.Idx → Elt Ideal .f32) (w4 : S1x128.Idx → Elt Ideal .f32) (b4 : S1x1.Idx → Elt Ideal .f32) : S1x557056.Idx → Elt Ideal .f32 :=
  fun i => MlpSpec.row (fun k h => w1 (ix2 h k)) (fun h => b1 (ix2 h (0 : Fin 1)))
    (fun a h => w2 (ix2 h a)) (fun h => b2 (ix2 h (0 : Fin 1)))
    (fun a h => w3 (ix2 h a)) (fun h => b3 (ix2 h (0 : Fin 1)))
    (fun a _ => w4 (ix2 (0 : Fin 1) a)) (fun _ => b4 (ix2 (0 : Fin 1) (0 : Fin 1)))
    (fun k => X (ix2 k (i 1)))

/-- What point t writes back — the body's output block of the nine input blocks at t — is block t of `G`: column q of
    block t is column 17408 t + q of the table, and the weight blocks are the weight arrays. -/
theorem flushed_block (X : S3x557056.Idx → Elt Ideal .f32) (w1 : S128x3.Idx → Elt Ideal .f32) (b1 : S128x1.Idx → Elt Ideal .f32)
    (w2 : S128x128.Idx → Elt Ideal .f32) (b2 : S128x1.Idx → Elt Ideal .f32) (w3 : S128x128.Idx → Elt Ideal .f32)
    (b3 : S128x1.Idx → Elt Ideal .f32) (w4 : S1x128.Idx → Elt Ideal .f32) (b4 : S1x1.Idx → Elt Ideal .f32) (t : Fin cfg0.N) :
    (cfg0.win 9).cut (grid0.coords t)
        (out0_9 (F := Ideal) (((cfg0.win 0).blk t).view.read (Elt Ideal) X) (((cfg0.win 1).blk t).view.read (Elt Ideal) w1)
          (((cfg0.win 2).blk t).view.read (Elt Ideal) b1) (((cfg0.win 3).blk t).view.read (Elt Ideal) w2)
          (((cfg0.win 4).blk t).view.read (Elt Ideal) b2) (((cfg0.win 5).blk t).view.read (Elt Ideal) w3)
          (((cfg0.win 6).blk t).view.read (Elt Ideal) b3) (((cfg0.win 7).blk t).view.read (Elt Ideal) w4)
          (((cfg0.win 8).blk t).view.read (Elt Ideal) b4))
      = ((cfg0.win 9).blk t).view.read (Elt Ideal) (G X w1 b1 w2 b2 w3 b3 w4 b4) := by
  funext j
  obtain ⟨u, q, rfl⟩ : ∃ (u : Fin 1) (q : Fin 17408), j = ix2 u q := ⟨j 0, j 1, eq_ix2 j⟩
  obtain rfl : u = 0 := Subsingleton.elim _ _
  have hn : 17408 * t.val + q.val < 557056 := by
    have h1 : t.val < 32 := lt_of_lt_of_eq t.isLt N_0
    have h2 := q.isLt
    omega
  rw [blk9_read _ t q ⟨17408 * t.val + q.val, hn⟩ rfl]
  show out0_9 (F := Ideal) _ _ _ _ _ _ _ _ _ (ix2 (0 : Fin 1) q) = _
  rw [out_block_apply, blk1_read, blk2_read, blk3_read, blk4_read, blk5_read, blk6_read, blk7_read, blk8_read]
  unfold G
  refine congrArg (MlpSpec.row _ _ _ _ _ _ _ _) (funext fun k => ?_)
  exact blk0_read X t k q ⟨17408 * t.val + q.val, hn⟩ rfl

/-- An index of the output array is in point t's block iff each coordinate is in the block's range on its axis. -/
theorem mem_blk9 (t : Fin cfg0.N) (i : S1x557056.Idx) :
    i ∈ ((cfg0.win 9).blk t).view.set ↔ ∀ a : Fin 2, win0_9.index t a * S1x17408.size a ≤ (i a).val ∧ (i a).val < win0_9.index t a * S1x17408.size a + S1x17408.size a := by
  show i ∈ ((View.whole main_v84).slice (win0_9.rect t)).set ↔ _
  rw [View.set_slice_whole, Rect.mem_set_unit]
  exact Iff.rfl

/-- Every column n of the output array is written back: by the point n / 17408. -/
theorem cover9 (i : S1x557056.Idx) : ∃ t : Fin cfg0.N, (cfg0.win 9).flush t = true ∧ i ∈ ((cfg0.win 9).blk t).view.set := by
  have hi0 : (i 0).val < 1 := (i 0).isLt
  have hi1 : (i 1).val < 557056 := (i 1).isLt
  have ht : (i 1).val / 17408 < cfg0.N := lt_of_lt_of_eq (show (i 1).val / 17408 < 32 by omega) N_0.symm
  refine ⟨⟨(i 1).val / 17408, ht⟩, flush0_9 _, ?_⟩
  rw [mem_blk9]
  obtain ⟨-, -, -, -, -, -, -, -, -, -, -, -, -, -, -, -, -, -, e0, e1⟩ := idx_facts ⟨(i 1).val / 17408, ht⟩
  intro a
  match a with
  | ⟨0, _⟩ =>
    show win0_9.index ⟨(i 1).val / 17408, ht⟩ (0 : Fin 2) * 1 ≤ (i 0).val ∧ (i 0).val < win0_9.index ⟨(i 1).val / 17408, ht⟩ (0 : Fin 2) * 1 + 1
    omega
  | ⟨1, _⟩ =>
    show win0_9.index ⟨(i 1).val / 17408, ht⟩ (1 : Fin 2) * 17408 ≤ (i 1).val ∧ (i 1).val < win0_9.index ⟨(i 1).val / 17408, ht⟩ (1 : Fin 2) * 17408 + 17408
    rw [e1]
    show (i 1).val / 17408 * 17408 ≤ (i 1).val ∧ (i 1).val < (i 1).val / 17408 * 17408 + 17408
    omega

/-! ## The run's output array -/

variable (m : (ℓ : Loc nD τ sig) → Buf (Elt Ideal) ℓ)

/-- What point t writes back is block t of `G` of the nine staged arrays as the region finds them. -/
theorem flushed9_eq (c : Dev nD) (t : Fin cfg0.N) :
    (dats (F := Ideal) m 0 c).flushed 9 t = ((cfg0.win 9).blk t).view.read (Elt Ideal)
      (G (V m c main_v75) (V m c main_v76) (V m c main_v80) (V m c main_v77) (V m c main_v81) (V m c main_v78) (V m c main_v82) (V m c main_v79) (V m c main_v83)) := by
  show (cfg0.win 9).cut (grid0.coords t) ((dats (F := Ideal) m 0 c).after 9 t) = _
  rw [after0_9]
  exact flushed_block (V m c main_v75) (V m c main_v76) (V m c main_v80) (V m c main_v77) (V m c main_v81) (V m c main_v78) (V m c main_v82) (V m c main_v79) (V m c main_v83) t

/-- The output array after the run: the perceptron applied to every column of the staged table. -/
theorem final9 (c : Dev nD) : (dats (F := Ideal) m 0 c).arrAt 9 cfg0.N = G (V m c main_v75) (V m c main_v76) (V m c main_v80) (V m c main_v77) (V m c main_v81) (V m c main_v78) (V m c main_v82) (V m c main_v79) (V m c main_v83) :=
  (dats (F := Ideal) m 0 c).arrAt_eq_of_cover 9 (G (V m c main_v75) (V m c main_v76) (V m c main_v80) (V m c main_v77) (V m c main_v81) (V m c main_v78) (V m c main_v82) (V m c main_v79) (V m c main_v83))
    (fun t _ => flushed9_eq m c t) cover9

/-- The output array after the run, at column n, is the specification's perceptron at column n of the staged table. -/
theorem out_apply (c : Dev nD) (n : Fin 557056) :
    ((dats (F := Ideal) m 0 c).arrAt 9 cfg0.N) (ix2 (0 : Fin 1) n)
      = MlpSpec.row (fun k h => (V m c main_v76 : S128x3.Idx → Elt Ideal .f32) (ix2 h k))
          (fun h => (V m c main_v80 : S128x1.Idx → Elt Ideal .f32) (ix2 h (0 : Fin 1)))
          (fun a h => (V m c main_v77 : S128x128.Idx → Elt Ideal .f32) (ix2 h a))
          (fun h => (V m c main_v81 : S128x1.Idx → Elt Ideal .f32) (ix2 h (0 : Fin 1)))
          (fun a h => (V m c main_v78 : S128x128.Idx → Elt Ideal .f32) (ix2 h a))
          (fun h => (V m c main_v82 : S128x1.Idx → Elt Ideal .f32) (ix2 h (0 : Fin 1)))
          (fun a _ => (V m c main_v79 : S1x128.Idx → Elt Ideal .f32) (ix2 (0 : Fin 1) a))
          (fun _ => (V m c main_v83 : S1x1.Idx → Elt Ideal .f32) (ix2 (0 : Fin 1) (0 : Fin 1)))
          (fun k => (V m c main_v75 : S3x557056.Idx → Elt Ideal .f32) (ix2 k n)) := by
  rw [final9]
  rfl

end Cert.KernelIdeal.KVal

end
-- ==== Proof.Stages.lean ====
/-
  The host arithmetic around the perceptron, as pure functions of arrays: one definition per group of host operations,
  each operation one `let` in program order, so that a value shared by several later operations is named once.
  maskOf, stagOf, neigOf are functions of the centre indices alone; tableT and the eight weight layouts are what the
  kernel's windows stage; predSlice, psSlice, pnSlice cut the flattened predictions into the centres', the staggered
  points' and the neighbours' parts; lossOf is the scalar loss of those three with the data and Laplacian tables.
-/
import proofs.«167318_j62079457296719_2_alg».proof.Proof.Gen.KernelIdeal

noncomputable section

namespace Cert.KernelIdeal.Gen.Stages

open Idealize.ShloMosaic Idealize.SL.Sem Cert.KernelIdeal Cert.KernelIdeal.Gen

variable {F : FTy → Type} [FloatOps F]

/-- Operations 101 onwards of `maskOf`: the names live at its head, then its lets. -/
def maskOf_part5 (main_v3 : (⟨S32768, .i32⟩ : BufTy).Contents (Elt F)) (main_v17 : (⟨S32768, .i1⟩ : BufTy).Contents (Elt F)) (main_c_10 : (⟨S_, .i32⟩ : BufTy).Contents (Elt F)) :
    (⟨S32768, .f32⟩ : BufTy).Contents (Elt F) :=
  let main_v18 : (⟨S32768, .i32⟩ : BufTy).Contents (Elt F) := (broadcastInDim S32768 ![] bcast_S_S32768) main_c_10
  let main_v19 : (⟨S32768, .i1⟩ : BufTy).Contents (Elt F) := (cmpi .slt) main_v3 main_v18
  let main_v20 : (⟨S32768, .i1⟩ : BufTy).Contents (Elt F) := (andi) main_v17 main_v19
  let main_v21 : (⟨S32768, .f32⟩ : BufTy).Contents (Elt F) := (uitofp .f32) main_v20
  main_v21

/-- Operations 81 onwards of `maskOf`: the names live at its head, then its lets. -/
def maskOf_part4 (main_v0 : (⟨S32768, .i32⟩ : BufTy).Contents (Elt F)) (main_v2 : (⟨S32768, .i32⟩ : BufTy).Contents (Elt F)) (main_v3 : (⟨S32768, .i32⟩ : BufTy).Contents (Elt F)) :
    (⟨S32768, .f32⟩ : BufTy).Contents (Elt F) :=
  let main_c_5 : (⟨S_, .i32⟩ : BufTy).Contents (Elt F) := constantI S_ 32 1#32
  let main_v4 : (⟨S32768, .i32⟩ : BufTy).Contents (Elt F) := (broadcastInDim S32768 ![] bcast_S_S32768) main_c_5
  let main_v5 : (⟨S32768, .i1⟩ : BufTy).Contents (Elt F) := (cmpi .sge) main_v0 main_v4
  let main_c_6 : (⟨S_, .i32⟩ : BufTy).Contents (Elt F) := constantI S_ 32 127#32
  let main_v6 : (⟨S32768, .i32⟩ : BufTy).Contents (Elt F) := (broadcastInDim S32768 ![] bcast_S_S32768) main_c_6
  let main_v7 : (⟨S32768, .i1⟩ : BufTy).Contents (Elt F) := (cmpi .slt) main_v0 main_v6
  let main_v8 : (⟨S32768, .i1⟩ : BufTy).Contents (Elt F) := (andi) main_v5 main_v7
  let main_c_7 : (⟨S_, .i32⟩ : BufTy).Contents (Elt F) := constantI S_ 32 1#32
  let main_v9 : (⟨S32768, .i32⟩ : BufTy).Contents (Elt F) := (broadcastInDim S32768 ![] bcast_S_S32768) main_c_7
  let main_v10 : (⟨S32768, .i1⟩ : BufTy).Contents (Elt F) := (cmpi .sge) main_v2 main_v9
  let main_v11 : (⟨S32768, .i1⟩ : BufTy).Contents (Elt F) := (andi) main_v8 main_v10
  let main_c_8 : (⟨S_, .i32⟩ : BufTy).Contents (Elt F) := constantI S_ 32 127#32
  let main_v12 : (⟨S32768, .i32⟩ : BufTy).Contents (Elt F) := (broadcastInDim S32768 ![] bcast_S_S32768) main_c_8
  let main_v13 : (⟨S32768, .i1⟩ : BufTy).Contents (Elt F) := (cmpi .slt) main_v2 main_v12
  let main_v14 : (⟨S32768, .i1⟩ : BufTy).Contents (Elt F) := (andi) main_v11 main_v13
  let main_c_9 : (⟨S_, .i32⟩ : BufTy).Contents (Elt F) := constantI S_ 32 1#32
  let main_v15 : (⟨S32768, .i32⟩ : BufTy).Contents (Elt F) := (broadcastInDim S32768 ![] bcast_S_S32768) main_c_9
  let main_v16 : (⟨S32768, .i1⟩ : BufTy).Contents (Elt F) := (cmpi .sge) main_v3 main_v15
  let main_v17 : (⟨S32768, .i1⟩ : BufTy).Contents (Elt F) := (andi) main_v14 main_v16
  let main_c_10 : (⟨S_, .i32⟩ : BufTy).Contents (Elt F) := constantI S_ 32 127#32
  maskOf_part5 (F := F) main_v3 main_v17 main_c_10

/-- Operations 61 onwards of `maskOf`: the names live at its head, then its lets. -/
def maskOf_part3 (main_arg12 : (⟨S32768, .i32⟩ : BufTy).Contents (Elt F)) (main_v0 : (⟨S32768, .i32⟩ : BufTy).Contents (Elt F)) (main_v2 : (⟨S32768, .i32⟩ : BufTy).Contents (Elt F)) (main_call3_v0 : (⟨S_, .i32⟩ : BufTy).Contents (Elt F)) :
    (⟨S32768, .f32⟩ : BufTy).Contents (Elt F) :=
  let main_call3_c : (⟨S_, .i32⟩ : BufTy).Contents (Elt F) := constantI S_ 32 0#32
  let main_call3_v1 : (⟨S_, .i1⟩ : BufTy).Contents (Elt F) := (cmpi .eq) main_call3_v0 main_call3_c
  let main_call3_c_0 : (⟨S_, .i32⟩ : BufTy).Contents (Elt F) := constantI S_ 32 1#32
  let main_call3_v2 : (⟨S_, .i32⟩ : BufTy).Contents (Elt F) := (select) main_call3_v1 main_call3_c_0 main_call3_v0
  let main_call3_v3 : (⟨S32768, .i32⟩ : BufTy).Contents (Elt F) := (broadcastInDim S32768 ![] bcast_S_S32768) main_call3_v2
  let main_call3_v4 : (⟨S32768, .i32⟩ : BufTy).Contents (Elt F) := (Host.remsi) main_arg12 main_call3_v3
  let main_call3_c_1 : (⟨S_, .i32⟩ : BufTy).Contents (Elt F) := constantI S_ 32 0#32
  let main_call3_v5 : (⟨S32768, .i32⟩ : BufTy).Contents (Elt F) := (broadcastInDim S32768 ![] bcast_S_S32768) main_call3_c_1
  let main_call3_v6 : (⟨S32768, .i1⟩ : BufTy).Contents (Elt F) := (cmpi .ne) main_call3_v4 main_call3_v5
  let main_call3_c_2 : (⟨S_, .i32⟩ : BufTy).Contents (Elt F) := constantI S_ 32 0#32
  let main_call3_v7 : (⟨S32768, .i32⟩ : BufTy).Contents (Elt F) := (broadcastInDim S32768 ![] bcast_S_S32768) main_call3_c_2
  let main_call3_v8 : (⟨S32768, .i1⟩ : BufTy).Contents (Elt F) := (cmpi .slt) main_call3_v4 main_call3_v7
  let main_call3_c_3 : (⟨S_, .i32⟩ : BufTy).Contents (Elt F) := constantI S_ 32 0#32
  let main_call3_v9 : (⟨S_, .i1⟩ : BufTy).Contents (Elt F) := (cmpi .slt) main_call3_v2 main_call3_c_3
  let main_call3_v10 : (⟨S32768, .i1⟩ : BufTy).Contents (Elt F) := (broadcastInDim S32768 ![] bcast_S_S32768) main_call3_v9
  let main_call3_v11 : (⟨S32768, .i1⟩ : BufTy).Contents (Elt F) := (cmpi .ne) main_call3_v8 main_call3_v10
  let main_call3_v12 : (⟨S32768, .i1⟩ : BufTy).Contents (Elt F) := (andi) main_call3_v11 main_call3_v6
  let main_call3_v13 : (⟨S32768, .i32⟩ : BufTy).Contents (Elt F) := (broadcastInDim S32768 ![] bcast_S_S32768) main_call3_v2
  let main_call3_v14 : (⟨S32768, .i32⟩ : BufTy).Contents (Elt F) := (addi) main_call3_v4 main_call3_v13
  let main_v3 : (⟨S32768, .i32⟩ : BufTy).Contents (Elt F) := (select) main_call3_v12 main_call3_v14 main_call3_v4
  maskOf_part4 (F := F) main_v0 main_v2 main_v3

/-- Operations 41 onwards of `maskOf`: the names live at its head, then its lets. -/
def maskOf_part2 (main_arg12 : (⟨S32768, .i32⟩ : BufTy).Contents (Elt F)) (main_v0 : (⟨S32768, .i32⟩ : BufTy).Contents (Elt F)) (main_v1 : (⟨S32768, .i32⟩ : BufTy).Contents (Elt F)) :
    (⟨S32768, .f32⟩ : BufTy).Contents (Elt F) :=
  let main_c_3 : (⟨S_, .i32⟩ : BufTy).Contents (Elt F) := constantI S_ 32 128#32
  let main_call2_v0 : (⟨S_, .i32⟩ : BufTy).Contents (Elt F) := (id) main_c_3
  let main_call2_v1 : (⟨S32768, .i32⟩ : BufTy).Contents (Elt F) := (broadcastInDim S32768 ![] bcast_S_S32768) main_call2_v0
  let main_call2_v2 : (⟨S32768, .i32⟩ : BufTy).Contents (Elt F) := (Host.divsi) main_v1 main_call2_v1
  let main_call2_v3 : (⟨S32768, .i32⟩ : BufTy).Contents (Elt F) := (signi) main_v1
  let main_call2_v4 : (⟨S_, .i32⟩ : BufTy).Contents (Elt F) := (signi) main_call2_v0
  let main_call2_v5 : (⟨S32768, .i32⟩ : BufTy).Contents (Elt F) := (broadcastInDim S32768 ![] bcast_S_S32768) main_call2_v4
  let main_call2_v6 : (⟨S32768, .i1⟩ : BufTy).Contents (Elt F) := (cmpi .ne) main_call2_v3 main_call2_v5
  let main_call2_v7 : (⟨S32768, .i32⟩ : BufTy).Contents (Elt F) := (broadcastInDim S32768 ![] bcast_S_S32768) main_call2_v0
  let main_call2_v8 : (⟨S32768, .i32⟩ : BufTy).Contents (Elt F) := (Host.remsi) main_v1 main_call2_v7
  let main_call2_c : (⟨S_, .i32⟩ : BufTy).Contents (Elt F) := constantI S_ 32 0#32
  let main_call2_v9 : (⟨S32768, .i32⟩ : BufTy).Contents (Elt F) := (broadcastInDim S32768 ![] bcast_S_S32768) main_call2_c
  let main_call2_v10 : (⟨S32768, .i1⟩ : BufTy).Contents (Elt F) := (cmpi .ne) main_call2_v8 main_call2_v9
  let main_call2_v11 : (⟨S32768, .i1⟩ : BufTy).Contents (Elt F) := (andi) main_call2_v6 main_call2_v10
  let main_call2_c_0 : (⟨S_, .i32⟩ : BufTy).Contents (Elt F) := constantI S_ 32 1#32
  let main_call2_v12 : (⟨S32768, .i32⟩ : BufTy).Contents (Elt F) := (broadcastInDim S32768 ![] bcast_S_S32768) main_call2_c_0
  let main_call2_v13 : (⟨S32768, .i32⟩ : BufTy).Contents (Elt F) := (subi) main_call2_v2 main_call2_v12
  let main_v2 : (⟨S32768, .i32⟩ : BufTy).Contents (Elt F) := (select) main_call2_v11 main_call2_v13 main_call2_v2
  let main_c_4 : (⟨S_, .i32⟩ : BufTy).Contents (Elt F) := constantI S_ 32 128#32
  let main_call3_v0 : (⟨S_, .i32⟩ : BufTy).Contents (Elt F) := (id) main_c_4
  maskOf_part3 (F := F) main_arg12 main_v0 main_v2 main_call3_v0

/-- Operations 21 onwards of `maskOf`: the names live at its head, then its lets. -/
def maskOf_part1 (main_arg12 : (⟨S32768, .i32⟩ : BufTy).Contents (Elt F)) (main_v0 : (⟨S32768, .i32⟩ : BufTy).Contents (Elt F)) (main_call1_v0 : (⟨S_, .i32⟩ : BufTy).Contents (Elt F)) :
    (⟨S32768, .f32⟩ : BufTy).Contents (Elt F) :=
  let main_call1_c : (⟨S_, .i32⟩ : BufTy).Contents (Elt F) := constantI S_ 32 0#32
  let main_call1_v1 : (⟨S_, .i1⟩ : BufTy).Contents (Elt F) := (cmpi .eq) main_call1_v0 main_call1_c
  let main_call1_c_0 : (⟨S_, .i32⟩ : BufTy).Contents (Elt F) := constantI S_ 32 1#32
  let main_call1_v2 : (⟨S_, .i32⟩ : BufTy).Contents (Elt F) := (select) main_call1_v1 main_call1_c_0 main_call1_v0
  let main_call1_v3 : (⟨S32768, .i32⟩ : BufTy).Contents (Elt F) := (broadcastInDim S32768 ![] bcast_S_S32768) main_call1_v2
  let main_call1_v4 : (⟨S32768, .i32⟩ : BufTy).Contents (Elt F) := (Host.remsi) main_arg12 main_call1_v3
  let main_call1_c_1 : (⟨S_, .i32⟩ : BufTy).Contents (Elt F) := constantI S_ 32 0#32
  let main_call1_v5 : (⟨S32768, .i32⟩ : BufTy).Contents (Elt F) := (broadcastInDim S32768 ![] bcast_S_S32768) main_call1_c_1
  let main_call1_v6 : (⟨S32768, .i1⟩ : BufTy).Contents (Elt F) := (cmpi .ne) main_call1_v4 main_call1_v5
  let main_call1_c_2 : (⟨S_, .i32⟩ : BufTy).Contents (Elt F) := constantI S_ 32 0#32
  let main_call1_v7 : (⟨S32768, .i32⟩ : BufTy).Contents (Elt F) := (broadcastInDim S32768 ![] bcast_S_S32768) main_call1_c_2
  let main_call1_v8 : (⟨S32768, .i1⟩ : BufTy).Contents (Elt F) := (cmpi .slt) main_call1_v4 main_call1_v7
  let main_call1_c_3 : (⟨S_, .i32⟩ : BufTy).Contents (Elt F) := constantI S_ 32 0#32
  let main_call1_v9 : (⟨S_, .i1⟩ : BufTy).Contents (Elt F) := (cmpi .slt) main_call1_v2 main_call1_c_3
  let main_call1_v10 : (⟨S32768, .i1⟩ : BufTy).Contents (Elt F) := (broadcastInDim S32768 ![] bcast_S_S32768) main_call1_v9
  let main_call1_v11 : (⟨S32768, .i1⟩ : BufTy).Contents (Elt F) := (cmpi .ne) main_call1_v8 main_call1_v10
  let main_call1_v12 : (⟨S32768, .i1⟩ : BufTy).Contents (Elt F) := (andi) main_call1_v11 main_call1_v6
  let main_call1_v13 : (⟨S32768, .i32⟩ : BufTy).Contents (Elt F) := (broadcastInDim S32768 ![] bcast_S_S32768) main_call1_v2
  let main_call1_v14 : (⟨S32768, .i32⟩ : BufTy).Contents (Elt F) := (addi) main_call1_v4 main_call1_v13
  let main_v1 : (⟨S32768, .i32⟩ : BufTy).Contents (Elt F) := (select) main_call1_v12 main_call1_v14 main_call1_v4
  maskOf_part2 (F := F) main_arg12 main_v0 main_v1

/-- The interior mask as a float vector: 1 where the centre's three mesh coordinates (the flat index divided down by 128·128 and 128, floor division and sign-corrected remainder) all lie in 1 … 126, else 0. -/
def maskOf (main_arg12 : (⟨S32768, .i32⟩ : BufTy).Contents (Elt F)) :
    (⟨S32768, .f32⟩ : BufTy).Contents (Elt F) :=
  let main_c_1 : (⟨S_, .i32⟩ : BufTy).Contents (Elt F) := constantI S_ 32 16384#32
  let main_call0_v0 : (⟨S_, .i32⟩ : BufTy).Contents (Elt F) := (id) main_c_1
  let main_call0_v1 : (⟨S32768, .i32⟩ : BufTy).Contents (Elt F) := (broadcastInDim S32768 ![] bcast_S_S32768) main_call0_v0
  let main_call0_v2 : (⟨S32768, .i32⟩ : BufTy).Contents (Elt F) := (Host.divsi) main_arg12 main_call0_v1
  let main_call0_v3 : (⟨S32768, .i32⟩ : BufTy).Contents (Elt F) := (signi) main_arg12
  let main_call0_v4 : (⟨S_, .i32⟩ : BufTy).Contents (Elt F) := (signi) main_call0_v0
  let main_call0_v5 : (⟨S32768, .i32⟩ : BufTy).Contents (Elt F) := (broadcastInDim S32768 ![] bcast_S_S32768) main_call0_v4
  let main_call0_v6 : (⟨S32768, .i1⟩ : BufTy).Contents (Elt F) := (cmpi .ne) main_call0_v3 main_call0_v5
  let main_call0_v7 : (⟨S32768, .i32⟩ : BufTy).Contents (Elt F) := (broadcastInDim S32768 ![] bcast_S_S32768) main_call0_v0
  let main_call0_v8 : (⟨S32768, .i32⟩ : BufTy).Contents (Elt F) := (Host.remsi) main_arg12 main_call0_v7
  let main_call0_c : (⟨S_, .i32⟩ : BufTy).Contents (Elt F) := constantI S_ 32 0#32
  let main_call0_v9 : (⟨S32768, .i32⟩ : BufTy).Contents (Elt F) := (broadcastInDim S32768 ![] bcast_S_S32768) main_call0_c
  let main_call0_v10 : (⟨S32768, .i1⟩ : BufTy).Contents (Elt F) := (cmpi .ne) main_call0_v8 main_call0_v9
  let main_call0_v11 : (⟨S32768, .i1⟩ : BufTy).Contents (Elt F) := (andi) main_call0_v6 main_call0_v10
  let main_call0_c_0 : (⟨S_, .i32⟩ : BufTy).Contents (Elt F) := constantI S_ 32 1#32
  let main_call0_v12 : (⟨S32768, .i32⟩ : BufTy).Contents (Elt F) := (broadcastInDim S32768 ![] bcast_S_S32768) main_call0_c_0
  let main_call0_v13 : (⟨S32768, .i32⟩ : BufTy).Contents (Elt F) := (subi) main_call0_v2 main_call0_v12
  let main_v0 : (⟨S32768, .i32⟩ : BufTy).Contents (Elt F) := (select) main_call0_v11 main_call0_v13 main_call0_v2
  let main_c_2 : (⟨S_, .i32⟩ : BufTy).Contents (Elt F) := constantI S_ 32 16384#32
  let main_call1_v0 : (⟨S_, .i32⟩ : BufTy).Contents (Elt F) := (id) main_c_2
  maskOf_part1 (F := F) main_arg12 main_v0 main_call1_v0

/-- Operations 101 onwards of `stagOf`: the names live at its head, then its lets. -/
def stagOf_part5 (main_v30 : (⟨S32768x8x3, .i32⟩ : BufTy).Contents (Elt F)) (main_v39 : (⟨S32768x8, .i32⟩ : BufTy).Contents (Elt F)) (main_v43 : (⟨S32768x8, .i32⟩ : BufTy).Contents (Elt F)) :
    (⟨S32768x8, .i32⟩ : BufTy).Contents (Elt F) :=
  let main_v44 : (⟨S32768x8, .i32⟩ : BufTy).Contents (Elt F) := (addi) main_v39 main_v43
  let main_v45 : (⟨S32768x8x1, .i32⟩ : BufTy).Contents (Elt F) := (extractStridedSlice S32768x8x1 ![0, 0, 2] · slices_S32768x8x3_S32768x8x1_0_0_2) main_v30
  let main_v46 : (⟨S32768x8, .i32⟩ : BufTy).Contents (Elt F) := shapeCast S32768x8 main_v45 shapeCasts_S32768x8x1_S32768x8
  let main_v47 : (⟨S32768x8, .i32⟩ : BufTy).Contents (Elt F) := (addi) main_v44 main_v46
  let main_c_13 : (⟨S_, .i32⟩ : BufTy).Contents (Elt F) := constantI S_ 32 0#32
  let main_c_14 : (⟨S_, .i32⟩ : BufTy).Contents (Elt F) := constantI S_ 32 2048382#32
  let main_call4_v0 : (⟨S_, .i32⟩ : BufTy).Contents (Elt F) := (id) main_c_13
  let main_call4_v1 : (⟨S32768x8, .i32⟩ : BufTy).Contents (Elt F) := (broadcastInDim S32768x8 ![] bcast_S_S32768x8) main_call4_v0
  let main_call4_v2 : (⟨S32768x8, .i32⟩ : BufTy).Contents (Elt F) := (maxsi) main_call4_v1 main_v47
  let main_call4_v3 : (⟨S_, .i32⟩ : BufTy).Contents (Elt F) := (id) main_c_14
  let main_call4_v4 : (⟨S32768x8, .i32⟩ : BufTy).Contents (Elt F) := (broadcastInDim S32768x8 ![] bcast_S_S32768x8) main_call4_v3
  let main_v48 : (⟨S32768x8, .i32⟩ : BufTy).Contents (Elt F) := (minsi) main_call4_v4 main_call4_v2
  main_v48

/-- Operations 81 onwards of `stagOf`: the names live at its head, then its lets. -/
def stagOf_part4 (main_v0 : (⟨S32768, .i32⟩ : BufTy).Contents (Elt F)) (main_v2 : (⟨S32768, .i32⟩ : BufTy).Contents (Elt F)) (main_c : (⟨S8x3, .i32⟩ : BufTy).Contents (Elt F)) (main_call3_v12 : (⟨S32768, .i1⟩ : BufTy).Contents (Elt F)) (main_call3_v14 : (⟨S32768, .i32⟩ : BufTy).Contents (Elt F)) (main_call3_v4 : (⟨S32768, .i32⟩ : BufTy).Contents (Elt F)) :
    (⟨S32768x8, .i32⟩ : BufTy).Contents (Elt F) :=
  let main_v3 : (⟨S32768, .i32⟩ : BufTy).Contents (Elt F) := (select) main_call3_v12 main_call3_v14 main_call3_v4
  let main_v22 : (⟨S32768x1, .i32⟩ : BufTy).Contents (Elt F) := (broadcastInDim S32768x1 ![0] bcast_S32768_S32768x1_0) main_v0
  let main_v23 : (⟨S32768x1, .i32⟩ : BufTy).Contents (Elt F) := (broadcastInDim S32768x1 ![0] bcast_S32768_S32768x1_0) main_v2
  let main_v24 : (⟨S32768x1, .i32⟩ : BufTy).Contents (Elt F) := (broadcastInDim S32768x1 ![0] bcast_S32768_S32768x1_0) main_v3
  let main_v25 : (⟨S32768x3, .i32⟩ : BufTy).Contents (Elt F) := concatenate S32768x3 1 [⟨S32768x1, main_v22⟩, ⟨S32768x1, main_v23⟩, ⟨S32768x1, main_v24⟩] concatenates_S32768x1_S32768x1_S32768x1_S32768x3_d1
  let main_v26 : (⟨S32768x1x3, .i32⟩ : BufTy).Contents (Elt F) := (broadcastInDim S32768x1x3 ![0, 2] bcast_S32768x3_S32768x1x3_0_2) main_v25
  let main_v27 : (⟨S1x8x3, .i32⟩ : BufTy).Contents (Elt F) := (broadcastInDim S1x8x3 ![1, 2] bcast_S8x3_S1x8x3_1_2) main_c
  let main_v28 : (⟨S32768x8x3, .i32⟩ : BufTy).Contents (Elt F) := (broadcastInDim S32768x8x3 ![0, 1, 2] bcast_S32768x1x3_S32768x8x3_0_1_2) main_v26
  let main_v29 : (⟨S32768x8x3, .i32⟩ : BufTy).Contents (Elt F) := (broadcastInDim S32768x8x3 ![0, 1, 2] bcast_S1x8x3_S32768x8x3_0_1_2) main_v27
  let main_v30 : (⟨S32768x8x3, .i32⟩ : BufTy).Contents (Elt F) := (addi) main_v28 main_v29
  let main_v36 : (⟨S32768x8x1, .i32⟩ : BufTy).Contents (Elt F) := (extractStridedSlice S32768x8x1 ![0, 0, 0] · slices_S32768x8x3_S32768x8x1_0_0_0) main_v30
  let main_v37 : (⟨S32768x8, .i32⟩ : BufTy).Contents (Elt F) := shapeCast S32768x8 main_v36 shapeCasts_S32768x8x1_S32768x8
  let main_c_11 : (⟨S_, .i32⟩ : BufTy).Contents (Elt F) := constantI S_ 32 16129#32
  let main_v38 : (⟨S32768x8, .i32⟩ : BufTy).Contents (Elt F) := (broadcastInDim S32768x8 ![] bcast_S_S32768x8) main_c_11
  let main_v39 : (⟨S32768x8, .i32⟩ : BufTy).Contents (Elt F) := (muli) main_v37 main_v38
  let main_v40 : (⟨S32768x8x1, .i32⟩ : BufTy).Contents (Elt F) := (extractStridedSlice S32768x8x1 ![0, 0, 1] · slices_S32768x8x3_S32768x8x1_0_0_1) main_v30
  let main_v41 : (⟨S32768x8, .i32⟩ : BufTy).Contents (Elt F) := shapeCast S32768x8 main_v40 shapeCasts_S32768x8x1_S32768x8
  let main_c_12 : (⟨S_, .i32⟩ : BufTy).Contents (Elt F) := constantI S_ 32 127#32
  let main_v42 : (⟨S32768x8, .i32⟩ : BufTy).Contents (Elt F) := (broadcastInDim S32768x8 ![] bcast_S_S32768x8) main_c_12
  let main_v43 : (⟨S32768x8, .i32⟩ : BufTy).Contents (Elt F) := (muli) main_v41 main_v42
  stagOf_part5 (F := F) main_v30 main_v39 main_v43

/-- Operations 61 onwards of `stagOf`: the names live at its head, then its lets. -/
def stagOf_part3 (main_arg12 : (⟨S32768, .i32⟩ : BufTy).Contents (Elt F)) (main_v0 : (⟨S32768, .i32⟩ : BufTy).Contents (Elt F)) (main_v2 : (⟨S32768, .i32⟩ : BufTy).Contents (Elt F)) (main_c : (⟨S8x3, .i32⟩ : BufTy).Contents (Elt F)) (main_c_4 : (⟨S_, .i32⟩ : BufTy).Contents (Elt F)) :
    (⟨S32768x8, .i32⟩ : BufTy).Contents (Elt F) :=
  let main_call3_v0 : (⟨S_, .i32⟩ : BufTy).Contents (Elt F) := (id) main_c_4
  let main_call3_c : (⟨S_, .i32⟩ : BufTy).Contents (Elt F) := constantI S_ 32 0#32
  let main_call3_v1 : (⟨S_, .i1⟩ : BufTy).Contents (Elt F) := (cmpi .eq) main_call3_v0 main_call3_c
  let main_call3_c_0 : (⟨S_, .i32⟩ : BufTy).Contents (Elt F) := constantI S_ 32 1#32
  let main_call3_v2 : (⟨S_, .i32⟩ : BufTy).Contents (Elt F) := (select) main_call3_v1 main_call3_c_0 main_call3_v0
  let main_call3_v3 : (⟨S32768, .i32⟩ : BufTy).Contents (Elt F) := (broadcastInDim S32768 ![] bcast_S_S32768) main_call3_v2
  let main_call3_v4 : (⟨S32768, .i32⟩ : BufTy).Contents (Elt F) := (Host.remsi) main_arg12 main_call3_v3
  let main_call3_c_1 : (⟨S_, .i32⟩ : BufTy).Contents (Elt F) := constantI S_ 32 0#32
  let main_call3_v5 : (⟨S32768, .i32⟩ : BufTy).Contents (Elt F) := (broadcastInDim S32768 ![] bcast_S_S32768) main_call3_c_1
  let main_call3_v6 : (⟨S32768, .i1⟩ : BufTy).Contents (Elt F) := (cmpi .ne) main_call3_v4 main_call3_v5
  let main_call3_c_2 : (⟨S_, .i32⟩ : BufTy).Contents (Elt F) := constantI S_ 32 0#32
  let main_call3_v7 : (⟨S32768, .i32⟩ : BufTy).Contents (Elt F) := (broadcastInDim S32768 ![] bcast_S_S32768) main_call3_c_2
  let main_call3_v8 : (⟨S32768, .i1⟩ : BufTy).Contents (Elt F) := (cmpi .slt) main_call3_v4 main_call3_v7
  let main_call3_c_3 : (⟨S_, .i32⟩ : BufTy).Contents (Elt F) := constantI S_ 32 0#32
  let main_call3_v9 : (⟨S_, .i1⟩ : BufTy).Contents (Elt F) := (cmpi .slt) main_call3_v2 main_call3_c_3
  let main_call3_v10 : (⟨S32768, .i1⟩ : BufTy).Contents (Elt F) := (broadcastInDim S32768 ![] bcast_S_S32768) main_call3_v9
  let main_call3_v11 : (⟨S32768, .i1⟩ : BufTy).Contents (Elt F) := (cmpi .ne) main_call3_v8 main_call3_v10
  let main_call3_v12 : (⟨S32768, .i1⟩ : BufTy).Contents (Elt F) := (andi) main_call3_v11 main_call3_v6
  let main_call3_v13 : (⟨S32768, .i32⟩ : BufTy).Contents (Elt F) := (broadcastInDim S32768 ![] bcast_S_S32768) main_call3_v2
  let main_call3_v14 : (⟨S32768, .i32⟩ : BufTy).Contents (Elt F) := (addi) main_call3_v4 main_call3_v13
  stagOf_part4 (F := F) main_v0 main_v2 main_c main_call3_v12 main_call3_v14 main_call3_v4

/-- Operations 41 onwards of `stagOf`: the names live at its head, then its lets. -/
def stagOf_part2 (main_arg12 : (⟨S32768, .i32⟩ : BufTy).Contents (Elt F)) (main_v0 : (⟨S32768, .i32⟩ : BufTy).Contents (Elt F)) (main_c : (⟨S8x3, .i32⟩ : BufTy).Contents (Elt F)) (main_call1_v12 : (⟨S32768, .i1⟩ : BufTy).Contents (Elt F)) (main_call1_v14 : (⟨S32768, .i32⟩ : BufTy).Contents (Elt F)) (main_call1_v4 : (⟨S32768, .i32⟩ : BufTy).Contents (Elt F)) :
    (⟨S32768x8, .i32⟩ : BufTy).Contents (Elt F) :=
  let main_v1 : (⟨S32768, .i32⟩ : BufTy).Contents (Elt F) := (select) main_call1_v12 main_call1_v14 main_call1_v4
  let main_c_3 : (⟨S_, .i32⟩ : BufTy).Contents (Elt F) := constantI S_ 32 128#32
  let main_call2_v0 : (⟨S_, .i32⟩ : BufTy).Contents (Elt F) := (id) main_c_3
  let main_call2_v1 : (⟨S32768, .i32⟩ : BufTy).Contents (Elt F) := (broadcastInDim S32768 ![] bcast_S_S32768) main_call2_v0
  let main_call2_v2 : (⟨S32768, .i32⟩ : BufTy).Contents (Elt F) := (Host.divsi) main_v1 main_call2_v1
  let main_call2_v3 : (⟨S32768, .i32⟩ : BufTy).Contents (Elt F) := (signi) main_v1
  let main_call2_v4 : (⟨S_, .i32⟩ : BufTy).Contents (Elt F) := (signi) main_call2_v0
  let main_call2_v5 : (⟨S32768, .i32⟩ : BufTy).Contents (Elt F) := (broadcastInDim S32768 ![] bcast_S_S32768) main_call2_v4
  let main_call2_v6 : (⟨S32768, .i1⟩ : BufTy).Contents (Elt F) := (cmpi .ne) main_call2_v3 main_call2_v5
  let main_call2_v7 : (⟨S32768, .i32⟩ : BufTy).Contents (Elt F) := (broadcastInDim S32768 ![] bcast_S_S32768) main_call2_v0
  let main_call2_v8 : (⟨S32768, .i32⟩ : BufTy).Contents (Elt F) := (Host.remsi) main_v1 main_call2_v7
  let main_call2_c : (⟨S_, .i32⟩ : BufTy).Contents (Elt F) := constantI S_ 32 0#32
  let main_call2_v9 : (⟨S32768, .i32⟩ : BufTy).Contents (Elt F) := (broadcastInDim S32768 ![] bcast_S_S32768) main_call2_c
  let main_call2_v10 : (⟨S32768, .i1⟩ : BufTy).Contents (Elt F) := (cmpi .ne) main_call2_v8 main_call2_v9
  let main_call2_v11 : (⟨S32768, .i1⟩ : BufTy).Contents (Elt F) := (andi) main_call2_v6 main_call2_v10
  let main_call2_c_0 : (⟨S_, .i32⟩ : BufTy).Contents (Elt F) := constantI S_ 32 1#32
  let main_call2_v12 : (⟨S32768, .i32⟩ : BufTy).Contents (Elt F) := (broadcastInDim S32768 ![] bcast_S_S32768) main_call2_c_0
  let main_call2_v13 : (⟨S32768, .i32⟩ : BufTy).Contents (Elt F) := (subi) main_call2_v2 main_call2_v12
  let main_v2 : (⟨S32768, .i32⟩ : BufTy).Contents (Elt F) := (select) main_call2_v11 main_call2_v13 main_call2_v2
  let main_c_4 : (⟨S_, .i32⟩ : BufTy).Contents (Elt F) := constantI S_ 32 128#32
  stagOf_part3 (F := F) main_arg12 main_v0 main_v2 main_c main_c_4

/-- Operations 21 onwards of `stagOf`: the names live at its head, then its lets. -/
def stagOf_part1 (main_arg12 : (⟨S32768, .i32⟩ : BufTy).Contents (Elt F)) (main_v0 : (⟨S32768, .i32⟩ : BufTy).Contents (Elt F)) (main_c : (⟨S8x3, .i32⟩ : BufTy).Contents (Elt F)) (main_c_2 : (⟨S_, .i32⟩ : BufTy).Contents (Elt F)) :
    (⟨S32768x8, .i32⟩ : BufTy).Contents (Elt F) :=
  let main_call1_v0 : (⟨S_, .i32⟩ : BufTy).Contents (Elt F) := (id) main_c_2
  let main_call1_c : (⟨S_, .i32⟩ : BufTy).Contents (Elt F) := constantI S_ 32 0#32
  let main_call1_v1 : (⟨S_, .i1⟩ : BufTy).Contents (Elt F) := (cmpi .eq) main_call1_v0 main_call1_c
  let main_call1_c_0 : (⟨S_, .i32⟩ : BufTy).Contents (Elt F) := constantI S_ 32 1#32
  let main_call1_v2 : (⟨S_, .i32⟩ : BufTy).Contents (Elt F) := (select) main_call1_v1 main_call1_c_0 main_call1_v0
  let main_call1_v3 : (⟨S32768, .i32⟩ : BufTy).Contents (Elt F) := (broadcastInDim S32768 ![] bcast_S_S32768) main_call1_v2
  let main_call1_v4 : (⟨S32768, .i32⟩ : BufTy).Contents (Elt F) := (Host.remsi) main_arg12 main_call1_v3
  let main_call1_c_1 : (⟨S_, .i32⟩ : BufTy).Contents (Elt F) := constantI S_ 32 0#32
  let main_call1_v5 : (⟨S32768, .i32⟩ : BufTy).Contents (Elt F) := (broadcastInDim S32768 ![] bcast_S_S32768) main_call1_c_1
  let main_call1_v6 : (⟨S32768, .i1⟩ : BufTy).Contents (Elt F) := (cmpi .ne) main_call1_v4 main_call1_v5
  let main_call1_c_2 : (⟨S_, .i32⟩ : BufTy).Contents (Elt F) := constantI S_ 32 0#32
  let main_call1_v7 : (⟨S32768, .i32⟩ : BufTy).Contents (Elt F) := (broadcastInDim S32768 ![] bcast_S_S32768) main_call1_c_2
  let main_call1_v8 : (⟨S32768, .i1⟩ : BufTy).Contents (Elt F) := (cmpi .slt) main_call1_v4 main_call1_v7
  let main_call1_c_3 : (⟨S_, .i32⟩ : BufTy).Contents (Elt F) := constantI S_ 32 0#32
  let main_call1_v9 : (⟨S_, .i1⟩ : BufTy).Contents (Elt F) := (cmpi .slt) main_call1_v2 main_call1_c_3
  let main_call1_v10 : (⟨S32768, .i1⟩ : BufTy).Contents (Elt F) := (broadcastInDim S32768 ![] bcast_S_S32768) main_call1_v9
  let main_call1_v11 : (⟨S32768, .i1⟩ : BufTy).Contents (Elt F) := (cmpi .ne) main_call1_v8 main_call1_v10
  let main_call1_v12 : (⟨S32768, .i1⟩ : BufTy).Contents (Elt F) := (andi) main_call1_v11 main_call1_v6
  let main_call1_v13 : (⟨S32768, .i32⟩ : BufTy).Contents (Elt F) := (broadcastInDim S32768 ![] bcast_S_S32768) main_call1_v2
  let main_call1_v14 : (⟨S32768, .i32⟩ : BufTy).Contents (Elt F) := (addi) main_call1_v4 main_call1_v13
  stagOf_part2 (F := F) main_arg12 main_v0 main_c main_call1_v12 main_call1_v14 main_call1_v4

/-- The eight staggered-mesh flat indices of each centre: the coordinates plus each offset in {-1,0}³, combined with strides 127·127, 127, 1 and clipped to 0 … 2048382. -/
def stagOf (main_arg12 : (⟨S32768, .i32⟩ : BufTy).Contents (Elt F)) :
    (⟨S32768x8, .i32⟩ : BufTy).Contents (Elt F) :=
  let main_c : (⟨S8x3, .i32⟩ : BufTy).Contents (Elt F) := fun i => lit0 (S8x3.rowMajor i)
  let main_c_1 : (⟨S_, .i32⟩ : BufTy).Contents (Elt F) := constantI S_ 32 16384#32
  let main_call0_v0 : (⟨S_, .i32⟩ : BufTy).Contents (Elt F) := (id) main_c_1
  let main_call0_v1 : (⟨S32768, .i32⟩ : BufTy).Contents (Elt F) := (broadcastInDim S32768 ![] bcast_S_S32768) main_call0_v0
  let main_call0_v2 : (⟨S32768, .i32⟩ : BufTy).Contents (Elt F) := (Host.divsi) main_arg12 main_call0_v1
  let main_call0_v3 : (⟨S32768, .i32⟩ : BufTy).Contents (Elt F) := (signi) main_arg12
  let main_call0_v4 : (⟨S_, .i32⟩ : BufTy).Contents (Elt F) := (signi) main_call0_v0
  let main_call0_v5 : (⟨S32768, .i32⟩ : BufTy).Contents (Elt F) := (broadcastInDim S32768 ![] bcast_S_S32768) main_call0_v4
  let main_call0_v6 : (⟨S32768, .i1⟩ : BufTy).Contents (Elt F) := (cmpi .ne) main_call0_v3 main_call0_v5
  let main_call0_v7 : (⟨S32768, .i32⟩ : BufTy).Contents (Elt F) := (broadcastInDim S32768 ![] bcast_S_S32768) main_call0_v0
  let main_call0_v8 : (⟨S32768, .i32⟩ : BufTy).Contents (Elt F) := (Host.remsi) main_arg12 main_call0_v7
  let main_call0_c : (⟨S_, .i32⟩ : BufTy).Contents (Elt F) := constantI S_ 32 0#32
  let main_call0_v9 : (⟨S32768, .i32⟩ : BufTy).Contents (Elt F) := (broadcastInDim S32768 ![] bcast_S_S32768) main_call0_c
  let main_call0_v10 : (⟨S32768, .i1⟩ : BufTy).Contents (Elt F) := (cmpi .ne) main_call0_v8 main_call0_v9
  let main_call0_v11 : (⟨S32768, .i1⟩ : BufTy).Contents (Elt F) := (andi) main_call0_v6 main_call0_v10
  let main_call0_c_0 : (⟨S_, .i32⟩ : BufTy).Contents (Elt F) := constantI S_ 32 1#32
  let main_call0_v12 : (⟨S32768, .i32⟩ : BufTy).Contents (Elt F) := (broadcastInDim S32768 ![] bcast_S_S32768) main_call0_c_0
  let main_call0_v13 : (⟨S32768, .i32⟩ : BufTy).Contents (Elt F) := (subi) main_call0_v2 main_call0_v12
  let main_v0 : (⟨S32768, .i32⟩ : BufTy).Contents (Elt F) := (select) main_call0_v11 main_call0_v13 main_call0_v2
  let main_c_2 : (⟨S_, .i32⟩ : BufTy).Contents (Elt F) := constantI S_ 32 16384#32
  stagOf_part1 (F := F) main_arg12 main_v0 main_c main_c_2

/-- Operations 101 onwards of `neigOf`: the names live at its head, then its lets. -/
def neigOf_part5 (main_v35 : (⟨S32768x8x3, .i32⟩ : BufTy).Contents (Elt F)) (main_v52 : (⟨S32768x8, .i32⟩ : BufTy).Contents (Elt F)) (main_v56 : (⟨S32768x8, .i32⟩ : BufTy).Contents (Elt F)) :
    (⟨S32768x8, .i32⟩ : BufTy).Contents (Elt F) :=
  let main_v57 : (⟨S32768x8, .i32⟩ : BufTy).Contents (Elt F) := (addi) main_v52 main_v56
  let main_v58 : (⟨S32768x8x1, .i32⟩ : BufTy).Contents (Elt F) := (extractStridedSlice S32768x8x1 ![0, 0, 2] · slices_S32768x8x3_S32768x8x1_0_0_2) main_v35
  let main_v59 : (⟨S32768x8, .i32⟩ : BufTy).Contents (Elt F) := shapeCast S32768x8 main_v58 shapeCasts_S32768x8x1_S32768x8
  let main_v60 : (⟨S32768x8, .i32⟩ : BufTy).Contents (Elt F) := (addi) main_v57 main_v59
  let main_c_17 : (⟨S_, .i32⟩ : BufTy).Contents (Elt F) := constantI S_ 32 0#32
  let main_c_18 : (⟨S_, .i32⟩ : BufTy).Contents (Elt F) := constantI S_ 32 2097151#32
  let main_call5_v0 : (⟨S_, .i32⟩ : BufTy).Contents (Elt F) := (id) main_c_17
  let main_call5_v1 : (⟨S32768x8, .i32⟩ : BufTy).Contents (Elt F) := (broadcastInDim S32768x8 ![] bcast_S_S32768x8) main_call5_v0
  let main_call5_v2 : (⟨S32768x8, .i32⟩ : BufTy).Contents (Elt F) := (maxsi) main_call5_v1 main_v60
  let main_call5_v3 : (⟨S_, .i32⟩ : BufTy).Contents (Elt F) := (id) main_c_18
  let main_call5_v4 : (⟨S32768x8, .i32⟩ : BufTy).Contents (Elt F) := (broadcastInDim S32768x8 ![] bcast_S_S32768x8) main_call5_v3
  let main_v61 : (⟨S32768x8, .i32⟩ : BufTy).Contents (Elt F) := (minsi) main_call5_v4 main_call5_v2
  main_v61

/-- Operations 81 onwards of `neigOf`: the names live at its head, then its lets. -/
def neigOf_part4 (main_v0 : (⟨S32768, .i32⟩ : BufTy).Contents (Elt F)) (main_v2 : (⟨S32768, .i32⟩ : BufTy).Contents (Elt F)) (main_c_0 : (⟨S8x3, .i32⟩ : BufTy).Contents (Elt F)) (main_call3_v12 : (⟨S32768, .i1⟩ : BufTy).Contents (Elt F)) (main_call3_v14 : (⟨S32768, .i32⟩ : BufTy).Contents (Elt F)) (main_call3_v4 : (⟨S32768, .i32⟩ : BufTy).Contents (Elt F)) :
    (⟨S32768x8, .i32⟩ : BufTy).Contents (Elt F) :=
  let main_v3 : (⟨S32768, .i32⟩ : BufTy).Contents (Elt F) := (select) main_call3_v12 main_call3_v14 main_call3_v4
  let main_v22 : (⟨S32768x1, .i32⟩ : BufTy).Contents (Elt F) := (broadcastInDim S32768x1 ![0] bcast_S32768_S32768x1_0) main_v0
  let main_v23 : (⟨S32768x1, .i32⟩ : BufTy).Contents (Elt F) := (broadcastInDim S32768x1 ![0] bcast_S32768_S32768x1_0) main_v2
  let main_v24 : (⟨S32768x1, .i32⟩ : BufTy).Contents (Elt F) := (broadcastInDim S32768x1 ![0] bcast_S32768_S32768x1_0) main_v3
  let main_v25 : (⟨S32768x3, .i32⟩ : BufTy).Contents (Elt F) := concatenate S32768x3 1 [⟨S32768x1, main_v22⟩, ⟨S32768x1, main_v23⟩, ⟨S32768x1, main_v24⟩] concatenates_S32768x1_S32768x1_S32768x1_S32768x3_d1
  let main_v31 : (⟨S32768x1x3, .i32⟩ : BufTy).Contents (Elt F) := (broadcastInDim S32768x1x3 ![0, 2] bcast_S32768x3_S32768x1x3_0_2) main_v25
  let main_v32 : (⟨S1x8x3, .i32⟩ : BufTy).Contents (Elt F) := (broadcastInDim S1x8x3 ![1, 2] bcast_S8x3_S1x8x3_1_2) main_c_0
  let main_v33 : (⟨S32768x8x3, .i32⟩ : BufTy).Contents (Elt F) := (broadcastInDim S32768x8x3 ![0, 1, 2] bcast_S32768x1x3_S32768x8x3_0_1_2) main_v31
  let main_v34 : (⟨S32768x8x3, .i32⟩ : BufTy).Contents (Elt F) := (broadcastInDim S32768x8x3 ![0, 1, 2] bcast_S1x8x3_S32768x8x3_0_1_2) main_v32
  let main_v35 : (⟨S32768x8x3, .i32⟩ : BufTy).Contents (Elt F) := (addi) main_v33 main_v34
  let main_v49 : (⟨S32768x8x1, .i32⟩ : BufTy).Contents (Elt F) := (extractStridedSlice S32768x8x1 ![0, 0, 0] · slices_S32768x8x3_S32768x8x1_0_0_0) main_v35
  let main_v50 : (⟨S32768x8, .i32⟩ : BufTy).Contents (Elt F) := shapeCast S32768x8 main_v49 shapeCasts_S32768x8x1_S32768x8
  let main_c_15 : (⟨S_, .i32⟩ : BufTy).Contents (Elt F) := constantI S_ 32 16129#32
  let main_v51 : (⟨S32768x8, .i32⟩ : BufTy).Contents (Elt F) := (broadcastInDim S32768x8 ![] bcast_S_S32768x8) main_c_15
  let main_v52 : (⟨S32768x8, .i32⟩ : BufTy).Contents (Elt F) := (muli) main_v50 main_v51
  let main_v53 : (⟨S32768x8x1, .i32⟩ : BufTy).Contents (Elt F) := (extractStridedSlice S32768x8x1 ![0, 0, 1] · slices_S32768x8x3_S32768x8x1_0_0_1) main_v35
  let main_v54 : (⟨S32768x8, .i32⟩ : BufTy).Contents (Elt F) := shapeCast S32768x8 main_v53 shapeCasts_S32768x8x1_S32768x8
  let main_c_16 : (⟨S_, .i32⟩ : BufTy).Contents (Elt F) := constantI S_ 32 127#32
  let main_v55 : (⟨S32768x8, .i32⟩ : BufTy).Contents (Elt F) := (broadcastInDim S32768x8 ![] bcast_S_S32768x8) main_c_16
  let main_v56 : (⟨S32768x8, .i32⟩ : BufTy).Contents (Elt F) := (muli) main_v54 main_v55
  neigOf_part5 (F := F) main_v35 main_v52 main_v56

/-- Operations 61 onwards of `neigOf`: the names live at its head, then its lets. -/
def neigOf_part3 (main_arg12 : (⟨S32768, .i32⟩ : BufTy).Contents (Elt F)) (main_v0 : (⟨S32768, .i32⟩ : BufTy).Contents (Elt F)) (main_v2 : (⟨S32768, .i32⟩ : BufTy).Contents (Elt F)) (main_c_0 : (⟨S8x3, .i32⟩ : BufTy).Contents (Elt F)) (main_c_4 : (⟨S_, .i32⟩ : BufTy).Contents (Elt F)) :
    (⟨S32768x8, .i32⟩ : BufTy).Contents (Elt F) :=
  let main_call3_v0 : (⟨S_, .i32⟩ : BufTy).Contents (Elt F) := (id) main_c_4
  let main_call3_c : (⟨S_, .i32⟩ : BufTy).Contents (Elt F) := constantI S_ 32 0#32
  let main_call3_v1 : (⟨S_, .i1⟩ : BufTy).Contents (Elt F) := (cmpi .eq) main_call3_v0 main_call3_c
  let main_call3_c_0 : (⟨S_, .i32⟩ : BufTy).Contents (Elt F) := constantI S_ 32 1#32
  let main_call3_v2 : (⟨S_, .i32⟩ : BufTy).Contents (Elt F) := (select) main_call3_v1 main_call3_c_0 main_call3_v0
  let main_call3_v3 : (⟨S32768, .i32⟩ : BufTy).Contents (Elt F) := (broadcastInDim S32768 ![] bcast_S_S32768) main_call3_v2
  let main_call3_v4 : (⟨S32768, .i32⟩ : BufTy).Contents (Elt F) := (Host.remsi) main_arg12 main_call3_v3
  let main_call3_c_1 : (⟨S_, .i32⟩ : BufTy).Contents (Elt F) := constantI S_ 32 0#32
  let main_call3_v5 : (⟨S32768, .i32⟩ : BufTy).Contents (Elt F) := (broadcastInDim S32768 ![] bcast_S_S32768) main_call3_c_1
  let main_call3_v6 : (⟨S32768, .i1⟩ : BufTy).Contents (Elt F) := (cmpi .ne) main_call3_v4 main_call3_v5
  let main_call3_c_2 : (⟨S_, .i32⟩ : BufTy).Contents (Elt F) := constantI S_ 32 0#32
  let main_call3_v7 : (⟨S32768, .i32⟩ : BufTy).Contents (Elt F) := (broadcastInDim S32768 ![] bcast_S_S32768) main_call3_c_2
  let main_call3_v8 : (⟨S32768, .i1⟩ : BufTy).Contents (Elt F) := (cmpi .slt) main_call3_v4 main_call3_v7
  let main_call3_c_3 : (⟨S_, .i32⟩ : BufTy).Contents (Elt F) := constantI S_ 32 0#32
  let main_call3_v9 : (⟨S_, .i1⟩ : BufTy).Contents (Elt F) := (cmpi .slt) main_call3_v2 main_call3_c_3
  let main_call3_v10 : (⟨S32768, .i1⟩ : BufTy).Contents (Elt F) := (broadcastInDim S32768 ![] bcast_S_S32768) main_call3_v9
  let main_call3_v11 : (⟨S32768, .i1⟩ : BufTy).Contents (Elt F) := (cmpi .ne) main_call3_v8 main_call3_v10
  let main_call3_v12 : (⟨S32768, .i1⟩ : BufTy).Contents (Elt F) := (andi) main_call3_v11 main_call3_v6
  let main_call3_v13 : (⟨S32768, .i32⟩ : BufTy).Contents (Elt F) := (broadcastInDim S32768 ![] bcast_S_S32768) main_call3_v2
  let main_call3_v14 : (⟨S32768, .i32⟩ : BufTy).Contents (Elt F) := (addi) main_call3_v4 main_call3_v13
  neigOf_part4 (F := F) main_v0 main_v2 main_c_0 main_call3_v12 main_call3_v14 main_call3_v4

/-- Operations 41 onwards of `neigOf`: the names live at its head, then its lets. -/
def neigOf_part2 (main_arg12 : (⟨S32768, .i32⟩ : BufTy).Contents (Elt F)) (main_v0 : (⟨S32768, .i32⟩ : BufTy).Contents (Elt F)) (main_c_0 : (⟨S8x3, .i32⟩ : BufTy).Contents (Elt F)) (main_call1_v12 : (⟨S32768, .i1⟩ : BufTy).Contents (Elt F)) (main_call1_v14 : (⟨S32768, .i32⟩ : BufTy).Contents (Elt F)) (main_call1_v4 : (⟨S32768, .i32⟩ : BufTy).Contents (Elt F)) :
    (⟨S32768x8, .i32⟩ : BufTy).Contents (Elt F) :=
  let main_v1 : (⟨S32768, .i32⟩ : BufTy).Contents (Elt F) := (select) main_call1_v12 main_call1_v14 main_call1_v4
  let main_c_3 : (⟨S_, .i32⟩ : BufTy).Contents (Elt F) := constantI S_ 32 128#32
  let main_call2_v0 : (⟨S_, .i32⟩ : BufTy).Contents (Elt F) := (id) main_c_3
  let main_call2_v1 : (⟨S32768, .i32⟩ : BufTy).Contents (Elt F) := (broadcastInDim S32768 ![] bcast_S_S32768) main_call2_v0
  let main_call2_v2 : (⟨S32768, .i32⟩ : BufTy).Contents (Elt F) := (Host.divsi) main_v1 main_call2_v1
  let main_call2_v3 : (⟨S32768, .i32⟩ : BufTy).Contents (Elt F) := (signi) main_v1
  let main_call2_v4 : (⟨S_, .i32⟩ : BufTy).Contents (Elt F) := (signi) main_call2_v0
  let main_call2_v5 : (⟨S32768, .i32⟩ : BufTy).Contents (Elt F) := (broadcastInDim S32768 ![] bcast_S_S32768) main_call2_v4
  let main_call2_v6 : (⟨S32768, .i1⟩ : BufTy).Contents (Elt F) := (cmpi .ne) main_call2_v3 main_call2_v5
  let main_call2_v7 : (⟨S32768, .i32⟩ : BufTy).Contents (Elt F) := (broadcastInDim S32768 ![] bcast_S_S32768) main_call2_v0
  let main_call2_v8 : (⟨S32768, .i32⟩ : BufTy).Contents (Elt F) := (Host.remsi) main_v1 main_call2_v7
  let main_call2_c : (⟨S_, .i32⟩ : BufTy).Contents (Elt F) := constantI S_ 32 0#32
  let main_call2_v9 : (⟨S32768, .i32⟩ : BufTy).Contents (Elt F) := (broadcastInDim S32768 ![] bcast_S_S32768) main_call2_c
  let main_call2_v10 : (⟨S32768, .i1⟩ : BufTy).Contents (Elt F) := (cmpi .ne) main_call2_v8 main_call2_v9
  let main_call2_v11 : (⟨S32768, .i1⟩ : BufTy).Contents (Elt F) := (andi) main_call2_v6 main_call2_v10
  let main_call2_c_0 : (⟨S_, .i32⟩ : BufTy).Contents (Elt F) := constantI S_ 32 1#32
  let main_call2_v12 : (⟨S32768, .i32⟩ : BufTy).Contents (Elt F) := (broadcastInDim S32768 ![] bcast_S_S32768) main_call2_c_0
  let main_call2_v13 : (⟨S32768, .i32⟩ : BufTy).Contents (Elt F) := (subi) main_call2_v2 main_call2_v12
  let main_v2 : (⟨S32768, .i32⟩ : BufTy).Contents (Elt F) := (select) main_call2_v11 main_call2_v13 main_call2_v2
  let main_c_4 : (⟨S_, .i32⟩ : BufTy).Contents (Elt F) := constantI S_ 32 128#32
  neigOf_part3 (F := F) main_arg12 main_v0 main_v2 main_c_0 main_c_4

/-- Operations 21 onwards of `neigOf`: the names live at its head, then its lets. -/
def neigOf_part1 (main_arg12 : (⟨S32768, .i32⟩ : BufTy).Contents (Elt F)) (main_v0 : (⟨S32768, .i32⟩ : BufTy).Contents (Elt F)) (main_c_0 : (⟨S8x3, .i32⟩ : BufTy).Contents (Elt F)) (main_c_2 : (⟨S_, .i32⟩ : BufTy).Contents (Elt F)) :
    (⟨S32768x8, .i32⟩ : BufTy).Contents (Elt F) :=
  let main_call1_v0 : (⟨S_, .i32⟩ : BufTy).Contents (Elt F) := (id) main_c_2
  let main_call1_c : (⟨S_, .i32⟩ : BufTy).Contents (Elt F) := constantI S_ 32 0#32
  let main_call1_v1 : (⟨S_, .i1⟩ : BufTy).Contents (Elt F) := (cmpi .eq) main_call1_v0 main_call1_c
  let main_call1_c_0 : (⟨S_, .i32⟩ : BufTy).Contents (Elt F) := constantI S_ 32 1#32
  let main_call1_v2 : (⟨S_, .i32⟩ : BufTy).Contents (Elt F) := (select) main_call1_v1 main_call1_c_0 main_call1_v0
  let main_call1_v3 : (⟨S32768, .i32⟩ : BufTy).Contents (Elt F) := (broadcastInDim S32768 ![] bcast_S_S32768) main_call1_v2
  let main_call1_v4 : (⟨S32768, .i32⟩ : BufTy).Contents (Elt F) := (Host.remsi) main_arg12 main_call1_v3
  let main_call1_c_1 : (⟨S_, .i32⟩ : BufTy).Contents (Elt F) := constantI S_ 32 0#32
  let main_call1_v5 : (⟨S32768, .i32⟩ : BufTy).Contents (Elt F) := (broadcastInDim S32768 ![] bcast_S_S32768) main_call1_c_1
  let main_call1_v6 : (⟨S32768, .i1⟩ : BufTy).Contents (Elt F) := (cmpi .ne) main_call1_v4 main_call1_v5
  let main_call1_c_2 : (⟨S_, .i32⟩ : BufTy).Contents (Elt F) := constantI S_ 32 0#32
  let main_call1_v7 : (⟨S32768, .i32⟩ : BufTy).Contents (Elt F) := (broadcastInDim S32768 ![] bcast_S_S32768) main_call1_c_2
  let main_call1_v8 : (⟨S32768, .i1⟩ : BufTy).Contents (Elt F) := (cmpi .slt) main_call1_v4 main_call1_v7
  let main_call1_c_3 : (⟨S_, .i32⟩ : BufTy).Contents (Elt F) := constantI S_ 32 0#32
  let main_call1_v9 : (⟨S_, .i1⟩ : BufTy).Contents (Elt F) := (cmpi .slt) main_call1_v2 main_call1_c_3
  let main_call1_v10 : (⟨S32768, .i1⟩ : BufTy).Contents (Elt F) := (broadcastInDim S32768 ![] bcast_S_S32768) main_call1_v9
  let main_call1_v11 : (⟨S32768, .i1⟩ : BufTy).Contents (Elt F) := (cmpi .ne) main_call1_v8 main_call1_v10
  let main_call1_v12 : (⟨S32768, .i1⟩ : BufTy).Contents (Elt F) := (andi) main_call1_v11 main_call1_v6
  let main_call1_v13 : (⟨S32768, .i32⟩ : BufTy).Contents (Elt F) := (broadcastInDim S32768 ![] bcast_S_S32768) main_call1_v2
  let main_call1_v14 : (⟨S32768, .i32⟩ : BufTy).Contents (Elt F) := (addi) main_call1_v4 main_call1_v13
  neigOf_part2 (F := F) main_arg12 main_v0 main_c_0 main_call1_v12 main_call1_v14 main_call1_v4

/-- The eight neighbour flat indices of each centre: the coordinates plus each offset in {-1,1}³, combined with the same reduced-mesh strides and clipped to 0 … 2097151. -/
def neigOf (main_arg12 : (⟨S32768, .i32⟩ : BufTy).Contents (Elt F)) :
    (⟨S32768x8, .i32⟩ : BufTy).Contents (Elt F) :=
  let main_c_0 : (⟨S8x3, .i32⟩ : BufTy).Contents (Elt F) := fun i => lit1 (S8x3.rowMajor i)
  let main_c_1 : (⟨S_, .i32⟩ : BufTy).Contents (Elt F) := constantI S_ 32 16384#32
  let main_call0_v0 : (⟨S_, .i32⟩ : BufTy).Contents (Elt F) := (id) main_c_1
  let main_call0_v1 : (⟨S32768, .i32⟩ : BufTy).Contents (Elt F) := (broadcastInDim S32768 ![] bcast_S_S32768) main_call0_v0
  let main_call0_v2 : (⟨S32768, .i32⟩ : BufTy).Contents (Elt F) := (Host.divsi) main_arg12 main_call0_v1
  let main_call0_v3 : (⟨S32768, .i32⟩ : BufTy).Contents (Elt F) := (signi) main_arg12
  let main_call0_v4 : (⟨S_, .i32⟩ : BufTy).Contents (Elt F) := (signi) main_call0_v0
  let main_call0_v5 : (⟨S32768, .i32⟩ : BufTy).Contents (Elt F) := (broadcastInDim S32768 ![] bcast_S_S32768) main_call0_v4
  let main_call0_v6 : (⟨S32768, .i1⟩ : BufTy).Contents (Elt F) := (cmpi .ne) main_call0_v3 main_call0_v5
  let main_call0_v7 : (⟨S32768, .i32⟩ : BufTy).Contents (Elt F) := (broadcastInDim S32768 ![] bcast_S_S32768) main_call0_v0
  let main_call0_v8 : (⟨S32768, .i32⟩ : BufTy).Contents (Elt F) := (Host.remsi) main_arg12 main_call0_v7
  let main_call0_c : (⟨S_, .i32⟩ : BufTy).Contents (Elt F) := constantI S_ 32 0#32
  let main_call0_v9 : (⟨S32768, .i32⟩ : BufTy).Contents (Elt F) := (broadcastInDim S32768 ![] bcast_S_S32768) main_call0_c
  let main_call0_v10 : (⟨S32768, .i1⟩ : BufTy).Contents (Elt F) := (cmpi .ne) main_call0_v8 main_call0_v9
  let main_call0_v11 : (⟨S32768, .i1⟩ : BufTy).Contents (Elt F) := (andi) main_call0_v6 main_call0_v10
  let main_call0_c_0 : (⟨S_, .i32⟩ : BufTy).Contents (Elt F) := constantI S_ 32 1#32
  let main_call0_v12 : (⟨S32768, .i32⟩ : BufTy).Contents (Elt F) := (broadcastInDim S32768 ![] bcast_S_S32768) main_call0_c_0
  let main_call0_v13 : (⟨S32768, .i32⟩ : BufTy).Contents (Elt F) := (subi) main_call0_v2 main_call0_v12
  let main_v0 : (⟨S32768, .i32⟩ : BufTy).Contents (Elt F) := (select) main_call0_v11 main_call0_v13 main_call0_v2
  let main_c_2 : (⟨S_, .i32⟩ : BufTy).Contents (Elt F) := constantI S_ 32 16384#32
  neigOf_part1 (F := F) main_arg12 main_v0 main_c_0 main_c_2

/-- The gathered coordinate rows laid out feature-major: the two coordinate tables stacked, read at the fused index vector (centres, then 2097152 + staggered flats, then neighbour flats, a negative entry shifted by the stacked table's length), transposed. -/
def tableT (main_arg0 : (⟨S2097152x3, .f32⟩ : BufTy).Contents (Elt F)) (main_arg2 : (⟨S2048383x3, .f32⟩ : BufTy).Contents (Elt F)) (main_arg12 : (⟨S32768, .i32⟩ : BufTy).Contents (Elt F)) (main_v48 : (⟨S32768x8, .i32⟩ : BufTy).Contents (Elt F)) (main_v61 : (⟨S32768x8, .i32⟩ : BufTy).Contents (Elt F)) :
    (⟨S3x557056, .f32⟩ : BufTy).Contents (Elt F) :=
  let main_v62 : (⟨S4145535x3, .f32⟩ : BufTy).Contents (Elt F) := (fun a b => concatenate S4145535x3 0 [⟨S2097152x3, a⟩, ⟨S2048383x3, b⟩] concatenates_S2097152x3_S2048383x3_S4145535x3_d0) main_arg0 main_arg2
  let main_v63 : (⟨S262144, .i32⟩ : BufTy).Contents (Elt F) := shapeCast S262144 main_v48 shapeCasts_S32768x8_S262144
  let main_c_19 : (⟨S_, .i32⟩ : BufTy).Contents (Elt F) := constantI S_ 32 2097152#32
  let main_v64 : (⟨S262144, .i32⟩ : BufTy).Contents (Elt F) := (broadcastInDim S262144 ![] bcast_S_S262144) main_c_19
  let main_v65 : (⟨S262144, .i32⟩ : BufTy).Contents (Elt F) := (addi) main_v64 main_v63
  let main_v66 : (⟨S262144, .i32⟩ : BufTy).Contents (Elt F) := shapeCast S262144 main_v61 shapeCasts_S32768x8_S262144
  let main_v67 : (⟨S557056, .i32⟩ : BufTy).Contents (Elt F) := concatenate S557056 0 [⟨S32768, main_arg12⟩, ⟨S262144, main_v65⟩, ⟨S262144, main_v66⟩] concatenates_S32768_S262144_S262144_S557056_d0
  let main_c_20 : (⟨S_, .i32⟩ : BufTy).Contents (Elt F) := constantI S_ 32 0#32
  let main_v68 : (⟨S557056, .i32⟩ : BufTy).Contents (Elt F) := (broadcastInDim S557056 ![] bcast_S_S557056) main_c_20
  let main_v69 : (⟨S557056, .i1⟩ : BufTy).Contents (Elt F) := (cmpi .slt) main_v67 main_v68
  let main_c_21 : (⟨S_, .i32⟩ : BufTy).Contents (Elt F) := constantI S_ 32 4145535#32
  let main_v70 : (⟨S557056, .i32⟩ : BufTy).Contents (Elt F) := (broadcastInDim S557056 ![] bcast_S_S557056) main_c_21
  let main_v71 : (⟨S557056, .i32⟩ : BufTy).Contents (Elt F) := (addi) main_v67 main_v70
  let main_v72 : (⟨S557056, .i32⟩ : BufTy).Contents (Elt F) := (select) main_v69 main_v71 main_v67
  let main_v73 : (⟨S557056x1, .i32⟩ : BufTy).Contents (Elt F) := (broadcastInDim S557056x1 ![0] bcast_S557056_S557056x1_0) main_v72
  let main_v74 : (⟨S557056x3, .f32⟩ : BufTy).Contents (Elt F) := (fun x i => Host.gather gather_S4145535x3_S557056x1_S557056x3_1_0_n_n_0_1_13 x i) main_v62 main_v73
  let main_v75 : (⟨S3x557056, .f32⟩ : BufTy).Contents (Elt F) := (transpose S3x557056 [1, 0] · transposes_S557056x3_S3x557056_1_0) main_v74
  main_v75

/-- The first weight matrix transposed. -/
def w1T (main_arg4 : (⟨S3x128, .f32⟩ : BufTy).Contents (Elt F)) :
    (⟨S128x3, .f32⟩ : BufTy).Contents (Elt F) :=
  let main_v76 : (⟨S128x3, .f32⟩ : BufTy).Contents (Elt F) := (transpose S128x3 [1, 0] · transposes_S3x128_S128x3_1_0) main_arg4
  main_v76

/-- The second weight matrix transposed. -/
def w2T (main_arg6 : (⟨S128x128, .f32⟩ : BufTy).Contents (Elt F)) :
    (⟨S128x128, .f32⟩ : BufTy).Contents (Elt F) :=
  let main_v77 : (⟨S128x128, .f32⟩ : BufTy).Contents (Elt F) := (transpose S128x128 [1, 0] · transposes_S128x128_S128x128_1_0) main_arg6
  main_v77

/-- The third weight matrix transposed. -/
def w3T (main_arg8 : (⟨S128x128, .f32⟩ : BufTy).Contents (Elt F)) :
    (⟨S128x128, .f32⟩ : BufTy).Contents (Elt F) :=
  let main_v78 : (⟨S128x128, .f32⟩ : BufTy).Contents (Elt F) := (transpose S128x128 [1, 0] · transposes_S128x128_S128x128_1_0) main_arg8
  main_v78

/-- The last weight matrix transposed to a row. -/
def w4T (main_arg10 : (⟨S128x1, .f32⟩ : BufTy).Contents (Elt F)) :
    (⟨S1x128, .f32⟩ : BufTy).Contents (Elt F) :=
  let main_v79 : (⟨S1x128, .f32⟩ : BufTy).Contents (Elt F) := (transpose S1x128 [1, 0] · transposes_S128x1_S1x128_1_0) main_arg10
  main_v79

/-- The first bias as a column. -/
def b1C (main_arg5 : (⟨S128, .f32⟩ : BufTy).Contents (Elt F)) :
    (⟨S128x1, .f32⟩ : BufTy).Contents (Elt F) :=
  let main_v80 : (⟨S128x1, .f32⟩ : BufTy).Contents (Elt F) := shapeCast S128x1 main_arg5 shapeCasts_S128_S128x1
  main_v80

/-- The second bias as a column. -/
def b2C (main_arg7 : (⟨S128, .f32⟩ : BufTy).Contents (Elt F)) :
    (⟨S128x1, .f32⟩ : BufTy).Contents (Elt F) :=
  let main_v81 : (⟨S128x1, .f32⟩ : BufTy).Contents (Elt F) := shapeCast S128x1 main_arg7 shapeCasts_S128_S128x1
  main_v81

/-- The third bias as a column. -/
def b3C (main_arg9 : (⟨S128, .f32⟩ : BufTy).Contents (Elt F)) :
    (⟨S128x1, .f32⟩ : BufTy).Contents (Elt F) :=
  let main_v82 : (⟨S128x1, .f32⟩ : BufTy).Contents (Elt F) := shapeCast S128x1 main_arg9 shapeCasts_S128_S128x1
  main_v82

/-- The last bias as a 1×1 cell. -/
def b4C (main_arg11 : (⟨S1, .f32⟩ : BufTy).Contents (Elt F)) :
    (⟨S1x1, .f32⟩ : BufTy).Contents (Elt F) :=
  let main_v83 : (⟨S1x1, .f32⟩ : BufTy).Contents (Elt F) := shapeCast S1x1 main_arg11 shapeCasts_S1_S1x1
  main_v83

/-- The centres' predictions: the first 32768 entries of the flattened kernel output. -/
def predSlice (main_v84 : (⟨S1x557056, .f32⟩ : BufTy).Contents (Elt F)) :
    (⟨S32768, .f32⟩ : BufTy).Contents (Elt F) :=
  let main_v85 : (⟨S557056, .f32⟩ : BufTy).Contents (Elt F) := shapeCast S557056 main_v84 shapeCasts_S1x557056_S557056
  let main_v86 : (⟨S32768, .f32⟩ : BufTy).Contents (Elt F) := (extractStridedSlice S32768 ![0] · slices_S557056_S32768_0) main_v85
  main_v86

/-- The staggered points' predictions: entries 32768 … 294911 of the flattened output as a 32768×8 matrix. -/
def psSlice (main_v84 : (⟨S1x557056, .f32⟩ : BufTy).Contents (Elt F)) :
    (⟨S32768x8, .f32⟩ : BufTy).Contents (Elt F) :=
  let main_v85 : (⟨S557056, .f32⟩ : BufTy).Contents (Elt F) := shapeCast S557056 main_v84 shapeCasts_S1x557056_S557056
  let main_v87 : (⟨S262144, .f32⟩ : BufTy).Contents (Elt F) := (extractStridedSlice S262144 ![32768] · slices_S557056_S262144_32768) main_v85
  let main_v88 : (⟨S32768x8, .f32⟩ : BufTy).Contents (Elt F) := shapeCast S32768x8 main_v87 shapeCasts_S262144_S32768x8
  main_v88

/-- The neighbours' predictions: entries 294912 … 557055 of the flattened output as a 32768×8 matrix. -/
def pnSlice (main_v84 : (⟨S1x557056, .f32⟩ : BufTy).Contents (Elt F)) :
    (⟨S32768x8, .f32⟩ : BufTy).Contents (Elt F) :=
  let main_v85 : (⟨S557056, .f32⟩ : BufTy).Contents (Elt F) := shapeCast S557056 main_v84 shapeCasts_S1x557056_S557056
  let main_v89 : (⟨S262144, .f32⟩ : BufTy).Contents (Elt F) := (extractStridedSlice S262144 ![294912] · slices_S557056_S262144_294912) main_v85
  let main_v90 : (⟨S32768x8, .f32⟩ : BufTy).Contents (Elt F) := shapeCast S32768x8 main_v89 shapeCasts_S262144_S32768x8
  main_v90

/-- Operations 81 onwards of `lossOf`: the names live at its head, then its lets. -/
def lossOf_part4 (main_arg3 : (⟨S2097152, .f32⟩ : BufTy).Contents (Elt F)) (main_arg12 : (⟨S32768, .i32⟩ : BufTy).Contents (Elt F)) (main_v21 : (⟨S32768, .f32⟩ : BufTy).Contents (Elt F)) (main_v102 : (⟨S_, .f32⟩ : BufTy).Contents (Elt F)) (main_v158 : (⟨S32768, .f32⟩ : BufTy).Contents (Elt F)) (main_v160 : (⟨S32768, .i1⟩ : BufTy).Contents (Elt F)) (main_v161 : (⟨S32768, .i32⟩ : BufTy).Contents (Elt F)) :
    (⟨S_, .f32⟩ : BufTy).Contents (Elt F) :=
  let main_v162 : (⟨S32768, .i32⟩ : BufTy).Contents (Elt F) := (addi) main_arg12 main_v161
  let main_v163 : (⟨S32768, .i32⟩ : BufTy).Contents (Elt F) := (select) main_v160 main_v162 main_arg12
  let main_v164 : (⟨S32768x1, .i32⟩ : BufTy).Contents (Elt F) := (broadcastInDim S32768x1 ![0] bcast_S32768_S32768x1_0) main_v163
  let main_v165 : (⟨S32768, .f32⟩ : BufTy).Contents (Elt F) := (fun x i => Host.gather gather_S2097152_S32768x1_S32768_n_0_n_n_0_1_1 x i) main_arg3 main_v164
  let main_v166 : (⟨S32768, .f32⟩ : BufTy).Contents (Elt F) := (subf) main_v165 main_v158
  let main_v167 : (⟨S32768, .f32⟩ : BufTy).Contents (Elt F) := (mulf) main_v166 main_v166
  let main_v168 : (⟨S32768, .f32⟩ : BufTy).Contents (Elt F) := (mulf) main_v21 main_v167
  let main_cst_30 : (⟨S_, .f32⟩ : BufTy).Contents (Elt F) := constant S_ .f32 0x00000000#32
  let main_v169 : (⟨S_, .f32⟩ : BufTy).Contents (Elt F) := (fun x v => Host.reduceAdd x v reducesTo_S32768_S_d0 h_S_) main_v168 main_cst_30
  let main_cst_31 : (⟨S_, .f32⟩ : BufTy).Contents (Elt F) := constant S_ .f32 0x00000000#32
  let main_v170 : (⟨S_, .f32⟩ : BufTy).Contents (Elt F) := (fun x v => Host.reduceAdd x v reducesTo_S32768_S_d0 h_S_) main_v21 main_cst_31
  let main_cst_32 : (⟨S_, .f32⟩ : BufTy).Contents (Elt F) := constant S_ .f32 0x3F800000#32
  let main_v171 : (⟨S_, .f32⟩ : BufTy).Contents (Elt F) := (maximumf) main_v170 main_cst_32
  let main_v172 : (⟨S_, .f32⟩ : BufTy).Contents (Elt F) := (Host.divf) main_v169 main_v171
  let main_v173 : (⟨S_, .f32⟩ : BufTy).Contents (Elt F) := (addf) main_v102 main_v172
  main_v173

/-- Operations 61 onwards of `lossOf`: the names live at its head, then its lets. -/
def lossOf_part3 (main_arg3 : (⟨S2097152, .f32⟩ : BufTy).Contents (Elt F)) (main_arg12 : (⟨S32768, .i32⟩ : BufTy).Contents (Elt F)) (main_v21 : (⟨S32768, .f32⟩ : BufTy).Contents (Elt F)) (main_v88 : (⟨S32768x8, .f32⟩ : BufTy).Contents (Elt F)) (main_v102 : (⟨S_, .f32⟩ : BufTy).Contents (Elt F)) (main_v139 : (⟨S32768, .f32⟩ : BufTy).Contents (Elt F)) (main_v141 : (⟨S32768, .f32⟩ : BufTy).Contents (Elt F)) (main_v143 : (⟨S32768, .f32⟩ : BufTy).Contents (Elt F)) (main_v144 : (⟨S32768x1, .f32⟩ : BufTy).Contents (Elt F)) :
    (⟨S_, .f32⟩ : BufTy).Contents (Elt F) :=
  let main_v145 : (⟨S32768, .f32⟩ : BufTy).Contents (Elt F) := shapeCast S32768 main_v144 shapeCasts_S32768x1_S32768
  let main_v146 : (⟨S32768x1, .f32⟩ : BufTy).Contents (Elt F) := (extractStridedSlice S32768x1 ![0, 2] · slices_S32768x8_S32768x1_0_2) main_v88
  let main_v147 : (⟨S32768, .f32⟩ : BufTy).Contents (Elt F) := shapeCast S32768 main_v146 shapeCasts_S32768x1_S32768
  let main_v148 : (⟨S32768, .f32⟩ : BufTy).Contents (Elt F) := (addf) main_v141 main_v143
  let main_v149 : (⟨S32768, .f32⟩ : BufTy).Contents (Elt F) := (subf) main_v148 main_v145
  let main_v150 : (⟨S32768, .f32⟩ : BufTy).Contents (Elt F) := (subf) main_v149 main_v147
  let main_v151 : (⟨S32768, .f32⟩ : BufTy).Contents (Elt F) := (Host.absf) main_v150
  let main_v152 : (⟨S32768, .f32⟩ : BufTy).Contents (Elt F) := (addf) main_v141 main_v143
  let main_v153 : (⟨S32768, .f32⟩ : BufTy).Contents (Elt F) := (addf) main_v152 main_v145
  let main_v154 : (⟨S32768, .f32⟩ : BufTy).Contents (Elt F) := (addf) main_v153 main_v147
  let main_cst_27 : (⟨S_, .f32⟩ : BufTy).Contents (Elt F) := constant S_ .f32 0x3FC00000#32
  let main_v155 : (⟨S32768, .f32⟩ : BufTy).Contents (Elt F) := (broadcastInDim S32768 ![] bcast_S_S32768) main_cst_27
  let main_v156 : (⟨S32768, .f32⟩ : BufTy).Contents (Elt F) := (mulf) main_v154 main_v155
  let main_v157 : (⟨S32768, .f32⟩ : BufTy).Contents (Elt F) := (Host.divf) main_v151 main_v156
  let main_v158 : (⟨S32768, .f32⟩ : BufTy).Contents (Elt F) := (addf) main_v139 main_v157
  let main_c_28 : (⟨S_, .i32⟩ : BufTy).Contents (Elt F) := constantI S_ 32 0#32
  let main_v159 : (⟨S32768, .i32⟩ : BufTy).Contents (Elt F) := (broadcastInDim S32768 ![] bcast_S_S32768) main_c_28
  let main_v160 : (⟨S32768, .i1⟩ : BufTy).Contents (Elt F) := (cmpi .slt) main_arg12 main_v159
  let main_c_29 : (⟨S_, .i32⟩ : BufTy).Contents (Elt F) := constantI S_ 32 2097152#32
  let main_v161 : (⟨S32768, .i32⟩ : BufTy).Contents (Elt F) := (broadcastInDim S32768 ![] bcast_S_S32768) main_c_29
  lossOf_part4 (F := F) main_arg3 main_arg12 main_v21 main_v102 main_v158 main_v160 main_v161

/-- Operations 41 onwards of `lossOf`: the names live at its head, then its lets. -/
def lossOf_part2 (main_arg3 : (⟨S2097152, .f32⟩ : BufTy).Contents (Elt F)) (main_arg12 : (⟨S32768, .i32⟩ : BufTy).Contents (Elt F)) (main_v21 : (⟨S32768, .f32⟩ : BufTy).Contents (Elt F)) (main_v88 : (⟨S32768x8, .f32⟩ : BufTy).Contents (Elt F)) (main_v90 : (⟨S32768x8, .f32⟩ : BufTy).Contents (Elt F)) (main_v102 : (⟨S_, .f32⟩ : BufTy).Contents (Elt F)) (main_v120 : (⟨S32768, .f32⟩ : BufTy).Contents (Elt F)) (main_v122 : (⟨S32768, .f32⟩ : BufTy).Contents (Elt F)) (main_v124 : (⟨S32768, .f32⟩ : BufTy).Contents (Elt F)) (main_v125 : (⟨S32768x1, .f32⟩ : BufTy).Contents (Elt F)) :
    (⟨S_, .f32⟩ : BufTy).Contents (Elt F) :=
  let main_v126 : (⟨S32768, .f32⟩ : BufTy).Contents (Elt F) := shapeCast S32768 main_v125 shapeCasts_S32768x1_S32768
  let main_v127 : (⟨S32768x1, .f32⟩ : BufTy).Contents (Elt F) := (extractStridedSlice S32768x1 ![0, 4] · slices_S32768x8_S32768x1_0_4) main_v88
  let main_v128 : (⟨S32768, .f32⟩ : BufTy).Contents (Elt F) := shapeCast S32768 main_v127 shapeCasts_S32768x1_S32768
  let main_v129 : (⟨S32768, .f32⟩ : BufTy).Contents (Elt F) := (addf) main_v122 main_v124
  let main_v130 : (⟨S32768, .f32⟩ : BufTy).Contents (Elt F) := (subf) main_v129 main_v126
  let main_v131 : (⟨S32768, .f32⟩ : BufTy).Contents (Elt F) := (subf) main_v130 main_v128
  let main_v132 : (⟨S32768, .f32⟩ : BufTy).Contents (Elt F) := (Host.absf) main_v131
  let main_v133 : (⟨S32768, .f32⟩ : BufTy).Contents (Elt F) := (addf) main_v122 main_v124
  let main_v134 : (⟨S32768, .f32⟩ : BufTy).Contents (Elt F) := (addf) main_v133 main_v126
  let main_v135 : (⟨S32768, .f32⟩ : BufTy).Contents (Elt F) := (addf) main_v134 main_v128
  let main_cst_26 : (⟨S_, .f32⟩ : BufTy).Contents (Elt F) := constant S_ .f32 0x3FC00000#32
  let main_v136 : (⟨S32768, .f32⟩ : BufTy).Contents (Elt F) := (broadcastInDim S32768 ![] bcast_S_S32768) main_cst_26
  let main_v137 : (⟨S32768, .f32⟩ : BufTy).Contents (Elt F) := (mulf) main_v135 main_v136
  let main_v138 : (⟨S32768, .f32⟩ : BufTy).Contents (Elt F) := (Host.divf) main_v132 main_v137
  let main_v139 : (⟨S32768, .f32⟩ : BufTy).Contents (Elt F) := (addf) main_v120 main_v138
  let main_v140 : (⟨S32768x1, .f32⟩ : BufTy).Contents (Elt F) := (extractStridedSlice S32768x1 ![0, 5] · slices_S32768x8_S32768x1_0_5) main_v90
  let main_v141 : (⟨S32768, .f32⟩ : BufTy).Contents (Elt F) := shapeCast S32768 main_v140 shapeCasts_S32768x1_S32768
  let main_v142 : (⟨S32768x1, .f32⟩ : BufTy).Contents (Elt F) := (extractStridedSlice S32768x1 ![0, 2] · slices_S32768x8_S32768x1_0_2) main_v90
  let main_v143 : (⟨S32768, .f32⟩ : BufTy).Contents (Elt F) := shapeCast S32768 main_v142 shapeCasts_S32768x1_S32768
  let main_v144 : (⟨S32768x1, .f32⟩ : BufTy).Contents (Elt F) := (extractStridedSlice S32768x1 ![0, 5] · slices_S32768x8_S32768x1_0_5) main_v88
  lossOf_part3 (F := F) main_arg3 main_arg12 main_v21 main_v88 main_v102 main_v139 main_v141 main_v143 main_v144

/-- Operations 21 onwards of `lossOf`: the names live at its head, then its lets. -/
def lossOf_part1 (main_arg3 : (⟨S2097152, .f32⟩ : BufTy).Contents (Elt F)) (main_arg12 : (⟨S32768, .i32⟩ : BufTy).Contents (Elt F)) (main_v21 : (⟨S32768, .f32⟩ : BufTy).Contents (Elt F)) (main_v88 : (⟨S32768x8, .f32⟩ : BufTy).Contents (Elt F)) (main_v90 : (⟨S32768x8, .f32⟩ : BufTy).Contents (Elt F)) (main_v102 : (⟨S_, .f32⟩ : BufTy).Contents (Elt F)) (main_v104 : (⟨S32768, .f32⟩ : BufTy).Contents (Elt F)) (main_v106 : (⟨S32768, .f32⟩ : BufTy).Contents (Elt F)) :
    (⟨S_, .f32⟩ : BufTy).Contents (Elt F) :=
  let main_v107 : (⟨S32768x1, .f32⟩ : BufTy).Contents (Elt F) := (extractStridedSlice S32768x1 ![0, 7] · slices_S32768x8_S32768x1_0_7) main_v88
  let main_v108 : (⟨S32768, .f32⟩ : BufTy).Contents (Elt F) := shapeCast S32768 main_v107 shapeCasts_S32768x1_S32768
  let main_v109 : (⟨S32768x1, .f32⟩ : BufTy).Contents (Elt F) := (extractStridedSlice S32768x1 ![0, 0] · slices_S32768x8_S32768x1_0_0) main_v88
  let main_v110 : (⟨S32768, .f32⟩ : BufTy).Contents (Elt F) := shapeCast S32768 main_v109 shapeCasts_S32768x1_S32768
  let main_v111 : (⟨S32768, .f32⟩ : BufTy).Contents (Elt F) := (addf) main_v104 main_v106
  let main_v112 : (⟨S32768, .f32⟩ : BufTy).Contents (Elt F) := (subf) main_v111 main_v108
  let main_v113 : (⟨S32768, .f32⟩ : BufTy).Contents (Elt F) := (subf) main_v112 main_v110
  let main_v114 : (⟨S32768, .f32⟩ : BufTy).Contents (Elt F) := (Host.absf) main_v113
  let main_v115 : (⟨S32768, .f32⟩ : BufTy).Contents (Elt F) := (addf) main_v104 main_v106
  let main_v116 : (⟨S32768, .f32⟩ : BufTy).Contents (Elt F) := (addf) main_v115 main_v108
  let main_v117 : (⟨S32768, .f32⟩ : BufTy).Contents (Elt F) := (addf) main_v116 main_v110
  let main_cst_25 : (⟨S_, .f32⟩ : BufTy).Contents (Elt F) := constant S_ .f32 0x3FC00000#32
  let main_v118 : (⟨S32768, .f32⟩ : BufTy).Contents (Elt F) := (broadcastInDim S32768 ![] bcast_S_S32768) main_cst_25
  let main_v119 : (⟨S32768, .f32⟩ : BufTy).Contents (Elt F) := (mulf) main_v117 main_v118
  let main_v120 : (⟨S32768, .f32⟩ : BufTy).Contents (Elt F) := (Host.divf) main_v114 main_v119
  let main_v121 : (⟨S32768x1, .f32⟩ : BufTy).Contents (Elt F) := (extractStridedSlice S32768x1 ![0, 3] · slices_S32768x8_S32768x1_0_3) main_v90
  let main_v122 : (⟨S32768, .f32⟩ : BufTy).Contents (Elt F) := shapeCast S32768 main_v121 shapeCasts_S32768x1_S32768
  let main_v123 : (⟨S32768x1, .f32⟩ : BufTy).Contents (Elt F) := (extractStridedSlice S32768x1 ![0, 4] · slices_S32768x8_S32768x1_0_4) main_v90
  let main_v124 : (⟨S32768, .f32⟩ : BufTy).Contents (Elt F) := shapeCast S32768 main_v123 shapeCasts_S32768x1_S32768
  let main_v125 : (⟨S32768x1, .f32⟩ : BufTy).Contents (Elt F) := (extractStridedSlice S32768x1 ![0, 3] · slices_S32768x8_S32768x1_0_3) main_v88
  lossOf_part2 (F := F) main_arg3 main_arg12 main_v21 main_v88 main_v90 main_v102 main_v120 main_v122 main_v124 main_v125

/-- The loss from the three prediction arrays: the mean absolute misfit of the centres' predictions against the data values read at the centres, plus the masked mean of the squared difference between the Laplacian values read at the centres and the sum of three stencil terms |a+b−c−d| / ((a+b+c+d)·1.5), the mask's count floored at 1. -/
def lossOf (main_arg1 : (⟨S2097152x1, .f32⟩ : BufTy).Contents (Elt F)) (main_arg3 : (⟨S2097152, .f32⟩ : BufTy).Contents (Elt F)) (main_arg12 : (⟨S32768, .i32⟩ : BufTy).Contents (Elt F)) (main_v21 : (⟨S32768, .f32⟩ : BufTy).Contents (Elt F)) (main_v86 : (⟨S32768, .f32⟩ : BufTy).Contents (Elt F)) (main_v88 : (⟨S32768x8, .f32⟩ : BufTy).Contents (Elt F)) (main_v90 : (⟨S32768x8, .f32⟩ : BufTy).Contents (Elt F)) :
    (⟨S_, .f32⟩ : BufTy).Contents (Elt F) :=
  let main_c_22 : (⟨S_, .i32⟩ : BufTy).Contents (Elt F) := constantI S_ 32 0#32
  let main_v91 : (⟨S32768, .i32⟩ : BufTy).Contents (Elt F) := (broadcastInDim S32768 ![] bcast_S_S32768) main_c_22
  let main_v92 : (⟨S32768, .i1⟩ : BufTy).Contents (Elt F) := (cmpi .slt) main_arg12 main_v91
  let main_c_23 : (⟨S_, .i32⟩ : BufTy).Contents (Elt F) := constantI S_ 32 2097152#32
  let main_v93 : (⟨S32768, .i32⟩ : BufTy).Contents (Elt F) := (broadcastInDim S32768 ![] bcast_S_S32768) main_c_23
  let main_v94 : (⟨S32768, .i32⟩ : BufTy).Contents (Elt F) := (addi) main_arg12 main_v93
  let main_v95 : (⟨S32768, .i32⟩ : BufTy).Contents (Elt F) := (select) main_v92 main_v94 main_arg12
  let main_v96 : (⟨S32768x1, .i32⟩ : BufTy).Contents (Elt F) := (broadcastInDim S32768x1 ![0] bcast_S32768_S32768x1_0) main_v95
  let main_v97 : (⟨S32768x1, .f32⟩ : BufTy).Contents (Elt F) := (fun x i => Host.gather gather_S2097152x1_S32768x1_S32768x1_1_0_n_n_0_1_11 x i) main_arg1 main_v96
  let main_v98 : (⟨S32768, .f32⟩ : BufTy).Contents (Elt F) := shapeCast S32768 main_v97 shapeCasts_S32768x1_S32768
  let main_v99 : (⟨S32768, .f32⟩ : BufTy).Contents (Elt F) := (subf) main_v86 main_v98
  let main_v100 : (⟨S32768, .f32⟩ : BufTy).Contents (Elt F) := (Host.absf) main_v99
  let main_cst : (⟨S_, .f32⟩ : BufTy).Contents (Elt F) := constant S_ .f32 0x00000000#32
  let main_v101 : (⟨S_, .f32⟩ : BufTy).Contents (Elt F) := (fun x v => Host.reduceAdd x v reducesTo_S32768_S_d0 h_S_) main_v100 main_cst
  let main_cst_24 : (⟨S_, .f32⟩ : BufTy).Contents (Elt F) := constant S_ .f32 0x47000000#32
  let main_v102 : (⟨S_, .f32⟩ : BufTy).Contents (Elt F) := (Host.divf) main_v101 main_cst_24
  let main_v103 : (⟨S32768x1, .f32⟩ : BufTy).Contents (Elt F) := (extractStridedSlice S32768x1 ![0, 7] · slices_S32768x8_S32768x1_0_7) main_v90
  let main_v104 : (⟨S32768, .f32⟩ : BufTy).Contents (Elt F) := shapeCast S32768 main_v103 shapeCasts_S32768x1_S32768
  let main_v105 : (⟨S32768x1, .f32⟩ : BufTy).Contents (Elt F) := (extractStridedSlice S32768x1 ![0, 0] · slices_S32768x8_S32768x1_0_0) main_v90
  let main_v106 : (⟨S32768, .f32⟩ : BufTy).Contents (Elt F) := shapeCast S32768 main_v105 shapeCasts_S32768x1_S32768
  lossOf_part1 (F := F) main_arg3 main_arg12 main_v21 main_v88 main_v90 main_v102 main_v104 main_v106

end Cert.KernelIdeal.Gen.Stages

end
-- ==== Proof.KTail.lean ====
import proofs.«167318_j62079457296719_2_alg».proof.Proof.FrameKitI
import proofs.«167318_j62079457296719_2_alg».proof.Proof.Stages

/-!
# The program's result from the region's output

After the region, 101 host operations compute the scalar loss from the region's output array: the first six cut the
flattened output into the centres', the staggered points' and the neighbours' predictions, the other ninety-five combine
these with the data and Laplacian tables read at the centre indices and with the interior mask. `tail_fold` reads the
result buffer off the fold of the 101 operations over any contents, as the definitions `predSlice`, `psSlice`,
`pnSlice` and `lossOf` spell it; `tail_result` instantiates the contents as the region leaves them: the output array
as the region's last flush left it, every buffer that bypasses the region as the region found it.
-/

noncomputable section

namespace Cert.KernelIdeal.KVal

open Idealize.ShloMosaic Idealize.ShloMosaic.TcCoe Idealize.SL.Sem
open Idealize.ShloMosaic.Rounds
open Idealize.ShloMosaic.Pipeline (Dat)
open Cert.KernelIdeal Cert.KernelIdeal.Gen Cert.KernelIdeal.Frm

variable {F : FTy → Type} [FloatOps F]

/-- The 101 operations after the region are three literal stretches in a row (12, 60 and 29 operations). -/
theorem hostOps1_split :
    (hostOps1 : List (HloOp τ sig (Elt F))) = main_part1_ops5 ++ (main_part2_ops0 ++ main_part3_ops0) := rfl

/-- Reads the buffers of the stretch whose list is in view: unrolls the fold, and at each operation gives a buffer the
    operation's function of its operands' contents if the operation writes it, and what it held before otherwise (two
    literal references are told apart by inspection). -/
local macro "read_stretch" : tactic =>
  `(tactic| (simp (disch := decide) only [StableHlo.after_cons, StableHlo.after_nil, StableHlo.nullary_result', StableHlo.unary_result', StableHlo.binary_result', StableHlo.ternary_result', StableHlo.quaternary_result', StableHlo.reshape_result', StableHlo.nullary_result_ne', StableHlo.unary_result_ne', StableHlo.binary_result_ne', StableHlo.ternary_result_ne', StableHlo.quaternary_result_ne', StableHlo.reshape_result_ne', StableHlo.nary_result_ne']))

set_option maxRecDepth 16384 in
set_option maxHeartbeats 4000000 in
/-- The result buffer after the 101 operations, from any contents `W`: the loss of the data table, the Laplacian table,
    the centre indices and the mask as `W` holds them, and of the three slices of the region's output as `W` holds it.
    Read stretch by stretch, last first: the earlier stretches' contents stay opaque while a stretch is unrolled. -/
theorem tail_fold (W : Valuation τ sig (Elt F)) :
    StableHlo.after hostOps1 W (Proc.devRef .tc main_v173)
      = Stages.lossOf (W (Proc.devRef .tc main_arg1)) (W (Proc.devRef .tc main_arg3)) (W (Proc.devRef .tc main_arg12))
          (W (Proc.devRef .tc main_v21)) (Stages.predSlice (W (Proc.devRef .tc main_v84)))
          (Stages.psSlice (W (Proc.devRef .tc main_v84))) (Stages.pnSlice (W (Proc.devRef .tc main_v84))) := by
  rw [hostOps1_split, StableHlo.after_append, StableHlo.after_append]
  generalize hW1 : StableHlo.after main_part1_ops5 W = W1
  generalize hW2 : StableHlo.after main_part2_ops0 W1 = W2
  read_stretch
  subst hW2
  read_stretch
  subst hW1
  read_stretch
  rfl

/-- The program's result buffer after the whole run, for any proof data of the region: the loss of the data table, the
    Laplacian table, the centre indices and the mask as the region found them (none is an array of the region), and of
    the three slices of the output array as the region's last flush left it (the output is the region's tenth array). -/
theorem tail_result (m : (ℓ : Loc nD τ sig) → Buf (Elt F) ℓ)
    (dats : (p : Fin 1) → (c : Dev nD) → Dat τ (Elt F) Unit ℕ (UR sig nD τ) ℕ (cfgs p) c) (c : Dev nD) :
    Pipeline.afterTail₀ cfgs dats 0 (V0 m) [hostOps1] c main_v173
      = Stages.lossOf (V m c main_arg1) (V m c main_arg3) (V m c main_arg12) (V m c main_v21)
          (Stages.predSlice ((dats 0 c).arrAt 9 (cfgs 0).N)) (Stages.psSlice ((dats 0 c).arrAt 9 (cfgs 0).N))
          (Stages.pnSlice ((dats 0 c).arrAt 9 (cfgs 0).N)) := by
  have h_main_arg1 : Pipeline.withArrays (cfgs 0).spec c (V0 m c) (fun w => (dats 0 c).arrAt w (cfgs 0).N) (Proc.devRef .tc main_arg1)
      = V m c main_arg1 := Pipeline.withArrays_of_ne _ c (V0 m c) _ main_arg1 (by decide)
  have h_main_arg3 : Pipeline.withArrays (cfgs 0).spec c (V0 m c) (fun w => (dats 0 c).arrAt w (cfgs 0).N) (Proc.devRef .tc main_arg3)
      = V m c main_arg3 := Pipeline.withArrays_of_ne _ c (V0 m c) _ main_arg3 (by decide)
  have h_main_arg12 : Pipeline.withArrays (cfgs 0).spec c (V0 m c) (fun w => (dats 0 c).arrAt w (cfgs 0).N) (Proc.devRef .tc main_arg12)
      = V m c main_arg12 := Pipeline.withArrays_of_ne _ c (V0 m c) _ main_arg12 (by decide)
  have h_main_v21 : Pipeline.withArrays (cfgs 0).spec c (V0 m c) (fun w => (dats 0 c).arrAt w (cfgs 0).N) (Proc.devRef .tc main_v21)
      = V m c main_v21 := Pipeline.withArrays_of_ne _ c (V0 m c) _ main_v21 (by decide)
  have h_main_v84 : Pipeline.withArrays (cfgs 0).spec c (V0 m c) (fun w => (dats 0 c).arrAt w (cfgs 0).N) (Proc.devRef .tc main_v84)
      = (dats 0 c).arrAt 9 (cfgs 0).N := Pipeline.withArrays_arr (cfgs 0).spec launch0.win.arr_inj c (V0 m c) _ 9
  unfold Pipeline.afterTail₀
  simp only [List.flatten_cons, List.flatten_nil, List.append_nil]
  rw [tail_fold, h_main_arg1, h_main_arg3, h_main_arg12, h_main_v21, h_main_v84]

end Cert.KernelIdeal.KVal

end
-- ==== Proof.LibNary3.lean ====
/-
  A host operation over a LITERAL family of three references (a concatenation of three operands): its result holds
  the operation's function applied to the three operands' contents, each read AT ITS OWN reference. Stated with the
  family spelt out as the three contents, each at its own literal reference (the general statement has them under a
  binder, indexed by position).
-/
import Idealize.ShloMosaic.Lib.StableHlo.Run

noncomputable section

namespace Idealize.ShloMosaic.StableHlo

open Idealize.ShloMosaic

variable {τ : Topo} {sig : RefSig} {Val : EltTy → Type} {x a b y : Ref sig .tc}

/-- The result of a three-operand operation at its result buffer: the function at the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.KPre.lean ====
/-
  What the region finds in the buffers its windows stage, and in the mask buffer the later lines read: each is written
  once by a host operation before the region, as a function of argument arrays that no operation writes. Reading the
  fold of the earlier operations at such a buffer gives that operation's function of its operands' contents, which are
  read in turn at the operations before; the centre mask is a chain of a hundred integer operations on the centre
  indices, each weight layout one transposition or one reshaping of its argument. The chains are the definitions of
  the stage functions, operation by operation.
-/
import proofs.«167318_j62079457296719_2_alg».proof.Proof.FrameKitI
import proofs.«167318_j62079457296719_2_alg».proof.Proof.Stages
import proofs.«167318_j62079457296719_2_alg».proof.Proof.LibNary3

set_option maxRecDepth 16384

noncomputable section

namespace Cert.KernelIdeal.KVal

open Idealize.ShloMosaic Idealize.ShloMosaic.TcCoe Idealize.ShloMosaic.StableHlo
open Idealize.SL.Sem
open Cert.KernelIdeal Cert.KernelIdeal.Gen Cert.KernelIdeal.Frm

variable {F : FTy → Type} [FloatOps F]

/-- Reads a fold of literal operations at a buffer in one pass: at each operation the buffer holds the operation's
    function of its operands' contents if the operation writes it, and what it held before otherwise (two literal
    references are told apart by inspection). -/
local macro "fold_results" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-- The fold over the thirteen stretches in a row is the stretches' folds one inside the other. -/
theorem split (W : Valuation τ sig (Elt F)) :
    StableHlo.after (List.flatten (preOps (F := F))) W
      = after hostOps0_12 (after hostOps0_11 (after hostOps0_10 (after hostOps0_9 (after hostOps0_8 (after hostOps0_7 (after hostOps0_6
          (after hostOps0_5 (after hostOps0_4 (after hostOps0_3 (after hostOps0_2 (after hostOps0_1 (after hostOps0 W)))))))))))) := by
  simp only [preOps, List.flatten_cons, List.flatten_nil, List.append_nil, after_append]

/-! ## The weight layouts: one operation of the last stretch each -/

set_option maxHeartbeats 4000000 in
/-- The first weight matrix's buffer holds the argument transposed. -/
theorem pre_v76 (W : Valuation τ sig (Elt F)) :
    StableHlo.after (List.flatten (preOps (F := F))) W (Proc.devRef .tc main_v76) = Stages.w1T (W (Proc.devRef .tc main_arg4)) := by
  rw [split]; fold_results; rfl

set_option maxHeartbeats 4000000 in
/-- The second weight matrix's buffer holds the argument transposed. -/
theorem pre_v77 (W : Valuation τ sig (Elt F)) :
    StableHlo.after (List.flatten (preOps (F := F))) W (Proc.devRef .tc main_v77) = Stages.w2T (W (Proc.devRef .tc main_arg6)) := by
  rw [split]; fold_results; rfl

set_option maxHeartbeats 4000000 in
/-- The third weight matrix's buffer holds the argument transposed. -/
theorem pre_v78 (W : Valuation τ sig (Elt F)) :
    StableHlo.after (List.flatten (preOps (F := F))) W (Proc.devRef .tc main_v78) = Stages.w3T (W (Proc.devRef .tc main_arg8)) := by
  rw [split]; fold_results; rfl

set_option maxHeartbeats 4000000 in
/-- The last weight matrix's buffer holds the argument transposed to a row. -/
theorem pre_v79 (W : Valuation τ sig (Elt F)) :
    StableHlo.after (List.flatten (preOps (F := F))) W (Proc.devRef .tc main_v79) = Stages.w4T (W (Proc.devRef .tc main_arg10)) := by
  rw [split]; fold_results; rfl

set_option maxHeartbeats 4000000 in
/-- The first bias's buffer holds the argument as a column. -/
theorem pre_v80 (W : Valuation τ sig (Elt F)) :
    StableHlo.after (List.flatten (preOps (F := F))) W (Proc.devRef .tc main_v80) = Stages.b1C (W (Proc.devRef .tc main_arg5)) := by
  rw [split]; fold_results; rfl

set_option maxHeartbeats 4000000 in
/-- The second bias's buffer holds the argument as a column. -/
theorem pre_v81 (W : Valuation τ sig (Elt F)) :
    StableHlo.after (List.flatten (preOps (F := F))) W (Proc.devRef .tc main_v81) = Stages.b2C (W (Proc.devRef .tc main_arg7)) := by
  rw [split]; fold_results; rfl

set_option maxHeartbeats 4000000 in
/-- The third bias's buffer holds the argument as a column. -/
theorem pre_v82 (W : Valuation τ sig (Elt F)) :
    StableHlo.after (List.flatten (preOps (F := F))) W (Proc.devRef .tc main_v82) = Stages.b3C (W (Proc.devRef .tc main_arg9)) := by
  rw [split]; fold_results; rfl

set_option maxHeartbeats 4000000 in
/-- The last bias's buffer holds the argument as a 1×1 cell. -/
theorem pre_v83 (W : Valuation τ sig (Elt F)) :
    StableHlo.after (List.flatten (preOps (F := F))) W (Proc.devRef .tc main_v83) = Stages.b4C (W (Proc.devRef .tc main_arg11)) := by
  rw [split]; fold_results; rfl

/-! ## The centre mask: the chain of the first nine stretches -/

set_option maxHeartbeats 16000000 in
/-- The mask buffer holds the interior mask of the centre indices: it is written in the ninth stretch from the three
    mesh coordinates, which the floor divisions and remainders of the stretches before compute from the centre
    indices. The operations inside the called functions carry their values along a reflexive type equation, which is
    dropped before the two chains are compared. -/
theorem pre_v21 (W : Valuation τ sig (Elt F)) :
    StableHlo.after (List.flatten (preOps (F := F))) W (Proc.devRef .tc main_v21) = Stages.maskOf (W (Proc.devRef .tc main_arg12)) := by
  rw [split]
  fold_results
  simp only [TRef.ofBuf, TRef.toBuf, cast_eq]
  rfl

/-! ## The same in the frame's spelling -/

variable (m : (ℓ : Loc nD τ sig) → Buf (Elt F) ℓ)

/-- The region finds the interior mask of the centre indices in the mask buffer. -/
theorem V_main_v21 (c : Dev nD) : V m c main_v21 = Stages.maskOf (m ((c : Thread nD τ).loc main_arg12)) := pre_v21 _
/-- The region finds the first weight matrix transposed. -/
theorem V_main_v76 (c : Dev nD) : V m c main_v76 = Stages.w1T (m ((c : Thread nD τ).loc main_arg4)) := pre_v76 _
/-- The region finds the second weight matrix transposed. -/
theorem V_main_v77 (c : Dev nD) : V m c main_v77 = Stages.w2T (m ((c : Thread nD τ).loc main_arg6)) := pre_v77 _
/-- The region finds the third weight matrix transposed. -/
theorem V_main_v78 (c : Dev nD) : V m c main_v78 = Stages.w3T (m ((c : Thread nD τ).loc main_arg8)) := pre_v78 _
/-- The region finds the last weight matrix as a row. -/
theorem V_main_v79 (c : Dev nD) : V m c main_v79 = Stages.w4T (m ((c : Thread nD τ).loc main_arg10)) := pre_v79 _
/-- The region finds the first bias as a column. -/
theorem V_main_v80 (c : Dev nD) : V m c main_v80 = Stages.b1C (m ((c : Thread nD τ).loc main_arg5)) := pre_v80 _
/-- The region finds the second bias as a column. -/
theorem V_main_v81 (c : Dev nD) : V m c main_v81 = Stages.b2C (m ((c : Thread nD τ).loc main_arg7)) := pre_v81 _
/-- The region finds the third bias as a column. -/
theorem V_main_v82 (c : Dev nD) : V m c main_v82 = Stages.b3C (m ((c : Thread nD τ).loc main_arg9)) := pre_v82 _
/-- The region finds the last bias as a 1×1 cell. -/
theorem V_main_v83 (c : Dev nD) : V m c main_v83 = Stages.b4C (m ((c : Thread nD τ).loc main_arg11)) := pre_v83 _

end Cert.KernelIdeal.KVal

end
-- ==== Proof.KPre75.lean ====
import proofs.«167318_j62079457296719_2_alg».proof.Proof.FrameKitI
import proofs.«167318_j62079457296719_2_alg».proof.Proof.Stages
import proofs.«167318_j62079457296719_2_alg».proof.Proof.LibNary3

/-!
# The gathered coordinate table as the region finds it

Before the region, thirteen stretches of host operations run. The last one builds the table the region's first window
stages: the two coordinate tables stacked, read at the fused index vector (the centre indices, then the staggered-mesh
indices shifted past the first table, then the neighbour indices), transposed. The staggered and neighbour indices are
the results of the earlier stretches, functions of the centre indices alone. `pre_v75` reads the table's buffer off
the fold of the thirteen stretches over any contents, as `tableT`, `stagOf` and `neigOf` spell it; `V_main_v75` is
that at the launch contents.
-/

noncomputable section

namespace Cert.KernelIdeal.KVal

open Idealize.ShloMosaic Idealize.ShloMosaic.TcCoe Idealize.SL.Sem
open Cert.KernelIdeal Cert.KernelIdeal.Gen Cert.KernelIdeal.Frm

variable {F : FTy → Type} [FloatOps F]

/-- Three one-column integer arrays side by side, as one function of the three columns. -/
def cat25 (a b c : (⟨S32768x1, .i32⟩ : BufTy).Contents (Elt F)) : (⟨S32768x3, .i32⟩ : BufTy).Contents (Elt F) :=
  concatenate S32768x3 1 [⟨S32768x1, a⟩, ⟨S32768x1, b⟩, ⟨S32768x1, c⟩] concatenates_S32768x1_S32768x1_S32768x1_S32768x3_d1

/-- The three-piece concatenation `main_v25` reads its operands at their own references: its result is `cat25` of the
    three columns' contents. (The general statement hands the operands over as a family indexed by position; at the
    three literal positions the family's entries are the three contents.) -/
theorem cat25_result (W : Valuation τ sig (Elt F)) :
    (StableHlo.nary ![main_v22, main_v23, main_v24] main_v25 (fun u => concatenate S32768x3 1 [⟨S32768x1, u 0⟩, ⟨S32768x1, u 1⟩, ⟨S32768x1, u 2⟩] concatenates_S32768x1_S32768x1_S32768x1_S32768x3_d1) : HloOp τ sig (Elt F)).result W
        (no_index (Proc.devRef .tc main_v25))
      = cat25 (W (Proc.devRef .tc main_v22)) (W (Proc.devRef .tc main_v23)) (W (Proc.devRef .tc main_v24)) :=
  StableHlo.nary3_result' _ _ _ W

/-- The fused index vector: the centre indices, then two flattened 32768×8 index arrays, end to end. -/
def cat67 (a : (⟨S32768, .i32⟩ : BufTy).Contents (Elt F)) (b c : (⟨S262144, .i32⟩ : BufTy).Contents (Elt F)) :
    (⟨S557056, .i32⟩ : BufTy).Contents (Elt F) :=
  concatenate S557056 0 [⟨S32768, a⟩, ⟨S262144, b⟩, ⟨S262144, c⟩] concatenates_S32768_S262144_S262144_S557056_d0

/-- The three-piece concatenation `main_v67` reads its operands at their own references: its result is `cat67` of
    their contents. -/
theorem cat67_result (W : Valuation τ sig (Elt F)) :
    (StableHlo.nary ![main_arg12, main_v65, main_v66] main_v67 (fun u => concatenate S557056 0 [⟨S32768, u 0⟩, ⟨S262144, u 1⟩, ⟨S262144, u 2⟩] concatenates_S32768_S262144_S262144_S557056_d0) : HloOp τ sig (Elt F)).result W
        (no_index (Proc.devRef .tc main_v67))
      = cat67 (W (Proc.devRef .tc main_arg12)) (W (Proc.devRef .tc main_v65)) (W (Proc.devRef .tc main_v66)) :=
  StableHlo.nary3_result' _ _ _ W

/-- Reads the buffers of the stretch whose list is in view: unrolls the fold, and at each operation gives a buffer the
    operation's function of its operands' contents if the operation writes it, and what it held before otherwise (two
    literal references are told apart by inspection); the two three-piece concatenations by `cat25_result` and
    `cat67_result`. Then the typed references' transports along a reflexive type equation are dropped. -/
local macro "read_stretch" : tactic =>
  `(tactic| (simp (disch := decide) only [StableHlo.after_cons, StableHlo.after_nil, StableHlo.nullary_result', StableHlo.unary_result', StableHlo.binary_result', StableHlo.ternary_result', StableHlo.quaternary_result', StableHlo.reshape_result', cat25_result, cat67_result, StableHlo.nullary_result_ne', StableHlo.unary_result_ne', StableHlo.binary_result_ne', StableHlo.ternary_result_ne', StableHlo.quaternary_result_ne', StableHlo.reshape_result_ne', StableHlo.nary_result_ne']
             try simp only [StableHlo.TRef.ofBuf, StableHlo.TRef.toBuf, cast_eq]))

set_option maxRecDepth 16384 in
set_option maxHeartbeats 4000000 in
/-- The table's buffer after the last stretch before the region, from any contents `X`: `tableT` of the two coordinate
    tables, the centre indices and the two index arrays as `X` holds them. The stretch is cut after its first operation
    (the stacking of the two tables), so that the stacking reads its operands from contents that stay opaque. -/
theorem last_stretch (X : Valuation τ sig (Elt F)) :
    StableHlo.after hostOps0_12 X (Proc.devRef .tc main_v75)
      = Stages.tableT (X (Proc.devRef .tc main_arg0)) (X (Proc.devRef .tc main_arg2)) (X (Proc.devRef .tc main_arg12))
          (X (Proc.devRef .tc main_v48)) (X (Proc.devRef .tc main_v61)) := by
  have hcut : StableHlo.after hostOps0_12 X
      = StableHlo.after ((hostOps0_12 : List (HloOp τ sig (Elt F))).drop 1) (StableHlo.after (hostOps0_12.take 1) X) := by
    rw [← StableHlo.after_append, List.take_append_drop]
  rw [hcut]
  generalize hY : StableHlo.after ((hostOps0_12 : List (HloOp τ sig (Elt F))).take 1) X = Y
  simp only [hostOps0_12, List.drop_succ_cons, List.drop_zero]
  read_stretch
  subst hY
  simp only [hostOps0_12, List.take_succ_cons, List.take_zero]
  read_stretch
  rfl

set_option maxRecDepth 16384 in
set_option maxHeartbeats 8000000 in
/-- The table's buffer when the region is entered, from any launch contents `W`. The last stretch gives `tableT` of
    five buffers as the twelve earlier stretches leave them; those are read stretch by stretch, last first, the
    earlier contents opaque meanwhile: the three arguments come through unchanged, and the two index arrays come out
    as the chains of named values `stagOf` and `neigOf` spell, from the centre indices alone. -/
theorem pre_v75 (W : Valuation τ sig (Elt F)) :
    StableHlo.after (List.flatten preOps) W (Proc.devRef .tc main_v75)
      = Stages.tableT (W (Proc.devRef .tc main_arg0)) (W (Proc.devRef .tc main_arg2)) (W (Proc.devRef .tc main_arg12))
          (Stages.stagOf (W (Proc.devRef .tc main_arg12))) (Stages.neigOf (W (Proc.devRef .tc main_arg12))) := by
  simp only [preOps, List.flatten_cons, List.flatten_nil, List.append_nil, StableHlo.after_append]
  generalize hX0 : StableHlo.after hostOps0 W = X0
  generalize hX1 : StableHlo.after hostOps0_1 X0 = X1
  generalize hX2 : StableHlo.after hostOps0_2 X1 = X2
  generalize hX3 : StableHlo.after hostOps0_3 X2 = X3
  generalize hX4 : StableHlo.after hostOps0_4 X3 = X4
  generalize hX5 : StableHlo.after hostOps0_5 X4 = X5
  generalize hX6 : StableHlo.after hostOps0_6 X5 = X6
  generalize hX7 : StableHlo.after hostOps0_7 X6 = X7
  generalize hX8 : StableHlo.after hostOps0_8 X7 = X8
  generalize hX9 : StableHlo.after hostOps0_9 X8 = X9
  generalize hX10 : StableHlo.after hostOps0_10 X9 = X10
  generalize hX11 : StableHlo.after hostOps0_11 X10 = X11
  rw [last_stretch]
  subst hX11
  read_stretch
  subst hX10
  read_stretch
  subst hX9
  read_stretch
  subst hX8
  read_stretch
  subst hX7
  read_stretch
  subst hX6
  read_stretch
  subst hX5
  read_stretch
  subst hX4
  read_stretch
  subst hX3
  read_stretch
  subst hX2
  read_stretch
  subst hX1
  read_stretch
  subst hX0
  read_stretch
  rfl

/-- The table's buffer as the region finds it on core `c`: the launch contents are what the memory holds. -/
theorem V_main_v75 (m : (ℓ : Loc nD τ sig) → Buf (Elt F) ℓ) (c : Dev nD) :
    V m c main_v75
      = Stages.tableT (m ((c : Thread nD τ).loc main_arg0)) (m ((c : Thread nD τ).loc main_arg2))
          (m ((c : Thread nD τ).loc main_arg12)) (Stages.stagOf (m ((c : Thread nD τ).loc main_arg12)))
          (Stages.neigOf (m ((c : Thread nD τ).loc main_arg12))) :=
  pre_v75 (fun b => m (c, b))

end Cert.KernelIdeal.KVal

end
-- ==== Proof.LossSpec.lean ====
/-
  What both programs compute, as one function of the argument arrays. Each centre index selects a row of the full-mesh
  coordinate table; its eight staggered-mesh flat indices select rows of the staggered table and its eight neighbour
  flat indices rows of the full-mesh table again. The perceptron is applied to every selected row, giving the centres'
  predictions, the staggered points' and the neighbours'; the loss is the host's loss function of those three arrays,
  the data and Laplacian tables, and the interior mask.
-/
import proofs.«167318_j62079457296719_2_alg».proof.Proof.MlpSpec
import proofs.«167318_j62079457296719_2_alg».proof.Proof.Stages

noncomputable section

namespace LossSpec

open Idealize.ShloMosaic Idealize.ShloMosaic.ValueIdx
open Cert.KernelIdeal Cert.KernelIdeal.Gen Cert.KernelIdeal.Gen.Stages

/-- Row `r` of a three-column table as a vector (zero beyond the table's last row, which no index used here reaches). -/
def rowAt {n : ℕ} (T : FVec Ideal (⟨2, ![n, 3]⟩ : Shape) .f32) (r : ℕ) : Fin 3 → EReal :=
  fun k => if h : r < n then T (ix2 ⟨r, h⟩ k) else 0

theorem rowAt_of_lt {n : ℕ} (T : FVec Ideal (⟨2, ![n, 3]⟩ : Shape) .f32) (r : ℕ) (h : r < n) (k : Fin 3) :
    rowAt T r k = T (ix2 ⟨r, h⟩ k) := by
  unfold rowAt; rw [dif_pos h]

section
variable (a0 : FVec Ideal S2097152x3 .f32) (a1 : FVec Ideal S2097152x1 .f32) (a2 : FVec Ideal S2048383x3 .f32) (a3 : FVec Ideal S2097152 .f32)
  (a4 : FVec Ideal S3x128 .f32) (a5 : FVec Ideal S128 .f32) (a6 : FVec Ideal S128x128 .f32) (a7 : FVec Ideal S128 .f32)
  (a8 : FVec Ideal S128x128 .f32) (a9 : FVec Ideal S128 .f32) (a10 : FVec Ideal S128x1 .f32) (a11 : FVec Ideal S1 .f32)
  (a12 : IVec S32768 32)

/-- The centres' predictions: the perceptron at the centre's row of the full-mesh table. -/
def predSpec : FVec Ideal S32768 .f32 :=
  fun i => MlpSpec.ofArgs a4 a5 a6 a7 a8 a9 a10 a11 (rowAt a0 (a12 i).toNat)

/-- The staggered points' predictions: the perceptron at the staggered table's row of each clipped flat index. -/
def psSpec : FVec Ideal S32768x8 .f32 :=
  fun i => MlpSpec.ofArgs a4 a5 a6 a7 a8 a9 a10 a11 (rowAt a2 (stagOf (F := Ideal) a12 i).toNat)

/-- The neighbours' predictions: the perceptron at the full-mesh table's row of each clipped flat index. -/
def pnSpec : FVec Ideal S32768x8 .f32 :=
  fun i => MlpSpec.ofArgs a4 a5 a6 a7 a8 a9 a10 a11 (rowAt a0 (neigOf (F := Ideal) a12 i).toNat)

/-- The loss of the three prediction arrays. -/
def total : FVec Ideal S_ .f32 :=
  lossOf (F := Ideal) a1 a3 a12 (maskOf (F := Ideal) a12) (predSpec a0 a4 a5 a6 a7 a8 a9 a10 a11 a12)
    (psSpec a2 a4 a5 a6 a7 a8 a9 a10 a11 a12) (pnSpec a0 a4 a5 a6 a7 a8 a9 a10 a11 a12)
end

end LossSpec

end
-- ==== Proof.LibLayoutReads.lean ====
/-
  Layout operations of index vectors, read at one element given by its coordinates.

  A vector of n entries cut from position o on reads, at position j, the source at position o + j.  A
  matrix of a rows and b columns and the vector of its a·b entries laid row after row are the same
  numbers: entry (i, j) of the matrix is entry i·b + j of the vector, whichever of the two is the
  reshape of the other.  A vector made a column, by a reshape or by a broadcast along a new unit axis,
  reads at (i, 0) the vector's entry i.  Three vectors laid end to end read, at a position, the first
  vector there if the position is below its length, else the second at the position less the first's
  length if that is below the second's length, else the third at the position less both lengths.  Two
  matrices of equal width stacked read, at row r, the upper matrix's row r if r is below its height,
  else the lower matrix's row r less that height.
-/
import Idealize.ShloMosaic.Lib.ValueLayout

namespace Cert.Gcn.LayoutReads

open Idealize.ShloMosaic Idealize.ShloMosaic.ValueIdx

variable {α : Type}

/-! ## A vector cut from a position on -/

/-- A vector cut from `o` on reads, at `j`, the source at `k = o + j`. -/
theorem slice1_apply {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-! ## A matrix and the vector of its entries laid row after row -/

/-- The vector of a matrix's entries reads, at position `k = i·b + j`, the matrix at `(i, j)`. -/
theorem shapeCast_ab_n_apply {a b n : Nat} (x : (⟨2, ![a, b]⟩ : Shape).Idx → α)
    (h : (⟨2, ![a, b]⟩ : Shape).ShapeCasts ⟨1, ![n]⟩) (k : Fin n) (i : Fin a) (j : Fin b)
    (hk : k.val = i.val * b + j.val) :
    shapeCast ⟨1, ![n]⟩ x h (ix1 k) = x (ix2 i j) :=
  shapeCast_apply x h _ _ (by
    rw [Shape.rowMajor_val_two, Shape.rowMajor_val_one]
    show i.val * b + j.val = k.val
    exact hk.symm)

/-- A vector folded into rows of length `b` reads, at `(i, j)`, the vector at position `k = i·b + j`. -/
theorem shapeCast_n_ab_apply {a b n : Nat} (x : (⟨1, ![n]⟩ : Shape).Idx → α)
    (h : (⟨1, ![n]⟩ : Shape).ShapeCasts ⟨2, ![a, b]⟩) (i : Fin a) (j : Fin b) (k : Fin n)
    (hk : k.val = i.val * b + j.val) :
    shapeCast ⟨2, ![a, b]⟩ x h (ix2 i j) = x (ix1 k) :=
  shapeCast_apply x h _ _ (by
    rw [Shape.rowMajor_val_two, Shape.rowMajor_val_one]
    show k.val = i.val * b + j.val
    exact hk)

/-- A vector made a column by a reshape reads, at `(i, 0)`, the vector's entry `i`. -/
theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_n_ab_apply x h i u i (by have := u.isLt; omega)

/-- A vector made a column by a broadcast along a new unit axis reads, at `(i, 0)`, the vector's entry `i`. -/
theorem broadcastInDim_a_a1_apply {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x _ _ (fun ax => by
    match ax with
    | ⟨0, _⟩ =>
      show i.val = if a = 1 then 0 else i.val
      split
      · have := i.isLt; omega
      · rfl)

/-! ## Three vectors laid end to end -/

section Concat3
variable {n1 n2 n3 n : Nat} (x1 : (⟨1, ![n1]⟩ : Shape).Idx → α) (x2 : (⟨1, ![n2]⟩ : Shape).Idx → α)
  (x3 : (⟨1, ![n3]⟩ : Shape).Idx → α)
  (h : Shape.Concatenates [(⟨1, ![n1]⟩ : Shape), ⟨1, ![n2]⟩, ⟨1, ![n3]⟩] ⟨1, ![n]⟩ 0)

/-- Below the first length: the first vector at the same position. -/
theorem concat3_fst_apply (k : Fin n) (i : Fin n1) (hk : k.val = i.val) :
    concatenate ⟨1, ![n]⟩ 0 [⟨⟨1, ![n1]⟩, x1⟩, ⟨⟨1, ![n2]⟩, x2⟩, ⟨⟨1, ![n3]⟩, x3⟩] h (ix1 k) = x1 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    0 (by simp) ⟨1, ![n1]⟩ x1 rfl rfl 0 rfl (ix1 i)
    (fun b hb => absurd (Subsingleton.elim _ _) hb)
    (by show 0 + i.val = k.val; omega)

/-- From the first length on and below the first two: the second vector at the position less the first length. -/
theorem concat3_snd_apply (k : Fin n) (i : Fin n2) (hk : k.val = n1 + i.val) :
    concatenate ⟨1, ![n]⟩ 0 [⟨⟨1, ![n1]⟩, x1⟩, ⟨⟨1, ![n2]⟩, x2⟩, ⟨⟨1, ![n3]⟩, x3⟩] h (ix1 k) = x2 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    1 (by simp) ⟨1, ![n2]⟩ x2 rfl rfl n1 (by simp) (ix1 i)
    (fun b hb => absurd (Subsingleton.elim _ _) hb)
    (by show n1 + i.val = k.val; omega)

/-- From the first two lengths on: the third vector at the position less both. -/
theorem concat3_thd_apply (k : Fin n) (i : Fin n3) (hk : k.val = n1 + n2 + i.val) :
    concatenate ⟨1, ![n]⟩ 0 [⟨⟨1, ![n1]⟩, x1⟩, ⟨⟨1, ![n2]⟩, x2⟩, ⟨⟨1, ![n3]⟩, x3⟩] h (ix1 k) = x3 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    2 (by simp) ⟨1, ![n3]⟩ x3 rfl rfl (n1 + n2) (by simp) (ix1 i)
    (fun b hb => absurd (Subsingleton.elim _ _) hb)
    (by show n1 + n2 + i.val = k.val; omega)

end Concat3

/-! ## Two matrices of one width stacked -/

section Stack2
variable {m1 m2 m f : Nat} (x1 : (⟨2, ![m1, f]⟩ : Shape).Idx → α) (x2 : (⟨2, ![m2, f]⟩ : Shape).Idx → α)
  (h : Shape.Concatenates [(⟨2, ![m1, f]⟩ : Shape), ⟨2, ![m2, f]⟩] ⟨2, ![m, f]⟩ 0)

/-- A row below the upper height: the upper matrix's row. -/
theorem stack2_top_apply (r : Fin m) (c : Fin f) (i : Fin m1) (hr : r.val = i.val) :
    concatenate ⟨2, ![m, f]⟩ 0 [⟨⟨2, ![m1, f]⟩, x1⟩, ⟨⟨2, ![m2, f]⟩, x2⟩] h (ix2 r c) = x1 (ix2 i c) :=
  concatenate_pair_apply_left (0 : Fin 2) x1 x2 h (ix2 r c) rfl (ix2 i c) (fun b => by
    match b with
    | ⟨0, _⟩ => exact hr.symm
    | ⟨1, _⟩ => rfl)

/-- A row from the upper height on: the lower matrix's row, the upper height less. -/
theorem stack2_bot_apply (r : Fin m) (c : Fin f) (i : Fin m2) (hr : r.val = m1 + i.val) :
    concatenate ⟨2, ![m, f]⟩ 0 [⟨⟨2, ![m1, f]⟩, x1⟩, ⟨⟨2, ![m2, f]⟩, x2⟩] h (ix2 r c) = x2 (ix2 i c) :=
  concatenate_pair_apply_right (0 : Fin 2) x1 x2 h (ix2 r c) rfl rfl (ix2 i c) (fun b hb => by
    match b, hb with
    | ⟨0, _⟩, hb => exact absurd rfl hb
    | ⟨1, _⟩, _ => rfl)
    (by show i.val + m1 = r.val; omega)

end Stack2

end Cert.Gcn.LayoutReads
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.StageReads.lean ====
/-
  The host layout operations around the perceptron, read one element at a time.

  The kernel's flattened output has 557056 entries: the centres' predictions first (32768 of them), then
  the staggered points' (32768 rows of 8), then the neighbours' (32768 rows of 8).  Entry b of the
  first part is output entry b; entry (b, j) of the second is output entry 32768 + 8b + j; entry (b, j) of
  the third is output entry 294912 + 8b + j.  The weight layouts are transposes, read with the two
  coordinates swapped, and the bias layouts are columns, read at their row.

  The staggered and the neighbour flat indices end in a clip to [0, hi] (a signed maximum with 0, then a
  signed minimum with hi), so whatever went in, the result's unsigned value is at most hi.

  The gathered table has the same three parts as the output, column by column.  Its index vector is the
  centre indices, then 2097152 plus the staggered flats, then the neighbour flats; none of these words is
  negative, so the shift of negative entries leaves them alone, and each is a row of the stacked table, so the
  gather's clamp leaves it alone too.  Rows below 2097152 of the stacked table are the first coordinate
  table's rows, the rows from 2097152 on are the second table's.  Hence column b is row a12[b] of the first
  table, column 32768 + 8b + j is row stag[b, j] of the second, and column 294912 + 8b + j is row neig[b, j]
  of the first.
-/
import proofs.«167318_j62079457296719_2_alg».proof.Proof.Stages
import proofs.«167318_j62079457296719_2_alg».proof.Proof.LibLayoutReads
import proofs.«167318_j62079457296719_2_alg».proof.Proof.LibIndexMaps
import proofs.«167318_j62079457296719_2_alg».proof.Proof.LibWordArith

noncomputable section

namespace StageReads

open Cert.KernelIdeal Cert.KernelIdeal.Gen Cert.KernelIdeal.Gen.Stages Idealize.ShloMosaic Idealize.ShloMosaic.ValueIdx
open Cert.Gcn.LayoutReads Cert.Gcn.IndexMaps Cert.Gcn.WordArith

/-! ## The three parts of the flattened predictions -/

/-- The centres' predictions: entry `b` is output entry `b`. -/
theorem predSlice_apply (A : FVec Ideal S1x557056 .f32) (b : Fin 32768) :
    predSlice (F := Ideal) A (ix1 b) = A (ix2 (0 : Fin 1) (⟨b.val, by omega⟩ : Fin 557056)) := by
  unfold predSlice
  refine (slice1_apply 0 _ slices_S557056_S32768_0 b (⟨b.val, by omega⟩ : Fin 557056) (by simp)).trans ?_
  exact shapeCast_1a_a_apply A shapeCasts_S1x557056_S557056 _

/-- The staggered points' predictions: entry `(b, j)` is output entry `32768 + 8b + j`. -/
theorem psSlice_apply (A : FVec Ideal S1x557056 .f32) (b : Fin 32768) (j : Fin 8) :
    psSlice (F := Ideal) A (ix2 b j)
      = A (ix2 (0 : Fin 1) (⟨32768 + 8 * b.val + j.val, by omega⟩ : Fin 557056)) := by
  unfold psSlice
  refine (shapeCast_n_ab_apply _ shapeCasts_S262144_S32768x8 b j (⟨8 * b.val + j.val, by omega⟩ : Fin 262144)
    (by show 8 * b.val + j.val = b.val * 8 + j.val; omega)).trans ?_
  refine (slice1_apply 32768 _ slices_S557056_S262144_32768 _
    (⟨32768 + 8 * b.val + j.val, by omega⟩ : Fin 557056) (by show 32768 + 8 * b.val + j.val = 32768 + (8 * b.val + j.val); omega)).trans ?_
  exact shapeCast_1a_a_apply A shapeCasts_S1x557056_S557056 _

/-- The neighbours' predictions: entry `(b, j)` is output entry `294912 + 8b + j`. -/
theorem pnSlice_apply (A : FVec Ideal S1x557056 .f32) (b : Fin 32768) (j : Fin 8) :
    pnSlice (F := Ideal) A (ix2 b j)
      = A (ix2 (0 : Fin 1) (⟨294912 + 8 * b.val + j.val, by omega⟩ : Fin 557056)) := by
  unfold pnSlice
  refine (shapeCast_n_ab_apply _ shapeCasts_S262144_S32768x8 b j (⟨8 * b.val + j.val, by omega⟩ : Fin 262144)
    (by show 8 * b.val + j.val = b.val * 8 + j.val; omega)).trans ?_
  refine (slice1_apply 294912 _ slices_S557056_S262144_294912 _
    (⟨294912 + 8 * b.val + j.val, by omega⟩ : Fin 557056) (by show 294912 + 8 * b.val + j.val = 294912 + (8 * b.val + j.val); omega)).trans ?_
  exact shapeCast_1a_a_apply A shapeCasts_S1x557056_S557056 _

/-! ## The weight and bias layouts -/

/-- The first weight matrix transposed reads, at `(h, k)`, the matrix at `(k, h)`. -/
theorem w1T_apply (a4 : FVec Ideal S3x128 .f32) (h : Fin 128) (k : Fin 3) :
    w1T (F := Ideal) a4 (ix2 h k) = a4 (ix2 k h) := by
  unfold w1T
  exact transpose_ix2_apply a4 transposes_S3x128_S128x3_1_0 h k

/-- The second weight matrix transposed reads, at `(h, a)`, the matrix at `(a, h)`. -/
theorem w2T_apply (a6 : FVec Ideal S128x128 .f32) (h a : Fin 128) :
    w2T (F := Ideal) a6 (ix2 h a) = a6 (ix2 a h) := by
  unfold w2T
  exact transpose_ix2_apply a6 transposes_S128x128_S128x128_1_0 h a

/-- The third weight matrix transposed reads, at `(h, a)`, the matrix at `(a, h)`. -/
theorem w3T_apply (a8 : FVec Ideal S128x128 .f32) (h a : Fin 128) :
    w3T (F := Ideal) a8 (ix2 h a) = a8 (ix2 a h) := by
  unfold w3T
  exact transpose_ix2_apply a8 transposes_S128x128_S128x128_1_0 h a

/-- The last weight column transposed to a row reads, at `(0, a)`, the column at `(a, 0)`. -/
theorem w4T_apply (a10 : FVec Ideal S128x1 .f32) (a : Fin 128) :
    w4T (F := Ideal) a10 (ix2 (0 : Fin 1) a) = a10 (ix2 a (0 : Fin 1)) := by
  unfold w4T
  exact transpose_ix2_apply a10 transposes_S128x1_S1x128_1_0 (0 : Fin 1) a

/-- The first bias as a column reads, at `(h, 0)`, the bias at `h`. -/
theorem b1C_apply (a5 : FVec Ideal S128 .f32) (h : Fin 128) :
    b1C (F := Ideal) a5 (ix2 h (0 : Fin 1)) = a5 (ix1 h) := by
  unfold b1C
  exact shapeCast_a_a1_apply a5 shapeCasts_S128_S128x1 h 0

/-- The second bias as a column reads, at `(h, 0)`, the bias at `h`. -/
theorem b2C_apply (a7 : FVec Ideal S128 .f32) (h : Fin 128) :
    b2C (F := Ideal) a7 (ix2 h (0 : Fin 1)) = a7 (ix1 h) := by
  unfold b2C
  exact shapeCast_a_a1_apply a7 shapeCasts_S128_S128x1 h 0

/-- The third bias as a column reads, at `(h, 0)`, the bias at `h`. -/
theorem b3C_apply (a9 : FVec Ideal S128 .f32) (h : Fin 128) :
    b3C (F := Ideal) a9 (ix2 h (0 : Fin 1)) = a9 (ix1 h) := by
  unfold b3C
  exact shapeCast_a_a1_apply a9 shapeCasts_S128_S128x1 h 0

/-- The last bias as a one-by-one cell reads the bias's one entry. -/
theorem b4C_apply (a11 : FVec Ideal S1 .f32) :
    b4C (F := Ideal) a11 (ix2 (0 : Fin 1) (0 : Fin 1)) = a11 (ix1 (0 : Fin 1)) := by
  unfold b4C
  exact shapeCast_a_a1_apply a11 shapeCasts_S1_S1x1 0 0

/-! ## The clips at the end of the staggered and the neighbour flats -/

/-- A word clipped from below at 0 and from above at a bound below 2³¹, both as signed integers, has an
    unsigned value at most the bound: after the lower clip the word is not negative, where the signed and the
    unsigned order agree. -/
theorem clip_toNat_le (x hi : BitVec 32) (hhi : hi.toNat < 2 ^ 31) :
    (IntOp.minsi hi (IntOp.maxsi 0#32 x)).toNat ≤ hi.toNat := by
  have e0 : (0#32 : BitVec 32).toInt = 0 := by decide
  have hy : 0 ≤ (IntOp.maxsi 0#32 x).toInt := by
    unfold IntOp.maxsi
    split
    · rw [e0]
    · next hx =>
      rw [Bool.not_eq_true, BitVec.slt_eq_decide, decide_eq_false_iff_not, e0] at hx
      omega
  generalize IntOp.maxsi 0#32 x = y at hy
  have hyn : y.toNat < 2 ^ 31 := by
    have := y.isLt
    rw [BitVec.toInt_eq_toNat_cond] at hy
    split at hy <;> omega
  unfold IntOp.minsi
  split
  · exact Nat.le_refl _
  · next hlt =>
    rw [Bool.not_eq_true, BitVec.slt_eq_decide, decide_eq_false_iff_not] at hlt
    rw [toInt_of_small hhi, toInt_of_small hyn] at hlt
    omega

/-- The last part of the staggered flats ends in the clip to [0, 2048382]. -/
theorem stagOf_part5_le (v30 : IVec S32768x8x3 32) (v39 v43 : IVec S32768x8 32) (b : Fin 32768) (j : Fin 8) :
    (stagOf_part5 (F := Ideal) v30 v39 v43 (ix2 b j)).toNat ≤ 2048382 := by
  unfold stagOf_part5
  exact clip_toNat_le _ 2048382#32 (by decide)

/-- Every staggered flat index is at most 2048382, whatever the centre indices are. -/
theorem stagOf_le (a12 : IVec S32768 32) (b : Fin 32768) (j : Fin 8) :
    (stagOf (F := Ideal) a12 (ix2 b j)).toNat ≤ 2048382 := by
  unfold stagOf stagOf_part1 stagOf_part2 stagOf_part3 stagOf_part4
  exact stagOf_part5_le _ _ _ b j

/-- The last part of the neighbour flats ends in the clip to [0, 2097151]. -/
theorem neigOf_part5_le (v35 : IVec S32768x8x3 32) (v52 v56 : IVec S32768x8 32) (b : Fin 32768) (j : Fin 8) :
    (neigOf_part5 (F := Ideal) v35 v52 v56 (ix2 b j)).toNat ≤ 2097151 := by
  unfold neigOf_part5
  exact clip_toNat_le _ 2097151#32 (by decide)

/-- Every neighbour flat index is at most 2097151, whatever the centre indices are. -/
theorem neigOf_le (a12 : IVec S32768 32) (b : Fin 32768) (j : Fin 8) :
    (neigOf (F := Ideal) a12 (ix2 b j)).toNat ≤ 2097151 := by
  unfold neigOf neigOf_part1 neigOf_part2 neigOf_part3 neigOf_part4
  exact neigOf_part5_le _ _ _ b j

/-! ## The gathered coordinate rows -/

/-- The row gather of the stacked table, transposed: column `p` of the result is the table's row `kk` when the
    index column's word at `(p, 0)`, read signed, is `kk`, a row of the table. -/
theorem gatherT_apply (tbl : FVec Ideal S4145535x3 .f32) (col : IVec S557056x1 32) (k : Fin 3) (p : Fin 557056)
    (kk : Nat) (hkk : kk < 4145535) (hcol : (col (ix2 p (0 : Fin 1))).toInt = (kk : Int)) :
    transpose S3x557056 [1, 0] (Host.gather gather_S4145535x3_S557056x1_S557056x3_1_0_n_n_0_1_13 tbl col)
        transposes_S557056x3_S3x557056_1_0 (ix2 k p)
      = tbl (ix2 (⟨kk, hkk⟩ : Fin 4145535) k) := by
  refine (transpose_ix2_apply _ transposes_S557056x3_S3x557056_1_0 k p).trans ?_
  exact gather2_ix_apply gather_S4145535x3_S557056x1_S557056x3_1_0_n_n_0_1_13 rfl rfl rfl rfl rfl tbl col p k kk hkk hcol

/-- The index column: a negative entry of the index vector is shifted by the table's length, the vector is made
    a column.  At a position where the index vector's word `w` is below 2³¹ the column's word is `w`, and read
    signed it is `w`'s unsigned value. -/
theorem wrapCol_apply (idx : IVec S557056 32) (p : Fin 557056) (w : BitVec 32) (hw : idx (ix1 p) = w)
    (hsmall : w.toNat < 2 ^ 31) :
    (broadcastInDim S557056x1 ![0] bcast_S557056_S557056x1_0
        (select (cmpi .slt idx (broadcastInDim S557056 ![] bcast_S_S557056 (constantI S_ 32 0#32)))
          (addi idx (broadcastInDim S557056 ![] bcast_S_S557056 (constantI S_ 32 4145535#32))) idx)
        (ix2 p (0 : Fin 1))).toInt = (w.toNat : Int) := by
  refine (congrArg BitVec.toInt ((broadcastInDim_a_a1_apply bcast_S557056_S557056x1_0 _ p 0).trans ?_)).trans
    (toInt_of_small hsmall)
  show Scalar.select (IntOp.cmpi .slt (idx (ix1 p)) 0#32) (IntOp.addi (idx (ix1 p)) 4145535#32) (idx (ix1 p)) = w
  rw [hw]
  exact select_slt_zero_small _ hsmall

/-- The staggered flats are shifted past the first table: no wrap-around, the sum is the naturals'. -/
theorem addi_base_toNat (s : BitVec 32) (hs : s.toNat ≤ 2048382) :
    (IntOp.addi 2097152#32 s).toNat = 2097152 + s.toNat := by
  have e : (2097152#32 : BitVec 32).toNat = 2097152 := by decide
  unfold IntOp.addi
  rw [BitVec.toNat_add, e]
  exact Nat.mod_eq_of_lt (by omega)

section Table
variable (a0 : FVec Ideal S2097152x3 .f32) (a2 : FVec Ideal S2048383x3 .f32) (a12 : IVec S32768 32)
  (stag neig : IVec S32768x8 32)

/-- The centres' columns: column `b` holds row `a12[b]` of the first coordinate table. -/
theorem tableT_center (h12 : ∀ b : Fin 32768, (a12 (ix1 b)).toNat < 2097152) (k : Fin 3) (b : Fin 32768) :
    tableT (F := Ideal) a0 a2 a12 stag neig (ix2 k (⟨b.val, by omega⟩ : Fin 557056))
      = a0 (ix2 (⟨(a12 (ix1 b)).toNat, h12 b⟩ : Fin 2097152) k) := by
  have hb := h12 b
  unfold tableT
  refine (gatherT_apply _ _ k _ (a12 (ix1 b)).toNat (by omega)
    (wrapCol_apply _ _ (a12 (ix1 b)) (concat3_fst_apply _ _ _ _ _ b rfl) (by omega))).trans ?_
  exact stack2_top_apply a0 a2 _ _ k _ rfl

/-- The staggered points' columns: column `32768 + 8b + j` holds row `stag[b, j]` of the second coordinate table. -/
theorem tableT_stag (hs : ∀ (b : Fin 32768) (j : Fin 8), (stag (ix2 b j)).toNat ≤ 2048382) (k : Fin 3)
    (b : Fin 32768) (j : Fin 8) :
    tableT (F := Ideal) a0 a2 a12 stag neig (ix2 k (⟨32768 + 8 * b.val + j.val, by omega⟩ : Fin 557056))
      = a2 (ix2 (⟨(stag (ix2 b j)).toNat, by have := hs b j; omega⟩ : Fin 2048383) k) := by
  have hbj := hs b j
  have hsum := addi_base_toNat (stag (ix2 b j)) hbj
  unfold tableT
  refine (gatherT_apply _ _ k _ (IntOp.addi 2097152#32 (stag (ix2 b j))).toNat (by omega)
    (wrapCol_apply _ _ (IntOp.addi 2097152#32 (stag (ix2 b j)))
      ((concat3_snd_apply _ _ _ _ _ (⟨8 * b.val + j.val, by omega⟩ : Fin 262144)
          (by show 32768 + 8 * b.val + j.val = 32768 + (8 * b.val + j.val); omega)).trans
        (congrArg (IntOp.addi 2097152#32)
          (shapeCast_ab_n_apply stag shapeCasts_S32768x8_S262144 _ b j
            (by show 8 * b.val + j.val = b.val * 8 + j.val; omega))))
      (by omega))).trans ?_
  exact stack2_bot_apply a0 a2 _ _ k (⟨(stag (ix2 b j)).toNat, by omega⟩ : Fin 2048383) hsum

/-- The neighbours' columns: column `294912 + 8b + j` holds row `neig[b, j]` of the first coordinate table. -/
theorem tableT_neig (hn : ∀ (b : Fin 32768) (j : Fin 8), (neig (ix2 b j)).toNat ≤ 2097151) (k : Fin 3)
    (b : Fin 32768) (j : Fin 8) :
    tableT (F := Ideal) a0 a2 a12 stag neig (ix2 k (⟨294912 + 8 * b.val + j.val, by omega⟩ : Fin 557056))
      = a0 (ix2 (⟨(neig (ix2 b j)).toNat, by have := hn b j; omega⟩ : Fin 2097152) k) := by
  have hbj := hn b j
  unfold tableT
  refine (gatherT_apply _ _ k _ (neig (ix2 b j)).toNat (by omega)
    (wrapCol_apply _ _ (neig (ix2 b j))
      ((concat3_thd_apply _ _ _ _ _ (⟨8 * b.val + j.val, by omega⟩ : Fin 262144)
          (by show 294912 + 8 * b.val + j.val = 32768 + 262144 + (8 * b.val + j.val); omega)).trans
        (shapeCast_ab_n_apply neig shapeCasts_S32768x8_S262144 _ b j
          (by show 8 * b.val + j.val = b.val * 8 + j.val; omega)))
      (by omega))).trans ?_
  exact stack2_top_apply a0 a2 _ _ k _ rfl

end Table

end StageReads

end
-- ==== Proof.KBridgePure.lean ====
/-
  From the kernel's output array to the three prediction arrays. The kernel's output at column n is the perceptron,
  with the weights in the kernel's transposed layouts, at column n of the gathered table. Undoing the layouts (a
  transposed matrix read at (h, k) is the matrix at (k, h); a bias column read at (h, 0) is the bias at h) this is the
  perceptron at the gathered row. Column b < 32768 of the gathered table is the centre's row of the full-mesh table;
  column 32768 + 8b + j the staggered table's row at the centre's j-th staggered flat index; column 294912 + 8b + j the
  full-mesh table's row at the j-th neighbour flat index (the flat indices are clipped into their tables, the centre
  index is in range by hypothesis). The three slices of the flattened output read exactly those columns.
-/
import proofs.«167318_j62079457296719_2_alg».proof.Proof.LossSpec
import proofs.«167318_j62079457296719_2_alg».proof.Proof.StageReads

noncomputable section

namespace LossSpec

open Idealize.ShloMosaic Idealize.ShloMosaic.ValueIdx
open Cert.KernelIdeal Cert.KernelIdeal.Gen Cert.KernelIdeal.Gen.Stages

variable (a0 : FVec Ideal S2097152x3 .f32) (a2 : FVec Ideal S2048383x3 .f32)
  (a4 : FVec Ideal S3x128 .f32) (a5 : FVec Ideal S128 .f32) (a6 : FVec Ideal S128x128 .f32) (a7 : FVec Ideal S128 .f32)
  (a8 : FVec Ideal S128x128 .f32) (a9 : FVec Ideal S128 .f32) (a10 : FVec Ideal S128x1 .f32) (a11 : FVec Ideal S1 .f32)
  (a12 : IVec S32768 32)

/-- The perceptron with the weights in the kernel's layouts, at column `n` of a feature-major table `X`. -/
def kcol (X : FVec Ideal S3x557056 .f32) (n : Fin 557056) : EReal :=
  MlpSpec.row (fun k h => w1T (F := Ideal) a4 (ix2 h k)) (fun h => b1C (F := Ideal) a5 (ix2 h (0 : Fin 1)))
    (fun a h => w2T (F := Ideal) a6 (ix2 h a)) (fun h => b2C (F := Ideal) a7 (ix2 h (0 : Fin 1)))
    (fun a h => w3T (F := Ideal) a8 (ix2 h a)) (fun h => b3C (F := Ideal) a9 (ix2 h (0 : Fin 1)))
    (fun a _ => w4T (F := Ideal) a10 (ix2 (0 : Fin 1) a)) (fun _ => b4C (F := Ideal) a11 (ix2 (0 : Fin 1) (0 : Fin 1)))
    (fun k => X (ix2 k n))

/-- Undoing the layouts: it is the perceptron of the argument arrays at that column read as a row. -/
theorem kcol_eq (X : FVec Ideal S3x557056 .f32) (n : Fin 557056) :
    kcol a4 a5 a6 a7 a8 a9 a10 a11 X n = MlpSpec.ofArgs a4 a5 a6 a7 a8 a9 a10 a11 (fun k => X (ix2 k n)) := by
  unfold kcol MlpSpec.ofArgs
  simp only [StageReads.w1T_apply, StageReads.w2T_apply, StageReads.w3T_apply, StageReads.w4T_apply, StageReads.b1C_apply,
    StageReads.b2C_apply, StageReads.b3C_apply, StageReads.b4C_apply]
  have e4 : (fun (a : Fin 128) (_ : Fin 1) => a10 (ix2 a (0 : Fin 1))) = fun k h => a10 (ix2 k h) := by
    funext a h; obtain rfl : h = 0 := Subsingleton.elim _ _; rfl
  have e5 : (fun (_ : Fin 1) => a11 (ix1 (0 : Fin 1))) = fun h => a11 (ix1 h) := by
    funext h; obtain rfl : h = 0 := Subsingleton.elim _ _; rfl
  rw [e4, e5]

variable (A : FVec Ideal S1x557056 .f32)
  (hA : ∀ n : Fin 557056, A (ix2 (0 : Fin 1) n)
      = kcol a4 a5 a6 a7 a8 a9 a10 a11 (tableT (F := Ideal) a0 a2 a12 (stagOf (F := Ideal) a12) (neigOf (F := Ideal) a12)) n)

include hA in
/-- The centres' slice of the output is the centres' predictions. -/
theorem pred_eq (h12 : ∀ b : Fin 32768, (a12 (ix1 b)).toNat < 2097152) :
    predSlice (F := Ideal) A = predSpec a0 a4 a5 a6 a7 a8 a9 a10 a11 a12 := by
  funext i
  obtain ⟨b, rfl⟩ : ∃ b : Fin 32768, i = ix1 b := ⟨i 0, eq_ix1 i⟩
  rw [StageReads.predSlice_apply, hA, kcol_eq]
  unfold predSpec
  refine congrArg _ (funext fun k => ?_)
  rw [StageReads.tableT_center a0 a2 a12 _ _ h12 k b, rowAt_of_lt _ _ (h12 b)]

include hA in
/-- The staggered points' slice is the staggered points' predictions. -/
theorem ps_eq : psSlice (F := Ideal) A = psSpec a2 a4 a5 a6 a7 a8 a9 a10 a11 a12 := by
  funext i
  obtain ⟨b, j, rfl⟩ : ∃ (b : Fin 32768) (j : Fin 8), i = ix2 b j := ⟨i 0, i 1, eq_ix2 i⟩
  rw [StageReads.psSlice_apply, hA, kcol_eq]
  unfold psSpec
  refine congrArg _ (funext fun k => ?_)
  rw [StageReads.tableT_stag a0 a2 a12 _ _ (StageReads.stagOf_le a12) k b j,
    rowAt_of_lt _ _ (Nat.lt_of_le_of_lt (StageReads.stagOf_le a12 b j) (by norm_num))]

include hA in
/-- The neighbours' slice is the neighbours' predictions. -/
theorem pn_eq : pnSlice (F := Ideal) A = pnSpec a0 a4 a5 a6 a7 a8 a9 a10 a11 a12 := by
  funext i
  obtain ⟨b, j, rfl⟩ : ∃ (b : Fin 32768) (j : Fin 8), i = ix2 b j := ⟨i 0, i 1, eq_ix2 i⟩
  rw [StageReads.pnSlice_apply, hA, kcol_eq]
  unfold pnSpec
  refine congrArg _ (funext fun k => ?_)
  rw [StageReads.tableT_neig a0 a2 a12 _ _ (StageReads.neigOf_le a12) k b j,
    rowAt_of_lt _ _ (Nat.lt_of_le_of_lt (StageReads.neigOf_le a12 b j) (by norm_num))]

end LossSpec

end
-- ==== Proof.KBridge.lean ====
/-
  The kernel program's result as the common function of its arguments: the host lines after the region compute the
  shared loss function of the three slices of the region's output array; that array's column n is the perceptron at
  column n of the gathered table; and the slices' columns are the centres', the staggered points' and the neighbours'
  rows of the coordinate tables.
-/
import proofs.«167318_j62079457296719_2_alg».proof.Proof.KRun
import proofs.«167318_j62079457296719_2_alg».proof.Proof.KOut
import proofs.«167318_j62079457296719_2_alg».proof.Proof.KTail
import proofs.«167318_j62079457296719_2_alg».proof.Proof.KPre
import proofs.«167318_j62079457296719_2_alg».proof.Proof.KPre75
import proofs.«167318_j62079457296719_2_alg».proof.Proof.KBridgePure

noncomputable section

namespace Cert.KernelIdeal.KVal

open Idealize.ShloMosaic Idealize.ShloMosaic.TcCoe Idealize.ShloMosaic.ValueIdx Idealize.SL.Sem
open Cert.KernelIdeal Cert.KernelIdeal.Gen Cert.KernelIdeal.Frm

variable (m : (ℓ : Loc nD τ sig) → Buf (Elt Ideal) ℓ)

/-- For a launch memory whose centre indices lie in 0 … 2097151 the result buffer ends at the common loss. -/
theorem resK_total (c : Dev nD)
    (h12 : ∀ b : Fin 32768, ((m ((c : Thread nD τ).loc main_arg12) : IVec S32768 32) (ix1 b)).toNat < 2097152) :
    resK (F := Ideal) m c
      = LossSpec.total (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have hA : ∀ n : Fin 557056, ((dats (F := Ideal) m 0 c).arrAt 9 cfg0.N) (ix2 (0 : Fin 1) n)
      = LossSpec.kcol (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
          (Stages.tableT (F := Ideal) (m ((c : Thread nD τ).loc main_arg0)) (m ((c : Thread nD τ).loc main_arg2)) (m ((c : Thread nD τ).loc main_arg12)) (Stages.stagOf (F := Ideal) (m ((c : Thread nD τ).loc main_arg12))) (Stages.neigOf (F := Ideal) (m ((c : Thread nD τ).loc main_arg12)))) n := by
    intro n
    rw [out_apply, V_main_v75, V_main_v76, V_main_v77, V_main_v78, V_main_v79, V_main_v80, V_main_v81, V_main_v82, V_main_v83]
    rfl
  unfold resK
  rw [tail_result m (dats m) c, V_main_arg1, V_main_arg3, V_main_arg12, V_main_v21,
    LossSpec.pred_eq (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ hA h12,
    LossSpec.ps_eq (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ hA,
    LossSpec.pn_eq (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ hA]
  rfl

end Cert.KernelIdeal.KVal

end
-- ==== Proof.RefValKeep.lean ====
/-
  Reading a buffer through the stretches of the reference program that do not write it.

  The reference is thirteen stretches of operations run one after the other. What a buffer holds after a run that ends
  in a stretch A is, when A does not write it, what it held after the run without A; when A does write it, what A
  computes from the contents the run without A left. Both are stated here for a run written as a list ending in A,
  so that a read can be walked back, stretch by stretch, to the stretch that produced the value (or to the initial
  contents, for an argument, which no stretch writes). "A does not write it" is decided against the table of the
  buffers A's operations write.
-/
import proofs.«167318_j62079457296719_2_alg».proof.Proof.RefRun

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- A buffer outside the table of what the stretch `A` writes holds, after a run ending in `A`, what it held after the
    run without `A`. -/
theorem keepL {A : List (HloOp τ sig (Elt F))} {W : List (Ref sig .tc)}
    (hW : A.Forall fun op => op.writes ⊆ (W.map (Proc.devRef (τ := τ) .tc)).toFinset)
    (L : List (HloOp τ sig (Elt F))) (V : Valuation τ sig (Elt F)) (r : Ref sig .tc) (h : r ∉ W) :
    after (no_index (L ++ A)) V (no_index (Proc.devRef .tc r)) = after L V (Proc.devRef .tc r) := by
  rw [StableHlo.after_append, after_of_writes_sub A _ hW h]

/-- A buffer outside the table of what the stretch `A` writes holds after `A` alone what it held before. -/
theorem keepF {A : List (HloOp τ sig (Elt F))} {W : List (Ref sig .tc)}
    (hW : A.Forall fun op => op.writes ⊆ (W.map (Proc.devRef (τ := τ) .tc)).toFinset)
    (V : Valuation τ sig (Elt F)) (r : Ref sig .tc) (h : r ∉ W) :
    after (no_index A) V (no_index (Proc.devRef .tc r)) = V (Proc.devRef .tc r) :=
  after_of_writes_sub A V hW h

/-- The contents after a run ending in a given stretch: that stretch run from what the run before it left. -/
theorem open_last (L A : List (HloOp τ sig (Elt F))) (V : Valuation τ sig (Elt F)) :
    after (L ++ A) V = after A (after L V) := StableHlo.after_append ..

end Cert.ReferenceIdeal.RefVal

end
-- ==== Proof.RefValPred.lean ====
/-
  The reference's three prediction arrays as explicit terms, and that its run computes them.

  Each prediction is the same recipe on a different batch of coordinate rows: shift a negative index up by the
  table's length (the index convention of a row lookup), look the rows up in the coordinate table, run the four-layer
  perceptron on the batch, and lay the one output column out as the batch was indexed. For the centres the batch is
  the 32768 rows of the full-mesh table at the centre indices; for the staggered points and the neighbours it is
  the 32768 × 8 rows, flattened to 262144, of the staggered table resp. the full-mesh table at the eight flat indices
  of each centre. The definitions spell the operations in program order, one per line, with the program's own
  function terms; the theorems read the run's buffers, stretch by stretch, onto them.
-/
import proofs.«167318_j62079457296719_2_alg».proof.Proof.RefValKeep

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The perceptron on a batch of 32768 rows: four dense layers (rows contracted with the weights, plus the bias laid as one row and repeated down the batch), the hyperbolic tangent after the first three. -/
def mlpA (X : (⟨S32768x3, .f32⟩ : BufTy).Contents (Elt F)) (a4 : (⟨S3x128, .f32⟩ : BufTy).Contents (Elt F)) (a5 : (⟨S128, .f32⟩ : BufTy).Contents (Elt F))
    (a6 : (⟨S128x128, .f32⟩ : BufTy).Contents (Elt F)) (a7 : (⟨S128, .f32⟩ : BufTy).Contents (Elt F)) (a8 : (⟨S128x128, .f32⟩ : BufTy).Contents (Elt F)) (a9 : (⟨S128, .f32⟩ : BufTy).Contents (Elt F))
    (a10 : (⟨S128x1, .f32⟩ : BufTy).Contents (Elt F)) (a11 : (⟨S1, .f32⟩ : BufTy).Contents (Elt F)) : (⟨S32768x1, .f32⟩ : BufTy).Contents (Elt F) :=
  let v1 : (⟨S32768x128, .f32⟩ : BufTy).Contents (Elt F) := (fun l r => Host.dotGeneral dot_S32768x3_S3x128_S32768x128_1_0_0_1_n_n none l r) X a4
  let v2 : (⟨S1x128, .f32⟩ : BufTy).Contents (Elt F) := broadcastInDim S1x128 ![1] bcast_S128_S1x128_1 a5
  let v3 : (⟨S32768x128, .f32⟩ : BufTy).Contents (Elt F) := broadcastInDim S32768x128 ![0, 1] bcast_S1x128_S32768x128_0_1 v2
  let v4 : (⟨S32768x128, .f32⟩ : BufTy).Contents (Elt F) := addf v1 v3
  let v5 : (⟨S32768x128, .f32⟩ : BufTy).Contents (Elt F) := Host.tanh v4
  let v6 : (⟨S32768x128, .f32⟩ : BufTy).Contents (Elt F) := (fun l r => Host.dotGeneral dot_S32768x128_S128x128_S32768x128_1_0_0_1_n_n none l r) v5 a6
  let v7 : (⟨S1x128, .f32⟩ : BufTy).Contents (Elt F) := broadcastInDim S1x128 ![1] bcast_S128_S1x128_1 a7
  let v8 : (⟨S32768x128, .f32⟩ : BufTy).Contents (Elt F) := broadcastInDim S32768x128 ![0, 1] bcast_S1x128_S32768x128_0_1 v7
  let v9 : (⟨S32768x128, .f32⟩ : BufTy).Contents (Elt F) := addf v6 v8
  let v10 : (⟨S32768x128, .f32⟩ : BufTy).Contents (Elt F) := Host.tanh v9
  let v11 : (⟨S32768x128, .f32⟩ : BufTy).Contents (Elt F) := (fun l r => Host.dotGeneral dot_S32768x128_S128x128_S32768x128_1_0_0_1_n_n none l r) v10 a8
  let v12 : (⟨S1x128, .f32⟩ : BufTy).Contents (Elt F) := broadcastInDim S1x128 ![1] bcast_S128_S1x128_1 a9
  let v13 : (⟨S32768x128, .f32⟩ : BufTy).Contents (Elt F) := broadcastInDim S32768x128 ![0, 1] bcast_S1x128_S32768x128_0_1 v12
  let v14 : (⟨S32768x128, .f32⟩ : BufTy).Contents (Elt F) := addf v11 v13
  let v15 : (⟨S32768x128, .f32⟩ : BufTy).Contents (Elt F) := Host.tanh v14
  let v16 : (⟨S32768x1, .f32⟩ : BufTy).Contents (Elt F) := (fun l r => Host.dotGeneral dot_S32768x128_S128x1_S32768x1_1_0_0_1_n_n none l r) v15 a10
  let v17 : (⟨S1x1, .f32⟩ : BufTy).Contents (Elt F) := broadcastInDim S1x1 ![1] bcast_S1_S1x1_1 a11
  let v18 : (⟨S32768x1, .f32⟩ : BufTy).Contents (Elt F) := broadcastInDim S32768x1 ![0, 1] bcast_S1x1_S32768x1_0_1 v17
  addf v16 v18

/-- The same perceptron on a batch of 262144 rows. -/
def mlpB (X : (⟨S262144x3, .f32⟩ : BufTy).Contents (Elt F)) (a4 : (⟨S3x128, .f32⟩ : BufTy).Contents (Elt F)) (a5 : (⟨S128, .f32⟩ : BufTy).Contents (Elt F))
    (a6 : (⟨S128x128, .f32⟩ : BufTy).Contents (Elt F)) (a7 : (⟨S128, .f32⟩ : BufTy).Contents (Elt F)) (a8 : (⟨S128x128, .f32⟩ : BufTy).Contents (Elt F)) (a9 : (⟨S128, .f32⟩ : BufTy).Contents (Elt F))
    (a10 : (⟨S128x1, .f32⟩ : BufTy).Contents (Elt F)) (a11 : (⟨S1, .f32⟩ : BufTy).Contents (Elt F)) : (⟨S262144x1, .f32⟩ : BufTy).Contents (Elt F) :=
  let v1 : (⟨S262144x128, .f32⟩ : BufTy).Contents (Elt F) := (fun l r => Host.dotGeneral dot_S262144x3_S3x128_S262144x128_1_0_0_1_n_n none l r) X a4
  let v2 : (⟨S1x128, .f32⟩ : BufTy).Contents (Elt F) := broadcastInDim S1x128 ![1] bcast_S128_S1x128_1 a5
  let v3 : (⟨S262144x128, .f32⟩ : BufTy).Contents (Elt F) := broadcastInDim S262144x128 ![0, 1] bcast_S1x128_S262144x128_0_1 v2
  let v4 : (⟨S262144x128, .f32⟩ : BufTy).Contents (Elt F) := addf v1 v3
  let v5 : (⟨S262144x128, .f32⟩ : BufTy).Contents (Elt F) := Host.tanh v4
  let v6 : (⟨S262144x128, .f32⟩ : BufTy).Contents (Elt F) := (fun l r => Host.dotGeneral dot_S262144x128_S128x128_S262144x128_1_0_0_1_n_n none l r) v5 a6
  let v7 : (⟨S1x128, .f32⟩ : BufTy).Contents (Elt F) := broadcastInDim S1x128 ![1] bcast_S128_S1x128_1 a7
  let v8 : (⟨S262144x128, .f32⟩ : BufTy).Contents (Elt F) := broadcastInDim S262144x128 ![0, 1] bcast_S1x128_S262144x128_0_1 v7
  let v9 : (⟨S262144x128, .f32⟩ : BufTy).Contents (Elt F) := addf v6 v8
  let v10 : (⟨S262144x128, .f32⟩ : BufTy).Contents (Elt F) := Host.tanh v9
  let v11 : (⟨S262144x128, .f32⟩ : BufTy).Contents (Elt F) := (fun l r => Host.dotGeneral dot_S262144x128_S128x128_S262144x128_1_0_0_1_n_n none l r) v10 a8
  let v12 : (⟨S1x128, .f32⟩ : BufTy).Contents (Elt F) := broadcastInDim S1x128 ![1] bcast_S128_S1x128_1 a9
  let v13 : (⟨S262144x128, .f32⟩ : BufTy).Contents (Elt F) := broadcastInDim S262144x128 ![0, 1] bcast_S1x128_S262144x128_0_1 v12
  let v14 : (⟨S262144x128, .f32⟩ : BufTy).Contents (Elt F) := addf v11 v13
  let v15 : (⟨S262144x128, .f32⟩ : BufTy).Contents (Elt F) := Host.tanh v14
  let v16 : (⟨S262144x1, .f32⟩ : BufTy).Contents (Elt F) := (fun l r => Host.dotGeneral dot_S262144x128_S128x1_S262144x1_1_0_0_1_n_n none l r) v15 a10
  let v17 : (⟨S1x1, .f32⟩ : BufTy).Contents (Elt F) := broadcastInDim S1x1 ![1] bcast_S1_S1x1_1 a11
  let v18 : (⟨S262144x1, .f32⟩ : BufTy).Contents (Elt F) := broadcastInDim S262144x1 ![0, 1] bcast_S1x1_S262144x1_0_1 v17
  addf v16 v18

/-- The centre indices as row numbers of the full-mesh table: a negative index shifted up by 2097152. -/
def normA (a12 : (⟨S32768, .i32⟩ : BufTy).Contents (Elt F)) : (⟨S32768, .i32⟩ : BufTy).Contents (Elt F) :=
  let c11 : (⟨S_, .i32⟩ : BufTy).Contents (Elt F) := constantI S_ 32 0#32
  let v22 : (⟨S32768, .i32⟩ : BufTy).Contents (Elt F) := broadcastInDim S32768 ![] bcast_S_S32768 c11
  let v23 : (⟨S32768, .i1⟩ : BufTy).Contents (Elt F) := cmpi .slt a12 v22
  let c12 : (⟨S_, .i32⟩ : BufTy).Contents (Elt F) := constantI S_ 32 2097152#32
  let v24 : (⟨S32768, .i32⟩ : BufTy).Contents (Elt F) := broadcastInDim S32768 ![] bcast_S_S32768 c12
  let v25 : (⟨S32768, .i32⟩ : BufTy).Contents (Elt F) := addi a12 v24
  select v23 v25 a12

/-- Flat staggered indices as row numbers of the staggered table: a negative index shifted up by 2048383. -/
def normS (s : (⟨S32768x8, .i32⟩ : BufTy).Contents (Elt F)) : (⟨S32768x8, .i32⟩ : BufTy).Contents (Elt F) :=
  let c24 : (⟨S_, .i32⟩ : BufTy).Contents (Elt F) := constantI S_ 32 0#32
  let v101 : (⟨S32768x8, .i32⟩ : BufTy).Contents (Elt F) := broadcastInDim S32768x8 ![] bcast_S_S32768x8 c24
  let v102 : (⟨S32768x8, .i1⟩ : BufTy).Contents (Elt F) := cmpi .slt s v101
  let c25 : (⟨S_, .i32⟩ : BufTy).Contents (Elt F) := constantI S_ 32 2048383#32
  let v103 : (⟨S32768x8, .i32⟩ : BufTy).Contents (Elt F) := broadcastInDim S32768x8 ![] bcast_S_S32768x8 c25
  let v104 : (⟨S32768x8, .i32⟩ : BufTy).Contents (Elt F) := addi s v103
  select v102 v104 s

/-- Flat neighbour indices as row numbers of the full-mesh table: a negative index shifted up by 2097152. -/
def normN (s : (⟨S32768x8, .i32⟩ : BufTy).Contents (Elt F)) : (⟨S32768x8, .i32⟩ : BufTy).Contents (Elt F) :=
  let c26 : (⟨S_, .i32⟩ : BufTy).Contents (Elt F) := constantI S_ 32 0#32
  let v129 : (⟨S32768x8, .i32⟩ : BufTy).Contents (Elt F) := broadcastInDim S32768x8 ![] bcast_S_S32768x8 c26
  let v130 : (⟨S32768x8, .i1⟩ : BufTy).Contents (Elt F) := cmpi .slt s v129
  let c27 : (⟨S_, .i32⟩ : BufTy).Contents (Elt F) := constantI S_ 32 2097152#32
  let v131 : (⟨S32768x8, .i32⟩ : BufTy).Contents (Elt F) := broadcastInDim S32768x8 ![] bcast_S_S32768x8 c27
  let v132 : (⟨S32768x8, .i32⟩ : BufTy).Contents (Elt F) := addi s v131
  select v130 v132 s

/-- The centres' coordinate rows: the full-mesh table read at the centre indices. -/
def rowsA (a0 : (⟨S2097152x3, .f32⟩ : BufTy).Contents (Elt F)) (a12 : (⟨S32768, .i32⟩ : BufTy).Contents (Elt F)) : (⟨S32768x3, .f32⟩ : BufTy).Contents (Elt F) :=
  let v27 : (⟨S32768x1, .i32⟩ : BufTy).Contents (Elt F) := broadcastInDim S32768x1 ![0] bcast_S32768_S32768x1_0 (normA a12)
  (fun x i => Host.gather gather_S2097152x3_S32768x1_S32768x3_1_0_n_n_0_1_13 x i) a0 v27

/-- The staggered points' coordinate rows, flattened to one batch: the staggered table read at the eight flat indices of each centre. -/
def rowsS (a2 : (⟨S2048383x3, .f32⟩ : BufTy).Contents (Elt F)) (s : (⟨S32768x8, .i32⟩ : BufTy).Contents (Elt F)) : (⟨S262144x3, .f32⟩ : BufTy).Contents (Elt F) :=
  let v106 : (⟨S32768x8x1, .i32⟩ : BufTy).Contents (Elt F) := broadcastInDim S32768x8x1 ![0, 1] bcast_S32768x8_S32768x8x1_0_1 (normS s)
  let v107 : (⟨S32768x8x3, .f32⟩ : BufTy).Contents (Elt F) := (fun x i => Host.gather gather_S2048383x3_S32768x8x1_S32768x8x3_2_0_n_n_0_2_13 x i) a2 v106
  shapeCast S262144x3 v107 shapeCasts_S32768x8x3_S262144x3

/-- The neighbours' coordinate rows, flattened to one batch: the full-mesh table read at the eight flat indices of each centre. -/
def rowsN (a0 : (⟨S2097152x3, .f32⟩ : BufTy).Contents (Elt F)) (s : (⟨S32768x8, .i32⟩ : BufTy).Contents (Elt F)) : (⟨S262144x3, .f32⟩ : BufTy).Contents (Elt F) :=
  let v134 : (⟨S32768x8x1, .i32⟩ : BufTy).Contents (Elt F) := broadcastInDim S32768x8x1 ![0, 1] bcast_S32768x8_S32768x8x1_0_1 (normN s)
  let v135 : (⟨S32768x8x3, .f32⟩ : BufTy).Contents (Elt F) := (fun x i => Host.gather gather_S2097152x3_S32768x8x1_S32768x8x3_2_0_n_n_0_2_13 x i) a0 v134
  shapeCast S262144x3 v135 shapeCasts_S32768x8x3_S262144x3

/-- The predictions at the centres: the perceptron on the centres' rows, its one column as a vector. -/
def predOf (a0 : (⟨S2097152x3, .f32⟩ : BufTy).Contents (Elt F)) (a4 : (⟨S3x128, .f32⟩ : BufTy).Contents (Elt F)) (a5 : (⟨S128, .f32⟩ : BufTy).Contents (Elt F))
    (a6 : (⟨S128x128, .f32⟩ : BufTy).Contents (Elt F)) (a7 : (⟨S128, .f32⟩ : BufTy).Contents (Elt F)) (a8 : (⟨S128x128, .f32⟩ : BufTy).Contents (Elt F)) (a9 : (⟨S128, .f32⟩ : BufTy).Contents (Elt F))
    (a10 : (⟨S128x1, .f32⟩ : BufTy).Contents (Elt F)) (a11 : (⟨S1, .f32⟩ : BufTy).Contents (Elt F))
    (a12 : (⟨S32768, .i32⟩ : BufTy).Contents (Elt F)) : (⟨S32768, .f32⟩ : BufTy).Contents (Elt F) :=
  shapeCast S32768 (mlpA (rowsA a0 a12) a4 a5 a6 a7 a8 a9 a10 a11) shapeCasts_S32768x1_S32768

/-- The predictions at given staggered flat indices: the perceptron on the flattened batch, laid back out as 32768 × 8. -/
def psOf (a2 : (⟨S2048383x3, .f32⟩ : BufTy).Contents (Elt F)) (a4 : (⟨S3x128, .f32⟩ : BufTy).Contents (Elt F)) (a5 : (⟨S128, .f32⟩ : BufTy).Contents (Elt F))
    (a6 : (⟨S128x128, .f32⟩ : BufTy).Contents (Elt F)) (a7 : (⟨S128, .f32⟩ : BufTy).Contents (Elt F)) (a8 : (⟨S128x128, .f32⟩ : BufTy).Contents (Elt F)) (a9 : (⟨S128, .f32⟩ : BufTy).Contents (Elt F))
    (a10 : (⟨S128x1, .f32⟩ : BufTy).Contents (Elt F)) (a11 : (⟨S1, .f32⟩ : BufTy).Contents (Elt F))
    (s : (⟨S32768x8, .i32⟩ : BufTy).Contents (Elt F)) : (⟨S32768x8, .f32⟩ : BufTy).Contents (Elt F) :=
  shapeCast S32768x8 (mlpB (rowsS a2 s) a4 a5 a6 a7 a8 a9 a10 a11) shapeCasts_S262144x1_S32768x8

/-- The predictions at given neighbour flat indices: the perceptron on the flattened batch, laid back out as 32768 × 8. -/
def pnOf (a0 : (⟨S2097152x3, .f32⟩ : BufTy).Contents (Elt F)) (a4 : (⟨S3x128, .f32⟩ : BufTy).Contents (Elt F)) (a5 : (⟨S128, .f32⟩ : BufTy).Contents (Elt F))
    (a6 : (⟨S128x128, .f32⟩ : BufTy).Contents (Elt F)) (a7 : (⟨S128, .f32⟩ : BufTy).Contents (Elt F)) (a8 : (⟨S128x128, .f32⟩ : BufTy).Contents (Elt F)) (a9 : (⟨S128, .f32⟩ : BufTy).Contents (Elt F))
    (a10 : (⟨S128x1, .f32⟩ : BufTy).Contents (Elt F)) (a11 : (⟨S1, .f32⟩ : BufTy).Contents (Elt F))
    (s : (⟨S32768x8, .i32⟩ : BufTy).Contents (Elt F)) : (⟨S32768x8, .f32⟩ : BufTy).Contents (Elt F) :=
  shapeCast S32768x8 (mlpB (rowsN a0 s) a4 a5 a6 a7 a8 a9 a10 a11) shapeCasts_S262144x1_S32768x8

/-- After the first six stretches the buffer of the centres' predictions holds `predOf` of the arguments. -/
theorem pred_eq (V : Valuation τ sig (Elt F)) :
    after (opsA0 ++ opsA1 ++ opsA2 ++ opsA3 ++ opsA4 ++ opsA5) V (Proc.devRef .tc main_v48)
      = predOf (V (Proc.devRef .tc main_arg0)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [open_last]
  simp (disch := decide) only [opsA5, after_cons, after_nil,
    nullary_result', unary_result', binary_result', ternary_result', quaternary_result', reshape_result', nary4_result', nary_result',
    nullary_result_ne', unary_result_ne', binary_result_ne', ternary_result_ne', quaternary_result_ne', reshape_result_ne', nary_result_ne', keepF opsA0_writes, keepL opsA1_writes, keepL opsA2_writes, keepL opsA3_writes, keepL opsA4_writes]
  rfl

/-- After the first ten stretches the buffer of the staggered predictions holds `psOf` of the arguments and of what the
    buffer of staggered flat indices held after the first nine. -/
theorem ps_eq (V : Valuation τ sig (Elt F)) :
    after (opsA0 ++ opsA1 ++ opsA2 ++ opsA3 ++ opsA4 ++ opsA5 ++ opsA6 ++ opsA7 ++ opsA8 ++ opsA9) V (Proc.devRef .tc main_v128)
      = psOf (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
          (after (opsA0 ++ opsA1 ++ opsA2 ++ opsA3 ++ opsA4 ++ opsA5 ++ opsA6 ++ opsA7 ++ opsA8) V (Proc.devRef .tc main_v87)) := by
  rw [open_last]
  simp (disch := decide) only [opsA9, after_cons, after_nil,
    nullary_result', unary_result', binary_result', ternary_result', quaternary_result', reshape_result', nary4_result', nary_result',
    nullary_result_ne', unary_result_ne', binary_result_ne', ternary_result_ne', quaternary_result_ne', reshape_result_ne', nary_result_ne', keepF opsA0_writes, keepL opsA1_writes, keepL opsA2_writes, keepL opsA3_writes, keepL opsA4_writes, keepL opsA5_writes, keepL opsA6_writes, keepL opsA7_writes, keepL opsA8_writes]
  rfl

/-- After the first eleven stretches the buffer of the neighbour predictions holds `pnOf` of the arguments and of what the
    buffer of neighbour flat indices held after the first ten. -/
theorem pn_eq (V : Valuation τ sig (Elt F)) :
    after (opsA0 ++ opsA1 ++ opsA2 ++ opsA3 ++ opsA4 ++ opsA5 ++ opsA6 ++ opsA7 ++ opsA8 ++ opsA9 ++ opsA10) V (Proc.devRef .tc main_v156)
      = pnOf (V (Proc.devRef .tc main_arg0)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
          (after (opsA0 ++ opsA1 ++ opsA2 ++ opsA3 ++ opsA4 ++ opsA5 ++ opsA6 ++ opsA7 ++ opsA8 ++ opsA9) V (Proc.devRef .tc main_v100)) := by
  rw [open_last]
  simp (disch := decide) only [opsA10, after_cons, after_nil,
    nullary_result', unary_result', binary_result', ternary_result', quaternary_result', reshape_result', nary4_result', nary_result',
    nullary_result_ne', unary_result_ne', binary_result_ne', ternary_result_ne', quaternary_result_ne', reshape_result_ne', nary_result_ne', keepF opsA0_writes, keepL opsA1_writes, keepL opsA2_writes, keepL opsA3_writes, keepL opsA4_writes, keepL opsA5_writes, keepL opsA6_writes, keepL opsA7_writes, keepL opsA8_writes, keepL opsA9_writes]
  rfl

end Cert.ReferenceIdeal.RefVal

end
-- ==== Proof.RefValIdx.lean ====
import proofs.«167318_j62079457296719_2_alg».proof.Proof.RefRun
import proofs.«167318_j62079457296719_2_alg».proof.Proof.Stages
import proofs.«167318_j62079457296719_2_alg».proof.Proof.LibNary3

/-!
# The reference's three index stages

The interior mask, the eight staggered-mesh indices and the eight neighbour indices of each centre are computed by
the reference from the centre indices alone, by the same operations in the same order as the definitions
`maskOf`, `stagOf`, `neigOf` spell as chains of named values. Each is read off the fold of the reference's operations
stretch by stretch, last stretch first: a stretch that does not write a buffer leaves it alone, and a stretch that does
gives the buffer its operation's function of the buffers it reads, which are looked up in the stretches before.
-/

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- Three one-column integer arrays side by side, as one function of the three columns. -/
def cat3 (a b c : (⟨S32768x1, .i32⟩ : BufTy).Contents (Elt F)) : (⟨S32768x3, .i32⟩ : BufTy).Contents (Elt F) :=
  concatenate S32768x3 1 [⟨S32768x1, a⟩, ⟨S32768x1, b⟩, ⟨S32768x1, c⟩] concatenates_S32768x1_S32768x1_S32768x1_S32768x3_d1

/-- The three-piece concatenation `main_v64` reads its operands at their own references: its result is `cat3` of the
    three columns' contents. (The general statement hands the operands over as a family indexed by position; at the
    three literal positions the family's entries are the three contents.) -/
theorem cat64_result (W : Valuation τ sig (Elt F)) :
    (StableHlo.nary ![main_v61, main_v62, main_v63] main_v64 (fun u => concatenate S32768x3 1 [⟨S32768x1, u 0⟩, ⟨S32768x1, u 1⟩, ⟨S32768x1, u 2⟩] concatenates_S32768x1_S32768x1_S32768x1_S32768x3_d1) : HloOp τ sig (Elt F)).result W
        (no_index (Proc.devRef .tc main_v64))
      = cat3 (W (Proc.devRef .tc main_v61)) (W (Proc.devRef .tc main_v62)) (W (Proc.devRef .tc main_v63)) :=
  nary3_result' _ _ _ W

/-- Reads the buffers of the stretches whose lists are in view: unrolls the fold, and at each operation gives a buffer
    the operation's function of its operands' contents if the operation writes it, and what it held before otherwise
    (two literal references are told apart by inspection); the three-piece concatenation by `cat64_result`. Then the
    typed references' transports along a reflexive type equation are dropped. -/
local macro "read_stretch" : tactic =>
  `(tactic| (simp (disch := decide) only [after_cons, after_nil, nullary_result', unary_result', binary_result', ternary_result', quaternary_result', reshape_result', cat64_result, unaryIndexed_result', binaryIndexed_result', nullary_result_ne', unary_result_ne', binary_result_ne', ternary_result_ne', quaternary_result_ne', reshape_result_ne', nary_result_ne', unaryIndexed_result_ne', binaryIndexed_result_ne']
             try simp only [TRef.ofBuf, TRef.toBuf, cast_eq]))

set_option maxRecDepth 8192 in
set_option maxHeartbeats 2000000 in
/-- The mask buffer holds `maskOf` of the centre indices. It is written in stretch 4 from the three mesh coordinates
    (stretches 0, 2 — through the remainder of stretch 1 — and 3), each a function of the centre indices. -/
theorem val_main_v21 (V : Valuation τ sig (Elt F)) :
    after ops V (Proc.devRef .tc main_v21) = Cert.KernelIdeal.Gen.Stages.maskOf (V (Proc.devRef .tc main_arg12)) := by
  simp only [ops, StableHlo.after_append]
  rw [opsA12_keep _ main_v21 (by decide), opsA11_keep _ main_v21 (by decide), opsA10_keep _ main_v21 (by decide),
    opsA9_keep _ main_v21 (by decide), opsA8_keep _ main_v21 (by decide), opsA7_keep _ main_v21 (by decide),
    opsA6_keep _ main_v21 (by decide), opsA5_keep _ main_v21 (by decide)]
  generalize hW0 : after opsA0 V = W0
  generalize hW1 : after opsA1 W0 = W1
  generalize hW2 : after opsA2 W1 = W2
  generalize hW3 : after opsA3 W2 = W3
  read_stretch
  subst hW3
  rw [opsA3_keep _ main_v0 (by decide), opsA3_keep _ main_v2 (by decide)]
  read_stretch
  subst hW2
  rw [opsA2_keep _ main_v0 (by decide), opsA2_keep _ main_arg12 (by decide)]
  read_stretch
  subst hW1
  rw [opsA1_keep _ main_v0 (by decide), opsA1_keep _ main_arg12 (by decide)]
  read_stretch
  subst hW0
  rw [opsA0_keep _ main_arg12 (by decide)]
  read_stretch
  rfl

set_option maxRecDepth 8192 in
set_option maxHeartbeats 2000000 in
/-- The staggered-index buffer holds `stagOf` of the centre indices. It is written at the end of stretch 7 from the
    three mesh coordinates and the table of offsets in {-1, 0}³ (stretch 0); stretches 4 to 6 touch none of these. -/
theorem val_main_v87 (V : Valuation τ sig (Elt F)) :
    after ops V (Proc.devRef .tc main_v87) = Cert.KernelIdeal.Gen.Stages.stagOf (V (Proc.devRef .tc main_arg12)) := by
  simp only [ops, StableHlo.after_append]
  rw [opsA12_keep _ main_v87 (by decide), opsA11_keep _ main_v87 (by decide), opsA10_keep _ main_v87 (by decide), opsA9_keep _ main_v87 (by decide), opsA8_keep _ main_v87 (by decide)]
  generalize hW0 : after opsA0 V = W0
  generalize hW1 : after opsA1 W0 = W1
  generalize hW2 : after opsA2 W1 = W2
  generalize hW3 : after opsA3 W2 = W3
  generalize hW4 : after opsA4 W3 = W4
  generalize hW5 : after opsA5 W4 = W5
  generalize hW6 : after opsA6 W5 = W6
  read_stretch
  subst hW6
  rw [opsA6_keep _ main_v0 (by decide), opsA6_keep _ main_v2 (by decide), opsA6_keep _ main_v3 (by decide), opsA6_keep _ main_c (by decide)]
  subst hW5
  rw [opsA5_keep _ main_v0 (by decide), opsA5_keep _ main_v2 (by decide), opsA5_keep _ main_v3 (by decide), opsA5_keep _ main_c (by decide)]
  subst hW4
  rw [opsA4_keep _ main_v0 (by decide), opsA4_keep _ main_v2 (by decide), opsA4_keep _ main_v3 (by decide), opsA4_keep _ main_c (by decide)]
  subst hW3
  rw [opsA3_keep _ main_v0 (by decide), opsA3_keep _ main_v2 (by decide), opsA3_keep _ main_c (by decide)]
  read_stretch
  subst hW2
  rw [opsA2_keep _ main_v0 (by decide), opsA2_keep _ main_c (by decide), opsA2_keep _ main_arg12 (by decide)]
  read_stretch
  subst hW1
  rw [opsA1_keep _ main_v0 (by decide), opsA1_keep _ main_c (by decide), opsA1_keep _ main_arg12 (by decide)]
  read_stretch
  subst hW0
  rw [opsA0_keep _ main_arg12 (by decide)]
  read_stretch
  rfl

set_option maxRecDepth 8192 in
set_option maxHeartbeats 2000000 in
/-- The neighbour-index buffer holds `neigOf` of the centre indices. It is written at the end of stretch 8 from the
    offset coordinates that stretch 7 forms from the three mesh coordinates and the table of offsets in {-1, 1}³
    (stretch 0). -/
theorem val_main_v100 (V : Valuation τ sig (Elt F)) :
    after ops V (Proc.devRef .tc main_v100) = Cert.KernelIdeal.Gen.Stages.neigOf (V (Proc.devRef .tc main_arg12)) := by
  simp only [ops, StableHlo.after_append]
  rw [opsA12_keep _ main_v100 (by decide), opsA11_keep _ main_v100 (by decide), opsA10_keep _ main_v100 (by decide), opsA9_keep _ main_v100 (by decide)]
  generalize hW0 : after opsA0 V = W0
  generalize hW1 : after opsA1 W0 = W1
  generalize hW2 : after opsA2 W1 = W2
  generalize hW3 : after opsA3 W2 = W3
  generalize hW4 : after opsA4 W3 = W4
  generalize hW5 : after opsA5 W4 = W5
  generalize hW6 : after opsA6 W5 = W6
  generalize hW7 : after opsA7 W6 = W7
  read_stretch
  subst hW7
  read_stretch
  subst hW6
  rw [opsA6_keep _ main_v0 (by decide), opsA6_keep _ main_v2 (by decide), opsA6_keep _ main_v3 (by decide), opsA6_keep _ main_c_0 (by decide)]
  subst hW5
  rw [opsA5_keep _ main_v0 (by decide), opsA5_keep _ main_v2 (by decide), opsA5_keep _ main_v3 (by decide), opsA5_keep _ main_c_0 (by decide)]
  subst hW4
  rw [opsA4_keep _ main_v0 (by decide), opsA4_keep _ main_v2 (by decide), opsA4_keep _ main_v3 (by decide), opsA4_keep _ main_c_0 (by decide)]
  subst hW3
  rw [opsA3_keep _ main_v0 (by decide), opsA3_keep _ main_v2 (by decide), opsA3_keep _ main_c_0 (by decide)]
  read_stretch
  subst hW2
  rw [opsA2_keep _ main_v0 (by decide), opsA2_keep _ main_c_0 (by decide), opsA2_keep _ main_arg12 (by decide)]
  read_stretch
  subst hW1
  rw [opsA1_keep _ main_v0 (by decide), opsA1_keep _ main_c_0 (by decide), opsA1_keep _ main_arg12 (by decide)]
  read_stretch
  subst hW0
  rw [opsA0_keep _ main_arg12 (by decide)]
  read_stretch
  rfl

end Cert.ReferenceIdeal.RefVal

end
-- ==== Proof.RefValLoss.lean ====
/-
  The reference's loss tail, and its result.

  After the three prediction arrays are in their buffers the reference computes: the mean absolute misfit of the
  centres' predictions against the data values read at the centres (stretch 6); the three stencil terms
  |a+b−c−d| / ((a+b+c+d)·1.5) over six columns of each of the two 32768 × 8 prediction arrays, summed (stretch 11); and
  the masked mean of the squared difference between the Laplacian values read at the centres and that sum, the
  mask's count floored at 1, added to the misfit (stretch 12). Read off the run, operation by operation, this is the
  shared definition `lossOf` applied to the initial contents of the data, Laplacian and centre-index arguments and to
  what the mask's and the three predictions' buffers held when their stretches ended: the last stretch is read first,
  each buffer it reads is walked back to the stretch that wrote it, and the two earlier stretches of the tail are read
  the same way. With the mask's and the two flat-index buffers' final contents known to be `maskOf`, `stagOf`, `neigOf`
  of the centre indices, and the predictions read by `pred_eq`, `ps_eq`, `pn_eq`, the result is `lossOf` of the
  arguments, the mask and the three prediction terms.
-/
import proofs.«167318_j62079457296719_2_alg».proof.Proof.RefValPred
import proofs.«167318_j62079457296719_2_alg».proof.Proof.RefValIdx

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxHeartbeats 2000000 in
/-- The result buffer after the whole run: `lossOf` of the arguments and of what the mask's and the three predictions'
    buffers held at the end of the stretches that compute them. -/
theorem loss_tail (V : Valuation τ sig (Elt F)) :
    after ops V (Proc.devRef .tc main_v227)
      = Cert.KernelIdeal.Gen.Stages.lossOf (V (Proc.devRef .tc main_arg1)) (V (Proc.devRef .tc main_arg3)) (V (Proc.devRef .tc main_arg12))
          (after (opsA0 ++ opsA1 ++ opsA2 ++ opsA3 ++ opsA4) V (Proc.devRef .tc main_v21))
          (after (opsA0 ++ opsA1 ++ opsA2 ++ opsA3 ++ opsA4 ++ opsA5) V (Proc.devRef .tc main_v48))
          (after (opsA0 ++ opsA1 ++ opsA2 ++ opsA3 ++ opsA4 ++ opsA5 ++ opsA6 ++ opsA7 ++ opsA8 ++ opsA9) V (Proc.devRef .tc main_v128))
          (after (opsA0 ++ opsA1 ++ opsA2 ++ opsA3 ++ opsA4 ++ opsA5 ++ opsA6 ++ opsA7 ++ opsA8 ++ opsA9 ++ opsA10) V (Proc.devRef .tc main_v156)) := by
  simp only [ops]
  rw [open_last _ opsA12]
  simp (disch := decide) only [opsA12, after_cons, after_nil,
    nullary_result', unary_result', binary_result', ternary_result', quaternary_result', reshape_result', nary4_result', nary_result',
    nullary_result_ne', unary_result_ne', binary_result_ne', ternary_result_ne', quaternary_result_ne', reshape_result_ne', nary_result_ne']
  simp (disch := decide) only [keepF opsA0_writes, keepL opsA1_writes, keepL opsA2_writes, keepL opsA3_writes, keepL opsA4_writes, keepL opsA5_writes, keepL opsA6_writes, keepL opsA7_writes, keepL opsA8_writes, keepL opsA9_writes, keepL opsA10_writes, keepL opsA11_writes]
  rw [open_last _ opsA11, open_last _ opsA6]
  simp (disch := decide) only [opsA11, opsA6, after_cons, after_nil,
    nullary_result', unary_result', binary_result', ternary_result', quaternary_result', reshape_result', nary4_result', nary_result',
    nullary_result_ne', unary_result_ne', binary_result_ne', ternary_result_ne', quaternary_result_ne', reshape_result_ne', nary_result_ne']
  simp (disch := decide) only [keepF opsA0_writes, keepL opsA1_writes, keepL opsA2_writes, keepL opsA3_writes, keepL opsA4_writes, keepL opsA5_writes, keepL opsA6_writes, keepL opsA7_writes, keepL opsA8_writes, keepL opsA9_writes, keepL opsA10_writes]
  rfl

/-- What the mask's buffer holds at the end of the run it held when its stretch ended: no later stretch writes it. -/
theorem v21_at (V : Valuation τ sig (Elt F)) :
    after (opsA0 ++ opsA1 ++ opsA2 ++ opsA3 ++ opsA4) V (Proc.devRef .tc main_v21) = after ops V (Proc.devRef .tc main_v21) := by
  simp (disch := decide) only [ops, keepL opsA5_writes, keepL opsA6_writes, keepL opsA7_writes, keepL opsA8_writes, keepL opsA9_writes, keepL opsA10_writes, keepL opsA11_writes, keepL opsA12_writes]

/-- Likewise the buffer of staggered flat indices, from the end of stretch 8 (stretch 7 computes it, stretch 8 leaves it). -/
theorem v87_at (V : Valuation τ sig (Elt F)) :
    after (opsA0 ++ opsA1 ++ opsA2 ++ opsA3 ++ opsA4 ++ opsA5 ++ opsA6 ++ opsA7 ++ opsA8) V (Proc.devRef .tc main_v87) = after ops V (Proc.devRef .tc main_v87) := by
  simp (disch := decide) only [ops, keepL opsA9_writes, keepL opsA10_writes, keepL opsA11_writes, keepL opsA12_writes]

/-- Likewise the buffer of neighbour flat indices, from the end of stretch 9. -/
theorem v100_at (V : Valuation τ sig (Elt F)) :
    after (opsA0 ++ opsA1 ++ opsA2 ++ opsA3 ++ opsA4 ++ opsA5 ++ opsA6 ++ opsA7 ++ opsA8 ++ opsA9) V (Proc.devRef .tc main_v100) = after ops V (Proc.devRef .tc main_v100) := by
  simp (disch := decide) only [ops, keepL opsA10_writes, keepL opsA11_writes, keepL opsA12_writes]

/-- The reference's result, for any float values: `lossOf` of the data, Laplacian and centre-index arguments, the
    interior mask, and the three prediction terms at the centres, at their staggered points and at their neighbours. -/
theorem result_val (V : Valuation τ sig (Elt F)) :
    after ops V (Proc.devRef .tc main_v227)
      = Cert.KernelIdeal.Gen.Stages.lossOf (V (Proc.devRef .tc main_arg1)) (V (Proc.devRef .tc main_arg3)) (V (Proc.devRef .tc main_arg12))
          (Cert.KernelIdeal.Gen.Stages.maskOf (V (Proc.devRef .tc main_arg12)))
          (predOf (V (Proc.devRef .tc main_arg0)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)))
          (psOf (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (Cert.KernelIdeal.Gen.Stages.stagOf (V (Proc.devRef .tc main_arg12))))
          (pnOf (V (Proc.devRef .tc main_arg0)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (Cert.KernelIdeal.Gen.Stages.neigOf (V (Proc.devRef .tc main_arg12)))) := by
  rw [loss_tail, pred_eq, ps_eq, pn_eq, v21_at, v87_at, v100_at, val_main_v21, val_main_v87, val_main_v100]

end Cert.ReferenceIdeal.RefVal

end
-- ==== Proof.LibGather3.lean ====
/-
  The row gather whose start indices are an [e1 × e2 × 1] array, read at one element, with the two layout
  operations that go with it.

  The gather has the index vector on axis 2 of the start indices, one component, sent to operand axis 0,
  that axis collapsed, and result axis 2 an offset axis of full width.  Result element (p, q, c) reads its
  one start-index component at (p, q, 0), as a signed integer clamped into the operand; when the integer
  is a row number k < n the clamp does nothing and the element is the operand's (k, c).

  An [e1 × e2] array of index words becomes the [e1 × e2 × 1] array of start indices by a broadcast along a
  new last unit axis: the word at (p, q, 0) is the word at (p, q).  The [e1 × e2 × f] result becomes a matrix
  of e1·e2 rows by a reshape: row p·e2 + q of the matrix is the result's row (p, q).

  Each statement takes the dimension numbers' fields as hypotheses, so it applies to any record with those
  fields.
-/
import Idealize.ShloMosaic.PureOps.Ideal
import Idealize.ShloMosaic.Lib.ValueIdx
import Idealize.ShloMosaic.Lib.Pipeline.Value

noncomputable section

namespace Cert.Gcn.Gather3

open Idealize.ShloMosaic Idealize.ShloMosaic.ValueIdx

/-! ## Axes and coordinates of a rank-3 index -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- A coordinate of a rank-3 index on the axis numbered 0 is its first coordinate. -/
theorem coord3_of_val0 {a b c : ℕ} (j : (⟨3, ![a, b, c]⟩ : Shape).Idx) (X : Fin 3) (hX : X.val = 0) :
    (j X).val = (j 0).val := by
  have : X = 0 := Fin.ext hX
  subst this; rfl

/-- A coordinate of a rank-3 index on the axis numbered 1 is its second coordinate. -/
theorem coord3_of_val1 {a b c : ℕ} (j : (⟨3, ![a, b, c]⟩ : Shape).Idx) (X : Fin 3) (hX : X.val = 1) :
    (j X).val = (j 1).val := by
  have : X = 1 := Fin.ext hX
  subst this; rfl

/-- A coordinate of a rank-3 index on the axis numbered 2 is its third coordinate. -/
theorem coord3_of_val2 {a b c : ℕ} (j : (⟨3, ![a, b, c]⟩ : Shape).Idx) (X : Fin 3) (hX : X.val = 2) :
    (j X).val = (j 2).val := by
  have : X = 2 := Fin.ext hX
  subst this; rfl

/-- The list of the first two of three axes holds axis i at place i. -/
theorem getElem_01 (l : List (Fin 3)) (hl : l = [0, 1]) (i : ℕ) (hi : i < l.length) : (l[i]).val = i := by
  subst hl
  match i, hi with
  | 0, _ => rfl
  | 1, _ => rfl

/-! ## The start-index position -/

/-- Result element (p, q, c) reads its one start-index component at (p, q, 0). -/
theorem gather3_siIdx {s : Shape} {e1 e2 f : ℕ} (d : GatherDims s ⟨3, ![e1, e2, 1]⟩ ⟨3, ![e1, e2, f]⟩)
    (hod : d.offsetDims = [2]) (hivd : d.indexVectorDim = 2) (j : (⟨3, ![e1, e2, f]⟩ : Shape).Idx)
    (c : Fin d.startIndexMap.length) :
    d.siIdx j c = ix3 (n0 := e1) (n1 := e2) (n2 := 1) (j 0) (j 1) 0 := by
  have hbd : (d.batchDims : List (Fin 3)) = [0, 1] := by
    show (List.finRange 3).filter (fun x => decide (x ∉ d.offsetDims)) = _
    rw [hod]; rfl
  have hsk : (d.siKept : List (Fin 3)) = [0, 1] := by
    show (List.finRange 3).filter (fun x => decide (x.val ≠ d.indexVectorDim)) = _
    rw [hivd]; rfl
  funext b
  match b with
  | ⟨0, h0⟩ =>
    unfold GatherDims.siIdx
    rw [dif_neg (by rw [hivd]; simp)]
    unfold GatherDims.siCoord
    apply Fin.ext
    simp only [Fin.val_cast]
    refine coord3_of_val0 j _ ?_
    rw [getElem_01 _ hbd]
    show List.idxOf (⟨0, h0⟩ : Fin 3) (d.siKept : List (Fin 3)) = 0
    rw [hsk]; rfl
  | ⟨1, h1⟩ =>
    unfold GatherDims.siIdx
    rw [dif_neg (by rw [hivd]; simp)]
    unfold GatherDims.siCoord
    apply Fin.ext
    simp only [Fin.val_cast]
    refine coord3_of_val1 j _ ?_
    rw [getElem_01 _ hbd]
    show List.idxOf (⟨1, h1⟩ : Fin 3) (d.siKept : List (Fin 3)) = 1
    rw [hsk]; rfl
  | ⟨2, h2⟩ =>
    apply Fin.ext
    have hlt := (d.siIdx j c ⟨2, h2⟩).isLt
    have h3 : (⟨3, ![e1, e2, 1]⟩ : Shape).size ⟨2, h2⟩ = 1 := rfl
    show (d.siIdx j c ⟨2, h2⟩).val = 0
    omega

/-! ## The gather read at an element -/

/-- [n × f] operand, [e1 × e2 × 1] start indices, [e1 × e2 × f] result, the last result axis an offset axis
    of full width: when the index word at (p, q, 0), read signed, is a row k < n, result element (p, q, c) is
    the operand's element (k, c). -/
theorem gather3_apply {α : Type} {n f e1 e2 w : ℕ}
    (d : GatherDims ⟨2, ![n, f]⟩ ⟨3, ![e1, e2, 1]⟩ ⟨3, ![e1, e2, f]⟩)
    (hod : d.offsetDims = [2]) (hcoll : d.collapsedSliceDims = [0]) (hob : d.operandBatchingDims = [])
    (hsim : d.startIndexMap = [0]) (hivd : d.indexVectorDim = 2)
    (x : (⟨2, ![n, f]⟩ : Shape).Idx → α) (idx : IVec ⟨3, ![e1, e2, 1]⟩ w) (j : (⟨3, ![e1, e2, f]⟩ : Shape).Idx)
    (k : ℕ) (hk : k < n) (hidx : (idx (ix3 (j 0) (j 1) (0 : Fin 1))).toInt = (k : Int)) :
    Host.gather d x idx j = x (ix2 ⟨k, hk⟩ ⟨(j 2).val, (j 2).isLt⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 2).val, (j 2).isLt⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather3_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 2).val
    have hall : ∀ x ∈ d.offsetDims, x.val = 2 := by rw [hod]; simp
    rw [coord3_of_val2 j _ (hall _ (List.getElem_mem _))]
    omega

/-- The same, by coordinates. -/
theorem gather3_ix_apply {α : Type} {n f e1 e2 w : ℕ}
    (d : GatherDims ⟨2, ![n, f]⟩ ⟨3, ![e1, e2, 1]⟩ ⟨3, ![e1, e2, f]⟩)
    (hod : d.offsetDims = [2]) (hcoll : d.collapsedSliceDims = [0]) (hob : d.operandBatchingDims = [])
    (hsim : d.startIndexMap = [0]) (hivd : d.indexVectorDim = 2)
    (x : (⟨2, ![n, f]⟩ : Shape).Idx → α) (idx : IVec ⟨3, ![e1, e2, 1]⟩ w) (p : Fin e1) (q : Fin e2) (c : Fin f)
    (k : ℕ) (hk : k < n) (hidx : (idx (ix3 p q (0 : Fin 1))).toInt = (k : Int)) :
    Host.gather d x idx (ix3 p q c) = x (ix2 ⟨k, hk⟩ c) :=
  gather3_apply d hod hcoll hob hsim hivd x idx (ix3 p q c) k hk hidx

/-! ## The start indices from a matrix of words, and the result as a matrix of rows -/

variable {α : Type}

/-- A matrix given a new last unit axis by a broadcast reads, at (p, q, 0), the matrix at (p, q). -/
theorem broadcastInDim_ab_ab1_apply {a b : ℕ}
    (h : (⟨2, ![a, b]⟩ : Shape).BroadcastsInDim ⟨3, ![a, b, 1]⟩ ![0, 1])
    (x : (⟨2, ![a, b]⟩ : Shape).Idx → α) (p : Fin a) (q : Fin b) (u : Fin 1) :
    broadcastInDim ⟨3, ![a, b, 1]⟩ ![0, 1] h x (ix3 p q u) = x (ix2 p q) :=
  broadcastInDim_apply ![0, 1] h x _ _ (fun ax => by
    match ax with
    | ⟨0, _⟩ =>
      show p.val = if a = 1 then 0 else p.val
      split
      · have := p.isLt; omega
      · rfl
    | ⟨1, _⟩ =>
      show q.val = if b = 1 then 0 else q.val
      split
      · have := q.isLt; omega
      · rfl)

/-- An [a × b × c] array reshaped to a matrix of m rows reads, at (r, k) with r = p·b + q, the array at
    (p, q, k). -/
theorem shapeCast_abc_mc_apply {a b c m : ℕ} (x : (⟨3, ![a, b, c]⟩ : Shape).Idx → α)
    (h : (⟨3, ![a, b, c]⟩ : Shape).ShapeCasts ⟨2, ![m, c]⟩) (r : Fin m) (k : Fin c) (p : Fin a) (q : Fin b)
    (hr : r.val = p.val * b + q.val) :
    shapeCast ⟨2, ![m, c]⟩ x h (ix2 r k) = x (ix3 p q k) :=
  shapeCast_apply x h _ _ (by
    rw [Shape.rowMajor_val_three, Shape.rowMajor_val_two]
    show (p.val * b + q.val) * c + k.val = r.val * c + k.val
    rw [hr])

end Cert.Gcn.Gather3

end
-- ==== Proof.RefReads.lean ====
/-
  The reference's three row gathers, read one element at a time.

  The reference reads the centres' coordinate rows from the first table at the centre indices, the
  staggered points' rows from the second table at the staggered flats, and the neighbours' rows from the
  first table at the neighbour flats.  Each index array first has its negative entries shifted by the
  table's length and is given a trailing unit axis; the two 32768 × 8 gathers' results are then laid out
  as 262144 rows, row 8b + j being the row of (b, j).  None of the index words is negative, so the shift
  leaves them alone, and each is a row of its table, so the gather's clamp leaves it alone too: the row
  read is the table's row at the word's unsigned value.
-/
import proofs.«167318_j62079457296719_2_alg».proof.Proof.Gen.ReferenceIdeal
import proofs.«167318_j62079457296719_2_alg».proof.Proof.LibIndexMaps
import proofs.«167318_j62079457296719_2_alg».proof.Proof.LibWordArith
import proofs.«167318_j62079457296719_2_alg».proof.Proof.LibLayoutReads
import proofs.«167318_j62079457296719_2_alg».proof.Proof.LibGather3

noncomputable section

namespace RefReads

open Cert.ReferenceIdeal Cert.ReferenceIdeal.Gen Idealize.ShloMosaic Idealize.ShloMosaic.ValueIdx
open Cert.Gcn.LayoutReads Cert.Gcn.IndexMaps Cert.Gcn.WordArith Cert.Gcn.Gather3

/-- The centres' rows: row `b` of the gather is row `a12[b]` of the first coordinate table. -/
theorem ref_center (a0 : FVec Ideal S2097152x3 .f32) (a12 : IVec S32768 32)
    (h12 : ∀ b : Fin 32768, (a12 (ix1 b)).toNat < 2097152) (b : Fin 32768) (k : Fin 3) :
    Host.gather gather_S2097152x3_S32768x1_S32768x3_1_0_n_n_0_1_13 a0
        (broadcastInDim S32768x1 ![0] bcast_S32768_S32768x1_0
          (select (cmpi .slt a12 (broadcastInDim S32768 ![] bcast_S_S32768 (constantI S_ 32 0#32)))
            (addi a12 (broadcastInDim S32768 ![] bcast_S_S32768 (constantI S_ 32 2097152#32))) a12))
        (ix2 b k)
      = a0 (ix2 (⟨(a12 (ix1 b)).toNat, h12 b⟩ : Fin 2097152) k) := by
  have hb := h12 b
  refine gather2_ix_apply _ rfl rfl rfl rfl rfl a0 _ b k _ (h12 b) ?_
  refine (congrArg BitVec.toInt ((broadcastInDim_a_a1_apply bcast_S32768_S32768x1_0 _ b 0).trans ?_)).trans
    (toInt_of_small (by omega))
  show Scalar.select (IntOp.cmpi .slt (a12 (ix1 b)) 0#32) (IntOp.addi (a12 (ix1 b)) 2097152#32) (a12 (ix1 b))
    = a12 (ix1 b)
  exact select_slt_zero_small _ (by omega)

/-- The staggered points' rows: row `8b + j` of the reshaped gather is row `s[b, j]` of the second coordinate
    table. -/
theorem ref_stag (a2 : FVec Ideal S2048383x3 .f32) (s : IVec S32768x8 32)
    (hs : ∀ (b : Fin 32768) (j : Fin 8), (s (ix2 b j)).toNat ≤ 2048382) (b : Fin 32768) (j : Fin 8) (k : Fin 3) :
    shapeCast S262144x3
        (Host.gather gather_S2048383x3_S32768x8x1_S32768x8x3_2_0_n_n_0_2_13 a2
          (broadcastInDim S32768x8x1 ![0, 1] bcast_S32768x8_S32768x8x1_0_1
            (select (cmpi .slt s (broadcastInDim S32768x8 ![] bcast_S_S32768x8 (constantI S_ 32 0#32)))
              (addi s (broadcastInDim S32768x8 ![] bcast_S_S32768x8 (constantI S_ 32 2048383#32))) s)))
        shapeCasts_S32768x8x3_S262144x3 (ix2 (⟨8 * b.val + j.val, by omega⟩ : Fin 262144) k)
      = a2 (ix2 (⟨(s (ix2 b j)).toNat, by have := hs b j; omega⟩ : Fin 2048383) k) := by
  have hbj := hs b j
  refine (shapeCast_abc_mc_apply _ shapeCasts_S32768x8x3_S262144x3 _ k b j
    (by show 8 * b.val + j.val = b.val * 8 + j.val; omega)).trans ?_
  refine gather3_ix_apply _ rfl rfl rfl rfl rfl a2 _ b j k _ (by omega) ?_
  refine (congrArg BitVec.toInt ((broadcastInDim_ab_ab1_apply bcast_S32768x8_S32768x8x1_0_1 _ b j 0).trans ?_)).trans
    (toInt_of_small (by omega))
  show Scalar.select (IntOp.cmpi .slt (s (ix2 b j)) 0#32) (IntOp.addi (s (ix2 b j)) 2048383#32) (s (ix2 b j))
    = s (ix2 b j)
  exact select_slt_zero_small _ (by omega)

/-- The neighbours' rows: row `8b + j` of the reshaped gather is row `n[b, j]` of the first coordinate table. -/
theorem ref_neig (a0 : FVec Ideal S2097152x3 .f32) (n : IVec S32768x8 32)
    (hn : ∀ (b : Fin 32768) (j : Fin 8), (n (ix2 b j)).toNat ≤ 2097151) (b : Fin 32768) (j : Fin 8) (k : Fin 3) :
    shapeCast S262144x3
        (Host.gather gather_S2097152x3_S32768x8x1_S32768x8x3_2_0_n_n_0_2_13 a0
          (broadcastInDim S32768x8x1 ![0, 1] bcast_S32768x8_S32768x8x1_0_1
            (select (cmpi .slt n (broadcastInDim S32768x8 ![] bcast_S_S32768x8 (constantI S_ 32 0#32)))
              (addi n (broadcastInDim S32768x8 ![] bcast_S_S32768x8 (constantI S_ 32 2097152#32))) n)))
        shapeCasts_S32768x8x3_S262144x3 (ix2 (⟨8 * b.val + j.val, by omega⟩ : Fin 262144) k)
      = a0 (ix2 (⟨(n (ix2 b j)).toNat, by have := hn b j; omega⟩ : Fin 2097152) k) := by
  have hbj := hn b j
  refine (shapeCast_abc_mc_apply _ shapeCasts_S32768x8x3_S262144x3 _ k b j
    (by show 8 * b.val + j.val = b.val * 8 + j.val; omega)).trans ?_
  refine gather3_ix_apply _ rfl rfl rfl rfl rfl a0 _ b j k _ (by omega) ?_
  refine (congrArg BitVec.toInt ((broadcastInDim_ab_ab1_apply bcast_S32768x8_S32768x8x1_0_1 _ b j 0).trans ?_)).trans
    (toInt_of_small (by omega))
  show Scalar.select (IntOp.cmpi .slt (n (ix2 b j)) 0#32) (IntOp.addi (n (ix2 b j)) 2097152#32) (n (ix2 b j))
    = n (ix2 b j)
  exact select_slt_zero_small _ (by omega)

end RefReads

end
-- ==== Proof.MlpRef.lean ====
/-
  The reference's perceptron at one row.

  The host program computes each dense layer row-major: the batch of input rows [n, k] contracted with the weights
  [k, a], plus the bias vector laid as one row [1, a] and broadcast down the n rows. Read at row p and column h that is
  the inner product of row p of the batch with column h of the weights, plus the bias' entry h: the dense layer of the
  specification at the input vector "row p". Composing the four layers (the hyperbolic tangent after the first three)
  gives the specification's perceptron at row p, for the batch of 32768 rows and for the batches of 262144 rows alike.
  No finiteness is used.
-/
import proofs.«167318_j62079457296719_2_alg».proof.Proof.MlpSpec
import proofs.«167318_j62079457296719_2_alg».proof.ReferenceIdeal
import Idealize.ShloMosaic.Lib.StackMember
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace MlpForms

open Idealize.ShloMosaic Idealize.ShloMosaic.ValueIdx

/-- A vector laid as the one row of a [1, a] matrix reads, at (0, q), the vector at q. -/
theorem broadcastInDim_vector_apply {α : Type} {a : Nat} (b : (⟨1, ![a]⟩ : Shape).Idx → α)
    (h1 : (⟨1, ![a]⟩ : Shape).BroadcastsInDim ⟨2, ![1, a]⟩ ![1]) (u : Fin 1) (q : Fin a) :
    broadcastInDim (⟨2, ![1, a]⟩ : Shape) ![1] h1 b (ix2 u q) = b (ix1 q) :=
  broadcastInDim_apply ![1] h1 b (ix2 u q) (ix1 q) fun ax => by
    match ax with
    | ⟨0, _⟩ =>
      show q.val = if a = 1 then 0 else q.val
      split
      · have := q.isLt; omega
      · rfl

/-- The host's hyperbolic tangent of a batch, entry by entry. -/
theorem hostTanh_apply {s : Shape} {φ : FTy} (v : FVec Ideal s φ) (i : s.Idx) : Host.tanh v i = Ideal.tanh (v i) := rfl

/-- One row-major dense layer at (p, h): the contraction of the batch with the weights, plus the bias vector laid as one
    row and broadcast down the rows, is the specification's dense layer at the input vector "row p of the batch". -/
theorem dense_row {n k a : Nat} {φ₁ φ₂ : FTy}
    (D : DotDims (⟨2, ![n, k]⟩ : Shape) (⟨2, ![k, a]⟩ : Shape) (⟨2, ![n, a]⟩ : Shape)) (hD : D = DotDims.plain n k a)
    (X : FVec Ideal (⟨2, ![n, k]⟩ : Shape) φ₁) (W : FVec Ideal (⟨2, ![k, a]⟩ : Shape) φ₂)
    (b : FVec Ideal (⟨1, ![a]⟩ : Shape) .f32)
    (h1 : (⟨1, ![a]⟩ : Shape).BroadcastsInDim ⟨2, ![1, a]⟩ ![1])
    (h2 : (⟨2, ![1, a]⟩ : Shape).BroadcastsInDim ⟨2, ![n, a]⟩ ![0, 1]) (p : Fin n) (h : Fin a) :
    addf (Host.dotGeneral D none X W)
        (broadcastInDim (⟨2, ![n, a]⟩ : Shape) ![0, 1] h2 (broadcastInDim (⟨2, ![1, a]⟩ : Shape) ![1] h1 b)) (ix2 p h)
      = MlpSpec.dense (fun c h' => W (ix2 c h')) (fun h' => b (ix1 h')) (fun c => X (ix2 p c)) h := by
  subst hD
  rw [addf_apply, broadcastInDim_oneRow_apply, broadcastInDim_vector_apply, StackMember.dotGeneral_plain_apply]
  rfl

open Cert.ReferenceIdeal Cert.ReferenceIdeal.Facts₀ in
/-- The reference's perceptron on a batch of 32768 rows: the four dense layers (a contraction of the rows with the weights,
    the bias laid as one row and broadcast down the rows, the sum) with the hyperbolic tangent after the first three,
    operation by operation in program order. -/
def refMlpA [Cert.ReferenceIdeal.Facts] (X : FVec Ideal S32768x3 .f32) (a4 : FVec Ideal S3x128 .f32) (a5 : FVec Ideal S128 .f32)
    (a6 : FVec Ideal S128x128 .f32) (a7 : FVec Ideal S128 .f32) (a8 : FVec Ideal S128x128 .f32) (a9 : FVec Ideal S128 .f32)
    (a10 : FVec Ideal S128x1 .f32) (a11 : FVec Ideal S1 .f32) : FVec Ideal S32768x1 .f32 :=
  have v1 : FVec Ideal S32768x128 .f32 := (fun l r => Host.dotGeneral (F := Ideal) dot_S32768x3_S3x128_S32768x128_1_0_0_1_n_n none l r) X a4
  have v2 : FVec Ideal S1x128 .f32 := broadcastInDim S1x128 ![1] bcast_S128_S1x128_1 a5
  have v3 : FVec Ideal S32768x128 .f32 := broadcastInDim S32768x128 ![0, 1] bcast_S1x128_S32768x128_0_1 v2
  have v4 : FVec Ideal S32768x128 .f32 := addf v1 v3
  have v5 : FVec Ideal S32768x128 .f32 := Host.tanh v4
  have v6 : FVec Ideal S32768x128 .f32 := (fun l r => Host.dotGeneral (F := Ideal) dot_S32768x128_S128x128_S32768x128_1_0_0_1_n_n none l r) v5 a6
  have v7 : FVec Ideal S1x128 .f32 := broadcastInDim S1x128 ![1] bcast_S128_S1x128_1 a7
  have v8 : FVec Ideal S32768x128 .f32 := broadcastInDim S32768x128 ![0, 1] bcast_S1x128_S32768x128_0_1 v7
  have v9 : FVec Ideal S32768x128 .f32 := addf v6 v8
  have v10 : FVec Ideal S32768x128 .f32 := Host.tanh v9
  have v11 : FVec Ideal S32768x128 .f32 := (fun l r => Host.dotGeneral (F := Ideal) dot_S32768x128_S128x128_S32768x128_1_0_0_1_n_n none l r) v10 a8
  have v12 : FVec Ideal S1x128 .f32 := broadcastInDim S1x128 ![1] bcast_S128_S1x128_1 a9
  have v13 : FVec Ideal S32768x128 .f32 := broadcastInDim S32768x128 ![0, 1] bcast_S1x128_S32768x128_0_1 v12
  have v14 : FVec Ideal S32768x128 .f32 := addf v11 v13
  have v15 : FVec Ideal S32768x128 .f32 := Host.tanh v14
  have v16 : FVec Ideal S32768x1 .f32 := (fun l r => Host.dotGeneral (F := Ideal) dot_S32768x128_S128x1_S32768x1_1_0_0_1_n_n none l r) v15 a10
  have v17 : FVec Ideal S1x1 .f32 := broadcastInDim S1x1 ![1] bcast_S1_S1x1_1 a11
  have v18 : FVec Ideal S32768x1 .f32 := broadcastInDim S32768x1 ![0, 1] bcast_S1x1_S32768x1_0_1 v17
  have v19 : FVec Ideal S32768x1 .f32 := addf v16 v18
  v19

open Cert.ReferenceIdeal Cert.ReferenceIdeal.Facts₀ in
/-- Row p of the batch of 32768: the first layer's record is the plain [32768, 3] × [3, 128] contraction. -/
theorem rowA_in [Cert.ReferenceIdeal.Facts] (X : FVec Ideal S32768x3 .f32) (W : FVec Ideal S3x128 .f32) (b : FVec Ideal S128 .f32)
    (p : Fin 32768) (h : Fin 128) :
    addf (Host.dotGeneral dot_S32768x3_S3x128_S32768x128_1_0_0_1_n_n none X W)
        (broadcastInDim S32768x128 ![0, 1] bcast_S1x128_S32768x128_0_1 (broadcastInDim S1x128 ![1] bcast_S128_S1x128_1 b)) (ix2 p h)
      = MlpSpec.dense (fun c h' => W (ix2 c h')) (fun h' => b (ix1 h')) (fun c => X (ix2 p c)) h :=
  dense_row _ rfl X W b _ _ p h

open Cert.ReferenceIdeal Cert.ReferenceIdeal.Facts₀ in
/-- The two hidden layers' record is the plain [32768, 128] × [128, 128] contraction. -/
theorem rowA_mid [Cert.ReferenceIdeal.Facts] (X : FVec Ideal S32768x128 .f32) (W : FVec Ideal S128x128 .f32) (b : FVec Ideal S128 .f32)
    (p : Fin 32768) (h : Fin 128) :
    addf (Host.dotGeneral dot_S32768x128_S128x128_S32768x128_1_0_0_1_n_n none X W)
        (broadcastInDim S32768x128 ![0, 1] bcast_S1x128_S32768x128_0_1 (broadcastInDim S1x128 ![1] bcast_S128_S1x128_1 b)) (ix2 p h)
      = MlpSpec.dense (fun c h' => W (ix2 c h')) (fun h' => b (ix1 h')) (fun c => X (ix2 p c)) h :=
  dense_row _ rfl X W b _ _ p h

open Cert.ReferenceIdeal Cert.ReferenceIdeal.Facts₀ in
/-- The output layer's record is the plain [32768, 128] × [128, 1] contraction; its bias has one entry. -/
theorem rowA_out [Cert.ReferenceIdeal.Facts] (X : FVec Ideal S32768x128 .f32) (W : FVec Ideal S128x1 .f32) (b : FVec Ideal S1 .f32)
    (p : Fin 32768) (h : Fin 1) :
    addf (Host.dotGeneral dot_S32768x128_S128x1_S32768x1_1_0_0_1_n_n none X W)
        (broadcastInDim S32768x1 ![0, 1] bcast_S1x1_S32768x1_0_1 (broadcastInDim S1x1 ![1] bcast_S1_S1x1_1 b)) (ix2 p h)
      = MlpSpec.dense (fun c h' => W (ix2 c h')) (fun h' => b (ix1 h')) (fun c => X (ix2 p c)) h :=
  dense_row _ rfl X W b _ _ p h

open Cert.ReferenceIdeal in
/-- The reference's perceptron on the batch of 32768, read at row p, is the specification's perceptron at that row of the
    batch: each layer is `dense_row`, entered
    through the sum over the layer before it, and the one output column is column 0. -/
theorem refMlpA_row [Cert.ReferenceIdeal.Facts] (X : FVec Ideal S32768x3 .f32) (a4 : FVec Ideal S3x128 .f32) (a5 : FVec Ideal S128 .f32)
    (a6 : FVec Ideal S128x128 .f32) (a7 : FVec Ideal S128 .f32) (a8 : FVec Ideal S128x128 .f32) (a9 : FVec Ideal S128 .f32)
    (a10 : FVec Ideal S128x1 .f32) (a11 : FVec Ideal S1 .f32) (p : Fin 32768) :
    refMlpA X a4 a5 a6 a7 a8 a9 a10 a11 (ix2 p (0 : Fin 1)) = MlpSpec.ofArgs a4 a5 a6 a7 a8 a9 a10 a11 (fun k => X (ix2 p k)) := by
  unfold refMlpA
  rw [rowA_out]
  unfold MlpSpec.ofArgs MlpSpec.row
  refine congrArg (fun x => MlpSpec.dense _ _ x (0 : Fin 1)) (funext fun h3 => ?_)
  rw [hostTanh_apply, rowA_mid]
  refine congrArg (fun x => Ideal.tanh (MlpSpec.dense _ _ x h3)) (funext fun h2 => ?_)
  rw [hostTanh_apply, rowA_mid]
  refine congrArg (fun x => Ideal.tanh (MlpSpec.dense _ _ x h2)) (funext fun h1 => ?_)
  rw [hostTanh_apply, rowA_in]

open Cert.ReferenceIdeal Cert.ReferenceIdeal.Facts₀ in
/-- The reference's perceptron on a batch of 262144 rows: the four dense layers (a contraction of the rows with the weights,
    the bias laid as one row and broadcast down the rows, the sum) with the hyperbolic tangent after the first three,
    operation by operation in program order. -/
def refMlpB [Cert.ReferenceIdeal.Facts] (X : FVec Ideal S262144x3 .f32) (a4 : FVec Ideal S3x128 .f32) (a5 : FVec Ideal S128 .f32)
    (a6 : FVec Ideal S128x128 .f32) (a7 : FVec Ideal S128 .f32) (a8 : FVec Ideal S128x128 .f32) (a9 : FVec Ideal S128 .f32)
    (a10 : FVec Ideal S128x1 .f32) (a11 : FVec Ideal S1 .f32) : FVec Ideal S262144x1 .f32 :=
  have v1 : FVec Ideal S262144x128 .f32 := (fun l r => Host.dotGeneral (F := Ideal) dot_S262144x3_S3x128_S262144x128_1_0_0_1_n_n none l r) X a4
  have v2 : FVec Ideal S1x128 .f32 := broadcastInDim S1x128 ![1] bcast_S128_S1x128_1 a5
  have v3 : FVec Ideal S262144x128 .f32 := broadcastInDim S262144x128 ![0, 1] bcast_S1x128_S262144x128_0_1 v2
  have v4 : FVec Ideal S262144x128 .f32 := addf v1 v3
  have v5 : FVec Ideal S262144x128 .f32 := Host.tanh v4
  have v6 : FVec Ideal S262144x128 .f32 := (fun l r => Host.dotGeneral (F := Ideal) dot_S262144x128_S128x128_S262144x128_1_0_0_1_n_n none l r) v5 a6
  have v7 : FVec Ideal S1x128 .f32 := broadcastInDim S1x128 ![1] bcast_S128_S1x128_1 a7
  have v8 : FVec Ideal S262144x128 .f32 := broadcastInDim S262144x128 ![0, 1] bcast_S1x128_S262144x128_0_1 v7
  have v9 : FVec Ideal S262144x128 .f32 := addf v6 v8
  have v10 : FVec Ideal S262144x128 .f32 := Host.tanh v9
  have v11 : FVec Ideal S262144x128 .f32 := (fun l r => Host.dotGeneral (F := Ideal) dot_S262144x128_S128x128_S262144x128_1_0_0_1_n_n none l r) v10 a8
  have v12 : FVec Ideal S1x128 .f32 := broadcastInDim S1x128 ![1] bcast_S128_S1x128_1 a9
  have v13 : FVec Ideal S262144x128 .f32 := broadcastInDim S262144x128 ![0, 1] bcast_S1x128_S262144x128_0_1 v12
  have v14 : FVec Ideal S262144x128 .f32 := addf v11 v13
  have v15 : FVec Ideal S262144x128 .f32 := Host.tanh v14
  have v16 : FVec Ideal S262144x1 .f32 := (fun l r => Host.dotGeneral (F := Ideal) dot_S262144x128_S128x1_S262144x1_1_0_0_1_n_n none l r) v15 a10
  have v17 : FVec Ideal S1x1 .f32 := broadcastInDim S1x1 ![1] bcast_S1_S1x1_1 a11
  have v18 : FVec Ideal S262144x1 .f32 := broadcastInDim S262144x1 ![0, 1] bcast_S1x1_S262144x1_0_1 v17
  have v19 : FVec Ideal S262144x1 .f32 := addf v16 v18
  v19

open Cert.ReferenceIdeal Cert.ReferenceIdeal.Facts₀ in
/-- Row p of the batch of 262144: the first layer's record is the plain [262144, 3] × [3, 128] contraction. -/
theorem rowB_in [Cert.ReferenceIdeal.Facts] (X : FVec Ideal S262144x3 .f32) (W : FVec Ideal S3x128 .f32) (b : FVec Ideal S128 .f32)
    (p : Fin 262144) (h : Fin 128) :
    addf (Host.dotGeneral dot_S262144x3_S3x128_S262144x128_1_0_0_1_n_n none X W)
        (broadcastInDim S262144x128 ![0, 1] bcast_S1x128_S262144x128_0_1 (broadcastInDim S1x128 ![1] bcast_S128_S1x128_1 b)) (ix2 p h)
      = MlpSpec.dense (fun c h' => W (ix2 c h')) (fun h' => b (ix1 h')) (fun c => X (ix2 p c)) h :=
  dense_row _ rfl X W b _ _ p h

open Cert.ReferenceIdeal Cert.ReferenceIdeal.Facts₀ in
/-- The two hidden layers' record is the plain [262144, 128] × [128, 128] contraction. -/
theorem rowB_mid [Cert.ReferenceIdeal.Facts] (X : FVec Ideal S262144x128 .f32) (W : FVec Ideal S128x128 .f32) (b : FVec Ideal S128 .f32)
    (p : Fin 262144) (h : Fin 128) :
    addf (Host.dotGeneral dot_S262144x128_S128x128_S262144x128_1_0_0_1_n_n none X W)
        (broadcastInDim S262144x128 ![0, 1] bcast_S1x128_S262144x128_0_1 (broadcastInDim S1x128 ![1] bcast_S128_S1x128_1 b)) (ix2 p h)
      = MlpSpec.dense (fun c h' => W (ix2 c h')) (fun h' => b (ix1 h')) (fun c => X (ix2 p c)) h :=
  dense_row _ rfl X W b _ _ p h

open Cert.ReferenceIdeal Cert.ReferenceIdeal.Facts₀ in
/-- The output layer's record is the plain [262144, 128] × [128, 1] contraction; its bias has one entry. -/
theorem rowB_out [Cert.ReferenceIdeal.Facts] (X : FVec Ideal S262144x128 .f32) (W : FVec Ideal S128x1 .f32) (b : FVec Ideal S1 .f32)
    (p : Fin 262144) (h : Fin 1) :
    addf (Host.dotGeneral dot_S262144x128_S128x1_S262144x1_1_0_0_1_n_n none X W)
        (broadcastInDim S262144x1 ![0, 1] bcast_S1x1_S262144x1_0_1 (broadcastInDim S1x1 ![1] bcast_S1_S1x1_1 b)) (ix2 p h)
      = MlpSpec.dense (fun c h' => W (ix2 c h')) (fun h' => b (ix1 h')) (fun c => X (ix2 p c)) h :=
  dense_row _ rfl X W b _ _ p h

open Cert.ReferenceIdeal in
/-- The reference's perceptron on the batch of 262144, read at row p, is the specification's perceptron at that row of the
    batch: each layer is `dense_row`, entered
    through the sum over the layer before it, and the one output column is column 0. -/
theorem refMlpB_row [Cert.ReferenceIdeal.Facts] (X : FVec Ideal S262144x3 .f32) (a4 : FVec Ideal S3x128 .f32) (a5 : FVec Ideal S128 .f32)
    (a6 : FVec Ideal S128x128 .f32) (a7 : FVec Ideal S128 .f32) (a8 : FVec Ideal S128x128 .f32) (a9 : FVec Ideal S128 .f32)
    (a10 : FVec Ideal S128x1 .f32) (a11 : FVec Ideal S1 .f32) (p : Fin 262144) :
    refMlpB X a4 a5 a6 a7 a8 a9 a10 a11 (ix2 p (0 : Fin 1)) = MlpSpec.ofArgs a4 a5 a6 a7 a8 a9 a10 a11 (fun k => X (ix2 p k)) := by
  unfold refMlpB
  rw [rowB_out]
  unfold MlpSpec.ofArgs MlpSpec.row
  refine congrArg (fun x => MlpSpec.dense _ _ x (0 : Fin 1)) (funext fun h3 => ?_)
  rw [hostTanh_apply, rowB_mid]
  refine congrArg (fun x => Ideal.tanh (MlpSpec.dense _ _ x h3)) (funext fun h2 => ?_)
  rw [hostTanh_apply, rowB_mid]
  refine congrArg (fun x => Ideal.tanh (MlpSpec.dense _ _ x h2)) (funext fun h1 => ?_)
  rw [hostTanh_apply, rowB_in]

end MlpForms

end
-- ==== Proof.RefPreds.lean ====
/-
  The reference's three prediction arrays, and what they are entry by entry.

  The reference gathers the centres' coordinate rows, runs the perceptron on that batch of 32768 rows and
  flattens the one output column; it gathers the staggered points' rows and the neighbours' rows, runs
  the perceptron on each batch of 262144 rows and folds the output column into 32768 rows of 8.  Entry b of
  the first array is the perceptron at row a12[b] of the first coordinate table; entry (b, j) of the second
  is the perceptron at row stag[b, j] of the second table, and entry (b, j) of the third is the perceptron at
  row neig[b, j] of the first table: the batch's row 8b + j is the gathered row of (b, j), the perceptron acts
  row by row, and the clipped flat indices are rows of their tables.
-/
import proofs.«167318_j62079457296719_2_alg».proof.Proof.RefReads
import proofs.«167318_j62079457296719_2_alg».proof.Proof.MlpRef
import proofs.«167318_j62079457296719_2_alg».proof.Proof.StageReads
import proofs.«167318_j62079457296719_2_alg».proof.Proof.LossSpec

noncomputable section

namespace RefPreds

open Cert.ReferenceIdeal Cert.ReferenceIdeal.Gen Idealize.ShloMosaic Idealize.ShloMosaic.ValueIdx
open Cert.Gcn.LayoutReads

/-- A column of m entries folded into rows of length b reads, at (i, j), the column's entry i·b + j. -/
theorem shapeCast_m1_ab_apply {α : Type} {m a b : ℕ} (x : (⟨2, ![m, 1]⟩ : Shape).Idx → α)
    (h : (⟨2, ![m, 1]⟩ : Shape).ShapeCasts ⟨2, ![a, b]⟩) (i : Fin a) (j : Fin b) (r : Fin m) (u : Fin 1)
    (hr : r.val = i.val * b + j.val) :
    shapeCast ⟨2, ![a, b]⟩ x h (ix2 i j) = x (ix2 r u) :=
  shapeCast_apply x h _ _ (by
    rw [Shape.rowMajor_val_two, Shape.rowMajor_val_two]
    show r.val * 1 + u.val = i.val * b + j.val
    have := u.isLt
    omega)

section
variable (a0 : FVec Ideal S2097152x3 .f32) (a2 : FVec Ideal S2048383x3 .f32)
  (a4 : FVec Ideal S3x128 .f32) (a5 : FVec Ideal S128 .f32) (a6 : FVec Ideal S128x128 .f32) (a7 : FVec Ideal S128 .f32)
  (a8 : FVec Ideal S128x128 .f32) (a9 : FVec Ideal S128 .f32) (a10 : FVec Ideal S128x1 .f32) (a11 : FVec Ideal S1 .f32)
  (a12 : IVec S32768 32)

/-- The reference's predictions at the centres: the perceptron on the gathered centre rows, flattened. -/
def predR : FVec Ideal S32768 .f32 :=
  shapeCast S32768
    (MlpForms.refMlpA
      (Host.gather gather_S2097152x3_S32768x1_S32768x3_1_0_n_n_0_1_13 a0
        (broadcastInDim S32768x1 ![0] bcast_S32768_S32768x1_0
          (select (cmpi .slt a12 (broadcastInDim S32768 ![] bcast_S_S32768 (constantI S_ 32 0#32)))
            (addi a12 (broadcastInDim S32768 ![] bcast_S_S32768 (constantI S_ 32 2097152#32))) a12)))
      a4 a5 a6 a7 a8 a9 a10 a11)
    shapeCasts_S32768x1_S32768

/-- The reference's predictions at the staggered points, from their flat indices `s`: the perceptron on the
    gathered rows of the second table, folded into rows of 8. -/
def psR (s : IVec S32768x8 32) : FVec Ideal S32768x8 .f32 :=
  shapeCast S32768x8
    (MlpForms.refMlpB
      (shapeCast S262144x3
        (Host.gather gather_S2048383x3_S32768x8x1_S32768x8x3_2_0_n_n_0_2_13 a2
          (broadcastInDim S32768x8x1 ![0, 1] bcast_S32768x8_S32768x8x1_0_1
            (select (cmpi .slt s (broadcastInDim S32768x8 ![] bcast_S_S32768x8 (constantI S_ 32 0#32)))
              (addi s (broadcastInDim S32768x8 ![] bcast_S_S32768x8 (constantI S_ 32 2048383#32))) s)))
        shapeCasts_S32768x8x3_S262144x3)
      a4 a5 a6 a7 a8 a9 a10 a11)
    shapeCasts_S262144x1_S32768x8

/-- The reference's predictions at the neighbours, from their flat indices `n`: the perceptron on the gathered
    rows of the first table, folded into rows of 8. -/
def pnR (n : IVec S32768x8 32) : FVec Ideal S32768x8 .f32 :=
  shapeCast S32768x8
    (MlpForms.refMlpB
      (shapeCast S262144x3
        (Host.gather gather_S2097152x3_S32768x8x1_S32768x8x3_2_0_n_n_0_2_13 a0
          (broadcastInDim S32768x8x1 ![0, 1] bcast_S32768x8_S32768x8x1_0_1
            (select (cmpi .slt n (broadcastInDim S32768x8 ![] bcast_S_S32768x8 (constantI S_ 32 0#32)))
              (addi n (broadcastInDim S32768x8 ![] bcast_S_S32768x8 (constantI S_ 32 2097152#32))) n)))
        shapeCasts_S32768x8x3_S262144x3)
      a4 a5 a6 a7 a8 a9 a10 a11)
    shapeCasts_S262144x1_S32768x8

/-- The centres' predictions are the specification's. -/
theorem predR_eq (h12 : ∀ b : Fin 32768, (a12 (ix1 b)).toNat < 2097152) :
    predR a0 a4 a5 a6 a7 a8 a9 a10 a11 a12 = LossSpec.predSpec a0 a4 a5 a6 a7 a8 a9 a10 a11 a12 := by
  funext i
  obtain ⟨b, rfl⟩ : ∃ b : Fin 32768, i = ix1 b := ⟨i 0, eq_ix1 i⟩
  unfold predR
  refine (shapeCast_ab_n_apply _ shapeCasts_S32768x1_S32768 b b (0 : Fin 1) (by show b.val = b.val * 1 + 0; omega)).trans ?_
  refine (MlpForms.refMlpA_row _ a4 a5 a6 a7 a8 a9 a10 a11 b).trans ?_
  show _ = MlpSpec.ofArgs a4 a5 a6 a7 a8 a9 a10 a11 (LossSpec.rowAt a0 (a12 (ix1 b)).toNat)
  refine congrArg (MlpSpec.ofArgs a4 a5 a6 a7 a8 a9 a10 a11) (funext fun k => ?_)
  exact (RefReads.ref_center a0 a12 h12 b k).trans (LossSpec.rowAt_of_lt a0 _ (h12 b) k).symm

/-- The staggered points' predictions, at the kernel's staggered flats, are the specification's. -/
theorem psR_eq :
    psR a2 a4 a5 a6 a7 a8 a9 a10 a11 (Cert.KernelIdeal.Gen.Stages.stagOf (F := Ideal) a12)
      = LossSpec.psSpec a2 a4 a5 a6 a7 a8 a9 a10 a11 a12 := by
  funext i
  obtain ⟨b, j, rfl⟩ : ∃ (b : Fin 32768) (j : Fin 8), i = ix2 b j := ⟨i 0, i 1, eq_ix2 i⟩
  have hle := StageReads.stagOf_le a12 b j
  unfold psR
  refine (shapeCast_m1_ab_apply _ shapeCasts_S262144x1_S32768x8 b j (⟨8 * b.val + j.val, by omega⟩ : Fin 262144)
    (0 : Fin 1) (by show 8 * b.val + j.val = b.val * 8 + j.val; omega)).trans ?_
  refine (MlpForms.refMlpB_row _ a4 a5 a6 a7 a8 a9 a10 a11 _).trans ?_
  show _ = MlpSpec.ofArgs a4 a5 a6 a7 a8 a9 a10 a11
    (LossSpec.rowAt a2 (Cert.KernelIdeal.Gen.Stages.stagOf (F := Ideal) a12 (ix2 b j)).toNat)
  refine congrArg (MlpSpec.ofArgs a4 a5 a6 a7 a8 a9 a10 a11) (funext fun k => ?_)
  exact (RefReads.ref_stag a2 _ (fun b j => StageReads.stagOf_le a12 b j) b j k).trans
    (LossSpec.rowAt_of_lt a2 _ (by omega) k).symm

/-- The neighbours' predictions, at the kernel's neighbour flats, are the specification's. -/
theorem pnR_eq :
    pnR a0 a4 a5 a6 a7 a8 a9 a10 a11 (Cert.KernelIdeal.Gen.Stages.neigOf (F := Ideal) a12)
      = LossSpec.pnSpec a0 a4 a5 a6 a7 a8 a9 a10 a11 a12 := by
  funext i
  obtain ⟨b, j, rfl⟩ : ∃ (b : Fin 32768) (j : Fin 8), i = ix2 b j := ⟨i 0, i 1, eq_ix2 i⟩
  have hle := StageReads.neigOf_le a12 b j
  unfold pnR
  refine (shapeCast_m1_ab_apply _ shapeCasts_S262144x1_S32768x8 b j (⟨8 * b.val + j.val, by omega⟩ : Fin 262144)
    (0 : Fin 1) (by show 8 * b.val + j.val = b.val * 8 + j.val; omega)).trans ?_
  refine (MlpForms.refMlpB_row _ a4 a5 a6 a7 a8 a9 a10 a11 _).trans ?_
  show _ = MlpSpec.ofArgs a4 a5 a6 a7 a8 a9 a10 a11
    (LossSpec.rowAt a0 (Cert.KernelIdeal.Gen.Stages.neigOf (F := Ideal) a12 (ix2 b j)).toNat)
  refine congrArg (MlpSpec.ofArgs a4 a5 a6 a7 a8 a9 a10 a11) (funext fun k => ?_)
  exact (RefReads.ref_neig a0 _ (fun b j => StageReads.neigOf_le a12 b j) b j k).trans
    (LossSpec.rowAt_of_lt a0 _ (by omega) k).symm

end

end RefPreds

end
-- ==== Proof.RefValIdeal.lean ====
/-
  The reference's result over the extended reals, on the shared prediction terms.

  The run of the reference was read for any float values, with the perceptron chain written out operation by
  operation. At the extended reals the same chain is the definition the row-wise perceptron facts are proved about,
  and the three prediction terms are the definitions whose pointwise values are known: both by unfolding, the
  operations and their order being the same. So the reference's result is the shared loss of the arguments, the
  interior mask, and those three prediction terms.
-/
import proofs.«167318_j62079457296719_2_alg».proof.Proof.RefValLoss
import proofs.«167318_j62079457296719_2_alg».proof.Proof.RefPreds

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

/-- The perceptron chain on 32768 rows, at the extended reals, is the chain of the row-wise facts. -/
theorem mlpA_eq (X : FVec Ideal S32768x3 .f32) (a4 : FVec Ideal S3x128 .f32) (a5 : FVec Ideal S128 .f32) (a6 : FVec Ideal S128x128 .f32) (a7 : FVec Ideal S128 .f32)
    (a8 : FVec Ideal S128x128 .f32) (a9 : FVec Ideal S128 .f32) (a10 : FVec Ideal S128x1 .f32) (a11 : FVec Ideal S1 .f32) :
    mlpA (F := Ideal) X a4 a5 a6 a7 a8 a9 a10 a11 = MlpForms.refMlpA X a4 a5 a6 a7 a8 a9 a10 a11 := rfl

/-- The perceptron chain on 262144 rows, at the extended reals, is the chain of the row-wise facts. -/
theorem mlpB_eq (X : FVec Ideal S262144x3 .f32) (a4 : FVec Ideal S3x128 .f32) (a5 : FVec Ideal S128 .f32) (a6 : FVec Ideal S128x128 .f32) (a7 : FVec Ideal S128 .f32)
    (a8 : FVec Ideal S128x128 .f32) (a9 : FVec Ideal S128 .f32) (a10 : FVec Ideal S128x1 .f32) (a11 : FVec Ideal S1 .f32) :
    mlpB (F := Ideal) X a4 a5 a6 a7 a8 a9 a10 a11 = MlpForms.refMlpB X a4 a5 a6 a7 a8 a9 a10 a11 := rfl

/-- The centres' prediction term, at the extended reals, is the shared one. -/
theorem predOf_eq (a0 : FVec Ideal S2097152x3 .f32) (a4 : FVec Ideal S3x128 .f32) (a5 : FVec Ideal S128 .f32) (a6 : FVec Ideal S128x128 .f32) (a7 : FVec Ideal S128 .f32)
    (a8 : FVec Ideal S128x128 .f32) (a9 : FVec Ideal S128 .f32) (a10 : FVec Ideal S128x1 .f32) (a11 : FVec Ideal S1 .f32)
    (a12 : IVec S32768 32) :
    predOf (F := Ideal) a0 a4 a5 a6 a7 a8 a9 a10 a11 a12 = RefPreds.predR a0 a4 a5 a6 a7 a8 a9 a10 a11 a12 := by
  unfold predOf RefPreds.predR
  rw [mlpA_eq]
  rfl

/-- The staggered points' prediction term, at the extended reals, is the shared one. -/
theorem psOf_eq (a2 : FVec Ideal S2048383x3 .f32) (a4 : FVec Ideal S3x128 .f32) (a5 : FVec Ideal S128 .f32) (a6 : FVec Ideal S128x128 .f32) (a7 : FVec Ideal S128 .f32)
    (a8 : FVec Ideal S128x128 .f32) (a9 : FVec Ideal S128 .f32) (a10 : FVec Ideal S128x1 .f32) (a11 : FVec Ideal S1 .f32)
    (s : IVec S32768x8 32) :
    psOf (F := Ideal) a2 a4 a5 a6 a7 a8 a9 a10 a11 s = RefPreds.psR a2 a4 a5 a6 a7 a8 a9 a10 a11 s := by
  unfold psOf RefPreds.psR
  rw [mlpB_eq]
  rfl

/-- The neighbours' prediction term, at the extended reals, is the shared one. -/
theorem pnOf_eq (a0 : FVec Ideal S2097152x3 .f32) (a4 : FVec Ideal S3x128 .f32) (a5 : FVec Ideal S128 .f32) (a6 : FVec Ideal S128x128 .f32) (a7 : FVec Ideal S128 .f32)
    (a8 : FVec Ideal S128x128 .f32) (a9 : FVec Ideal S128 .f32) (a10 : FVec Ideal S128x1 .f32) (a11 : FVec Ideal S1 .f32)
    (n : IVec S32768x8 32) :
    pnOf (F := Ideal) a0 a4 a5 a6 a7 a8 a9 a10 a11 n = RefPreds.pnR a0 a4 a5 a6 a7 a8 a9 a10 a11 n := by
  unfold pnOf RefPreds.pnR
  rw [mlpB_eq]
  rfl

/-- The reference's result over the extended reals: the shared loss of the data, Laplacian and centre-index arguments,
    the interior mask, and the three shared prediction terms (at the centres, at the staggered flat indices `stagOf`,
    at the neighbour flat indices `neigOf`). -/
theorem result_eq (V : Valuation τ sig (Elt Ideal)) :
    after ops V (Proc.devRef .tc main_v227)
      = Cert.KernelIdeal.Gen.Stages.lossOf (F := Ideal) (V (Proc.devRef .tc main_arg1)) (V (Proc.devRef .tc main_arg3)) (V (Proc.devRef .tc main_arg12))
          (Cert.KernelIdeal.Gen.Stages.maskOf (V (Proc.devRef .tc main_arg12)))
          (RefPreds.predR (V (Proc.devRef .tc main_arg0)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)))
          (RefPreds.psR (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (Cert.KernelIdeal.Gen.Stages.stagOf (V (Proc.devRef .tc main_arg12))))
          (RefPreds.pnR (V (Proc.devRef .tc main_arg0)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (Cert.KernelIdeal.Gen.Stages.neigOf (V (Proc.devRef .tc main_arg12)))) := by
  rw [result_val, predOf_eq, psOf_eq, pnOf_eq]

end Cert.ReferenceIdeal.RefVal

end
-- ==== Proof.RBridge.lean ====
/-
  The reference's result as the common function of its arguments: its three prediction arrays are the perceptron at the
  selected table rows (the centre indices in range by hypothesis, the stencil's flat indices clipped into their tables),
  and its loss is the shared loss function of them.
-/
import proofs.«167318_j62079457296719_2_alg».proof.Proof.RefValIdeal
import proofs.«167318_j62079457296719_2_alg».proof.Proof.RefPreds
import proofs.«167318_j62079457296719_2_alg».proof.Proof.LossSpec

noncomputable section

namespace Cert.ReferenceIdeal.RefVal

open Idealize.ShloMosaic Idealize.ShloMosaic.TcCoe Idealize.ShloMosaic.ValueIdx Idealize.ShloMosaic.StableHlo
open Cert.ReferenceIdeal Cert.ReferenceIdeal.Gen Cert.ReferenceIdeal.RefRun

/-- For contents whose centre indices lie in 0 … 2097151 the operations' fold at the result buffer is the common loss. -/
theorem resR_total (V : Valuation τ sig (Elt Ideal))
    (h12 : ∀ b : Fin 32768, ((V (Proc.devRef .tc main_arg12) : IVec S32768 32) (ix1 b)).toNat < 2097152) :
    after ops V (Proc.devRef .tc main_v227)
      = LossSpec.total (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [result_eq V,
    RefPreds.predR_eq (V (Proc.devRef .tc main_arg0)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) h12,
    RefPreds.psR_eq (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)),
    RefPreds.pnR_eq (V (Proc.devRef .tc main_arg0)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))]
  rfl

end Cert.ReferenceIdeal.RefVal

end
-- ==== Proof.PreDecode.lean ====
/-
  The precondition read back: the range of the centre indices.

  The precondition is a conjunction of fourteen scalar bits: twelve say an input array's entries are all
  finite, the last two say every centre index is at least 0 and every centre index is below 2097152, both
  as signed 32-bit comparisons reduced by "and" over the whole vector.  When the conjunction is 1 each
  conjunct is 1, and a reduction by "and" that is 1 met a 1 at every entry; so each centre index w has
  0 ≤ w and w < 2097152 as signed integers.  A word that is not negative as a signed integer reads the same
  unsigned, hence its unsigned value is below 2097152.
-/
import proofs.«167318_j62079457296719_2_alg».proof.Pre_finite_inputs
import proofs.«167318_j62079457296719_2_alg».proof.Proof.Gen.Pre_finite_inputs
import Idealize.ShloMosaic.Lib.StableHlo.Predicate
import Idealize.ShloMosaic.Lib.ReduceAll
import Idealize.ShloMosaic.Lib.ValueIdx
import Idealize.ShloMosaic.Lib.IdealHost

noncomputable section

namespace PreDecode

open Idealize.ShloMosaic Idealize.ShloMosaic.ValueIdx Cert.Pre_finite_inputs Cert.Pre_finite_inputs.Gen

/-- The scalar shape has one index. -/
instance : Subsingleton S_.Idx := ⟨fun _ _ => funext fun d => d.elim0⟩

/-- A word in [0, n) as a signed integer is below n unsigned. -/
theorem toNat_lt_of_signed_range (w : BitVec 32) (h0 : IntOp.cmpi .sge w 0#32 = 1#1)
    (h1 : IntOp.cmpi .slt w 2097152#32 = 1#1) : w.toNat < 2097152 := by
  have e0 : (0#32 : BitVec 32).toInt = 0 := by decide
  have e1 : (2097152#32 : BitVec 32).toInt = 2097152 := by decide
  have g0 := IntOp.cmpi_sge.1 h0
  have g1 := IntOp.cmpi_slt.1 h1
  rw [e0] at g0
  rw [e1] at g1
  have hw := w.isLt
  rw [BitVec.toInt_eq_toNat_cond] at g0 g1
  split at g0 <;> omega

/-- The last part of the precondition at its one index: both comparisons hold at every centre. -/
theorem part3_range (a11 : FVec Ideal S1 .f32) (a12 : IVec S32768 32) (v48 : IVec S_ 1)
    (v49 v50 : FVec Ideal S128x1 .f32)
    (h : fn_part3 (F := Ideal) a11 a12 v48 v49 v50 ix0 = 1#1) (b : Fin 32768) :
    (a12 (ix1 b)).toNat < 2097152 := by
  unfold fn_part3 at h
  obtain ⟨h62, h65⟩ := IntOp.andi_eq_one.1 h
  obtain ⟨-, h61⟩ := IntOp.andi_eq_one.1 h62
  have hge := Host.reduce_andi_all _ _ _ _ _ h61 (ix1 b)
  have hlt := Host.reduce_andi_all _ _ _ _ _ h65 (ix1 b)
  exact toNat_lt_of_signed_range _ hge hlt

/-- The precondition, all ones, puts every centre index in [0, 2097152). -/
theorem idx_range (a0 : FVec Ideal S2097152x3 .f32) (a1 : FVec Ideal S2097152x1 .f32)
    (a2 : FVec Ideal S2048383x3 .f32) (a3 : FVec Ideal S2097152 .f32) (a4 : FVec Ideal S3x128 .f32)
    (a5 : FVec Ideal S128 .f32) (a6 : FVec Ideal S128x128 .f32) (a7 : FVec Ideal S128 .f32)
    (a8 : FVec Ideal S128x128 .f32) (a9 : FVec Ideal S128 .f32) (a10 : FVec Ideal S128x1 .f32)
    (a11 : FVec Ideal S1 .f32) (a12 : IVec S32768 32)
    (h : Cert.Pre_finite_inputs.fn (F := Ideal) a0 a1 a2 a3 a4 a5 a6 a7 a8 a9 a10 a11 a12 = fun _ => 1#1)
    (b : Fin 32768) : (a12 (ix1 b)).toNat < 2097152 := by
  have e := congrFun h ix0
  unfold Cert.Pre_finite_inputs.fn fn_part1 fn_part2 at e
  exact part3_range a11 a12 _ _ _ e b

end PreDecode

end
-- ==== Proof.Bridge.lean ====
/-
  The two idealized programs end with equal results. Under the precondition every centre index lies in 0 … 2097151.
  Then the kernel program's result buffer and the reference's both hold the same function of the argument arrays — the
  shared loss of the perceptron's values at the centres', the staggered points' and the neighbours' table rows —, and
  the two launch memories agree on the arguments.
-/
import proofs.«167318_j62079457296719_2_alg».proof.Defs
import proofs.«167318_j62079457296719_2_alg».proof.Proof.KBridge
import proofs.«167318_j62079457296719_2_alg».proof.Proof.RBridge
import proofs.«167318_j62079457296719_2_alg».proof.Proof.PreDecode
import proofs.«167318_j62079457296719_2_alg».proof.Proof.Gen.Pre_finite_inputs

noncomputable section

namespace Cert.Proof.Bridge

open Idealize.ShloMosaic Idealize.ShloMosaic.TcCoe Idealize.ShloMosaic.ValueIdx Idealize.SL.Sem

theorem algebraic : Cert.algebraic_KernelIdeal_ReferenceIdeal := by
  intro m ρ m' ρ' hpre hagree
  refine ⟨fun c => Cert.KernelIdeal.KVal.resK (F := Ideal) m c, Cert.KernelIdeal.KVal.run_value (F := Ideal) m ρ, ?_⟩
  refine (θ_run Cert.ReferenceIdeal.defs _ _).mono (fun r h c => ⟨?_,
      (h c Cert.ReferenceIdeal.main_arg0).trans (Cert.ReferenceIdeal.RefRun.kept_main_arg0 _),
      (h c Cert.ReferenceIdeal.main_arg1).trans (Cert.ReferenceIdeal.RefRun.kept_main_arg1 _),
      (h c Cert.ReferenceIdeal.main_arg2).trans (Cert.ReferenceIdeal.RefRun.kept_main_arg2 _),
      (h c Cert.ReferenceIdeal.main_arg3).trans (Cert.ReferenceIdeal.RefRun.kept_main_arg3 _),
      (h c Cert.ReferenceIdeal.main_arg4).trans (Cert.ReferenceIdeal.RefRun.kept_main_arg4 _),
      (h c Cert.ReferenceIdeal.main_arg5).trans (Cert.ReferenceIdeal.RefRun.kept_main_arg5 _),
      (h c Cert.ReferenceIdeal.main_arg6).trans (Cert.ReferenceIdeal.RefRun.kept_main_arg6 _),
      (h c Cert.ReferenceIdeal.main_arg7).trans (Cert.ReferenceIdeal.RefRun.kept_main_arg7 _),
      (h c Cert.ReferenceIdeal.main_arg8).trans (Cert.ReferenceIdeal.RefRun.kept_main_arg8 _),
      (h c Cert.ReferenceIdeal.main_arg9).trans (Cert.ReferenceIdeal.RefRun.kept_main_arg9 _),
      (h c Cert.ReferenceIdeal.main_arg10).trans (Cert.ReferenceIdeal.RefRun.kept_main_arg10 _),
      (h c Cert.ReferenceIdeal.main_arg11).trans (Cert.ReferenceIdeal.RefRun.kept_main_arg11 _),
      (h c Cert.ReferenceIdeal.main_arg12).trans (Cert.ReferenceIdeal.RefRun.kept_main_arg12 _)⟩)
    (Cert.ReferenceIdeal.RefRun.run_fold (F := Ideal) m' ρ')
  obtain ⟨e0, e1, e2, e3, e4, e5, e6, e7, e8, e9, e10, e11, e12⟩ := hagree c
  have h12 : ∀ b : Fin 32768,
      ((m ((c.tc : Thread Cert.KernelIdeal.nD Cert.KernelIdeal.τ).loc Cert.KernelIdeal.main_arg12) : IVec Cert.KernelIdeal.S32768 32) (ix1 b)).toNat < 2097152 :=
    fun b => PreDecode.idx_range _ _ _ _ _ _ _ _ _ _ _ _ _ (hpre c) b
  have h12' : ∀ b : Fin 32768,
      ((StableHlo.launchContents m' c (Proc.devRef .tc Cert.ReferenceIdeal.main_arg12) : IVec Cert.ReferenceIdeal.S32768 32) (ix1 b)).toNat < 2097152 := by
    intro b
    show ((m' ((c.tc : Thread Cert.ReferenceIdeal.nD Cert.ReferenceIdeal.τ).loc Cert.ReferenceIdeal.main_arg12) : IVec Cert.ReferenceIdeal.S32768 32) (ix1 b)).toNat < 2097152
    rw [e12]; exact h12 b
  show r.2.mem ((c.tc : Thread Cert.ReferenceIdeal.nD Cert.ReferenceIdeal.τ).loc Cert.ReferenceIdeal.main_v227) = Cert.KernelIdeal.KVal.resK (F := Ideal) m c
  rw [h c Cert.ReferenceIdeal.main_v227, Cert.ReferenceIdeal.RefVal.resR_total _ h12', Cert.KernelIdeal.KVal.resK_total m c h12]
  show LossSpec.total (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
  rw [e0, e1, e2, e3, e4, e5, e6, e7, e8, e9, e10, e11, e12]

end Cert.Proof.Bridge

end
-- ==== Proof.lean ====
/-
  The certificate of the Laplacian-model loss: the kernel program (one fused gather of 17 coordinate rows per centre
  from the two stacked coordinate tables, a 4-layer tanh perceptron on all gathered rows in one feature-major kernel,
  then the loss on the host) against the reference (three gathers, three row-major perceptron batches, the same
  loss), over the extended reals, for finite float inputs and centre indices in 0 … 2097151.

  The three programs run to the end and leave their argument arrays unchanged: no host operation writes an argument,
  and the kernel's windows stage arrays the host computed. The idealized kernel is the kernel's own text read at the
  extended reals, operation for operation. The two idealized programs' results agree: both are the same loss
  function of three prediction arrays, and the prediction arrays agree entry by entry — each entry is the perceptron
  (one function of a coordinate row and the weights) at the row the entry's index selects: the centre's row of the
  full-mesh table, a staggered-mesh row, or a neighbour's row, the same row in both programs because a centre index in
  range is read unshifted and the stencil's flat indices are clipped into their tables.
-/
import proofs.«167318_j62079457296719_2_alg».proof.Defs
import proofs.«167318_j62079457296719_2_alg».proof.Proof.Gen.Kernel
import proofs.«167318_j62079457296719_2_alg».proof.Proof.Gen.KernelIdeal
import proofs.«167318_j62079457296719_2_alg».proof.Proof.Gen.ReferenceIdeal
import proofs.«167318_j62079457296719_2_alg».proof.Proof.Gen.Pre_finite_inputs
import proofs.«167318_j62079457296719_2_alg».proof.Proof.FrameBodyB
import proofs.«167318_j62079457296719_2_alg».proof.Proof.FrameBodyI
import proofs.«167318_j62079457296719_2_alg».proof.Proof.RefRun
import proofs.«167318_j62079457296719_2_alg».proof.Proof.Bridge

noncomputable section

namespace Cert.Proof

open Idealize.ShloMosaic Idealize.SL.Sem

/-- The word-level kernel program runs and leaves its arguments unchanged. -/
theorem frame_k : Cert.frame_Kernel := fun m ρ _ => Cert.Kernel.Frm.frame m ρ
/-- So does the idealized kernel program. -/
theorem frame_ki : Cert.frame_KernelIdeal := fun m ρ _ => Cert.KernelIdeal.Frm.frame m ρ
/-- And the idealized reference. -/
theorem frame_ri : Cert.frame_ReferenceIdeal := fun m ρ _ => Cert.ReferenceIdeal.RefRun.frame_ri m ρ

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Bridge.algebraic⟩

end Cert.Proof

end
